-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v22)) (v2 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_v23) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x3000 : Shape := ⟨2, ![10000, 3000]⟩
abbrev S320000 : Shape := ⟨1, ![320000]⟩
abbrev S3000x512 : Shape := ⟨2, ![3000, 512]⟩
abbrev S512x64 : Shape := ⟨2, ![512, 64]⟩
abbrev S_ : Shape := ⟨0, ![]⟩

class Facts : Prop where
  bcast_S_S10000x3000 : S_.BroadcastsInDim S10000x3000 (![] : Fin 0 → Fin S10000x3000.rank)
  reducesTo_S10000x3000_S_d0_1 : S10000x3000.ReducesTo [0, 1] S_
  h_S_ : 0 < S_.numel
  bcast_S_S320000 : S_.BroadcastsInDim S320000 (![] : Fin 0 → Fin S320000.rank)
  reducesTo_S320000_S_d0 : S320000.ReducesTo [0] S_
  bcast_S_S3000x512 : S_.BroadcastsInDim S3000x512 (![] : Fin 0 → Fin S3000x512.rank)
  reducesTo_S3000x512_S_d0_1 : S3000x512.ReducesTo [0, 1] S_
  bcast_S_S512x64 : S_.BroadcastsInDim S512x64 (![] : Fin 0 → Fin S512x64.rank)
  reducesTo_S512x64_S_d0_1 : S512x64.ReducesTo [0, 1] S_

variable [Facts]

def fn_part2 {F : FTy → Type} [FloatOps F] (main_arg2 : IVec S320000 32) (main_v31 : IVec S_ 1) (main_v32 : IVec S320000 32) : IVec S_ 1 :=
  let main_v33 : IVec S320000 1 := cmpi .sge main_arg2 main_v32
  let main_c_13 : IVec S_ 1 := constantI S_ 1 1#1
  let main_v34 : IVec S_ 1 := (fun x v => Host.reduce IntOp.andi x v reducesTo_S320000_S_d0 h_S_) main_v33 main_c_13
  let main_v35 : IVec S_ 1 := andi main_v31 main_v34
  main_v35

def fn_part1 {F : FTy → Type} [FloatOps F] (main_arg1 : IVec S320000 32) (main_arg2 : IVec S320000 32) (main_arg6 : FVec F S512x64 .f32) (main_v13 : IVec S_ 1) (main_v16 : IVec S512x64 1) : IVec S_ 1 :=
  let main_c_5 : IVec S_ 1 := constantI S_ 1 1#1
  let main_v17 : IVec S_ 1 := (fun x v => Host.reduce IntOp.andi x v reducesTo_S512x64_S_d0_1 h_S_) main_v16 main_c_5
  let main_v18 : IVec S_ 1 := andi main_v13 main_v17
  let main_v19 : FVec F S512x64 .f32 := Host.absf main_arg6
  let main_cst_6 : FVec F S_ .f32 := constant S_ .f32 0x7F800000#32
  let main_v20 : FVec F S512x64 .f32 := broadcastInDim S512x64 ![] bcast_S_S512x64 main_cst_6
  let main_v21 : IVec S512x64 1 := cmpf .olt main_v19 main_v20
  let main_c_7 : IVec S_ 1 := constantI S_ 1 1#1
  let main_v22 : IVec S_ 1 := (fun x v => Host.reduce IntOp.andi x v reducesTo_S512x64_S_d0_1 h_S_) main_v21 main_c_7
  let main_v23 : IVec S_ 1 := andi main_v18 main_v22
  let main_c_8 : IVec S_ 32 := constantI S_ 32 0#32
  let main_v24 : IVec S320000 32 := broadcastInDim S320000 ![] bcast_S_S320000 main_c_8
  let main_v25 : IVec S320000 1 := cmpi .sge main_arg1 main_v24
  let main_c_9 : IVec S_ 1 := constantI S_ 1 1#1
  let main_v26 : IVec S_ 1 := (fun x v => Host.reduce IntOp.andi x v reducesTo_S320000_S_d0 h_S_) main_v25 main_c_9
  let main_v27 : IVec S_ 1 := andi main_v23 main_v26
  let main_c_10 : IVec S_ 32 := constantI S_ 32 10000#32
  let main_v28 : IVec S320000 32 := broadcastInDim S320000 ![] bcast_S_S320000 main_c_10
  let main_v29 : IVec S320000 1 := cmpi .slt main_arg1 main_v28
  let main_c_11 : IVec S_ 1 := constantI S_ 1 1#1
  let main_v30 : IVec S_ 1 := (fun x v => Host.reduce IntOp.andi x v reducesTo_S320000_S_d0 h_S_) main_v29 main_c_11
  let main_v31 : IVec S_ 1 := andi main_v27 main_v30
  let main_c_12 : IVec S_ 32 := constantI S_ 32 0#32
  let main_v32 : IVec S320000 32 := broadcastInDim S320000 ![] bcast_S_S320000 main_c_12
  fn_part2 (F := F) main_arg2 main_v31 main_v32

def fn {F : FTy → Type} [FloatOps F] (main_arg0 : FVec F S10000x3000 .f32) (main_arg1 : IVec S320000 32) (main_arg2 : IVec S320000 32) (main_arg3 : FVec F S320000 .f32) (main_arg4 : FVec F S3000x512 .f32) (main_arg5 : FVec F S512x64 .f32) (main_arg6 : FVec F S512x64 .f32) : IVec S_ 1 :=
  let main_v0 : FVec F S10000x3000 .f32 := Host.absf main_arg0
  let main_cst : FVec F S_ .f32 := constant S_ .f32 0x7F800000#32
  let main_v1 : FVec F S10000x3000 .f32 := broadcastInDim S10000x3000 ![] bcast_S_S10000x3000 main_cst
  let main_v2 : IVec S10000x3000 1 := cmpf .olt main_v0 main_v1
  let main_c : IVec S_ 1 := constantI S_ 1 1#1
  let main_v3 : IVec S_ 1 := (fun x v => Host.reduce IntOp.andi x v reducesTo_S10000x3000_S_d0_1 h_S_) main_v2 main_c
  let main_v4 : FVec F S320000 .f32 := Host.absf main_arg3
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S3000x512 .f32 := Host.absf main_arg4
  let main_cst_2 : FVec F S_ .f32 := constant S_ .f32 0x7F800000#32
  let main_v10 : FVec F S3000x512 .f32 := broadcastInDim S3000x512 ![] bcast_S_S3000x512 main_cst_2
  let main_v11 : IVec S3000x512 1 := cmpf .olt main_v9 main_v10
  let main_c_3 : IVec S_ 1 := constantI S_ 1 1#1
  let main_v12 : IVec S_ 1 := (fun x v => Host.reduce IntOp.andi x v reducesTo_S3000x512_S_d0_1 h_S_) main_v11 main_c_3
  let main_v13 : IVec S_ 1 := andi main_v8 main_v12
  let main_v14 : FVec F S512x64 .f32 := Host.absf main_arg5
  let main_cst_4 : FVec F S_ .f32 := constant S_ .f32 0x7F800000#32
  let main_v15 : FVec F S512x64 .f32 := broadcastInDim S512x64 ![] bcast_S_S512x64 main_cst_4
  let main_v16 : IVec S512x64 1 := cmpf .olt main_v14 main_v15
  fn_part1 (F := F) main_arg1 main_arg2 main_arg6 main_v13 main_v16
-- ==== Kernel.lean ====
abbrev S10000x3000 : Shape := ⟨2, ![10000, 3000]⟩
abbrev S320000 : Shape := ⟨1, ![320000]⟩
abbrev S3000x512 : Shape := ⟨2, ![3000, 512]⟩
abbrev S512x64 : Shape := ⟨2, ![512, 64]⟩
abbrev S_ : Shape := ⟨0, ![]⟩
abbrev S10000x10240 : Shape := ⟨2, ![10000, 10240]⟩
abbrev S320000x1 : Shape := ⟨2, ![320000, 1]⟩
abbrev S320000x2 : Shape := ⟨2, ![320000, 2]⟩
abbrev S10000x512 : Shape := ⟨2, ![10000, 512]⟩
abbrev S400x3000 : Shape := ⟨2, ![400, 3000]⟩
abbrev S400x512 : Shape := ⟨2, ![400, 512]⟩
abbrev S10240x512 : Shape := ⟨2, ![10240, 512]⟩
abbrev S1000x1280 : Shape := ⟨2, ![1000, 1280]⟩
abbrev S1280x512 : Shape := ⟨2, ![1280, 512]⟩
abbrev S1000x512 : Shape := ⟨2, ![1000, 512]⟩
abbrev S512x128 : Shape := ⟨2, ![512, 128]⟩
abbrev S10000x128 : Shape := ⟨2, ![10000, 128]⟩
abbrev S2000x512 : Shape := ⟨2, ![2000, 512]⟩
abbrev S2000x128 : Shape := ⟨2, ![2000, 128]⟩
abbrev S10240x128 : Shape := ⟨2, ![10240, 128]⟩
abbrev S1280x128 : Shape := ⟨2, ![1280, 128]⟩
abbrev S1000x128 : Shape := ⟨2, ![1000, 128]⟩
abbrev S10000x64 : Shape := ⟨2, ![10000, 64]⟩
abbrev S10240x64 : Shape := ⟨2, ![10240, 64]⟩
abbrev S1000x64 : Shape := ⟨2, ![1000, 64]⟩
abbrev S1280x64 : Shape := ⟨2, ![1280, 64]⟩
abbrev S10000x10000 : Shape := ⟨2, ![10000, 10000]⟩

abbrev nBuf : Space → Nat
  | .hbm => 45
  | .vmem => 32
  | .smem => 0
  | _ => 0

abbrev bufTy : (tb : Table) → Fin (tcTables nBuf tb) → BufTy
  | .hbm, ⟨0, _⟩ => ⟨S10000x3000, .f32⟩
  | .hbm, ⟨1, _⟩ => ⟨S320000, .i32⟩
  | .hbm, ⟨2, _⟩ => ⟨S320000, .i32⟩
  | .hbm, ⟨3, _⟩ => ⟨S320000, .f32⟩
  | .hbm, ⟨4, _⟩ => ⟨S3000x512, .f32⟩
  | .hbm, ⟨5, _⟩ => ⟨S512x64, .f32⟩
  | .hbm, ⟨6, _⟩ => ⟨S512x64, .f32⟩
  | .hbm, ⟨7, _⟩ => ⟨S_, .f32⟩
  | .hbm, ⟨8, _⟩ => ⟨S10000x10240, .f32⟩
  | .hbm, ⟨9, _⟩ => ⟨S_, .i32⟩
  | .hbm, ⟨10, _⟩ => ⟨S320000, .i32⟩
  | .hbm, ⟨11, _⟩ => ⟨S320000, .i1⟩
  | .hbm, ⟨12, _⟩ => ⟨S_, .i32⟩
  | .hbm, ⟨13, _⟩ => ⟨S320000, .i32⟩
  | .hbm, ⟨14, _⟩ => ⟨S320000, .i32⟩
  | .hbm, ⟨15, _⟩ => ⟨S320000, .i32⟩
  | .hbm, ⟨16, _⟩ => ⟨S_, .i32⟩
  | .hbm, ⟨17, _⟩ => ⟨S320000, .i32⟩
  | .hbm, ⟨18, _⟩ => ⟨S320000, .i1⟩
  | .hbm, ⟨19, _⟩ => ⟨S_, .i32⟩
  | .hbm, ⟨20, _⟩ => ⟨S320000, .i32⟩
  | .hbm, ⟨21, _⟩ => ⟨S320000, .i32⟩
  | .hbm, ⟨22, _⟩ => ⟨S320000, .i32⟩
  | .hbm, ⟨23, _⟩ => ⟨S320000x1, .i32⟩
  | .hbm, ⟨24, _⟩ => ⟨S320000x1, .i32⟩
  | .hbm, ⟨25, _⟩ => ⟨S320000x2, .i32⟩
  | .hbm, ⟨26, _⟩ => ⟨S10000x10240, .f32⟩
  | .hbm, ⟨27, _⟩ => ⟨S10000x512, .f32⟩
  | .hbm, ⟨28, _⟩ => ⟨S_, .i32⟩
  | .hbm, ⟨29, _⟩ => ⟨S_, .f32⟩
  | .hbm, ⟨30, _⟩ => ⟨S10240x512, .f32⟩
  | .hbm, ⟨31, _⟩ => ⟨S10000x512, .f32⟩
  | .hbm, ⟨32, _⟩ => ⟨S512x128, .f32⟩
  | .hbm, ⟨33, _⟩ => ⟨S10000x128, .f32⟩
  | .hbm, ⟨34, _⟩ => ⟨S_, .i32⟩
  | .hbm, ⟨35, _⟩ => ⟨S_, .f32⟩
  | .hbm, ⟨36, _⟩ => ⟨S10240x128, .f32⟩
  | .hbm, ⟨37, _⟩ => ⟨S10000x128, .f32⟩
  | .hbm, ⟨38, _⟩ => ⟨S10000x64, .f32⟩
  | .hbm, ⟨39, _⟩ => ⟨S10000x64, .f32⟩
  | .hbm, ⟨40, _⟩ => ⟨S_, .i32⟩
  | .hbm, ⟨41, _⟩ => ⟨S_, .f32⟩
  | .hbm, ⟨42, _⟩ => ⟨S10240x64, .f32⟩
  | .hbm, ⟨43, _⟩ => ⟨S10000x10240, .f32⟩
  | .hbm, ⟨44, _⟩ => ⟨S10000x10000, .f32⟩
  | .local _ .vmem, ⟨0, _⟩ => ⟨S400x3000, .f32⟩
  | .local _ .vmem, ⟨1, _⟩ => ⟨S400x3000, .f32⟩
  | .local _ .vmem, ⟨2, _⟩ => ⟨S3000x512, .f32⟩
  | .local _ .vmem, ⟨3, _⟩ => ⟨S400x512, .f32⟩
  | .local _ .vmem, ⟨4, _⟩ => ⟨S400x512, .f32⟩
  | .local _ .vmem, ⟨5, _⟩ => ⟨S400x512, .f32⟩
  | .local _ .vmem, ⟨6, _⟩ => ⟨S1000x1280, .f32⟩
  | .local _ .vmem, ⟨7, _⟩ => ⟨S1000x1280, .f32⟩
  | .local _ .vmem, ⟨8, _⟩ => ⟨S1280x512, .f32⟩
  | .local _ .vmem, ⟨9, _⟩ => ⟨S1280x512, .f32⟩
  | .local _ .vmem, ⟨10, _⟩ => ⟨S1000x512, .f32⟩
  | .local _ .vmem, ⟨11, _⟩ => ⟨S1000x512, .f32⟩
  | .local _ .vmem, ⟨12, _⟩ => ⟨S1000x512, .f32⟩
  | .local _ .vmem, ⟨13, _⟩ => ⟨S2000x512, .f32⟩
  | .local _ .vmem, ⟨14, _⟩ => ⟨S2000x512, .f32⟩
  | .local _ .vmem, ⟨15, _⟩ => ⟨S512x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S1000x1280, .f32⟩
  | .local _ .vmem, ⟨20, _⟩ => ⟨S1000x1280, .f32⟩
  | .local _ .vmem, ⟨21, _⟩ => ⟨S1280x128, .f32⟩
  | .local _ .vmem, ⟨22, _⟩ => ⟨S1280x128, .f32⟩
  | .local _ .vmem, ⟨23, _⟩ => ⟨S1000x128, .f32⟩
  | .local _ .vmem, ⟨24, _⟩ => ⟨S1000x128, .f32⟩
  | .local _ .vmem, ⟨25, _⟩ => ⟨S1000x128, .f32⟩
  | .local _ .vmem, ⟨26, _⟩ => ⟨S1000x64, .f32⟩
  | .local _ .vmem, ⟨27, _⟩ => ⟨S1000x64, .f32⟩
  | .local _ .vmem, ⟨28, _⟩ => ⟨S1280x64, .f32⟩
  | .local _ .vmem, ⟨29, _⟩ => ⟨S1280x64, .f32⟩
  | .local _ .vmem, ⟨30, _⟩ => ⟨S1000x1280, .f32⟩
  | .local _ .vmem, ⟨31, _⟩ => ⟨S1000x1280, .f32⟩
  | _, _ => ⟨S10000x3000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_call0_v0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_call1_v0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_call2_v0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_scratch0 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_scratch0 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem1_1 : DmaSem sig := 25
abbrev cc4_sem2_0 : DmaSem sig := 26
abbrev cc4_sem2_1 : DmaSem sig := 27

abbrev nD : Nat := 1
abbrev τ : Topo := Topo.v7x

variable {F : FTy → Type} [FloatOps F]

abbrev grid0 : Pipeline.Grid := ⟨3, ![25, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S400x3000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S3000x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S400x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![10, 1, 8], ![false, false, false]⟩

def k1_cond2 (i : grid1.Coords) : BitVec 1 :=
  let arg2 : BitVec 32 := BitVec.ofNat 32 (i 2).val
  let c7_i32 : BitVec 32 := 7#32
  let v15 : BitVec 1 := Scalar.cmpi .eq arg2 c7_i32
  let v16 : BitVec 32 := Scalar.extui v15
  let c0_i32_8 : BitVec 32 := 0#32
  let v17 : BitVec 1 := Scalar.cmpi .ne v16 c0_i32_8
  v17

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1000x1280 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1280x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1000x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![5, 1, 1], ![false, false, false]⟩

def k2_cond2 (i : grid2.Coords) : BitVec 1 :=
  let arg2 : BitVec 32 := BitVec.ofNat 32 (i 2).val
  let c0_i32_8 : BitVec 32 := 0#32
  let v15 : BitVec 1 := Scalar.cmpi .eq arg2 c0_i32_8
  let v16 : BitVec 32 := Scalar.extui v15
  let c0_i32_9 : BitVec 32 := 0#32
  let v17 : BitVec 1 := Scalar.cmpi .ne v16 c0_i32_9
  v17

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S512x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![10, 1, 8], ![false, false, false]⟩

def k3_cond2 (i : grid3.Coords) : BitVec 1 :=
  let arg2 : BitVec 32 := BitVec.ofNat 32 (i 2).val
  let c7_i32 : BitVec 32 := 7#32
  let v15 : BitVec 1 := Scalar.cmpi .eq arg2 c7_i32
  let v16 : BitVec 32 := Scalar.extui v15
  let c0_i32_8 : BitVec 32 := 0#32
  let v17 : BitVec 1 := Scalar.cmpi .ne v16 c0_i32_8
  v17

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1000x1280 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1280x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨2, ![10, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1280x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1000x1280 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

class Facts₀ : Prop where
  bcast_S_S10000x10240 : S_.BroadcastsInDim S10000x10240 (![] : Fin 0 → Fin S10000x10240.rank)
  bcast_S_S320000 : S_.BroadcastsInDim S320000 (![] : Fin 0 → Fin S320000.rank)
  bcast_S320000_S320000x1_0 : S320000.BroadcastsInDim S320000x1 (![0] : Fin 1 → Fin S320000x1.rank)
  concatenates_S320000x1_S320000x1_S320000x2_d1 : Shape.Concatenates [S320000x1, S320000x1] S320000x2 1
  inb_S400x512_S400x512_0_0 : ∀ a, (![0, 0] : Fin 2 → Nat) a + S400x512.size a ≤ S400x512.size a
  h_S400x512 : 0 < S400x512.numel
  shapeCasts_S400x512_S400x512 : S400x512.ShapeCasts S400x512
  inb_S400x3000_S400x3000_0_0 : ∀ a, (![0, 0] : Fin 2 → Nat) a + S400x3000.size a ≤ S400x3000.size a
  h_S400x3000 : 0 < S400x3000.numel
  bitsLt_bf16_f32 : FTy.bits .bf16 < FTy.bits .f32
  inb_S3000x512_S3000x512_0_0 : ∀ a, (![0, 0] : Fin 2 → Nat) a + S3000x512.size a ≤ S3000x512.size a
  h_S3000x512 : 0 < S3000x512.numel
  pads_S10000x512_S10240x512_02400_000 : S10000x512.Pads (![0, 0] : Fin 2 → Nat) ![240, 0] ![0, 0] S10240x512
  h_S_ : 0 < S_.numel
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  inb_S1000x1280_S1000x1280_0_0 : ∀ a, (![0, 0] : Fin 2 → Nat) a + S1000x1280.size a ≤ S1000x1280.size a
  h_S1000x1280 : 0 < S1000x1280.numel
  shapeCasts_S1000x1280_S1000x1280 : S1000x1280.ShapeCasts S1000x1280
  inb_S1280x512_S1280x512_0_0 : ∀ a, (![0, 0] : Fin 2 → Nat) a + S1280x512.size a ≤ S1280x512.size a
  h_S1280x512 : 0 < S1280x512.numel
  shapeCasts_S1280x512_S1280x512 : S1280x512.ShapeCasts S1280x512
  concatenates_S512x64_S512x64_S512x128_d1 : Shape.Concatenates [S512x64, S512x64] S512x128 1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  pads_S10000x128_S10240x128_02400_000 : S10000x128.Pads (![0, 0] : Fin 2 → Nat) ![240, 0] ![0, 0] S10240x128
  inb_S1000x128_S1000x128_0_0 : ∀ a, (![0, 0] : Fin 2 → Nat) a + S1000x128.size a ≤ S1000x128.size a
  h_S1000x128 : 0 < S1000x128.numel
  shapeCasts_S1000x128_S1000x128 : S1000x128.ShapeCasts S1000x128
  inb_S1280x128_S1280x128_0_0 : ∀ a, (![0, 0] : Fin 2 → Nat) a + S1280x128.size a ≤ S1280x128.size a
  h_S1280x128 : 0 < S1280x128.numel
  shapeCasts_S1280x128_S1280x128 : S1280x128.ShapeCasts S1280x128
  slices_S10000x128_S10000x64_0_0 : S10000x128.Slices ![0, 0] S10000x64
  slices_S10000x128_S10000x64_0_64 : S10000x128.Slices ![0, 64] S10000x64
  pads_S10000x64_S10240x64_02400_000 : S10000x64.Pads (![0, 0] : Fin 2 → Nat) ![240, 0] ![0, 0] S10240x64
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  inb_S1280x64_S1280x64_0_0 : ∀ a, (![0, 0] : Fin 2 → Nat) a + S1280x64.size a ≤ S1280x64.size a
  h_S1280x64 : 0 < S1280x64.numel
  shapeCasts_S1280x64_S1280x64 : S1280x64.ShapeCasts S1280x64
  slices_S10000x10240_S10000x10000_0_0 : S10000x10240.Slices ![0, 0] S10000x10000
  scatter_S10000x10240_S320000x2_S320000_n_01_01_1_wf : ScatterDims.WF S10000x10240 S320000x2 S320000 [] [0, 1] [0, 1] 1
  dot_S400x3000_S3000x512_S400x512_1_0_0_1_n_n_wf : DotDims.WF S400x3000 S3000x512 S400x512 [1] [0] [0] [1] [] []
  dot_S1000x1280_S1280x512_S1000x512_1_0_0_1_n_n_wf : DotDims.WF S1000x1280 S1280x512 S1000x512 [1] [0] [0] [1] [] []
  dot_S2000x512_S512x128_S2000x128_1_0_0_1_n_n_wf : DotDims.WF S2000x512 S512x128 S2000x128 [1] [0] [0] [1] [] []
  dot_S1000x1280_S1280x128_S1000x128_1_0_0_1_n_n_wf : DotDims.WF S1000x1280 S1280x128 S1000x128 [1] [0] [0] [1] [] []
  dot_S1000x64_S1280x64_S1000x1280_1_1_0_0_n_n_wf : DotDims.WF S1000x64 S1280x64 S1000x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x3000.size a ≤ S10000x3000.size a
  hwx0_0 : ∀ i : grid0.Coords, EltTy.bits .f32 = 32 ∨ (Rect.block (s := S10000x3000) S400x3000.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S3000x512.size a ≤ S3000x512.size a
  hwx0_1 : ∀ i : grid0.Coords, EltTy.bits .f32 = 32 ∨ (Rect.block (s := S3000x512) S3000x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x512.size a ≤ S10000x512.size a
  hwx0_2 : ∀ i : grid0.Coords, EltTy.bits .f32 = 32 ∨ (Rect.block (s := S10000x512) S400x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x1280.size a ≤ S10000x10240.size a
  hwx1_0 : ∀ i : grid1.Coords, EltTy.bits .f32 = 32 ∨ (Rect.block (s := S10000x10240) S1000x1280.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1280x512.size a ≤ S10240x512.size a
  hwx1_1 : ∀ i : grid1.Coords, EltTy.bits .f32 = 32 ∨ (Rect.block (s := S10240x512) S1280x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x512.size a ≤ S10000x512.size a
  hwx1_2 : ∀ i : grid1.Coords, EltTy.bits .f32 = 32 ∨ (Rect.block (s := S10000x512) S1000x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S10000x512.size a
  hwx2_0 : ∀ i : grid2.Coords, EltTy.bits .f32 = 32 ∨ (Rect.block (s := S10000x512) S2000x512.size (cc2_transform_0 i) (hinb2_0 i)).WholeWords (EltTy.packing .f32)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S512x128.size a ≤ S512x128.size a
  hwx2_1 : ∀ i : grid2.Coords, EltTy.bits .f32 = 32 ∨ (Rect.block (s := S512x128) S512x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S10000x128.size a
  hwx2_2 : ∀ i : grid2.Coords, EltTy.bits .f32 = 32 ∨ (Rect.block (s := S10000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1000x1280.size a ≤ S10000x10240.size a
  hwx3_0 : ∀ i : grid3.Coords, EltTy.bits .f32 = 32 ∨ (Rect.block (s := S10000x10240) S1000x1280.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1280x128.size a ≤ S10240x128.size a
  hwx3_1 : ∀ i : grid3.Coords, EltTy.bits .f32 = 32 ∨ (Rect.block (s := S10240x128) S1280x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1000x128.size a ≤ S10000x128.size a
  hwx3_2 : ∀ i : grid3.Coords, EltTy.bits .f32 = 32 ∨ (Rect.block (s := S10000x128) S1000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1000x64.size a ≤ S10000x64.size a
  hwx4_0 : ∀ i : grid4.Coords, EltTy.bits .f32 = 32 ∨ (Rect.block (s := S10000x64) S1000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1280x64.size a ≤ S10240x64.size a
  hwx4_1 : ∀ i : grid4.Coords, EltTy.bits .f32 = 32 ∨ (Rect.block (s := S10240x64) S1280x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1000x1280.size a ≤ S10000x10240.size a
  hwx4_2 : ∀ i : grid4.Coords, EltTy.bits .f32 = 32 ∨ (Rect.block (s := S10000x10240) S1000x1280.size (cc4_transform_2 i) (hinb4_2 i)).WholeWords (EltTy.packing .f32)

variable [Facts₀]

def scatter_S10000x10240_S320000x2_S320000_n_01_01_1 : ScatterDims S10000x10240 S320000x2 S320000 where
  updateWindowDims := []
  insertedWindowDims := [0, 1]
  scatterDimsToOperandDims := [0, 1]
  indexVectorDim := 1
  wf := scatter_S10000x10240_S320000x2_S320000_n_01_01_1_wf
def dot_S400x3000_S3000x512_S400x512_1_0_0_1_n_n : DotDims S400x3000 S3000x512 S400x512 where
  lhsContracting := [1]
  rhsContracting := [0]
  lhsNonContracting := [0]
  rhsNonContracting := [1]
  lhsBatch := []
  rhsBatch := []
  wf := dot_S400x3000_S3000x512_S400x512_1_0_0_1_n_n_wf
def dot_S1000x1280_S1280x512_S1000x512_1_0_0_1_n_n : DotDims S1000x1280 S1280x512 S1000x512 where
  lhsContracting := [1]
  rhsContracting := [0]
  lhsNonContracting := [0]
  rhsNonContracting := [1]
  lhsBatch := []
  rhsBatch := []
  wf := dot_S1000x1280_S1280x512_S1000x512_1_0_0_1_n_n_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def dot_S1000x1280_S1280x128_S1000x128_1_0_0_1_n_n : DotDims S1000x1280 S1280x128 S1000x128 where
  lhsContracting := [1]
  rhsContracting := [0]
  lhsNonContracting := [0]
  rhsNonContracting := [1]
  lhsBatch := []
  rhsBatch := []
  wf := dot_S1000x1280_S1280x128_S1000x128_1_0_0_1_n_n_wf
def dot_S1000x64_S1280x64_S1000x1280_1_1_0_0_n_n : DotDims S1000x64 S1280x64 S1000x1280 where
  lhsContracting := [1]
  rhsContracting := [1]
  lhsNonContracting := [0]
  rhsNonContracting := [0]
  lhsBatch := []
  rhsBatch := []
  wf := dot_S1000x64_S1280x64_S1000x1280_1_1_0_0_n_n_wf

abbrev win0_0 : Pipeline.Window sig grid0 :=
  Pipeline.Window.ofSpec (Memref.whole main_arg0) S400x3000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S3000x512.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S400x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v14) S1000x1280.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1280x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1000x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v17) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S512x128.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v19) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v14) S1000x1280.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S1280x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v21) S1000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v22) S1000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v24) S1280x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v25) S1000x1280.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S10000x3000 : Shape := ⟨2, ![10000, 3000]⟩
abbrev S320000 : Shape := ⟨1, ![320000]⟩
abbrev S3000x512 : Shape := ⟨2, ![3000, 512]⟩
abbrev S512x64 : Shape := ⟨2, ![512, 64]⟩
abbrev S10000x512 : Shape := ⟨2, ![10000, 512]⟩
abbrev S320000x1 : Shape := ⟨2, ![320000, 1]⟩
abbrev S_ : Shape := ⟨0, ![]⟩
abbrev S320000x512 : Shape := ⟨2, ![320000, 512]⟩
abbrev S10000x64 : Shape := ⟨2, ![10000, 64]⟩
abbrev S320000x64 : Shape := ⟨2, ![320000, 64]⟩
abbrev S64x10000 : Shape := ⟨2, ![64, 10000]⟩
abbrev S10000x10000 : Shape := ⟨2, ![10000, 10000]⟩

abbrev nBuf : Space → Nat
  | .hbm => 63
  | .vmem => 0
  | .smem => 0
  | _ => 0

abbrev bufTy : (tb : Table) → Fin (tcTables nBuf tb) → BufTy
  | .hbm, ⟨0, _⟩ => ⟨S10000x3000, .f32⟩
  | .hbm, ⟨1, _⟩ => ⟨S320000, .i32⟩
  | .hbm, ⟨2, _⟩ => ⟨S320000, .i32⟩
  | .hbm, ⟨3, _⟩ => ⟨S320000, .f32⟩
  | .hbm, ⟨4, _⟩ => ⟨S3000x512, .f32⟩
  | .hbm, ⟨5, _⟩ => ⟨S512x64, .f32⟩
  | .hbm, ⟨6, _⟩ => ⟨S512x64, .f32⟩
  | .hbm, ⟨7, _⟩ => ⟨S10000x512, .f32⟩
  | .hbm, ⟨8, _⟩ => ⟨S320000x1, .f32⟩
  | .hbm, ⟨9, _⟩ => ⟨S_, .i32⟩
  | .hbm, ⟨10, _⟩ => ⟨S320000, .i32⟩
  | .hbm, ⟨11, _⟩ => ⟨S320000, .i1⟩
  | .hbm, ⟨12, _⟩ => ⟨S_, .i32⟩
  | .hbm, ⟨13, _⟩ => ⟨S320000, .i32⟩
  | .hbm, ⟨14, _⟩ => ⟨S320000, .i32⟩
  | .hbm, ⟨15, _⟩ => ⟨S320000, .i32⟩
  | .hbm, ⟨16, _⟩ => ⟨S320000x1, .i32⟩
  | .hbm, ⟨17, _⟩ => ⟨S320000x512, .f32⟩
  | .hbm, ⟨18, _⟩ => ⟨S320000x512, .f32⟩
  | .hbm, ⟨19, _⟩ => ⟨S320000x512, .f32⟩
  | .hbm, ⟨20, _⟩ => ⟨S_, .f32⟩
  | .hbm, ⟨21, _⟩ => ⟨S10000x512, .f32⟩
  | .hbm, ⟨22, _⟩ => ⟨S320000x1, .i32⟩
  | .hbm, ⟨23, _⟩ => ⟨S10000x512, .f32⟩
  | .hbm, ⟨24, _⟩ => ⟨S_, .f32⟩
  | .hbm, ⟨25, _⟩ => ⟨S10000x512, .f32⟩
  | .hbm, ⟨26, _⟩ => ⟨S10000x512, .f32⟩
  | .hbm, ⟨27, _⟩ => ⟨S10000x64, .f32⟩
  | .hbm, ⟨28, _⟩ => ⟨S320000x1, .f32⟩
  | .hbm, ⟨29, _⟩ => ⟨S_, .i32⟩
  | .hbm, ⟨30, _⟩ => ⟨S320000, .i32⟩
  | .hbm, ⟨31, _⟩ => ⟨S320000, .i1⟩
  | .hbm, ⟨32, _⟩ => ⟨S_, .i32⟩
  | .hbm, ⟨33, _⟩ => ⟨S320000, .i32⟩
  | .hbm, ⟨34, _⟩ => ⟨S320000, .i32⟩
  | .hbm, ⟨35, _⟩ => ⟨S320000, .i32⟩
  | .hbm, ⟨36, _⟩ => ⟨S320000x1, .i32⟩
  | .hbm, ⟨37, _⟩ => ⟨S320000x64, .f32⟩
  | .hbm, ⟨38, _⟩ => ⟨S320000x64, .f32⟩
  | .hbm, ⟨39, _⟩ => ⟨S320000x64, .f32⟩
  | .hbm, ⟨40, _⟩ => ⟨S_, .f32⟩
  | .hbm, ⟨41, _⟩ => ⟨S10000x64, .f32⟩
  | .hbm, ⟨42, _⟩ => ⟨S320000x1, .i32⟩
  | .hbm, ⟨43, _⟩ => ⟨S10000x64, .f32⟩
  | .hbm, ⟨44, _⟩ => ⟨S10000x64, .f32⟩
  | .hbm, ⟨45, _⟩ => ⟨S320000x1, .f32⟩
  | .hbm, ⟨46, _⟩ => ⟨S_, .i32⟩
  | .hbm, ⟨47, _⟩ => ⟨S320000, .i32⟩
  | .hbm, ⟨48, _⟩ => ⟨S320000, .i1⟩
  | .hbm, ⟨49, _⟩ => ⟨S_, .i32⟩
  | .hbm, ⟨50, _⟩ => ⟨S320000, .i32⟩
  | .hbm, ⟨51, _⟩ => ⟨S320000, .i32⟩
  | .hbm, ⟨52, _⟩ => ⟨S320000, .i32⟩
  | .hbm, ⟨53, _⟩ => ⟨S320000x1, .i32⟩
  | .hbm, ⟨54, _⟩ => ⟨S320000x64, .f32⟩
  | .hbm, ⟨55, _⟩ => ⟨S320000x64, .f32⟩
  | .hbm, ⟨56, _⟩ => ⟨S320000x64, .f32⟩
  | .hbm, ⟨57, _⟩ => ⟨S_, .f32⟩
  | .hbm, ⟨58, _⟩ => ⟨S10000x64, .f32⟩
  | .hbm, ⟨59, _⟩ => ⟨S320000x1, .i32⟩
  | .hbm, ⟨60, _⟩ => ⟨S10000x64, .f32⟩
  | .hbm, ⟨61, _⟩ => ⟨S64x10000, .f32⟩
  | .hbm, ⟨62, _⟩ => ⟨S10000x10000, .f32⟩
  | _, _ => ⟨S10000x3000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_cst : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_1 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_4 : Ref sig .tc := ⟨.hbm, 46, rfl⟩
abbrev main_v31 : Ref sig .tc := ⟨.hbm, 47, rfl⟩
abbrev main_v32 : Ref sig .tc := ⟨.hbm, 48, rfl⟩
abbrev main_c_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]

class Facts₀ : Prop where
  bcast_S320000_S320000x1_0 : S320000.BroadcastsInDim S320000x1 (![0] : Fin 1 → Fin S320000x1.rank)
  bcast_S_S320000 : S_.BroadcastsInDim S320000 (![] : Fin 0 → Fin S320000.rank)
  bcast_S320000x1_S320000x512_0_1 : S320000x1.BroadcastsInDim S320000x512 (![0, 1] : Fin 2 → Fin S320000x512.rank)
  bcast_S_S10000x512 : S_.BroadcastsInDim S10000x512 (![] : Fin 0 → Fin S10000x512.rank)
  bcast_S320000x1_S320000x64_0_1 : S320000x1.BroadcastsInDim S320000x64 (![0, 1] : Fin 2 → Fin S320000x64.rank)
  bcast_S_S10000x64 : S_.BroadcastsInDim S10000x64 (![] : Fin 0 → Fin S10000x64.rank)
  transposes_S10000x64_S64x10000_1_0 : S10000x64.Transposes [1, 0] S64x10000
  dot_S10000x3000_S3000x512_S10000x512_1_0_0_1_n_n_wf : DotDims.WF S10000x3000 S3000x512 S10000x512 [1] [0] [0] [1] [] []
  gather_S10000x512_S320000x1_S320000x512_1_0_n_n_0_1_1512_wf : GatherDims.WF S10000x512 S320000x1 S320000x512 [1] [0] [] [0] [] 1 ![1, 512]
  scatter_S10000x512_S320000x1_S320000x512_1_0_0_1_wf : ScatterDims.WF S10000x512 S320000x1 S320000x512 [1] [0] [0] 1
  dot_S10000x512_S512x64_S10000x64_1_0_0_1_n_n_wf : DotDims.WF S10000x512 S512x64 S10000x64 [1] [0] [0] [1] [] []
  gather_S10000x64_S320000x1_S320000x64_1_0_n_n_0_1_164_wf : GatherDims.WF S10000x64 S320000x1 S320000x64 [1] [0] [] [0] [] 1 ![1, 64]
  scatter_S10000x64_S320000x1_S320000x64_1_0_0_1_wf : ScatterDims.WF S10000x64 S320000x1 S320000x64 [1] [0] [0] 1
  dot_S10000x64_S64x10000_S10000x10000_1_0_0_1_n_n_wf : DotDims.WF S10000x64 S64x10000 S10000x10000 [1] [0] [0] [1] [] []

variable [Facts₀]

def dot_S10000x3000_S3000x512_S10000x512_1_0_0_1_n_n : DotDims S10000x3000 S3000x512 S10000x512 where
  lhsContracting := [1]
  rhsContracting := [0]
  lhsNonContracting := [0]
  rhsNonContracting := [1]
  lhsBatch := []
  rhsBatch := []
  wf := dot_S10000x3000_S3000x512_S10000x512_1_0_0_1_n_n_wf
def gather_S10000x512_S320000x1_S320000x512_1_0_n_n_0_1_1512 : GatherDims S10000x512 S320000x1 S320000x512 where
  offsetDims := [1]
  collapsedSliceDims := [0]
  operandBatchingDims := []
  startIndicesBatchingDims := []
  startIndexMap := [0]
  indexVectorDim := 1
  sliceSizes := ![1, 512]
  wf := gather_S10000x512_S320000x1_S320000x512_1_0_n_n_0_1_1512_wf
def scatter_S10000x512_S320000x1_S320000x512_1_0_0_1 : ScatterDims S10000x512 S320000x1 S320000x512 where
  updateWindowDims := [1]
  insertedWindowDims := [0]
  scatterDimsToOperandDims := [0]
  indexVectorDim := 1
  wf := scatter_S10000x512_S320000x1_S320000x512_1_0_0_1_wf
def dot_S10000x512_S512x64_S10000x64_1_0_0_1_n_n : DotDims S10000x512 S512x64 S10000x64 where
  lhsContracting := [1]
  rhsContracting := [0]
  lhsNonContracting := [0]
  rhsNonContracting := [1]
  lhsBatch := []
  rhsBatch := []
  wf := dot_S10000x512_S512x64_S10000x64_1_0_0_1_n_n_wf
def gather_S10000x64_S320000x1_S320000x64_1_0_n_n_0_1_164 : GatherDims S10000x64 S320000x1 S320000x64 where
  offsetDims := [1]
  collapsedSliceDims := [0]
  operandBatchingDims := []
  startIndicesBatchingDims := []
  startIndexMap := [0]
  indexVectorDim := 1
  sliceSizes := ![1, 64]
  wf := gather_S10000x64_S320000x1_S320000x64_1_0_n_n_0_1_164_wf
def scatter_S10000x64_S320000x1_S320000x64_1_0_0_1 : ScatterDims S10000x64 S320000x1 S320000x64 where
  updateWindowDims := [1]
  insertedWindowDims := [0]
  scatterDimsToOperandDims := [0]
  indexVectorDim := 1
  wf := scatter_S10000x64_S320000x1_S320000x64_1_0_0_1_wf
def dot_S10000x64_S64x10000_S10000x10000_1_0_0_1_n_n : DotDims S10000x64 S64x10000 S10000x10000 where
  lhsContracting := [1]
  rhsContracting := [0]
  lhsNonContracting := [0]
  rhsNonContracting := [1]
  lhsBatch := []
  rhsBatch := []
  wf := dot_S10000x64_S64x10000_S10000x10000_1_0_0_1_n_n_wf

class Facts : Prop extends Facts₀ where

variable [Facts]
-- ==== Proof.Spec.lean ====
/-
  The mathematics both programs compute, stated once over plain coordinates and the extended reals.

  A graph on 10000 nodes is given as 320000 weighted edges (source word, destination word, weight). One
  PROPAGATION step sends a node table `S` (10000 rows) to the table whose row `r` is the weighted sum, over the
  edges that end at `r`, of the rows their sources name (`prop`).  The same step can be taken through the DENSE
  adjacency `adj` (entry `(r, s)` the sum of the weights of the edges from `s` to `r`, the source axis widened to
  10240 columns) as a matrix product with the table padded by 240 zero rows (`dprop`); the two agree when every
  source word is a row number and every number involved is finite (Math.lean).  The model applies the step three
  times around two dense products and a `max · 0`, and ends with the Gram matrix of one result.
-/
import Idealize.ShloMosaic.PureOps.Ideal

noncomputable section

open scoped BigOperators

namespace Cert.Spec

/-- The table row a source word names: the word read signed, clamped into `[0, 9999]`. -/
def rowOf (b : BitVec 32) : Fin 10000 := ⟨min b.toInt.toNat 9999, by omega⟩

/-- Every entry of a two-coordinate table is a real number (neither infinity). -/
def Real2 {α β : Type} (S : α → β → EReal) : Prop := ∀ a b, ∃ x : ℝ, S a b = (x : EReal)

/-- Every entry of a one-coordinate table is a real number. -/
def Real1 {α : Type} (v : α → EReal) : Prop := ∀ a, ∃ x : ℝ, v a = (x : EReal)

/-- The plain matrix product. -/
def mm {A K B : ℕ} (X : Fin A → Fin K → EReal) (Y : Fin K → Fin B → EReal) (r : Fin A) (c : Fin B) : EReal :=
  ∑ k : Fin K, X r k * Y k c

section Graph

variable (src dst : Fin 320000 → BitVec 32) (w : Fin 320000 → EReal)

/-- One propagation step over the edge list: row `r` of the result is the sum, over the edges whose destination word
    reads `r`, of the weight times the source's row. An edge whose destination word names no row contributes nowhere. -/
def prop {H : ℕ} (S : Fin 10000 → Fin H → EReal) (r : Fin 10000) (c : Fin H) : EReal :=
  ∑ e ∈ Finset.univ.filter (fun e : Fin 320000 => (dst e).toInt = (r.val : ℤ)), w e * S (rowOf (src e)) c

/-- The dense adjacency, its source axis 10240 wide: entry `(r, s)` sums the weights of the edges whose destination
    word reads `r` and whose source word reads `s`. -/
def adj (r : Fin 10000) (s : Fin 10240) : EReal :=
  ∑ e ∈ Finset.univ.filter (fun e : Fin 320000 => (dst e).toInt = (r.val : ℤ) ∧ (src e).toInt = (s.val : ℤ)), w e

end Graph

/-- A table of 10000 rows followed by 240 rows of zeros. -/
def padRows {H : ℕ} (S : Fin 10000 → Fin H → EReal) (s : Fin 10240) (c : Fin H) : EReal :=
  if h : s.val < 10000 then S ⟨s.val, h⟩ c else 0

/-- The propagation step through a dense adjacency: its product with the padded table. -/
def dprop {H : ℕ} (A : Fin 10000 → Fin 10240 → EReal) (Sp : Fin 10240 → Fin H → EReal) (r : Fin 10000) (c : Fin H) : EReal :=
  ∑ s : Fin 10240, A r s * Sp s c

/-- Two 64-column tables side by side. -/
def catCols (Y Z : Fin 512 → Fin 64 → EReal) (k : Fin 512) (c : Fin 128) : EReal :=
  if h : c.val < 64 then Y k ⟨c.val, h⟩ else Z k ⟨c.val - 64, by omega⟩

section Model

variable (x : Fin 10000 → Fin 3000 → EReal) (src dst : Fin 320000 → BitVec 32) (w : Fin 320000 → EReal)
  (W1 : Fin 3000 → Fin 512 → EReal) (W2 W3 : Fin 512 → Fin 64 → EReal)

/-- The hidden layer: the first propagation of `x · W1`, negative entries replaced by zero. -/
def hidden (r : Fin 10000) (c : Fin 512) : EReal := max (prop src dst w (mm x W1) r c) 0

/-- The mean head: the propagation of `hidden · W2`. -/
def mu : Fin 10000 → Fin 64 → EReal := prop src dst w (mm (hidden x src dst w W1) W2)

/-- The log-variance head: the propagation of `hidden · W3`. -/
def logvar : Fin 10000 → Fin 64 → EReal := prop src dst w (mm (hidden x src dst w W1) W3)

/-- The decoder: the Gram matrix of the mean head's rows. -/
def pred (r r' : Fin 10000) : EReal := ∑ c : Fin 64, mu x src dst w W1 W2 r c * mu x src dst w W1 W2 r' c

/-! The same model as the dense route computes it. -/

/-- The hidden layer through the dense adjacency. -/
def dhidden (r : Fin 10000) (c : Fin 512) : EReal := max (dprop (adj src dst w) (padRows (mm x W1)) r c) 0

/-- Both heads at once, 128 columns: the dense propagation of `dhidden · [W2 | W3]`. -/
def dheads : Fin 10000 → Fin 128 → EReal :=
  dprop (adj src dst w) (padRows (mm (dhidden x src dst w W1) (catCols W2 W3)))

/-- The mean head: the first 64 columns. -/
def dmu (r : Fin 10000) (c : Fin 64) : EReal := dheads x src dst w W1 W2 W3 r ⟨c.val, by omega⟩

/-- The log-variance head: the last 64 columns. -/
def dlogvar (r : Fin 10000) (c : Fin 64) : EReal := dheads x src dst w W1 W2 W3 r ⟨c.val + 64, by omega⟩

/-- The decoder through the padded mean head: row `r` against row `r'` of the table padded to 10240 rows. -/
def dpred (r r' : Fin 10000) : EReal :=
  ∑ c : Fin 64, dmu x src dst w W1 W2 W3 r c * padRows (dmu x src dst w W1 W2 W3) ⟨r'.val, by omega⟩ c

end Model

end Cert.Spec

end
-- ==== Proof.Bridge.lean ====
/-
  An array indexed by a shape's index type, and the same numbers as a table over plain coordinates.
-/
import Idealize.ShloMosaic.PureOps.Ideal
import Idealize.ShloMosaic.Lib.ValueIdx

noncomputable section

namespace Cert.Bridge

open Idealize.ShloMosaic Idealize.ShloMosaic.ValueIdx

/-- A two-axis array as a table over its two coordinates. -/
def cur {α : Type} {A B : Nat} (v : (⟨2, ![A, B]⟩ : Shape).Idx → α) (p : Fin A) (q : Fin B) : α := v (ix2 p q)

/-- A one-axis array as a function of its coordinate. -/
def vec {α : Type} {A : Nat} (v : (⟨1, ![A]⟩ : Shape).Idx → α) (e : Fin A) : α := v (ix1 e)

/-- A table over two coordinates as a two-axis array. -/
def unc {α : Type} {A B : Nat} (T : Fin A → Fin B → α) : (⟨2, ![A, B]⟩ : Shape).Idx → α := fun i => T (i 0) (i 1)

theorem unc_ix2 {α : Type} {A B : Nat} (T : Fin A → Fin B → α) (p : Fin A) (q : Fin B) : unc T (ix2 p q) = T p q := rfl

theorem cur_unc {α : Type} {A B : Nat} (T : Fin A → Fin B → α) : cur (unc T) = T := rfl

theorem unc_cur {α : Type} {A B : Nat} (v : (⟨2, ![A, B]⟩ : Shape).Idx → α) : unc (cur v) = v := by
  funext i; exact congrArg v (eq_ix2 i).symm

/-- Two arrays are equal when their tables are. -/
theorem ext_cur {α : Type} {A B : Nat} {u v : (⟨2, ![A, B]⟩ : Shape).Idx → α} (h : cur u = cur v) : u = v := by
  rw [← unc_cur u, ← unc_cur v, h]

end Cert.Bridge

end
-- ==== Proof.K.R1.lean ====
/-
  The second kernel region: `relu (A · S)` for the 10000 × 10240 adjacency `A` and the 10240 × 512 padded table `S`, one
  1000 × 512 block of the result per row block (10 of them), the 10240 columns of `A` taken 1280 at a time (8 steps).
  At a row block's first step the body zeroes its accumulator (a scratch buffer that lives across grid points); at every
  step it adds the product of the current 1000 × 1280 and 1280 × 512 blocks; at the last step it stores the
  accumulator, clipped below at zero, into the result's block. Between a row block's first and last steps the result's
  staging buffer is left alone and is not written back.
-/
import proofs.«420245_j23562190586108_1_alg».proof.Proof.Gen.Kernel.Launch
import proofs.«420245_j23562190586108_1_alg».proof.Proof.Gen.Kernel.Skeleton
import proofs.«420245_j23562190586108_1_alg».proof.Proof.Gen.Kernel.Points
import proofs.«420245_j23562190586108_1_alg».proof.Proof.Spec
import proofs.«420245_j23562190586108_1_alg».proof.Proof.Bridge
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

open scoped BigOperators

namespace Cert.Kernel.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Bridge

variable {F : FTy → Type} [FloatOps F]

local notation "𝕄" => MT nD τ sig Unit (Elt F) ℕ (UR sig nD τ) ℕ

section Region

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is not
    fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, over the grid -/

/-- "This is the row block's first step": the reduction coordinate is 0. -/
abbrev first1 (i : grid1.Coords) : Prop := (Scalar.cmpi .ne (Scalar.extui (Scalar.cmpi .eq (BitVec.ofNat 32 (i 2).val) 0#32)) 0#32) = 1#1
/-- "This is the row block's last step": the reduction coordinate is 7. -/
abbrev last1 (i : grid1.Coords) : Prop := k1_cond2 i = 1#1

theorem hfirst1 : ∀ t : Fin cfg1.N, first1 (grid1.coords t) ↔ t.val % 8 = 0 :=
  (by decide +kernel : ∀ t : Fin grid1.N, first1 (grid1.coords t) ↔ t.val % 8 = 0)
theorem hlast1 : ∀ t : Fin cfg1.N, last1 (grid1.coords t) ↔ t.val % 8 = 7 :=
  (by decide +kernel : ∀ t : Fin grid1.N, last1 (grid1.coords t) ↔ t.val % 8 = 7)

/-- The inputs are never idle; the result's window is idle, and not written back, exactly off the last steps. -/
theorem live1_0 : ∀ t : Fin cfg1.N, cfg1.idle 0 (grid1.coords t) = false := by decide +kernel
theorem live1_1 : ∀ t : Fin cfg1.N, cfg1.idle 1 (grid1.coords t) = false := by decide +kernel
theorem idle1_2 : ∀ t : Fin cfg1.N, ¬last1 (grid1.coords t) → cfg1.idle 2 (grid1.coords t) = true := by decide +kernel
theorem noflush1_2 : ∀ t : Fin cfg1.N, ¬last1 (grid1.coords t) → (cfg1.win 2).flush t = false := by decide +kernel
theorem live1_2 : ∀ t : Fin cfg1.N, last1 (grid1.coords t) → cfg1.idle 2 (grid1.coords t) = false := by decide +kernel

/-! ## The body's triples, one per reachable pair of conditions -/

theorem hz2 : (![0, 0] : Fin 2 → Nat) = fun _ => 0 := by funext a; fin_cases a <;> rfl

set_option maxHeartbeats 1000000 in
/-- A first step that is not a last one: whatever the accumulator held, it ends at the product added to zero; the
    result's buffer is untouched. -/
theorem sound_kernel1_first (c : Dev nD) (E : Set ℕ) (i : grid1.Coords)
    (arg3 : Memref sig .tc .vmem S1000x1280 .f32) (harg3 : arg3.IsWhole) (arg4 : Memref sig .tc .vmem S1280x512 .f32) (harg4 : arg4.IsWhole)
    (arg5 : Memref sig .tc .vmem S1000x512 .f32) (harg5 : arg5.IsWhole) (arg6 : Memref sig .tc .vmem S1000x512 .f32) (harg6 : arg6.IsWhole)
    (hc1 : first1 i) (hc2 : ¬last1 i)
    (x0 : Vec F S1000x1280 .f32) (x1 : Vec F S1280x512 .f32) (xo : Vec F S1000x512 .f32) (K : PUnit → sProp 𝕄) :
    iprop(owns (c : Thread nD τ) arg3 fullShare x0 ∗ owns (c : Thread nD τ) arg4 fullShare x1 ∗ owns (c : Thread nD τ) arg5 fullShare xo
        ∗ (∃ d, owns (c : Thread nD τ) arg6 fullShare d)
        ∗ (iprop(owns (c : Thread nD τ) arg3 fullShare x0 ∗ owns (c : Thread nD τ) arg4 fullShare x1 ∗ owns (c : Thread nD τ) arg5 fullShare xo
            ∗ owns (c : Thread nD τ) arg6 fullShare (k1_pay2 x0 x1 (k1_pay1 (F := F)))) -∗ K ⟨⟩))
      ⊢ wp frame (wpE (defs₀ (F := F)) Variants.none c none) E (cc1__mm_kernel i arg3 harg3 arg4 harg4 arg5 harg5 arg6 harg6) K := by
  simp only [cc1__mm_kernel_eq_skeleton]; unfold cc1__mm_kernel_skel
  unfold owns
  iintro ⟨⟨%f0, %hf0, H0⟩, ⟨%f1, %hf1, H1⟩, ⟨%f2, %hf2, H2⟩, ⟨%d, %f3, -, H3⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_cons_self, View.mem_set_unit_zero hz2 inb_S1000x512_S1000x512_0_0 y⟩),
    View.canon_cons_unit_zero (S := S1000x512) hz2]
  sl_unfold_run_names
  rw [View.readCov_unit_zero (S := S1000x512) _ hz2]
  simp only [View.readAt_eq_ld, View.ld_unit_zero (S := S1000x1280) hz2, View.ld_unit_zero (S := S1280x512) hz2]

set_option maxHeartbeats 1000000 in
/-- A step that is neither first nor last: the accumulator, at `xs`, ends at the product added to `xs`; the result's
    buffer is untouched. -/
theorem sound_kernel1_mid (c : Dev nD) (E : Set ℕ) (i : grid1.Coords)
    (arg3 : Memref sig .tc .vmem S1000x1280 .f32) (harg3 : arg3.IsWhole) (arg4 : Memref sig .tc .vmem S1280x512 .f32) (harg4 : arg4.IsWhole)
    (arg5 : Memref sig .tc .vmem S1000x512 .f32) (harg5 : arg5.IsWhole) (arg6 : Memref sig .tc .vmem S1000x512 .f32) (harg6 : arg6.IsWhole)
    (hc1 : ¬first1 i) (hc2 : ¬last1 i)
    (x0 : Vec F S1000x1280 .f32) (x1 : Vec F S1280x512 .f32) (xo : Vec F S1000x512 .f32) (xs : Vec F S1000x512 .f32) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare xs
        ∗ (iprop(owns (c : Thread nD τ) arg3 fullShare x0 ∗ owns (c : Thread nD τ) arg4 fullShare x1 ∗ owns (c : Thread nD τ) arg5 fullShare xo
            ∗ owns (c : Thread nD τ) arg6 fullShare (k1_pay2 x0 x1 xs)) -∗ K ⟨⟩))
      ⊢ wp frame (wpE (defs₀ (F := F)) Variants.none c none) E (cc1__mm_kernel i arg3 harg3 arg4 harg4 arg5 harg5 arg6 harg6) K := by
  simp only [cc1__mm_kernel_eq_skeleton]; unfold cc1__mm_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_cons_self, View.mem_set_unit_zero hz2 inb_S1000x512_S1000x512_0_0 y⟩),
    View.canon_cons_unit_zero (S := S1000x512) hz2]
  sl_unfold_run_names
  simp only [View.readAt_eq_ld, View.ld_unit_zero (S := S1000x1280) hz2, View.ld_unit_zero (S := S1280x512) hz2,
    View.ld_unit_zero (S := S1000x512) hz2]

set_option maxHeartbeats 1000000 in
/-- A last step that is not a first one: the accumulator, at `xs`, ends at the product added to `xs`, and the result's
    buffer, whatever it held, at that clipped below at zero. -/
theorem sound_kernel1_last (c : Dev nD) (E : Set ℕ) (i : grid1.Coords)
    (arg3 : Memref sig .tc .vmem S1000x1280 .f32) (harg3 : arg3.IsWhole) (arg4 : Memref sig .tc .vmem S1280x512 .f32) (harg4 : arg4.IsWhole)
    (arg5 : Memref sig .tc .vmem S1000x512 .f32) (harg5 : arg5.IsWhole) (arg6 : Memref sig .tc .vmem S1000x512 .f32) (harg6 : arg6.IsWhole)
    (hc1 : ¬first1 i) (hc2 : last1 i)
    (x0 : Vec F S1000x1280 .f32) (x1 : Vec F S1280x512 .f32) (xs : Vec F S1000x512 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare xs
        ∗ (iprop(owns (c : Thread nD τ) arg3 fullShare x0 ∗ owns (c : Thread nD τ) arg4 fullShare x1
            ∗ owns (c : Thread nD τ) arg5 fullShare (k1_pay3 (k1_pay2 x0 x1 xs))
            ∗ owns (c : Thread nD τ) arg6 fullShare (k1_pay2 x0 x1 xs)) -∗ K ⟨⟩))
      ⊢ wp frame (wpE (defs₀ (F := F)) Variants.none c none) E (cc1__mm_kernel i arg3 harg3 arg4 harg4 arg5 harg5 arg6 harg6) K := by
  simp only [cc1__mm_kernel_eq_skeleton]; unfold cc1__mm_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_eq_canon _ _ _ (fun y => ⟨_, List.mem_cons_self, View.mem_set_unit_zero hz2 inb_S1000x512_S1000x512_0_0 y⟩),
      View.canon_cons_unit_zero (S := S1000x512) hz2, View.readCov_unit_zero (S := S1000x512) _ hz2]
    simp only [View.readAt_eq_ld, View.ld_unit_zero (S := S1000x1280) hz2, View.ld_unit_zero (S := S1280x512) hz2,
      View.ld_unit_zero (S := S1000x512) hz2]
  iexists _; isplitr
  swap; · iexact H3
  ipureintro
  sl_unfold_run_names
  rw [View.read_writes_eq_canon _ _ _ (fun y => ⟨_, List.mem_cons_self, View.mem_set_unit_zero hz2 inb_S1000x512_S1000x512_0_0 y⟩),
    View.canon_cons_unit_zero (S := S1000x512) hz2]
  simp only [View.readAt_eq_ld, View.ld_unit_zero (S := S1000x1280) hz2, View.ld_unit_zero (S := S1280x512) hz2,
    View.ld_unit_zero (S := S1000x512) hz2]

/-! ## The accumulator, point by point -/

/-- The kernel's scratch operand: the accumulator, a whole scoped buffer of its own. -/
abbrev scM1 : Memref sig .tc .vmem S1000x512 .f32 := Memref.whole cc1_scratch0

/-- What the accumulator holds after the body at position `n`: the product of the point's two blocks added to zero at
    a row block's first step, to what the step before left otherwise. -/
def acc1 (c : Dev nD) : (n : ℕ) → n < cfg1.N → Vec F S1000x512 .f32
  | 0, h => k1_pay2 (iblk1 V c 0 ⟨0, h⟩) (iblk1 V c 1 ⟨0, h⟩) (k1_pay1 (F := F))
  | n + 1, h => k1_pay2 (iblk1 V c 0 ⟨n + 1, h⟩) (iblk1 V c 1 ⟨n + 1, h⟩)
      (if (n + 1) % 8 = 0 then k1_pay1 (F := F) else acc1 c n (Nat.lt_of_succ_lt h))

theorem acc1_first (c : Dev nD) (t : Fin cfg1.N) (h : t.val % 8 = 0) :
    acc1 V c t.val t.isLt = k1_pay2 (iblk1 V c 0 t) (iblk1 V c 1 t) (k1_pay1 (F := F)) := by
  obtain ⟨n, hn⟩ := t
  cases n with
  | zero => rfl
  | succ n => exact congrArg (k1_pay2 _ _) (if_pos h)

theorem acc1_next (c : Dev nD) (t : Fin cfg1.N) (h : ¬t.val % 8 = 0) :
    acc1 V c t.val t.isLt = k1_pay2 (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod _) h
  | succ n => exact congrArg (k1_pay2 _ _) (if_neg h)

/-! ## The region invariant -/

/-- Before position `n`: at the region's entry the scoped rest (the accumulator among it) at anything and the generator
    register; afterwards the accumulator at what the point before left, the rest of the scoped rest unopened. -/
def Phi1 (c : Dev nD) : (n : ℕ) → n ≤ cfg1.N → sProp 𝕄
  | 0, _ => Pipeline.ΦA spec1 c
  | n + 1, hn => iprop(iprop(owns (c : Thread nD τ) scM1 fullShare (acc1 V c n hn)
      ∗ Pipeline.scopedRestBut (Ix := Unit) (Name := ℕ) (U := UR sig nD τ) (Lvl := ℕ) (Val := Elt F) spec1 c [cc1_scratch0])
      ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(iprop(owns (c : Thread nD τ) scM1 fullShare (acc1 V c n hn)
      ∗ Pipeline.scopedRestBut (Ix := Unit) (Name := ℕ) (U := UR sig nD τ) (Lvl := ℕ) (Val := Elt F) spec1 c [cc1_scratch0])
      ∗ (∃ r, prngReg c r)) := rfl

theorem Phi1_pos (c : Dev nD) (n : ℕ) (h : n ≤ cfg1.N) (hz : n ≠ 0) :
    Phi1 V c n h = iprop(iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0])
      ∗ (∃ r, prngReg c r)) := by
  cases n with
  | zero => exact absurd rfl hz
  | succ n => rfl

/-- The entry invariant with the accumulator split off the scoped rest. -/
theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA; rw [scopedRest1_split]; simp only [scM1, owns_whole]; rfl

/-! ## The proof data -/

/-- The arrays as the region finds them; after the body each input's buffer at its block and the result's at the
    clipped accumulator (read only at a row block's last step, the one point that writes the block back); the invariant
    above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (acc1 V c t.val t.isLt)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (acc1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point: the inputs' buffers hold their blocks; the point's position modulo 8 says which of the
    three triples applies; the invariant hands the accumulator over at what the step before left (at anything at the
    region's first point) and takes it back at this step's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
    unfold Dat.leavesExact; rw [live1_0 t], after1_0]
  rw [show (dat1 V c).leavesExact 1 t = owns (c : Thread nD τ) (st1_1 t) fullShare ((dat1 V c).after 1 t) from by
    unfold Dat.leavesExact; rw [live1_1 t], after1_1]
  have hN : t.val < 80 := lt_of_lt_of_eq t.isLt (show cfg1.N = 80 from N_1)
  by_cases h7 : t.val % 8 = 7
  · -- a last step
    have h0 : ¬t.val % 8 = 0 := by omega
    have hz : t.val ≠ 0 := by omega
    rw [show (dat1 V c).leavesExact 2 t = owns (c : Thread nD τ) (st1_2 t) fullShare ((dat1 V c).after 2 t) from by
      unfold Dat.leavesExact; rw [live1_2 t ((hlast1 t).mpr h7)], after1_2]
    rw [acc1_next V c t h0, Phi1_castSucc V c t, Phi1_pos V c _ _ hz]
    iintro ⟨⟨⟨HS, Hrest⟩, Hg⟩, Ho, ⟨%d0, H0⟩, ⟨%d1, H1⟩, ⟨%d2, H2⟩⟩
    iapply (sound_kernel1_last c Set.univ (grid1.coords t) _ _ _ _ _ _ _ _ (fun h => h0 ((hfirst1 t).mp h)) ((hlast1 t).mpr h7)
      (iblk1 V c 0 t) (iblk1 V c 1 t) _ _)
    isplitl [H0]; · iexact H0
    isplitl [H1]; · iexact H1
    isplitl [H2]; · iexists _; iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexact H2
  · rw [Dat.leavesExact_idle (dat1 V c) 2 t (idle1_2 t (fun h => h7 ((hlast1 t).mp h))) (noflush1_2 t (fun h => h7 ((hlast1 t).mp h)))]
    by_cases h0 : t.val % 8 = 0
    · -- a first step
      rw [acc1_first V c t h0]
      by_cases hz : t.val = 0
      · rw [Phi1_castSucc V c t, Phi1_zero V c _ _ hz, PhiA1_eq]
        iintro ⟨⟨⟨HS, Hrest⟩, Hg⟩, Ho, ⟨%d0, H0⟩, ⟨%d1, H1⟩, ⟨%d2, H2⟩⟩
        iapply (sound_kernel1_first c Set.univ (grid1.coords t) _ _ _ _ _ _ _ _ ((hfirst1 t).mpr h0) (fun h => h7 ((hlast1 t).mp h))
          (iblk1 V c 0 t) (iblk1 V c 1 t) _ _)
        isplitl [H0]; · iexact H0
        isplitl [H1]; · iexact H1
        isplitl [H2]; · iexact H2
        isplitl [HS]; · iexact HS
        iintro ⟨H0, H1, H2, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        iexists _; iexact H2
      · rw [Phi1_castSucc V c t, Phi1_pos V c _ _ hz]
        iintro ⟨⟨⟨HS, Hrest⟩, Hg⟩, Ho, ⟨%d0, H0⟩, ⟨%d1, H1⟩, ⟨%d2, H2⟩⟩
        iapply (sound_kernel1_first c Set.univ (grid1.coords t) _ _ _ _ _ _ _ _ ((hfirst1 t).mpr h0) (fun h => h7 ((hlast1 t).mp h))
          (iblk1 V c 0 t) (iblk1 V c 1 t) _ _)
        isplitl [H0]; · iexact H0
        isplitl [H1]; · iexact H1
        isplitl [H2]; · iexact H2
        isplitl [HS]; · iexists _; iexact HS
        iintro ⟨H0, H1, H2, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        iexists _; iexact H2
    · -- a middle step
      have hz : t.val ≠ 0 := fun e => h0 (by rw [e])
      rw [acc1_next V c t h0, Phi1_castSucc V c t, Phi1_pos V c _ _ hz]
      iintro ⟨⟨⟨HS, Hrest⟩, Hg⟩, Ho, ⟨%d0, H0⟩, ⟨%d1, H1⟩, ⟨%d2, H2⟩⟩
      iapply (sound_kernel1_mid c Set.univ (grid1.coords t) _ _ _ _ _ _ _ _ (fun h => h0 ((hfirst1 t).mp h)) (fun h => h7 ((hlast1 t).mp h))
        (iblk1 V c 0 t) (iblk1 V c 1 t) _ _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed at its entry is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]

/-- After the last point the invariant gives the entry's form back: the accumulator's contents are forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 80 := N_1; omega), PhiA1_eq]
  iintro ⟨⟨HS, Hrest⟩, Hg⟩
  isplitl [HS Hrest]
  · isplitl [HS]; · iexists _; iexact HS
    iexact Hrest
  iexact Hg

end Region

end Cert.Kernel.Hand

end
-- ==== Proof.K.R0.lean ====
/-
  The first kernel region: `x · W1` for the 10000 × 3000 table `x` and the 3000 × 512 matrix `W1`, one 400 × 512 block
  of the result per row block (25 of them), the 3000 columns of `x` taken all at once: the reduction has one step, so
  every point is a row block's first step and its last. At every point the body zeroes its accumulator (a scratch
  buffer that lives across grid points), adds the product of the current 400 × 3000 block and the 3000 × 512 matrix, and
  stores the accumulator, as it is, into the result's block; the result's staging buffer is written back at every point.
-/
import proofs.«420245_j23562190586108_1_alg».proof.Proof.K.R1
import proofs.«420245_j23562190586108_1_alg».proof.Proof.Gen.Kernel.Launch
import proofs.«420245_j23562190586108_1_alg».proof.Proof.Gen.Kernel.Skeleton
import proofs.«420245_j23562190586108_1_alg».proof.Proof.Gen.Kernel.Points
import proofs.«420245_j23562190586108_1_alg».proof.Proof.Spec
import proofs.«420245_j23562190586108_1_alg».proof.Proof.Bridge
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

open scoped BigOperators

namespace Cert.Kernel.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Bridge

variable {F : FTy → Type} [FloatOps F]

local notation "𝕄" => MT nD τ sig Unit (Elt F) ℕ (UR sig nD τ) ℕ

section Region

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, over the grid -/

/-- "This is the row block's first step": the reduction coordinate is 0. -/
abbrev first0 (i : grid0.Coords) : Prop := (Scalar.cmpi .ne (Scalar.extui (Scalar.cmpi .eq (BitVec.ofNat 32 (i 2).val) 0#32)) 0#32) = 1#1
/-- "This is the row block's last step": the reduction coordinate is 0, the one step there is. -/
abbrev last0 (i : grid0.Coords) : Prop := k0_cond2 i = 1#1

/-- The reduction has one step: every point is a first step and a last one. -/
theorem hfirst0 : ∀ t : Fin cfg0.N, first0 (grid0.coords t) :=
  (by decide +kernel : ∀ t : Fin grid0.N, first0 (grid0.coords t))
theorem hlast0 : ∀ t : Fin cfg0.N, last0 (grid0.coords t) :=
  (by decide +kernel : ∀ t : Fin grid0.N, last0 (grid0.coords t))

/-- No window is ever idle: the result's block is filled, and written back, at every point. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel

/-! ## The body's triple: every point is both a first and a last step -/

set_option maxHeartbeats 1000000 in
/-- A step that is both first and last: whatever the accumulator and the result's buffer held, both end at the
    product added to zero. -/
theorem sound_kernel0_both (c : Dev nD) (E : Set ℕ) (i : grid0.Coords)
    (arg3 : Memref sig .tc .vmem S400x3000 .f32) (harg3 : arg3.IsWhole) (arg4 : Memref sig .tc .vmem S3000x512 .f32) (harg4 : arg4.IsWhole)
    (arg5 : Memref sig .tc .vmem S400x512 .f32) (harg5 : arg5.IsWhole) (arg6 : Memref sig .tc .vmem S400x512 .f32) (harg6 : arg6.IsWhole)
    (hc1 : first0 i) (hc2 : last0 i)
    (x0 : Vec F S400x3000 .f32) (x1 : Vec F S3000x512 .f32) (K : PUnit → sProp 𝕄) :
    iprop(owns (c : Thread nD τ) arg3 fullShare x0 ∗ owns (c : Thread nD τ) arg4 fullShare x1 ∗ (∃ d, owns (c : Thread nD τ) arg5 fullShare d)
        ∗ (∃ d, owns (c : Thread nD τ) arg6 fullShare d)
        ∗ (iprop(owns (c : Thread nD τ) arg3 fullShare x0 ∗ owns (c : Thread nD τ) arg4 fullShare x1
            ∗ owns (c : Thread nD τ) arg5 fullShare (k0_pay2 x0 x1 (k0_pay1 (F := F)))
            ∗ owns (c : Thread nD τ) arg6 fullShare (k0_pay2 x0 x1 (k0_pay1 (F := F)))) -∗ K ⟨⟩))
      ⊢ wp frame (wpE (defs₀ (F := F)) Variants.none c none) E (cc0__mm_kernel i arg3 harg3 arg4 harg4 arg5 harg5 arg6 harg6) K := by
  simp only [cc0__mm_kernel_eq_skeleton]; unfold cc0__mm_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_eq_canon _ _ _ (fun y => ⟨_, List.mem_cons_self, View.mem_set_unit_zero hz2 inb_S400x512_S400x512_0_0 y⟩),
      View.canon_cons_unit_zero (S := S400x512) hz2,
      View.readCov_eq_canon_ld _ _ _ (fun y => ⟨_, List.mem_cons_self, View.mem_set_unit_zero hz2 inb_S400x512_S400x512_0_0 y⟩),
      View.canon_cons_unit_zero (S := S400x512) hz2, View.ld_unit_zero (S := S400x512) hz2,
      View.readCov_unit_zero (S := S400x512) _ hz2]
    simp only [View.readAt_eq_ld, View.ld_unit_zero (S := S400x3000) hz2, View.ld_unit_zero (S := S3000x512) hz2]
  iexists _; isplitr
  swap; · iexact H3
  ipureintro
  sl_unfold_run_names
  rw [View.read_writes_eq_canon _ _ _ (fun y => ⟨_, List.mem_cons_self, View.mem_set_unit_zero hz2 inb_S400x512_S400x512_0_0 y⟩),
    View.canon_cons_unit_zero (S := S400x512) hz2, View.readCov_unit_zero (S := S400x512) _ hz2]
  simp only [View.readAt_eq_ld, View.ld_unit_zero (S := S400x3000) hz2, View.ld_unit_zero (S := S3000x512) hz2]

/-! ## The accumulator, point by point -/

/-- The kernel's scratch operand: the accumulator, a whole scoped buffer of its own. -/
abbrev scM0 : Memref sig .tc .vmem S400x512 .f32 := Memref.whole cc0_scratch0

/-- What the accumulator holds after the body at point `t`: the product of the point's two blocks added to zero (every
    point is a row block's first step, so nothing of the point before survives). -/
def acc0 (c : Dev nD) (t : Fin cfg0.N) : Vec F S400x512 .f32 :=
  k0_pay2 (iblk0 V c 0 t) (iblk0 V c 1 t) (k0_pay1 (F := F))

theorem acc0_eq (c : Dev nD) (t : Fin cfg0.N) :
    acc0 V c t = k0_pay2 (iblk0 V c 0 t) (iblk0 V c 1 t) (k0_pay1 (F := F)) := rfl

theorem acc0_mk (c : Dev nD) (t : Fin cfg0.N) :
    acc0 V c ⟨t.val, t.isLt⟩ = k0_pay2 (iblk0 V c 0 t) (iblk0 V c 1 t) (k0_pay1 (F := F)) := rfl

/-! ## The region invariant -/

/-- Before position `n`: at the region's entry the scoped rest (the accumulator among it) at anything and the generator
    register; afterwards the accumulator at what the point before left, the rest of the scoped rest unopened. -/
def Phi0 (c : Dev nD) : (n : ℕ) → n ≤ cfg0.N → sProp 𝕄
  | 0, _ => Pipeline.ΦA spec0 c
  | n + 1, hn => iprop(iprop(owns (c : Thread nD τ) scM0 fullShare (acc0 V c ⟨n, hn⟩)
      ∗ Pipeline.scopedRestBut (Ix := Unit) (Name := ℕ) (U := UR sig nD τ) (Lvl := ℕ) (Val := Elt F) spec0 c [cc0_scratch0])
      ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(iprop(owns (c : Thread nD τ) scM0 fullShare (acc0 V c ⟨n, hn⟩)
      ∗ Pipeline.scopedRestBut (Ix := Unit) (Name := ℕ) (U := UR sig nD τ) (Lvl := ℕ) (Val := Elt F) spec0 c [cc0_scratch0])
      ∗ (∃ r, prngReg c r)) := rfl

theorem Phi0_pos (c : Dev nD) (n : ℕ) (h : n ≤ cfg0.N) (hz : n ≠ 0) :
    Phi0 V c n h = iprop(iprop(owns (c : Thread nD τ) scM0 fullShare (acc0 V c ⟨n - 1, by omega⟩)
      ∗ Pipeline.scopedRestBut (Ix := Unit) (Name := ℕ) (U := UR sig nD τ) (Lvl := ℕ) (Val := Elt F) spec0 c [cc0_scratch0])
      ∗ (∃ r, prngReg c r)) := by
  cases n with
  | zero => exact absurd rfl hz
  | succ n => rfl

/-- The entry invariant with the accumulator split off the scoped rest. -/
theorem PhiA0_eq (c : Dev nD) :
    (Pipeline.ΦA spec0 c : sProp 𝕄)
      = iprop(iprop((∃ d, owns (c : Thread nD τ) scM0 fullShare d)
          ∗ Pipeline.scopedRestBut (Ix := Unit) (Name := ℕ) (U := UR sig nD τ) (Lvl := ℕ) (Val := Elt F) spec0 c [cc0_scratch0])
          ∗ (∃ r, prngReg c r)) := by
  unfold Pipeline.ΦA; rw [scopedRest0_split]; simp only [scM0, owns_whole]; rfl

/-! ## The proof data -/

/-- The arrays as the region finds them; after the body each input's buffer at its block and the result's at the
    accumulator (the block's product added to zero), written back at every point; the invariant above; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point: the inputs' buffers hold their blocks; the one triple applies; the invariant hands the
    accumulator over at anything (what the point before left, or the entry's contents) and takes it back at this
    point's product added to zero, which the result's buffer holds too. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ, acc0_mk]
  rw [show (dat0 V c).leavesExact 0 t = owns (c : Thread nD τ) (st0_0 t) fullShare ((dat0 V c).after 0 t) from by
    unfold Dat.leavesExact; rw [live0_0 t], after0_0]
  rw [show (dat0 V c).leavesExact 1 t = owns (c : Thread nD τ) (st0_1 t) fullShare ((dat0 V c).after 1 t) from by
    unfold Dat.leavesExact; rw [live0_1 t], after0_1]
  rw [show (dat0 V c).leavesExact 2 t = owns (c : Thread nD τ) (st0_2 t) fullShare ((dat0 V c).after 2 t) from by
    unfold Dat.leavesExact; rw [live0_2 t], after0_2, acc0_eq]
  by_cases hz : t.val = 0
  · -- the region's first point: the accumulator is among the entry's scoped rest
    rw [Phi0_castSucc V c t, Phi0_zero V c _ _ hz, PhiA0_eq]
    iintro ⟨⟨⟨HS, Hrest⟩, Hg⟩, Ho, ⟨%d0, H0⟩, ⟨%d1, H1⟩, ⟨%d2, H2⟩⟩
    iapply (sound_kernel0_both c Set.univ (grid0.coords t) _ _ _ _ _ _ _ _ (hfirst0 t) (hlast0 t)
      (iblk0 V c 0 t) (iblk0 V c 1 t) _)
    isplitl [H0]; · iexact H0
    isplitl [H1]; · iexact H1
    isplitl [H2]; · iexists _; iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexact H2
  · -- a later point: the accumulator is at what the point before left
    rw [Phi0_castSucc V c t, Phi0_pos V c _ _ hz]
    iintro ⟨⟨⟨HS, Hrest⟩, Hg⟩, Ho, ⟨%d0, H0⟩, ⟨%d1, H1⟩, ⟨%d2, H2⟩⟩
    iapply (sound_kernel0_both c Set.univ (grid0.coords t) _ _ _ _ _ _ _ _ (hfirst0 t) (hlast0 t)
      (iblk0 V c 0 t) (iblk0 V c 1 t) _)
    isplitl [H0]; · iexact H0
    isplitl [H1]; · iexact H1
    isplitl [H2]; · iexists _; iexact H2
    isplitl [HS]; · iexists _; iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is handed at its entry is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]

/-- After the last point the invariant gives the entry's form back: the accumulator's contents are forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 25 := N_0; omega), PhiA0_eq]
  iintro ⟨⟨HS, Hrest⟩, Hg⟩
  isplitl [HS Hrest]
  · isplitl [HS]; · iexists _; iexact HS
    iexact Hrest
  iexact Hg

end Region

end Cert.Kernel.Hand

end
-- ==== Proof.K.R2.lean ====
/-
  The third kernel region: `h · [W2 | W3]` for the 10000 × 512 hidden table `h` and the 512 × 128 joined matrix, one
  2000 × 128 block of the result per row block (5 of them), the 512 columns of `h` taken all at once: the reduction has
  one step, so every point is a row block's first step and its last. At every point the body zeroes its accumulator (a
  scratch buffer that lives across grid points), adds the product of the current 2000 × 512 block and the 512 × 128
  matrix, and stores the accumulator, as it is, into the result's block; the result's staging buffer is written back at
  every point.
-/
import proofs.«420245_j23562190586108_1_alg».proof.Proof.K.R1
import proofs.«420245_j23562190586108_1_alg».proof.Proof.Gen.Kernel.Launch
import proofs.«420245_j23562190586108_1_alg».proof.Proof.Gen.Kernel.Skeleton
import proofs.«420245_j23562190586108_1_alg».proof.Proof.Gen.Kernel.Points
import proofs.«420245_j23562190586108_1_alg».proof.Proof.Spec
import proofs.«420245_j23562190586108_1_alg».proof.Proof.Bridge
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

open scoped BigOperators

namespace Cert.Kernel.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Bridge

variable {F : FTy → Type} [FloatOps F]

local notation "𝕄" => MT nD τ sig Unit (Elt F) ℕ (UR sig nD τ) ℕ

section Region

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: where it is not
    fetched its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions, over the grid -/

/-- "This is the row block's first step": the reduction coordinate is 0. -/
abbrev first2 (i : grid2.Coords) : Prop := (Scalar.cmpi .ne (Scalar.extui (Scalar.cmpi .eq (BitVec.ofNat 32 (i 2).val) 0#32)) 0#32) = 1#1
/-- "This is the row block's last step": the reduction coordinate is 0, the one step there is. -/
abbrev last2 (i : grid2.Coords) : Prop := k2_cond2 i = 1#1

/-- The reduction has one step: every point is a first step and a last one. -/
theorem hfirst2 : ∀ t : Fin cfg2.N, first2 (grid2.coords t) :=
  (by decide +kernel : ∀ t : Fin grid2.N, first2 (grid2.coords t))
theorem hlast2 : ∀ t : Fin cfg2.N, last2 (grid2.coords t) :=
  (by decide +kernel : ∀ t : Fin grid2.N, last2 (grid2.coords t))

/-- No window is ever idle: the result's block is filled, and written back, at every point. -/
theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel

/-! ## The body's triple: every point is both a first and a last step -/

set_option maxHeartbeats 1000000 in
/-- A step that is both first and last: whatever the accumulator and the result's buffer held, both end at the
    product added to zero. -/
theorem sound_kernel2_both (c : Dev nD) (E : Set ℕ) (i : grid2.Coords)
    (arg3 : Memref sig .tc .vmem S2000x512 .f32) (harg3 : arg3.IsWhole) (arg4 : Memref sig .tc .vmem S512x128 .f32) (harg4 : arg4.IsWhole)
    (arg5 : Memref sig .tc .vmem S2000x128 .f32) (harg5 : arg5.IsWhole) (arg6 : Memref sig .tc .vmem S2000x128 .f32) (harg6 : arg6.IsWhole)
    (hc1 : first2 i) (hc2 : last2 i)
    (x0 : Vec F S2000x512 .f32) (x1 : Vec F S512x128 .f32) (K : PUnit → sProp 𝕄) :
    iprop(owns (c : Thread nD τ) arg3 fullShare x0 ∗ owns (c : Thread nD τ) arg4 fullShare x1 ∗ (∃ d, owns (c : Thread nD τ) arg5 fullShare d)
        ∗ (∃ d, owns (c : Thread nD τ) arg6 fullShare d)
        ∗ (iprop(owns (c : Thread nD τ) arg3 fullShare x0 ∗ owns (c : Thread nD τ) arg4 fullShare x1
            ∗ owns (c : Thread nD τ) arg5 fullShare (k2_pay2 x0 x1 (k2_pay1 (F := F)))
            ∗ owns (c : Thread nD τ) arg6 fullShare (k2_pay2 x0 x1 (k2_pay1 (F := F)))) -∗ K ⟨⟩))
      ⊢ wp frame (wpE (defs₀ (F := F)) Variants.none c none) E (cc2__mm_kernel i arg3 harg3 arg4 harg4 arg5 harg5 arg6 harg6) K := by
  simp only [cc2__mm_kernel_eq_skeleton]; unfold cc2__mm_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_eq_canon _ _ _ (fun y => ⟨_, List.mem_cons_self, View.mem_set_unit_zero hz2 inb_S2000x128_S2000x128_0_0 y⟩),
      View.canon_cons_unit_zero (S := S2000x128) hz2,
      View.readCov_eq_canon_ld _ _ _ (fun y => ⟨_, List.mem_cons_self, View.mem_set_unit_zero hz2 inb_S2000x128_S2000x128_0_0 y⟩),
      View.canon_cons_unit_zero (S := S2000x128) hz2, View.ld_unit_zero (S := S2000x128) hz2,
      View.readCov_unit_zero (S := S2000x128) _ hz2]
    simp only [View.readAt_eq_ld, View.ld_unit_zero (S := S2000x512) hz2, View.ld_unit_zero (S := S512x128) hz2]
  iexists _; isplitr
  swap; · iexact H3
  ipureintro
  sl_unfold_run_names
  rw [View.read_writes_eq_canon _ _ _ (fun y => ⟨_, List.mem_cons_self, View.mem_set_unit_zero hz2 inb_S2000x128_S2000x128_0_0 y⟩),
    View.canon_cons_unit_zero (S := S2000x128) hz2, View.readCov_unit_zero (S := S2000x128) _ hz2]
  simp only [View.readAt_eq_ld, View.ld_unit_zero (S := S2000x512) hz2, View.ld_unit_zero (S := S512x128) hz2]

/-! ## The accumulator, point by point -/

/-- The kernel's scratch operand: the accumulator, a whole scoped buffer of its own. -/
abbrev scM2 : Memref sig .tc .vmem S2000x128 .f32 := Memref.whole cc2_scratch0

/-- What the accumulator holds after the body at point `t`: the product of the point's two blocks added to zero (every
    point is a row block's first step, so nothing of the point before survives). -/
def acc2 (c : Dev nD) (t : Fin cfg2.N) : Vec F S2000x128 .f32 :=
  k2_pay2 (iblk2 V c 0 t) (iblk2 V c 1 t) (k2_pay1 (F := F))

theorem acc2_eq (c : Dev nD) (t : Fin cfg2.N) :
    acc2 V c t = k2_pay2 (iblk2 V c 0 t) (iblk2 V c 1 t) (k2_pay1 (F := F)) := rfl

theorem acc2_mk (c : Dev nD) (t : Fin cfg2.N) :
    acc2 V c ⟨t.val, t.isLt⟩ = k2_pay2 (iblk2 V c 0 t) (iblk2 V c 1 t) (k2_pay1 (F := F)) := rfl

/-! ## The region invariant -/

/-- Before position `n`: at the region's entry the scoped rest (the accumulator among it) at anything and the generator
    register; afterwards the accumulator at what the point before left, the rest of the scoped rest unopened. -/
def Phi2 (c : Dev nD) : (n : ℕ) → n ≤ cfg2.N → sProp 𝕄
  | 0, _ => Pipeline.ΦA spec2 c
  | n + 1, hn => iprop(iprop(owns (c : Thread nD τ) scM2 fullShare (acc2 V c ⟨n, hn⟩)
      ∗ Pipeline.scopedRestBut (Ix := Unit) (Name := ℕ) (U := UR sig nD τ) (Lvl := ℕ) (Val := Elt F) spec2 c [cc2_scratch0])
      ∗ (∃ r, prngReg c r))

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(iprop(owns (c : Thread nD τ) scM2 fullShare (acc2 V c ⟨n, hn⟩)
      ∗ Pipeline.scopedRestBut (Ix := Unit) (Name := ℕ) (U := UR sig nD τ) (Lvl := ℕ) (Val := Elt F) spec2 c [cc2_scratch0])
      ∗ (∃ r, prngReg c r)) := rfl

theorem Phi2_pos (c : Dev nD) (n : ℕ) (h : n ≤ cfg2.N) (hz : n ≠ 0) :
    Phi2 V c n h = iprop(iprop(owns (c : Thread nD τ) scM2 fullShare (acc2 V c ⟨n - 1, by omega⟩)
      ∗ Pipeline.scopedRestBut (Ix := Unit) (Name := ℕ) (U := UR sig nD τ) (Lvl := ℕ) (Val := Elt F) spec2 c [cc2_scratch0])
      ∗ (∃ r, prngReg c r)) := by
  cases n with
  | zero => exact absurd rfl hz
  | succ n => rfl

/-- The entry invariant with the accumulator split off the scoped rest. -/
theorem PhiA2_eq (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0])
          ∗ (∃ r, prngReg c r)) := by
  unfold Pipeline.ΦA; rw [scopedRest2_split]; simp only [scM2, owns_whole]; rfl

/-! ## The proof data -/

/-- The arrays as the region finds them; after the body each input's buffer at its block and the result's at the
    accumulator (the block's product added to zero), written back at every point; the invariant above; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4000000 in
/-- The body at any point: the inputs' buffers hold their blocks; the one triple applies; the invariant hands the
    accumulator over at anything (what the point before left, or the entry's contents) and takes it back at this
    point's product added to zero, which the result's buffer holds too. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = Phi2 V c (t.val + 1) t.isLt from rfl, Phi2_succ, acc2_mk]
  rw [show (dat2 V c).leavesExact 0 t = owns (c : Thread nD τ) (st2_0 t) fullShare ((dat2 V c).after 0 t) from by
    unfold Dat.leavesExact; rw [live2_0 t], after2_0]
  rw [show (dat2 V c).leavesExact 1 t = owns (c : Thread nD τ) (st2_1 t) fullShare ((dat2 V c).after 1 t) from by
    unfold Dat.leavesExact; rw [live2_1 t], after2_1]
  rw [show (dat2 V c).leavesExact 2 t = owns (c : Thread nD τ) (st2_2 t) fullShare ((dat2 V c).after 2 t) from by
    unfold Dat.leavesExact; rw [live2_2 t], after2_2, acc2_eq]
  by_cases hz : t.val = 0
  · -- the region's first point: the accumulator is among the entry's scoped rest
    rw [Phi2_castSucc V c t, Phi2_zero V c _ _ hz, PhiA2_eq]
    iintro ⟨⟨⟨HS, Hrest⟩, Hg⟩, Ho, ⟨%d0, H0⟩, ⟨%d1, H1⟩, ⟨%d2, H2⟩⟩
    iapply (sound_kernel2_both c Set.univ (grid2.coords t) _ _ _ _ _ _ _ _ (hfirst2 t) (hlast2 t)
      (iblk2 V c 0 t) (iblk2 V c 1 t) _)
    isplitl [H0]; · iexact H0
    isplitl [H1]; · iexact H1
    isplitl [H2]; · iexists _; iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexact H2
  · -- a later point: the accumulator is at what the point before left
    rw [Phi2_castSucc V c t, Phi2_pos V c _ _ hz]
    iintro ⟨⟨⟨HS, Hrest⟩, Hg⟩, Ho, ⟨%d0, H0⟩, ⟨%d1, H1⟩, ⟨%d2, H2⟩⟩
    iapply (sound_kernel2_both c Set.univ (grid2.coords t) _ _ _ _ _ _ _ _ (hfirst2 t) (hlast2 t)
      (iblk2 V c 0 t) (iblk2 V c 1 t) _)
    isplitl [H0]; · iexact H0
    isplitl [H1]; · iexact H1
    isplitl [H2]; · iexists _; iexact H2
    isplitl [HS]; · iexists _; iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is handed at its entry is the invariant before the first point. -/
theorem hin2 (c : Dev nD) : Pipeline.ΦA spec2 c ⊢ (dat2 V c).Φ 0 := by
  rw [show (dat2 V c).Φ 0 = Phi2 V c 0 (Nat.zero_le _) from rfl, Phi2_zero V c 0 _ rfl]

/-- After the last point the invariant gives the entry's form back: the accumulator's contents are forgotten. -/
theorem hout2 (c : Dev nD) : (dat2 V c).Φ (Fin.last cfg2.N) ⊢ Pipeline.ΦA spec2 c := by
  rw [show (dat2 V c).Φ (Fin.last cfg2.N) = Phi2 V c (Fin.last cfg2.N).val (Nat.le_of_lt_succ (Fin.last cfg2.N).isLt) from rfl,
    Phi2_pos V c _ _ (by rw [Fin.val_last]; have : cfg2.N = 5 := N_2; omega), PhiA2_eq]
  iintro ⟨⟨HS, Hrest⟩, Hg⟩
  isplitl [HS Hrest]
  · isplitl [HS]; · iexists _; iexact HS
    iexact Hrest
  iexact Hg

end Region

end Cert.Kernel.Hand

end
-- ==== Proof.K.R3.lean ====
/-
  The fourth kernel region: `A · S` for the 10000 × 10240 adjacency `A` and the 10240 × 128 padded table `S`, one
  1000 × 128 block of the result per row block (10 of them), the 10240 columns of `A` taken 1280 at a time (8 steps).
  At a row block's first step the body zeroes its accumulator (a scratch buffer that lives across grid points); at every
  step it adds the product of the current 1000 × 1280 and 1280 × 128 blocks; at the last step it stores the
  accumulator into the result's block. Between a row block's first and last steps the result's staging buffer is left
  alone and is not written back.
-/
import proofs.«420245_j23562190586108_1_alg».proof.Proof.Gen.Kernel.Launch
import proofs.«420245_j23562190586108_1_alg».proof.Proof.Gen.Kernel.Skeleton
import proofs.«420245_j23562190586108_1_alg».proof.Proof.Gen.Kernel.Points
import proofs.«420245_j23562190586108_1_alg».proof.Proof.Spec
import proofs.«420245_j23562190586108_1_alg».proof.Proof.Bridge
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

open scoped BigOperators

namespace Cert.Kernel.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Bridge

variable {F : FTy → Type} [FloatOps F]

local notation "𝕄" => MT nD τ sig Unit (Elt F) ℕ (UR sig nD τ) ℕ

section Region

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not: where it is not
    fetched its block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's two conditions, over the grid -/

/-- "This is the row block's first step": the reduction coordinate is 0. -/
abbrev first3 (i : grid3.Coords) : Prop := (Scalar.cmpi .ne (Scalar.extui (Scalar.cmpi .eq (BitVec.ofNat 32 (i 2).val) 0#32)) 0#32) = 1#1
/-- "This is the row block's last step": the reduction coordinate is 7. -/
abbrev last3 (i : grid3.Coords) : Prop := k3_cond2 i = 1#1

theorem hfirst3 : ∀ t : Fin cfg3.N, first3 (grid3.coords t) ↔ t.val % 8 = 0 :=
  (by decide +kernel : ∀ t : Fin grid3.N, first3 (grid3.coords t) ↔ t.val % 8 = 0)
theorem hlast3 : ∀ t : Fin cfg3.N, last3 (grid3.coords t) ↔ t.val % 8 = 7 :=
  (by decide +kernel : ∀ t : Fin grid3.N, last3 (grid3.coords t) ↔ t.val % 8 = 7)

/-- The inputs are never idle; the result's window is idle, and not written back, exactly off the last steps. -/
theorem live3_0 : ∀ t : Fin cfg3.N, cfg3.idle 0 (grid3.coords t) = false := by decide +kernel
theorem live3_1 : ∀ t : Fin cfg3.N, cfg3.idle 1 (grid3.coords t) = false := by decide +kernel
theorem idle3_2 : ∀ t : Fin cfg3.N, ¬last3 (grid3.coords t) → cfg3.idle 2 (grid3.coords t) = true := by decide +kernel
theorem noflush3_2 : ∀ t : Fin cfg3.N, ¬last3 (grid3.coords t) → (cfg3.win 2).flush t = false := by decide +kernel
theorem live3_2 : ∀ t : Fin cfg3.N, last3 (grid3.coords t) → cfg3.idle 2 (grid3.coords t) = false := by decide +kernel

/-! ## The body's triples, one per reachable pair of conditions -/

theorem hz2' : (![0, 0] : Fin 2 → Nat) = fun _ => 0 := by funext a; fin_cases a <;> rfl

set_option maxHeartbeats 1000000 in
/-- A first step that is not a last one: whatever the accumulator held, it ends at the product added to zero; the
    result's buffer is untouched. -/
theorem sound_kernel3_first (c : Dev nD) (E : Set ℕ) (i : grid3.Coords)
    (arg3 : Memref sig .tc .vmem S1000x1280 .f32) (harg3 : arg3.IsWhole) (arg4 : Memref sig .tc .vmem S1280x128 .f32) (harg4 : arg4.IsWhole)
    (arg5 : Memref sig .tc .vmem S1000x128 .f32) (harg5 : arg5.IsWhole) (arg6 : Memref sig .tc .vmem S1000x128 .f32) (harg6 : arg6.IsWhole)
    (hc1 : first3 i) (hc2 : ¬last3 i)
    (x0 : Vec F S1000x1280 .f32) (x1 : Vec F S1280x128 .f32) (xo : Vec F S1000x128 .f32) (K : PUnit → sProp 𝕄) :
    iprop(owns (c : Thread nD τ) arg3 fullShare x0 ∗ owns (c : Thread nD τ) arg4 fullShare x1 ∗ owns (c : Thread nD τ) arg5 fullShare xo
        ∗ (∃ d, owns (c : Thread nD τ) arg6 fullShare d)
        ∗ (iprop(owns (c : Thread nD τ) arg3 fullShare x0 ∗ owns (c : Thread nD τ) arg4 fullShare x1 ∗ owns (c : Thread nD τ) arg5 fullShare xo
            ∗ owns (c : Thread nD τ) arg6 fullShare (k3_pay2 x0 x1 (k3_pay1 (F := F)))) -∗ K ⟨⟩))
      ⊢ wp frame (wpE (defs₀ (F := F)) Variants.none c none) E (cc3__mm_kernel i arg3 harg3 arg4 harg4 arg5 harg5 arg6 harg6) K := by
  simp only [cc3__mm_kernel_eq_skeleton]; unfold cc3__mm_kernel_skel
  unfold owns
  iintro ⟨⟨%f0, %hf0, H0⟩, ⟨%f1, %hf1, H1⟩, ⟨%f2, %hf2, H2⟩, ⟨%d, %f3, -, H3⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_cons_self, View.mem_set_unit_zero hz2' inb_S1000x128_S1000x128_0_0 y⟩),
    View.canon_cons_unit_zero (S := S1000x128) hz2']
  sl_unfold_run_names
  rw [View.readCov_unit_zero (S := S1000x128) _ hz2']
  simp only [View.readAt_eq_ld, View.ld_unit_zero (S := S1000x1280) hz2', View.ld_unit_zero (S := S1280x128) hz2']

set_option maxHeartbeats 1000000 in
/-- A step that is neither first nor last: the accumulator, at `xs`, ends at the product added to `xs`; the result's
    buffer is untouched. -/
theorem sound_kernel3_mid (c : Dev nD) (E : Set ℕ) (i : grid3.Coords)
    (arg3 : Memref sig .tc .vmem S1000x1280 .f32) (harg3 : arg3.IsWhole) (arg4 : Memref sig .tc .vmem S1280x128 .f32) (harg4 : arg4.IsWhole)
    (arg5 : Memref sig .tc .vmem S1000x128 .f32) (harg5 : arg5.IsWhole) (arg6 : Memref sig .tc .vmem S1000x128 .f32) (harg6 : arg6.IsWhole)
    (hc1 : ¬first3 i) (hc2 : ¬last3 i)
    (x0 : Vec F S1000x1280 .f32) (x1 : Vec F S1280x128 .f32) (xo : Vec F S1000x128 .f32) (xs : Vec F S1000x128 .f32) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare xs
        ∗ (iprop(owns (c : Thread nD τ) arg3 fullShare x0 ∗ owns (c : Thread nD τ) arg4 fullShare x1 ∗ owns (c : Thread nD τ) arg5 fullShare xo
            ∗ owns (c : Thread nD τ) arg6 fullShare (k3_pay2 x0 x1 xs)) -∗ K ⟨⟩))
      ⊢ wp frame (wpE (defs₀ (F := F)) Variants.none c none) E (cc3__mm_kernel i arg3 harg3 arg4 harg4 arg5 harg5 arg6 harg6) K := by
  simp only [cc3__mm_kernel_eq_skeleton]; unfold cc3__mm_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_cons_self, View.mem_set_unit_zero hz2' inb_S1000x128_S1000x128_0_0 y⟩),
    View.canon_cons_unit_zero (S := S1000x128) hz2']
  sl_unfold_run_names
  simp only [View.readAt_eq_ld, View.ld_unit_zero (S := S1000x1280) hz2', View.ld_unit_zero (S := S1280x128) hz2',
    View.ld_unit_zero (S := S1000x128) hz2']

set_option maxHeartbeats 1000000 in
/-- A last step that is not a first one: the accumulator, at `xs`, ends at the product added to `xs`, and the result's
    buffer, whatever it held, at that. -/
theorem sound_kernel3_last (c : Dev nD) (E : Set ℕ) (i : grid3.Coords)
    (arg3 : Memref sig .tc .vmem S1000x1280 .f32) (harg3 : arg3.IsWhole) (arg4 : Memref sig .tc .vmem S1280x128 .f32) (harg4 : arg4.IsWhole)
    (arg5 : Memref sig .tc .vmem S1000x128 .f32) (harg5 : arg5.IsWhole) (arg6 : Memref sig .tc .vmem S1000x128 .f32) (harg6 : arg6.IsWhole)
    (hc1 : ¬first3 i) (hc2 : last3 i)
    (x0 : Vec F S1000x1280 .f32) (x1 : Vec F S1280x128 .f32) (xs : Vec F S1000x128 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare xs
        ∗ (iprop(owns (c : Thread nD τ) arg3 fullShare x0 ∗ owns (c : Thread nD τ) arg4 fullShare x1
            ∗ owns (c : Thread nD τ) arg5 fullShare (k3_pay2 x0 x1 xs)
            ∗ owns (c : Thread nD τ) arg6 fullShare (k3_pay2 x0 x1 xs)) -∗ K ⟨⟩))
      ⊢ wp frame (wpE (defs₀ (F := F)) Variants.none c none) E (cc3__mm_kernel i arg3 harg3 arg4 harg4 arg5 harg5 arg6 harg6) K := by
  simp only [cc3__mm_kernel_eq_skeleton]; unfold cc3__mm_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_eq_canon _ _ _ (fun y => ⟨_, List.mem_cons_self, View.mem_set_unit_zero hz2' inb_S1000x128_S1000x128_0_0 y⟩),
      View.canon_cons_unit_zero (S := S1000x128) hz2', View.readCov_unit_zero (S := S1000x128) _ hz2']
    simp only [View.readAt_eq_ld, View.ld_unit_zero (S := S1000x1280) hz2', View.ld_unit_zero (S := S1280x128) hz2',
      View.ld_unit_zero (S := S1000x128) hz2']
  iexists _; isplitr
  swap; · iexact H3
  ipureintro
  sl_unfold_run_names
  rw [View.read_writes_eq_canon _ _ _ (fun y => ⟨_, List.mem_cons_self, View.mem_set_unit_zero hz2' inb_S1000x128_S1000x128_0_0 y⟩),
    View.canon_cons_unit_zero (S := S1000x128) hz2']
  simp only [View.readAt_eq_ld, View.ld_unit_zero (S := S1000x1280) hz2', View.ld_unit_zero (S := S1280x128) hz2',
    View.ld_unit_zero (S := S1000x128) hz2']

/-! ## The accumulator, point by point -/

/-- The kernel's scratch operand: the accumulator, a whole scoped buffer of its own. -/
abbrev scM3 : Memref sig .tc .vmem S1000x128 .f32 := Memref.whole cc3_scratch0

/-- What the accumulator holds after the body at position `n`: the product of the point's two blocks added to zero at
    a row block's first step, to what the step before left otherwise. -/
def acc3 (c : Dev nD) : (n : ℕ) → n < cfg3.N → Vec F S1000x128 .f32
  | 0, h => k3_pay2 (iblk3 V c 0 ⟨0, h⟩) (iblk3 V c 1 ⟨0, h⟩) (k3_pay1 (F := F))
  | n + 1, h => k3_pay2 (iblk3 V c 0 ⟨n + 1, h⟩) (iblk3 V c 1 ⟨n + 1, h⟩)
      (if (n + 1) % 8 = 0 then k3_pay1 (F := F) else acc3 c n (Nat.lt_of_succ_lt h))

theorem acc3_first (c : Dev nD) (t : Fin cfg3.N) (h : t.val % 8 = 0) :
    acc3 V c t.val t.isLt = k3_pay2 (iblk3 V c 0 t) (iblk3 V c 1 t) (k3_pay1 (F := F)) := by
  obtain ⟨n, hn⟩ := t
  cases n with
  | zero => rfl
  | succ n => exact congrArg (k3_pay2 _ _) (if_pos h)

theorem acc3_next (c : Dev nD) (t : Fin cfg3.N) (h : ¬t.val % 8 = 0) :
    acc3 V c t.val t.isLt = k3_pay2 (iblk3 V c 0 t) (iblk3 V c 1 t)
      (acc3 V c (t.val - 1) (Nat.lt_of_le_of_lt (Nat.sub_le _ _) t.isLt)) := by
  obtain ⟨n, hn⟩ := t
  cases n with
  | zero => exact absurd (Nat.zero_mod _) h
  | succ n => exact congrArg (k3_pay2 _ _) (if_neg h)

/-! ## The region invariant -/

/-- Before position `n`: at the region's entry the scoped rest (the accumulator among it) at anything and the generator
    register; afterwards the accumulator at what the point before left, the rest of the scoped rest unopened. -/
def Phi3 (c : Dev nD) : (n : ℕ) → n ≤ cfg3.N → sProp 𝕄
  | 0, _ => Pipeline.ΦA spec3 c
  | n + 1, hn => iprop(iprop(owns (c : Thread nD τ) scM3 fullShare (acc3 V c n hn)
      ∗ Pipeline.scopedRestBut (Ix := Unit) (Name := ℕ) (U := UR sig nD τ) (Lvl := ℕ) (Val := Elt F) spec3 c [cc3_scratch0])
      ∗ (∃ r, prngReg c r))

theorem Phi3_zero (c : Dev nD) (n : ℕ) (h : n ≤ cfg3.N) (hz : n = 0) : Phi3 V c n h = Pipeline.ΦA spec3 c := by
  subst hz; rfl

theorem Phi3_succ (c : Dev nD) (n : ℕ) (hn : n < cfg3.N) :
    Phi3 V c (n + 1) hn = iprop(iprop(owns (c : Thread nD τ) scM3 fullShare (acc3 V c n hn)
      ∗ Pipeline.scopedRestBut (Ix := Unit) (Name := ℕ) (U := UR sig nD τ) (Lvl := ℕ) (Val := Elt F) spec3 c [cc3_scratch0])
      ∗ (∃ r, prngReg c r)) := rfl

theorem Phi3_pos (c : Dev nD) (n : ℕ) (h : n ≤ cfg3.N) (hz : n ≠ 0) :
    Phi3 V c n h = iprop(iprop(owns (c : Thread nD τ) scM3 fullShare (acc3 V c (n - 1) (by omega))
      ∗ Pipeline.scopedRestBut (Ix := Unit) (Name := ℕ) (U := UR sig nD τ) (Lvl := ℕ) (Val := Elt F) spec3 c [cc3_scratch0])
      ∗ (∃ r, prngReg c r)) := by
  cases n with
  | zero => exact absurd rfl hz
  | succ n => rfl

/-- The entry invariant with the accumulator split off the scoped rest. -/
theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0])
          ∗ (∃ r, prngReg c r)) := by
  unfold Pipeline.ΦA; rw [scopedRest3_split]; simp only [scM3, owns_whole]; rfl

/-! ## The proof data -/

/-- The arrays as the region finds them; after the body each input's buffer at its block and the result's at the
    accumulator (read only at a row block's last step, the one point that writes the block back); the invariant
    above; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c t.val t.isLt
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem Phi3_castSucc (c : Dev nD) (t : Fin cfg3.N) :
    (dat3 V c).Φ t.castSucc = Phi3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = acc3 V c t.val t.isLt := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4000000 in
/-- The body at any point: the inputs' buffers hold their blocks; the point's position modulo 8 says which of the
    three triples applies; the invariant hands the accumulator over at what the step before left (at anything at the
    region's first point) and takes it back at this step's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = Phi3 V c (t.val + 1) t.isLt from rfl, Phi3_succ]
  rw [show (dat3 V c).leavesExact 0 t = owns (c : Thread nD τ) (st3_0 t) fullShare ((dat3 V c).after 0 t) from by
    unfold Dat.leavesExact; rw [live3_0 t], after3_0]
  rw [show (dat3 V c).leavesExact 1 t = owns (c : Thread nD τ) (st3_1 t) fullShare ((dat3 V c).after 1 t) from by
    unfold Dat.leavesExact; rw [live3_1 t], after3_1]
  have hN : t.val < 80 := lt_of_lt_of_eq t.isLt (show cfg3.N = 80 from N_3)
  by_cases h7 : t.val % 8 = 7
  · -- a last step
    have h0 : ¬t.val % 8 = 0 := by omega
    have hz : t.val ≠ 0 := by omega
    rw [show (dat3 V c).leavesExact 2 t = owns (c : Thread nD τ) (st3_2 t) fullShare ((dat3 V c).after 2 t) from by
      unfold Dat.leavesExact; rw [live3_2 t ((hlast3 t).mpr h7)], after3_2]
    rw [acc3_next V c t h0, Phi3_castSucc V c t, Phi3_pos V c _ _ hz]
    iintro ⟨⟨⟨HS, Hrest⟩, Hg⟩, Ho, ⟨%d0, H0⟩, ⟨%d1, H1⟩, ⟨%d2, H2⟩⟩
    iapply (sound_kernel3_last c Set.univ (grid3.coords t) _ _ _ _ _ _ _ _ (fun h => h0 ((hfirst3 t).mp h)) ((hlast3 t).mpr h7)
      (iblk3 V c 0 t) (iblk3 V c 1 t) _ _)
    isplitl [H0]; · iexact H0
    isplitl [H1]; · iexact H1
    isplitl [H2]; · iexists _; iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexact H2
  · rw [Dat.leavesExact_idle (dat3 V c) 2 t (idle3_2 t (fun h => h7 ((hlast3 t).mp h))) (noflush3_2 t (fun h => h7 ((hlast3 t).mp h)))]
    by_cases h0 : t.val % 8 = 0
    · -- a first step
      rw [acc3_first V c t h0]
      by_cases hz : t.val = 0
      · rw [Phi3_castSucc V c t, Phi3_zero V c _ _ hz, PhiA3_eq]
        iintro ⟨⟨⟨HS, Hrest⟩, Hg⟩, Ho, ⟨%d0, H0⟩, ⟨%d1, H1⟩, ⟨%d2, H2⟩⟩
        iapply (sound_kernel3_first c Set.univ (grid3.coords t) _ _ _ _ _ _ _ _ ((hfirst3 t).mpr h0) (fun h => h7 ((hlast3 t).mp h))
          (iblk3 V c 0 t) (iblk3 V c 1 t) _ _)
        isplitl [H0]; · iexact H0
        isplitl [H1]; · iexact H1
        isplitl [H2]; · iexact H2
        isplitl [HS]; · iexact HS
        iintro ⟨H0, H1, H2, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        iexists _; iexact H2
      · rw [Phi3_castSucc V c t, Phi3_pos V c _ _ hz]
        iintro ⟨⟨⟨HS, Hrest⟩, Hg⟩, Ho, ⟨%d0, H0⟩, ⟨%d1, H1⟩, ⟨%d2, H2⟩⟩
        iapply (sound_kernel3_first c Set.univ (grid3.coords t) _ _ _ _ _ _ _ _ ((hfirst3 t).mpr h0) (fun h => h7 ((hlast3 t).mp h))
          (iblk3 V c 0 t) (iblk3 V c 1 t) _ _)
        isplitl [H0]; · iexact H0
        isplitl [H1]; · iexact H1
        isplitl [H2]; · iexact H2
        isplitl [HS]; · iexists _; iexact HS
        iintro ⟨H0, H1, H2, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        iexists _; iexact H2
    · -- a middle step
      have hz : t.val ≠ 0 := fun e => h0 (by rw [e])
      rw [acc3_next V c t h0, Phi3_castSucc V c t, Phi3_pos V c _ _ hz]
      iintro ⟨⟨⟨HS, Hrest⟩, Hg⟩, Ho, ⟨%d0, H0⟩, ⟨%d1, H1⟩, ⟨%d2, H2⟩⟩
      iapply (sound_kernel3_mid c Set.univ (grid3.coords t) _ _ _ _ _ _ _ _ (fun h => h0 ((hfirst3 t).mp h)) (fun h => h7 ((hlast3 t).mp h))
        (iblk3 V c 0 t) (iblk3 V c 1 t) _ _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the region is handed at its entry is the invariant before the first point. -/
theorem hin3 (c : Dev nD) : Pipeline.ΦA spec3 c ⊢ (dat3 V c).Φ 0 := by
  rw [show (dat3 V c).Φ 0 = Phi3 V c 0 (Nat.zero_le _) from rfl, Phi3_zero V c 0 _ rfl]

/-- After the last point the invariant gives the entry's form back: the accumulator's contents are forgotten. -/
theorem hout3 (c : Dev nD) : (dat3 V c).Φ (Fin.last cfg3.N) ⊢ Pipeline.ΦA spec3 c := by
  rw [show (dat3 V c).Φ (Fin.last cfg3.N) = Phi3 V c (Fin.last cfg3.N).val (Nat.le_of_lt_succ (Fin.last cfg3.N).isLt) from rfl,
    Phi3_pos V c _ _ (by rw [Fin.val_last]; have : cfg3.N = 80 := N_3; omega), PhiA3_eq]
  iintro ⟨⟨HS, Hrest⟩, Hg⟩
  isplitl [HS Hrest]
  · isplitl [HS]; · iexists _; iexact HS
    iexact Hrest
  iexact Hg

end Region

end Cert.Kernel.Hand

end
-- ==== Proof.K.R4.lean ====
/-
  The fifth kernel region: the decoder's product `mu · mu_padᵀ`, one 1000 × 1280 block of the result per grid point
  (10 × 8 points), each block the product of a 1000 × 64 row block with a 1280 × 64 row block over the 64 columns.
  The body loads its two input blocks whole, stores the product whole, and keeps nothing between points.
-/
import proofs.«420245_j23562190586108_1_alg».proof.Proof.Gen.Kernel.Launch
import proofs.«420245_j23562190586108_1_alg».proof.Proof.Gen.Kernel.Skeleton
import proofs.«420245_j23562190586108_1_alg».proof.Proof.Gen.Kernel.Points
import proofs.«420245_j23562190586108_1_alg».proof.Proof.Spec
import proofs.«420245_j23562190586108_1_alg».proof.Proof.Bridge
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

open scoped BigOperators

namespace Cert.Kernel.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Bridge

variable {F : FTy → Type} [FloatOps F]

local notation "𝕄" => MT nD τ sig Unit (Elt F) ℕ (UR sig nD τ) ℕ

section Region

-- the TensorCore's buffer contents when the region is entered
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The region's proof data: the arrays as found; after the body each input's buffer at its block and the output's at
    the product of the two input blocks; the invariant the scoped rest and the generator register, untouched. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => k4_pay1 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

/-! ## What the body leaves, window by window -/

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) :
    (dat4 V c).after 2 t = k4_pay1 (iblk4 V c 0 t) (iblk4 V c 1 t) := by dsimp only [dat4]

/-! ## What the body finds in each input's buffer -/

/-- The first input's buffer holds its block at every point, fetched there or not: unfetched, the block index has
    not moved and the body left the block in place. -/
theorem before4_0 (c : Dev nD) (t : Fin cfg4.N) (d) : (dat4 V c).before 0 t d = iblk4 V c 0 t :=
  ((dat4 V c).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)

/-- The second input's buffer holds its block at every point. -/
theorem before4_1 (c : Dev nD) (t : Fin cfg4.N) (d) : (dat4 V c).before 1 t d = iblk4 V c 1 t :=
  ((dat4 V c).before_in_eq_fetched 1 rfl (fun _ => rfl) (fun _ _ _ => rfl)
      (fun t => by rw [after4_1]; unfold Dat.blockOf iblk4; rw [A_eq4]; try rfl) t d).trans
    (by unfold Dat.fetched Dat.blockOf iblk4; rw [A_eq4]; try rfl)

/-! ## The body's triple -/

/-- The offsets `![0, 0]` are the zero offsets. -/
theorem zero_off : (![0, 0] : Fin 2 → Nat) = fun _ => 0 := by funext a; fin_cases a <;> rfl

set_option maxHeartbeats 1000000 in
/-- The body on whole staging memrefs, the inputs' reading `x0` and `x1` and the output's holding anything, runs to
    the continuation with the inputs' as they were and the output's reading the product payload of `x0` and `x1`: both
    loads and the store go through the whole rectangle. -/
theorem sound_kernel4 (c : Dev nD) (E : Set ℕ) (i : grid4.Coords) (arg2 : Memref sig .tc .vmem S1000x64 .f32) (harg2 : arg2.IsWhole)
    (arg3 : Memref sig .tc .vmem S1280x64 .f32) (harg3 : arg3.IsWhole)
    (arg4 : Memref sig .tc .vmem S1000x1280 .f32) (harg4 : arg4.IsWhole)
    (x0 : Vec F S1000x64 .f32) (x1 : Vec F S1280x64 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (k4_pay1 x0 x1)) -∗ K ⟨⟩))
      ⊢ wp frame (wpE (defs₀ (F := F)) Variants.none c none) E (cc4__mm_bt_kernel i arg2 harg2 arg3 harg3 arg4 harg4) K := by
  simp only [cc4__mm_bt_kernel_eq_skeleton]; unfold cc4__mm_bt_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y =>
      ⟨_, List.mem_cons_self, View.mem_set_unit_zero zero_off inb_S1000x1280_S1000x1280_0_0 y⟩),
    View.canon_unit_zero (S := S1000x1280) zero_off]
  simp only [View.readAt_eq_ld, View.ld_unit_zero (S := S1000x64) zero_off, View.ld_unit_zero (S := S1280x64) zero_off]

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so the body's triple applies; the invariant and the
    core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body at every point takes the proof data's invariant and buffers to the next point's. -/
theorem body_obligation4 (c : Dev nD) : BodyObligation (dat4 (F := F) V c) (defs₀ (F := F)) Variants.none () Set.univ := fun t => by
  rw [bigSep_W4, bigSep_W4]
  exact sound_body4 V c t

end Region

/-! ## The product payload at an index -/

/-- The contraction's two index maps, axis by axis: the left operand is read at the result's row and the contraction
    position, the right operand at the result's column and the contraction position. -/
theorem lhs4_0 (j : S1000x1280.Idx) (q : dot_S1000x64_S1280x64_S1000x1280_1_1_0_0_n_n.contr.Idx) :
    (dot_S1000x64_S1280x64_S1000x1280_1_1_0_0_n_n.lhsIdx j q 0).val = (j 0).val := by
  unfold DotDims.lhsIdx
  rw [dif_neg (show ¬(0 : Fin S1000x64.rank) ∈ dot_S1000x64_S1280x64_S1000x1280_1_1_0_0_n_n.lhsBatch by decide),
    dif_pos (show (0 : Fin S1000x64.rank) ∈ dot_S1000x64_S1280x64_S1000x1280_1_1_0_0_n_n.lhsNonContracting by decide)]
  rfl
theorem lhs4_1 (j : S1000x1280.Idx) (q : dot_S1000x64_S1280x64_S1000x1280_1_1_0_0_n_n.contr.Idx) :
    (dot_S1000x64_S1280x64_S1000x1280_1_1_0_0_n_n.lhsIdx j q 1).val = (q ⟨0, by decide⟩).val :=
  dot_S1000x64_S1280x64_S1000x1280_1_1_0_0_n_n.lhsIdx_val_of_single rfl j q
theorem rhs4_0 (j : S1000x1280.Idx) (q : dot_S1000x64_S1280x64_S1000x1280_1_1_0_0_n_n.contr.Idx) :
    (dot_S1000x64_S1280x64_S1000x1280_1_1_0_0_n_n.rhsIdx j q 0).val = (j 1).val := by
  unfold DotDims.rhsIdx
  rw [dif_neg (show ¬(0 : Fin S1280x64.rank) ∈ dot_S1000x64_S1280x64_S1000x1280_1_1_0_0_n_n.rhsBatch by decide),
    dif_pos (show (0 : Fin S1280x64.rank) ∈ dot_S1000x64_S1280x64_S1000x1280_1_1_0_0_n_n.rhsNonContracting by decide)]
  rfl
theorem rhs4_1 (j : S1000x1280.Idx) (q : dot_S1000x64_S1280x64_S1000x1280_1_1_0_0_n_n.contr.Idx) :
    (dot_S1000x64_S1280x64_S1000x1280_1_1_0_0_n_n.rhsIdx j q 1).val = (q ⟨0, by decide⟩).val :=
  dot_S1000x64_S1280x64_S1000x1280_1_1_0_0_n_n.rhsIdx_val_of_single rfl j q

/-- At the extended reals the payload at `(p, q)` is the sum over the 64 columns of the first block at `(p, k)` times
    the second at `(q, k)`: the casts to the same shape and the narrowings are identities, the accumulator is zero. -/
theorem pay4_apply (x0 : Vec Ideal S1000x64 .f32) (x1 : Vec Ideal S1280x64 .f32) (j : S1000x1280.Idx) :
    k4_pay1 (F := Ideal) x0 x1 j = ∑ k : Fin 64, x0 (ix2 (j 0) k) * x1 (ix2 (j 1) k) := by
  unfold k4_pay1
  simp only [shapeCast_self]
  refine (Ideal.matmul_constant_zero_apply dot_S1000x64_S1280x64_S1000x1280_1_1_0_0_n_n none _ _ j).trans ?_
  rw [← Equiv.sum_comp (contrEquiv1 dot_S1000x64_S1280x64_S1000x1280_1_1_0_0_n_n 64 rfl rfl).symm]
  refine Finset.sum_congr rfl fun k _ => ?_
  have hk := contrEquiv1_symm_val dot_S1000x64_S1280x64_S1000x1280_1_1_0_0_n_n 64 rfl rfl k
  have el : dot_S1000x64_S1280x64_S1000x1280_1_1_0_0_n_n.lhsIdx j ((contrEquiv1 dot_S1000x64_S1280x64_S1000x1280_1_1_0_0_n_n 64 rfl rfl).symm k) = ix2 (j 0) k :=
    funext fun a => Fin.ext (by
      match a with
      | ⟨0, _⟩ => exact lhs4_0 _ _
      | ⟨1, _⟩ => exact (lhs4_1 _ _).trans hk)
  have er : dot_S1000x64_S1280x64_S1000x1280_1_1_0_0_n_n.rhsIdx j ((contrEquiv1 dot_S1000x64_S1280x64_S1000x1280_1_1_0_0_n_n 64 rfl rfl).symm k) = ix2 (j 1) k :=
    funext fun a => Fin.ext (by
      match a with
      | ⟨0, _⟩ => exact rhs4_0 _ _
      | ⟨1, _⟩ => exact (rhs4_1 _ _).trans hk)
  rw [el, er]
  rfl

/-! ## From the blocks to the array -/

/-- The result array's contents after the region, index by index, from the two operand arrays. -/
abbrev G4 (a0 : S10000x64.Idx → EReal) (a1 : S10240x64.Idx → EReal) : S10000x10240.Idx → EReal :=
  fun i => ∑ k : Fin 64, a0 (ix2 (i 0) k) * a1 (ix2 (i 1) k)

theorem G4_apply (a0 : S10000x64.Idx → EReal) (a1 : S10240x64.Idx → EReal) (i : S10000x10240.Idx) :
    G4 a0 a1 i = ∑ k : Fin 64, a0 (ix2 (i 0) k) * a1 (ix2 (i 1) k) := rfl

/-- The printed index maps, decided over the grid: the result's block row is the first operand's, its block column the
    second operand's block row, and neither operand's block moves along the columns. -/
theorem idx_facts4 : ∀ t : Fin cfg4.N, win4_2.index t (0 : Fin 2) = win4_0.index t (0 : Fin 2)
    ∧ win4_2.index t (1 : Fin 2) = win4_1.index t (0 : Fin 2)
    ∧ win4_0.index t (1 : Fin 2) = 0 ∧ win4_1.index t (1 : Fin 2) = 0 :=
  (by decide +kernel : ∀ t : Fin grid4.N, _)

/-- Every block of the result is some point's. -/
theorem idx_onto4 : ∀ (q0 : Fin 10) (q1 : Fin 8), ∃ t : Fin cfg4.N, win4_2.index t = ![q0.val, q1.val] :=
  (by decide +kernel : ∀ (q0 : Fin 10) (q1 : Fin 8), ∃ t : Fin grid4.N, win4_2.index t = ![q0.val, q1.val])

/-- What point `t` writes back is block `t` of `G4` of the operand arrays as the region finds them. -/
theorem flushed4_eq (V : (c : Dev nD) → (b : Ref sig .tc) → Buf (Elt Ideal) ((c : Thread nD τ).loc b)) (c : Dev nD)
    (t : Fin cfg4.N) :
    (dat4 (F := Ideal) V c).flushed 2 t
      = ((cfg4.win 2).blk t).view.read (Elt Ideal) (G4 (V c main_v22) (V c main_v24)) := by
  show (cfg4.win 2).cut (grid4.coords t) ((dat4 (F := Ideal) V c).after 2 t) = _
  rw [after4_2]
  obtain ⟨e0, e1, e2, e3⟩ := idx_facts4 t
  funext j
  refine (pay4_apply (iblk4 V c 0 t) (iblk4 V c 1 t) ((cfg4.win 2).xinj (grid4.coords t) j)).trans ?_
  change _ = G4 (V c main_v22) (V c main_v24) (((cfg4.win 2).blk t).view.emb j)
  rw [G4_apply]
  refine Finset.sum_congr rfl fun k _ => ?_
  have h0 : iblk4 V c 0 t (ix2 ((cfg4.win 2).xinj (grid4.coords t) j 0) k)
      = V c main_v22 (ix2 (((cfg4.win 2).blk t).view.emb j 0) k) := by
    show V c main_v22 (((cfg4.win 0).blk t).view.emb (ix2 ((cfg4.win 2).xinj (grid4.coords t) j 0) k)) = _
    congr 1
    funext a
    apply Fin.ext
    match a with
    | ⟨0, _⟩ =>
      show win4_0.index t (0 : Fin 2) * 1000 + 1 * (j 0).val = win4_2.index t (0 : Fin 2) * 1000 + 1 * (j 0).val
      rw [e0]
    | ⟨1, _⟩ =>
      show win4_0.index t (1 : Fin 2) * 64 + 1 * k.val = k.val
      rw [e2]; omega
  have h1 : iblk4 V c 1 t (ix2 ((cfg4.win 2).xinj (grid4.coords t) j 1) k)
      = V c main_v24 (ix2 (((cfg4.win 2).blk t).view.emb j 1) k) := by
    show V c main_v24 (((cfg4.win 1).blk t).view.emb (ix2 ((cfg4.win 2).xinj (grid4.coords t) j 1) k)) = _
    congr 1
    funext a
    apply Fin.ext
    match a with
    | ⟨0, _⟩ =>
      show win4_1.index t (0 : Fin 2) * 1280 + 1 * (j 1).val = win4_2.index t (1 : Fin 2) * 1280 + 1 * (j 1).val
      rw [e1]
    | ⟨1, _⟩ =>
      show win4_1.index t (1 : Fin 2) * 64 + 1 * k.val = k.val
      rw [e3]; omega
  rw [h0, h1]

/-- An index of the array is in point `t`'s block iff each coordinate is in the block's range on its axis. -/
theorem mem_blk4 (t : Fin cfg4.N) (i : S10000x10240.Idx) :
    i ∈ ((cfg4.win 2).blk t).view.set ↔ ∀ a : Fin 2, win4_2.index t a * S1000x1280.size a ≤ (i a).val
      ∧ (i a).val < win4_2.index t a * S1000x1280.size a + S1000x1280.size a := by
  show i ∈ ((View.whole main_v25).slice (win4_2.rect t)).set ↔ _
  rw [View.set_slice_whole, Rect.mem_set_unit]
  exact Iff.rfl

/-- Every index of the result array is in the block of the point whose coordinates are its row over 1000 and its
    column over 1280. -/
theorem cover4 (i : S10000x10240.Idx) :
    ∃ t : Fin cfg4.N, (cfg4.win 2).flush t = true ∧ i ∈ ((cfg4.win 2).blk t).view.set := by
  have hi0 : (i 0).val < 10000 := (i 0).isLt
  have hi1 : (i 1).val < 10240 := (i 1).isLt
  obtain ⟨t, ht⟩ := idx_onto4 ⟨(i 0).val / 1000, by omega⟩ ⟨(i 1).val / 1280, by omega⟩
  have q0 : win4_2.index t (0 : Fin 2) = (i 0).val / 1000 := congrFun ht 0
  have q1 : win4_2.index t (1 : Fin 2) = (i 1).val / 1280 := congrFun ht 1
  refine ⟨t, flush4_2 t, ?_⟩
  rw [mem_blk4]
  intro a
  match a with
  | ⟨0, _⟩ =>
    show win4_2.index t (0 : Fin 2) * 1000 ≤ (i 0).val ∧ (i 0).val < win4_2.index t (0 : Fin 2) * 1000 + 1000
    omega
  | ⟨1, _⟩ =>
    show win4_2.index t (1 : Fin 2) * 1280 ≤ (i 1).val ∧ (i 1).val < win4_2.index t (1 : Fin 2) * 1280 + 1280
    omega

/-- At the extended reals, after the region the result array holds, at `(r, r')`, the sum over the 64 columns of the
    first operand at `(r, k)` times the second at `(r', k)`. -/
theorem out4_eq (V : (c : Dev nD) → (b : Ref sig .tc) → Buf (Elt Ideal) ((c : Thread nD τ).loc b)) (c : Dev nD) :
    ((dat4 (F := Ideal) V c).arrAt 2 cfg4.N : S10000x10240.Idx → EReal)
      = unc (α := EReal) (A := 10000) (B := 10240) (fun r r' =>
          ∑ k : Fin 64, cur (α := EReal) (A := 10000) (B := 64) (V c main_v22) r k * cur (α := EReal) (A := 10240) (B := 64) (V c main_v24) r' k) :=
  ((dat4 (F := Ideal) V c).arrAt_eq_of_cover 2 (G4 (V c main_v22) (V c main_v24)) (fun t _ => flushed4_eq V c t)
    cover4).trans (funext fun i => rfl)

end Cert.Kernel.Hand

end
-- ==== Proof.K.Fold.lean ====
/-
  The contents of every unscoped buffer of a core at each boundary between two segments of @main, as a fold from the
  launch memory: a stretch of host operations applies its operations' functions; a kernel region replaces its arrays
  by what its write-backs leave (the inputs as entered, the output's blocks written in point order) and keeps every
  other buffer.
-/
import proofs.«420245_j23562190586108_1_alg».proof.Proof.Gen.Kernel.Launch
import proofs.«420245_j23562190586108_1_alg».proof.Proof.Gen.Kernel.Skeleton
import proofs.«420245_j23562190586108_1_alg».proof.Proof.Gen.Kernel.Points
import proofs.«420245_j23562190586108_1_alg».proof.Proof.Spec
import proofs.«420245_j23562190586108_1_alg».proof.Proof.Bridge
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic
import proofs.«420245_j23562190586108_1_alg».proof.Proof.K.R0
import proofs.«420245_j23562190586108_1_alg».proof.Proof.K.R1
import proofs.«420245_j23562190586108_1_alg».proof.Proof.K.R2
import proofs.«420245_j23562190586108_1_alg».proof.Proof.K.R3
import proofs.«420245_j23562190586108_1_alg».proof.Proof.K.R4

set_option maxRecDepth 16384

noncomputable section

open scoped BigOperators

namespace Cert.Kernel.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Bridge

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

/-- Core `c`'s buffers at launch. -/
abbrev W0 : Dev nD → Valuation τ sig (Elt F) := fun c b => m (c, b)

/-- After `hostOps0`. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline leaves (the inputs as entered, the output's write-backs folded),
    every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After `hostOps1`. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- After `hostOps1_1`. -/
abbrev W4 : Dev nD → Valuation τ sig (Elt F) := fun c => StableHlo.after hostOps1_1 (W3 m c)
abbrev V4 : (c : Dev nD) → (b : Ref sig .tc) → Buf (Elt F) ((c : Thread nD τ).loc b) := fun c b => W4 m c b

/-- At region 1's exit: its arrays at what the pipeline leaves (the inputs as entered, the output's write-backs folded),
    every other buffer as entered. -/
def W5 (c : Dev nD) : Valuation τ sig (Elt F) :=
  Pipeline.withArrays spec1 c (W4 m c) fun w => (dat1 (V4 m) c).arrAt w cfg1.N
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
/-- The same read at the TensorCore's references. -/
abbrev V5 : (c : Dev nD) → (b : Ref sig .tc) → Buf (Elt F) ((c : Thread nD τ).loc b) := fun c b => W5 m c b
theorem hF1 (c : Dev nD) (w : Fin cfg1.W) : (dat1 (V4 m) c).arrAt w cfg1.N = V5 m c (Pipeline.arrRef spec1 w) :=
  (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)

/-- After `hostOps2`. -/
abbrev W6 : Dev nD → Valuation τ sig (Elt F) := fun c => StableHlo.after hostOps2 (W5 m c)
abbrev V6 : (c : Dev nD) → (b : Ref sig .tc) → Buf (Elt F) ((c : Thread nD τ).loc b) := fun c b => W6 m c b

/-- At region 2's exit: its arrays at what the pipeline leaves (the inputs as entered, the output's write-backs folded),
    every other buffer as entered. -/
def W7 (c : Dev nD) : Valuation τ sig (Elt F) :=
  Pipeline.withArrays spec2 c (W6 m c) fun w => (dat2 (V6 m) c).arrAt w cfg2.N
theorem W7_arr (c : Dev nD) (w : Fin cfg2.W) :
    W7 m c (Proc.devRef .tc (Pipeline.arrRef spec2 w)) = (dat2 (V6 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb
/-- The same read at the TensorCore's references. -/
abbrev V7 : (c : Dev nD) → (b : Ref sig .tc) → Buf (Elt F) ((c : Thread nD τ).loc b) := fun c b => W7 m c b
theorem hF2 (c : Dev nD) (w : Fin cfg2.W) : (dat2 (V6 m) c).arrAt w cfg2.N = V7 m c (Pipeline.arrRef spec2 w) :=
  (W7_arr m c w).symm
theorem hrest2 (c : Dev nD) : ∀ b, b ∉ Finset.univ.image (Pipeline.arrRef spec2) → V7 m c b = V6 m c b :=
  fun b hb => W7_of_ne m c b fun w e => hb (Finset.mem_image.mpr ⟨w, Finset.mem_univ _, e⟩)

/-- After `hostOps3`. -/
abbrev W8 : Dev nD → Valuation τ sig (Elt F) := fun c => StableHlo.after hostOps3 (W7 m c)
abbrev V8 : (c : Dev nD) → (b : Ref sig .tc) → Buf (Elt F) ((c : Thread nD τ).loc b) := fun c b => W8 m c b

/-- After `hostOps3_1`. -/
abbrev W9 : Dev nD → Valuation τ sig (Elt F) := fun c => StableHlo.after hostOps3_1 (W8 m c)
abbrev V9 : (c : Dev nD) → (b : Ref sig .tc) → Buf (Elt F) ((c : Thread nD τ).loc b) := fun c b => W9 m c b

/-- At region 3's exit: its arrays at what the pipeline leaves (the inputs as entered, the output's write-backs folded),
    every other buffer as entered. -/
def W10 (c : Dev nD) : Valuation τ sig (Elt F) :=
  Pipeline.withArrays spec3 c (W9 m c) fun w => (dat3 (V9 m) c).arrAt w cfg3.N
theorem W10_arr (c : Dev nD) (w : Fin cfg3.W) :
    W10 m c (Proc.devRef .tc (Pipeline.arrRef spec3 w)) = (dat3 (V9 m) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb
/-- The same read at the TensorCore's references. -/
abbrev V10 : (c : Dev nD) → (b : Ref sig .tc) → Buf (Elt F) ((c : Thread nD τ).loc b) := fun c b => W10 m c b
theorem hF3 (c : Dev nD) (w : Fin cfg3.W) : (dat3 (V9 m) c).arrAt w cfg3.N = V10 m c (Pipeline.arrRef spec3 w) :=
  (W10_arr m c w).symm
theorem hrest3 (c : Dev nD) : ∀ b, b ∉ Finset.univ.image (Pipeline.arrRef spec3) → V10 m c b = V9 m c b :=
  fun b hb => W10_of_ne m c b fun w e => hb (Finset.mem_image.mpr ⟨w, Finset.mem_univ _, e⟩)

/-- After `hostOps4`. -/
abbrev W11 : Dev nD → Valuation τ sig (Elt F) := fun c => StableHlo.after hostOps4 (W10 m c)
abbrev V11 : (c : Dev nD) → (b : Ref sig .tc) → Buf (Elt F) ((c : Thread nD τ).loc b) := fun c b => W11 m c b

/-- After `hostOps4_1`. -/
abbrev W12 : Dev nD → Valuation τ sig (Elt F) := fun c => StableHlo.after hostOps4_1 (W11 m c)
abbrev V12 : (c : Dev nD) → (b : Ref sig .tc) → Buf (Elt F) ((c : Thread nD τ).loc b) := fun c b => W12 m c b

/-- At region 4's exit: its arrays at what the pipeline leaves (the inputs as entered, the output's write-backs folded),
    every other buffer as entered. -/
def W13 (c : Dev nD) : Valuation τ sig (Elt F) :=
  Pipeline.withArrays spec4 c (W12 m c) fun w => (dat4 (V12 m) c).arrAt w cfg4.N
theorem W13_arr (c : Dev nD) (w : Fin cfg4.W) :
    W13 m c (Proc.devRef .tc (Pipeline.arrRef spec4 w)) = (dat4 (V12 m) c).arrAt w cfg4.N := by
  unfold W13; exact Pipeline.withArrays_arr spec4 launch4.win.arr_inj c _ _ w
theorem W13_of_ne (c : Dev nD) (b : Ref sig .tc) (hb : ∀ w, Pipeline.arrRef spec4 w ≠ b) :
    W13 m c (Proc.devRef .tc b) = W12 m c (Proc.devRef .tc b) := by
  unfold W13; exact Pipeline.withArrays_of_ne spec4 c _ _ b hb
/-- The same read at the TensorCore's references. -/
abbrev V13 : (c : Dev nD) → (b : Ref sig .tc) → Buf (Elt F) ((c : Thread nD τ).loc b) := fun c b => W13 m c b
theorem hF4 (c : Dev nD) (w : Fin cfg4.W) : (dat4 (V12 m) c).arrAt w cfg4.N = V13 m c (Pipeline.arrRef spec4 w) :=
  (W13_arr m c w).symm
theorem hrest4 (c : Dev nD) : ∀ b, b ∉ Finset.univ.image (Pipeline.arrRef spec4) → V13 m c b = V12 m c b :=
  fun b hb => W13_of_ne m c b fun w e => hb (Finset.mem_image.mpr ⟨w, Finset.mem_univ _, e⟩)

/-- After `hostOps5`. -/
abbrev W14 : Dev nD → Valuation τ sig (Elt F) := fun c => StableHlo.after hostOps5 (W13 m c)
abbrev V14 : (c : Dev nD) → (b : Ref sig .tc) → Buf (Elt F) ((c : Thread nD τ).loc b) := fun c b => W14 m c b

end Cert.Kernel.Hand

end
-- ==== Proof.K.Run.lean ====
/-
  The whole kernel program as a run: @main is fourteen segments — stretches of host operations and the five kernel
  regions —, composed in order, each entered from the contents the fold names at its boundary. Every weakly fair
  execution terminates, nothing faulting, and every final memory holds each unscoped buffer at the fold's last contents.
-/
import proofs.«420245_j23562190586108_1_alg».proof.Proof.Gen.Kernel.Launch
import proofs.«420245_j23562190586108_1_alg».proof.Proof.Gen.Kernel.Skeleton
import proofs.«420245_j23562190586108_1_alg».proof.Proof.Gen.Kernel.Points
import proofs.«420245_j23562190586108_1_alg».proof.Proof.Spec
import proofs.«420245_j23562190586108_1_alg».proof.Proof.Bridge
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic
import proofs.«420245_j23562190586108_1_alg».proof.Proof.Gen.Kernel.Regions
import proofs.«420245_j23562190586108_1_alg».proof.Proof.K.Fold

set_option maxRecDepth 16384

noncomputable section

open scoped BigOperators

namespace Cert.Kernel.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Bridge

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No pipeline has a prefetched table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V4 m) c
  | ⟨2, _⟩ => fun c => dat2 (V6 m) c
  | ⟨3, _⟩ => fun c => dat3 (V9 m) c
  | ⟨4, _⟩ => fun c => dat4 (V12 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the `owes`: every unscoped buffer at the last contents, the generator register at some state. -/
abbrev Tₙ (c : Dev nD) : sProp 𝕄 := iprop(StableHlo.held (c : Thread nD τ) (Pipeline.ucRefs τ sig) (W14 m c) ∗ ∃ r, prngReg c r)

/-! ## The regions as segments -/

/-- The fifth region keeps the entry invariant at every point. -/
theorem hin4 (V : (c : Dev nD) → (b : Ref sig .tc) → Buf (Elt F) ((c : Thread nD τ).loc b)) (c : Dev nD) :
    Pipeline.ΦA spec4 c ⊢ (dat4 V c).Φ 0 := .rfl
theorem hout4 (V : (c : Dev nD) → (b : Ref sig .tc) → Buf (Elt F) ((c : Thread nD τ).loc b)) (c : Dev nD) :
    (dat4 V c).Φ (Fin.last cfg4.N) ⊢ Pipeline.ΦA spec4 c := .rfl

-- a library lemma stated over the pinned configuration unifies with the printed one only when unification may unfold
-- plain definitions in a metavariable's type
set_option backward.isDefEq.respectTransparency.types false in
/-- Region 0 over the thread state: entered from every unscoped buffer at `W1`, left at `W2`. Its arrays are split out
    of the unscoped buffers and put back at what the write-backs leave; the generator register goes into the region's
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V1 m) c
    unfold Pipeline.ΦA at h
    rw [show (pdats m 0 c).Φ 0 = (dat0 (V1 m) c).Φ 0 from rfl]
    iintro ⟨Hp, -, Hr⟩
    iapply h
    isplitl [Hr]; · iexact Hr
    iexact Hp
  hout c := by
    rw [Pipeline.ownSems0_none]
    have h := hout0 (V1 m) c
    unfold Pipeline.ΦA at h
    rw [show (pdats m 0 c).Φ (Fin.last _) = (dat0 (V1 m) c).Φ (Fin.last cfg0.N) from rfl]
    iintro HF
    ihave H := h $$ HF
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `W4`, left at `W5`. Its arrays are split out
    of the unscoped buffers and put back at what the write-backs leave; the generator register goes into the region's
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V4 m) c
    unfold Pipeline.ΦA at h
    rw [show (pdats m 1 c).Φ 0 = (dat1 (V4 m) c).Φ 0 from rfl]
    iintro ⟨Hp, -, Hr⟩
    iapply h
    isplitl [Hr]; · iexact Hr
    iexact Hp
  hout c := by
    rw [Pipeline.ownSems0_none]
    have h := hout1 (V4 m) c
    unfold Pipeline.ΦA at h
    rw [show (pdats m 1 c).Φ (Fin.last _) = (dat1 (V4 m) c).Φ (Fin.last cfg1.N) from rfl]
    iintro HF
    ihave H := h $$ HF
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered from every unscoped buffer at `W6`, left at `W7`. Its arrays are split out
    of the unscoped buffers and put back at what the write-backs leave; the generator register goes into the region's
    invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m) c).loose
  hwaits := Pipeline.hwaits_of_owed_zero _ _ _ _ L lv 2 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec2 c (V6 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin2 (V6 m) c
    unfold Pipeline.ΦA at h
    rw [show (pdats m 2 c).Φ 0 = (dat2 (V6 m) c).Φ 0 from rfl]
    iintro ⟨Hp, -, Hr⟩
    iapply h
    isplitl [Hr]; · iexact Hr
    iexact Hp
  hout c := by
    rw [Pipeline.ownSems0_none]
    have h := hout2 (V6 m) c
    unfold Pipeline.ΦA at h
    rw [show (pdats m 2 c).Φ (Fin.last _) = (dat2 (V6 m) c).Φ (Fin.last cfg2.N) from rfl]
    iintro HF
    ihave H := h $$ HF
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V6 m c) (V7 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 3 over the thread state: entered from every unscoped buffer at `W9`, left at `W10`. Its arrays are split out
    of the unscoped buffers and put back at what the write-backs leave; the generator register goes into the region's
    invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m) c).loose
  hwaits := Pipeline.hwaits_of_owed_zero _ _ _ _ L lv 3 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec3 c (V9 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin3 (V9 m) c
    unfold Pipeline.ΦA at h
    rw [show (pdats m 3 c).Φ 0 = (dat3 (V9 m) c).Φ 0 from rfl]
    iintro ⟨Hp, -, Hr⟩
    iapply h
    isplitl [Hr]; · iexact Hr
    iexact Hp
  hout c := by
    rw [Pipeline.ownSems0_none]
    have h := hout3 (V9 m) c
    unfold Pipeline.ΦA at h
    rw [show (pdats m 3 c).Φ (Fin.last _) = (dat3 (V9 m) c).Φ (Fin.last cfg3.N) from rfl]
    iintro HF
    ihave H := h $$ HF
    icases H with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V9 m c) (V10 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 4 over the thread state: entered from every unscoped buffer at `W12`, left at `W13`. Its arrays are split out
    of the unscoped buffers and put back at what the write-backs leave; the generator register goes into the region's
    invariant and comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V12 m) c).loose
  hwaits := Pipeline.hwaits_of_owed_zero _ _ _ _ L lv 4 fun _ _ => rfl
  pre c := iprop(StableHlo.held (c : Thread nD τ) (Pipeline.ucRefs τ sig) (W12 m c) ∗ R c)
  post c := iprop(StableHlo.held (c : Thread nD τ) (Pipeline.ucRefs τ sig) (W13 m c) ∗ R c)
  X c := iprop(∃ r, prngReg c r)
  Y c := iprop(∃ r, prngReg c r)
  Z c := Pipeline.unscopedRest (Ix := Unit) (Name := ℕ) (U := UR sig nD τ) (Lvl := ℕ) spec4 c (V12 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin4 (V12 m) c
    unfold Pipeline.ΦA at h
    rw [show (pdats m 4 c).Φ 0 = (dat4 (V12 m) c).Φ 0 from rfl]
    iintro ⟨Hp, -, Hr⟩
    iapply h
    isplitl [Hr]; · iexact Hr
    iexact Hp
  hout c := by
    rw [Pipeline.ownSems0_none]
    have h := hout4 (V12 m) c
    unfold Pipeline.ΦA at h
    rw [show (pdats m 4 c).Φ (Fin.last _) = (dat4 (V12 m) c).Φ (Fin.last cfg4.N) from rfl]
    iintro HF
    ihave H := h $$ HF
    icases H with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V12 m c) (V13 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's fourteen segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .region (reg1 m),
    .host (hseg hostOps2 hostOps2_sub hostOps2_fresh (W5 m)),
    .region (reg2 m),
    .host (hseg hostOps3 hostOps3_sub hostOps3_fresh (W7 m)),
    .host (hseg hostOps3_1 hostOps3_1_sub hostOps3_1_fresh (W8 m)),
    .region (reg3 m),
    .host (hseg hostOps4 hostOps4_sub hostOps4_fresh (W10 m)),
    .host (hseg hostOps4_1 hostOps4_1_sub hostOps4_1_fresh (W11 m)),
    .region (reg4 m),
    .host (hseg hostOps5 hostOps5_sub hostOps5_fresh (W13 m)) ]

/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final memory holds each unscoped buffer of each core at the last contents of the fold. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W14 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun c => by
        show iprop(StableHlo.held (c : Thread nD τ) (Pipeline.ucRefs τ sig) (W14 m c) ∗ R c) ⊢ _
        iintro ⟨Hh, ⟨Hp, HO⟩⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m c b)
    (hfin := fun c s' => by
      iintro ⟨⟨Hh, -⟩, HSI⟩
      unfold StableHlo.held
      imodintro
      iapply (pointsTo_read_all (Pipeline.ucRefs τ sig) (fun b => (((c : Thread nD τ)).1, b)) (W14 m c) s')
      isplitl [Hh] <;> iassumption)
    (hQ := fun s h c => h c)

end Cert.Kernel.Hand

end
-- ==== Proof.K.Args.lean ====
/-
  The arguments of @main end as they were launched: read along the fold of the segment boundaries, no host stretch
  writes an argument, no region's output array is an argument, and the two arguments that are input arrays of the first
  region pass it unchanged (an input array receives no write-back).
-/
import proofs.«420245_j23562190586108_1_alg».proof.Proof.K.Fold
import proofs.«420245_j23562190586108_1_alg».proof.Proof.Gen.Kernel.Regions

set_option maxRecDepth 16384

noncomputable section

open scoped BigOperators

namespace Cert.Kernel.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Bridge

variable {F : FTy → Type} [FloatOps F]

local notation "𝕄" => MT nD τ sig Unit (Elt F) ℕ (UR sig nD τ) ℕ

variable (m : (ℓ : Loc nD τ sig) → Buf (Elt F) ℓ)

/-! ## What each segment keeps -/

/-- The stretch `hostOps0` keeps every buffer it does not write. -/
theorem W1_keep (c : Dev nD) (b : Ref sig .tc) (h : b ∉ hostOps0_W) :
    W1 m c (Proc.devRef .tc b) = W0 m c (Proc.devRef .tc b) :=
  StableHlo.after_of_writes_sub hostOps0 _ hostOps0_writes h

/-- Region 0 keeps every buffer but its output array: a buffer that is none of its arrays is not touched, and an
    input array is left as entered (no write-back goes to it). -/
theorem W2_keep (c : Dev nD) (b : Ref sig .tc) (h : b ≠ main_v15) :
    W2 m c (Proc.devRef .tc b) = W1 m c (Proc.devRef .tc b) := by
  by_cases h0 : Pipeline.arrRef spec0 0 = b
  · subst h0
    exact (W2_arr m c 0).trans (((dat0 (V1 m) c).arrAt_in 0 rfl _).trans (A_eq0 (V1 m) c 0))
  by_cases h1 : Pipeline.arrRef spec0 1 = b
  · subst h1
    exact (W2_arr m c 1).trans (((dat0 (V1 m) c).arrAt_in 1 rfl _).trans (A_eq0 (V1 m) c 1))
  refine W2_of_ne m c b (fun w => ?_)
  fin_cases w
  · exact h0
  · exact h1
  · exact fun e => h e.symm

/-- The stretch `hostOps1` keeps every buffer it does not write. -/
theorem W3_keep (c : Dev nD) (b : Ref sig .tc) (h : b ∉ hostOps1_W) :
    W3 m c (Proc.devRef .tc b) = W2 m c (Proc.devRef .tc b) :=
  StableHlo.after_of_writes_sub hostOps1 _ hostOps1_writes h

/-- The stretch `hostOps1_1` keeps every buffer it does not write. -/
theorem W4_keep (c : Dev nD) (b : Ref sig .tc) (h : b ∉ hostOps1_1_W) :
    W4 m c (Proc.devRef .tc b) = W3 m c (Proc.devRef .tc b) :=
  StableHlo.after_of_writes_sub hostOps1_1 _ hostOps1_1_writes h

/-- Region 1 keeps every buffer that is none of its three arrays. -/
theorem W5_keep (c : Dev nD) (b : Ref sig .tc) (h : b ∉ ([main_v14, main_v16, main_v17] : List (Ref sig .tc))) :
    W5 m c (Proc.devRef .tc b) = W4 m c (Proc.devRef .tc b) :=
  W5_of_ne m c b (fun w e => h (by rw [← e]; fin_cases w <;> decide))

/-- The stretch `hostOps2` keeps every buffer it does not write. -/
theorem W6_keep (c : Dev nD) (b : Ref sig .tc) (h : b ∉ hostOps2_W) :
    W6 m c (Proc.devRef .tc b) = W5 m c (Proc.devRef .tc b) :=
  StableHlo.after_of_writes_sub hostOps2 _ hostOps2_writes h

/-- Region 2 keeps every buffer that is none of its three arrays. -/
theorem W7_keep (c : Dev nD) (b : Ref sig .tc) (h : b ∉ ([main_v17, main_v18, main_v19] : List (Ref sig .tc))) :
    W7 m c (Proc.devRef .tc b) = W6 m c (Proc.devRef .tc b) :=
  W7_of_ne m c b (fun w e => h (by rw [← e]; fin_cases w <;> decide))

/-- The stretch `hostOps3` keeps every buffer it does not write. -/
theorem W8_keep (c : Dev nD) (b : Ref sig .tc) (h : b ∉ hostOps3_W) :
    W8 m c (Proc.devRef .tc b) = W7 m c (Proc.devRef .tc b) :=
  StableHlo.after_of_writes_sub hostOps3 _ hostOps3_writes h

/-- The stretch `hostOps3_1` keeps every buffer it does not write. -/
theorem W9_keep (c : Dev nD) (b : Ref sig .tc) (h : b ∉ hostOps3_1_W) :
    W9 m c (Proc.devRef .tc b) = W8 m c (Proc.devRef .tc b) :=
  StableHlo.after_of_writes_sub hostOps3_1 _ hostOps3_1_writes h

/-- Region 3 keeps every buffer that is none of its three arrays. -/
theorem W10_keep (c : Dev nD) (b : Ref sig .tc) (h : b ∉ ([main_v14, main_v20, main_v21] : List (Ref sig .tc))) :
    W10 m c (Proc.devRef .tc b) = W9 m c (Proc.devRef .tc b) :=
  W10_of_ne m c b (fun w e => h (by rw [← e]; fin_cases w <;> decide))

/-- The stretch `hostOps4` keeps every buffer it does not write. -/
theorem W11_keep (c : Dev nD) (b : Ref sig .tc) (h : b ∉ hostOps4_W) :
    W11 m c (Proc.devRef .tc b) = W10 m c (Proc.devRef .tc b) :=
  StableHlo.after_of_writes_sub hostOps4 _ hostOps4_writes h

/-- The stretch `hostOps4_1` keeps every buffer it does not write. -/
theorem W12_keep (c : Dev nD) (b : Ref sig .tc) (h : b ∉ hostOps4_1_W) :
    W12 m c (Proc.devRef .tc b) = W11 m c (Proc.devRef .tc b) :=
  StableHlo.after_of_writes_sub hostOps4_1 _ hostOps4_1_writes h

/-- Region 4 keeps every buffer that is none of its three arrays. -/
theorem W13_keep (c : Dev nD) (b : Ref sig .tc) (h : b ∉ ([main_v22, main_v24, main_v25] : List (Ref sig .tc))) :
    W13 m c (Proc.devRef .tc b) = W12 m c (Proc.devRef .tc b) :=
  W13_of_ne m c b (fun w e => h (by rw [← e]; fin_cases w <;> decide))

/-- The stretch `hostOps5` keeps every buffer it does not write. -/
theorem W14_keep (c : Dev nD) (b : Ref sig .tc) (h : b ∉ hostOps5_W) :
    W14 m c (Proc.devRef .tc b) = W13 m c (Proc.devRef .tc b) :=
  StableHlo.after_of_writes_sub hostOps5 _ hostOps5_writes h

/-! ## A buffer no segment changes ends as launched -/

/-- A buffer that no host stretch writes, that is not region 0's output array and is no array of the later regions
    holds its launch contents at the end. -/
theorem W14_keep_all (c : Dev nD) (b : Ref sig .tc)
    (h1 : b ∉ hostOps0_W) (h2 : b ≠ main_v15) (h3 : b ∉ hostOps1_W) (h4 : b ∉ hostOps1_1_W)
    (h5 : b ∉ ([main_v14, main_v16, main_v17] : List (Ref sig .tc))) (h6 : b ∉ hostOps2_W) (h7 : b ∉ ([main_v17, main_v18, main_v19] : List (Ref sig .tc)))
    (h8 : b ∉ hostOps3_W) (h9 : b ∉ hostOps3_1_W) (h10 : b ∉ ([main_v14, main_v20, main_v21] : List (Ref sig .tc)))
    (h11 : b ∉ hostOps4_W) (h12 : b ∉ hostOps4_1_W)
    (h13 : b ∉ ([main_v22, main_v24, main_v25] : List (Ref sig .tc))) (h14 : b ∉ hostOps5_W) :
    W14 m c (Proc.devRef .tc b) = m ((c : Thread nD τ).loc b) :=
  (W14_keep m c b h14).trans <| (W13_keep m c b h13).trans <| (W12_keep m c b h12).trans <| (W11_keep m c b h11).trans <| (W10_keep m c b h10).trans <| (W9_keep m c b h9).trans <| (W8_keep m c b h8).trans <| (W7_keep m c b h7).trans <| (W6_keep m c b h6).trans <| (W5_keep m c b h5).trans <| (W4_keep m c b h4).trans <| (W3_keep m c b h3).trans <| (W2_keep m c b h2).trans <| (W1_keep m c b h1).trans <| rfl

/-! ## The arguments -/

/-- `main_arg0` reaches the end as launched: an input array of region 0, which leaves it as entered, and otherwise untouched. -/
theorem W14_main_arg0 (c : Dev nD) : W14 m c (Proc.devRef .tc main_arg0) = m ((c : Thread nD τ).loc main_arg0) :=
  W14_keep_all m c main_arg0 (by decide) (by decide) (by decide) (by decide) (by decide) (by decide) (by decide) (by decide) (by decide) (by decide) (by decide) (by decide) (by decide) (by decide)

/-- `main_arg1` reaches the end as launched: no host stretch writes it and it is no region's array. -/
theorem W14_main_arg1 (c : Dev nD) : W14 m c (Proc.devRef .tc main_arg1) = m ((c : Thread nD τ).loc main_arg1) :=
  W14_keep_all m c main_arg1 (by decide) (by decide) (by decide) (by decide) (by decide) (by decide) (by decide) (by decide) (by decide) (by decide) (by decide) (by decide) (by decide) (by decide)

/-- `main_arg2` reaches the end as launched: no host stretch writes it and it is no region's array. -/
theorem W14_main_arg2 (c : Dev nD) : W14 m c (Proc.devRef .tc main_arg2) = m ((c : Thread nD τ).loc main_arg2) :=
  W14_keep_all m c main_arg2 (by decide) (by decide) (by decide) (by decide) (by decide) (by decide) (by decide) (by decide) (by decide) (by decide) (by decide) (by decide) (by decide) (by decide)

/-- `main_arg3` reaches the end as launched: no host stretch writes it and it is no region's array. -/
theorem W14_main_arg3 (c : Dev nD) : W14 m c (Proc.devRef .tc main_arg3) = m ((c : Thread nD τ).loc main_arg3) :=
  W14_keep_all m c main_arg3 (by decide) (by decide) (by decide) (by decide) (by decide) (by decide) (by decide) (by decide) (by decide) (by decide) (by decide) (by decide) (by decide) (by decide)

/-- `main_arg4` reaches the end as launched: an input array of region 0, which leaves it as entered, and otherwise untouched. -/
theorem W14_main_arg4 (c : Dev nD) : W14 m c (Proc.devRef .tc main_arg4) = m ((c : Thread nD τ).loc main_arg4) :=
  W14_keep_all m c main_arg4 (by decide) (by decide) (by decide) (by decide) (by decide) (by decide) (by decide) (by decide) (by decide) (by decide) (by decide) (by decide) (by decide) (by decide)

/-- `main_arg5` reaches the end as launched: no host stretch writes it and it is no region's array. -/
theorem W14_main_arg5 (c : Dev nD) : W14 m c (Proc.devRef .tc main_arg5) = m ((c : Thread nD τ).loc main_arg5) :=
  W14_keep_all m c main_arg5 (by decide) (by decide) (by decide) (by decide) (by decide) (by decide) (by decide) (by decide) (by decide) (by decide) (by decide) (by decide) (by decide) (by decide)

/-- `main_arg6` reaches the end as launched: no host stretch writes it and it is no region's array. -/
theorem W14_main_arg6 (c : Dev nD) : W14 m c (Proc.devRef .tc main_arg6) = m ((c : Thread nD τ).loc main_arg6) :=
  W14_keep_all m c main_arg6 (by decide) (by decide) (by decide) (by decide) (by decide) (by decide) (by decide) (by decide) (by decide) (by decide) (by decide) (by decide) (by decide) (by decide)

end Cert.Kernel.Hand

end
-- ==== Proof.KI.R1.lean ====
/-
  The second kernel region: `relu (A · S)` for the 10000 × 10240 adjacency `A` and the 10240 × 512 padded table `S`, one
  1000 × 512 block of the result per row block (10 of them), the 10240 columns of `A` taken 1280 at a time (8 steps).
  At a row block's first step the body zeroes its accumulator (a scratch buffer that lives across grid points); at every
  step it adds the product of the current 1000 × 1280 and 1280 × 512 blocks; at the last step it stores the
  accumulator, clipped below at zero, into the result's block. Between a row block's first and last steps the result's
  staging buffer is left alone and is not written back.
-/
import proofs.«420245_j23562190586108_1_alg».proof.Proof.Gen.KernelIdeal.Launch
import proofs.«420245_j23562190586108_1_alg».proof.Proof.Gen.KernelIdeal.Skeleton
import proofs.«420245_j23562190586108_1_alg».proof.Proof.Gen.KernelIdeal.Points
import proofs.«420245_j23562190586108_1_alg».proof.Proof.Spec
import proofs.«420245_j23562190586108_1_alg».proof.Proof.Bridge
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

open scoped BigOperators

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Bridge

variable {F : FTy → Type} [FloatOps F]

local notation "𝕄" => MT nD τ sig Unit (Elt F) ℕ (UR sig nD τ) ℕ

section Region

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is not
    fetched its block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, over the grid -/

/-- "This is the row block's first step": the reduction coordinate is 0. -/
abbrev first1 (i : grid1.Coords) : Prop := (Scalar.cmpi .ne (Scalar.extui (Scalar.cmpi .eq (BitVec.ofNat 32 (i 2).val) 0#32)) 0#32) = 1#1
/-- "This is the row block's last step": the reduction coordinate is 7. -/
abbrev last1 (i : grid1.Coords) : Prop := k1_cond2 i = 1#1

theorem hfirst1 : ∀ t : Fin cfg1.N, first1 (grid1.coords t) ↔ t.val % 8 = 0 :=
  (by decide +kernel : ∀ t : Fin grid1.N, first1 (grid1.coords t) ↔ t.val % 8 = 0)
theorem hlast1 : ∀ t : Fin cfg1.N, last1 (grid1.coords t) ↔ t.val % 8 = 7 :=
  (by decide +kernel : ∀ t : Fin grid1.N, last1 (grid1.coords t) ↔ t.val % 8 = 7)

/-- The inputs are never idle; the result's window is idle, and not written back, exactly off the last steps. -/
theorem live1_0 : ∀ t : Fin cfg1.N, cfg1.idle 0 (grid1.coords t) = false := by decide +kernel
theorem live1_1 : ∀ t : Fin cfg1.N, cfg1.idle 1 (grid1.coords t) = false := by decide +kernel
theorem idle1_2 : ∀ t : Fin cfg1.N, ¬last1 (grid1.coords t) → cfg1.idle 2 (grid1.coords t) = true := by decide +kernel
theorem noflush1_2 : ∀ t : Fin cfg1.N, ¬last1 (grid1.coords t) → (cfg1.win 2).flush t = false := by decide +kernel
theorem live1_2 : ∀ t : Fin cfg1.N, last1 (grid1.coords t) → cfg1.idle 2 (grid1.coords t) = false := by decide +kernel

/-! ## The body's triples, one per reachable pair of conditions -/

theorem hz2 : (![0, 0] : Fin 2 → Nat) = fun _ => 0 := by funext a; fin_cases a <;> rfl

set_option maxHeartbeats 1000000 in
/-- A first step that is not a last one: whatever the accumulator held, it ends at the product added to zero; the
    result's buffer is untouched. -/
theorem sound_kernel1_first (c : Dev nD) (E : Set ℕ) (i : grid1.Coords)
    (arg3 : Memref sig .tc .vmem S1000x1280 .f32) (harg3 : arg3.IsWhole) (arg4 : Memref sig .tc .vmem S1280x512 .f32) (harg4 : arg4.IsWhole)
    (arg5 : Memref sig .tc .vmem S1000x512 .f32) (harg5 : arg5.IsWhole) (arg6 : Memref sig .tc .vmem S1000x512 .f32) (harg6 : arg6.IsWhole)
    (hc1 : first1 i) (hc2 : ¬last1 i)
    (x0 : Vec F S1000x1280 .f32) (x1 : Vec F S1280x512 .f32) (xo : Vec F S1000x512 .f32) (K : PUnit → sProp 𝕄) :
    iprop(owns (c : Thread nD τ) arg3 fullShare x0 ∗ owns (c : Thread nD τ) arg4 fullShare x1 ∗ owns (c : Thread nD τ) arg5 fullShare xo
        ∗ (∃ d, owns (c : Thread nD τ) arg6 fullShare d)
        ∗ (iprop(owns (c : Thread nD τ) arg3 fullShare x0 ∗ owns (c : Thread nD τ) arg4 fullShare x1 ∗ owns (c : Thread nD τ) arg5 fullShare xo
            ∗ owns (c : Thread nD τ) arg6 fullShare (k1_pay2 x0 x1 (k1_pay1 (F := F)))) -∗ K ⟨⟩))
      ⊢ wp frame (wpE (defs₀ (F := F)) Variants.none c none) E (cc1__mm_kernel i arg3 harg3 arg4 harg4 arg5 harg5 arg6 harg6) K := by
  simp only [cc1__mm_kernel_eq_skeleton]; unfold cc1__mm_kernel_skel
  unfold owns
  iintro ⟨⟨%f0, %hf0, H0⟩, ⟨%f1, %hf1, H1⟩, ⟨%f2, %hf2, H2⟩, ⟨%d, %f3, -, H3⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_cons_self, View.mem_set_unit_zero hz2 inb_S1000x512_S1000x512_0_0 y⟩),
    View.canon_cons_unit_zero (S := S1000x512) hz2]
  sl_unfold_run_names
  rw [View.readCov_unit_zero (S := S1000x512) _ hz2]
  simp only [View.readAt_eq_ld, View.ld_unit_zero (S := S1000x1280) hz2, View.ld_unit_zero (S := S1280x512) hz2]

set_option maxHeartbeats 1000000 in
/-- A step that is neither first nor last: the accumulator, at `xs`, ends at the product added to `xs`; the result's
    buffer is untouched. -/
theorem sound_kernel1_mid (c : Dev nD) (E : Set ℕ) (i : grid1.Coords)
    (arg3 : Memref sig .tc .vmem S1000x1280 .f32) (harg3 : arg3.IsWhole) (arg4 : Memref sig .tc .vmem S1280x512 .f32) (harg4 : arg4.IsWhole)
    (arg5 : Memref sig .tc .vmem S1000x512 .f32) (harg5 : arg5.IsWhole) (arg6 : Memref sig .tc .vmem S1000x512 .f32) (harg6 : arg6.IsWhole)
    (hc1 : ¬first1 i) (hc2 : ¬last1 i)
    (x0 : Vec F S1000x1280 .f32) (x1 : Vec F S1280x512 .f32) (xo : Vec F S1000x512 .f32) (xs : Vec F S1000x512 .f32) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare xs
        ∗ (iprop(owns (c : Thread nD τ) arg3 fullShare x0 ∗ owns (c : Thread nD τ) arg4 fullShare x1 ∗ owns (c : Thread nD τ) arg5 fullShare xo
            ∗ owns (c : Thread nD τ) arg6 fullShare (k1_pay2 x0 x1 xs)) -∗ K ⟨⟩))
      ⊢ wp frame (wpE (defs₀ (F := F)) Variants.none c none) E (cc1__mm_kernel i arg3 harg3 arg4 harg4 arg5 harg5 arg6 harg6) K := by
  simp only [cc1__mm_kernel_eq_skeleton]; unfold cc1__mm_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_cons_self, View.mem_set_unit_zero hz2 inb_S1000x512_S1000x512_0_0 y⟩),
    View.canon_cons_unit_zero (S := S1000x512) hz2]
  sl_unfold_run_names
  simp only [View.readAt_eq_ld, View.ld_unit_zero (S := S1000x1280) hz2, View.ld_unit_zero (S := S1280x512) hz2,
    View.ld_unit_zero (S := S1000x512) hz2]

set_option maxHeartbeats 1000000 in
/-- A last step that is not a first one: the accumulator, at `xs`, ends at the product added to `xs`, and the result's
    buffer, whatever it held, at that clipped below at zero. -/
theorem sound_kernel1_last (c : Dev nD) (E : Set ℕ) (i : grid1.Coords)
    (arg3 : Memref sig .tc .vmem S1000x1280 .f32) (harg3 : arg3.IsWhole) (arg4 : Memref sig .tc .vmem S1280x512 .f32) (harg4 : arg4.IsWhole)
    (arg5 : Memref sig .tc .vmem S1000x512 .f32) (harg5 : arg5.IsWhole) (arg6 : Memref sig .tc .vmem S1000x512 .f32) (harg6 : arg6.IsWhole)
    (hc1 : ¬first1 i) (hc2 : last1 i)
    (x0 : Vec F S1000x1280 .f32) (x1 : Vec F S1280x512 .f32) (xs : Vec F S1000x512 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare xs
        ∗ (iprop(owns (c : Thread nD τ) arg3 fullShare x0 ∗ owns (c : Thread nD τ) arg4 fullShare x1
            ∗ owns (c : Thread nD τ) arg5 fullShare (k1_pay3 (k1_pay2 x0 x1 xs))
            ∗ owns (c : Thread nD τ) arg6 fullShare (k1_pay2 x0 x1 xs)) -∗ K ⟨⟩))
      ⊢ wp frame (wpE (defs₀ (F := F)) Variants.none c none) E (cc1__mm_kernel i arg3 harg3 arg4 harg4 arg5 harg5 arg6 harg6) K := by
  simp only [cc1__mm_kernel_eq_skeleton]; unfold cc1__mm_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_eq_canon _ _ _ (fun y => ⟨_, List.mem_cons_self, View.mem_set_unit_zero hz2 inb_S1000x512_S1000x512_0_0 y⟩),
      View.canon_cons_unit_zero (S := S1000x512) hz2, View.readCov_unit_zero (S := S1000x512) _ hz2]
    simp only [View.readAt_eq_ld, View.ld_unit_zero (S := S1000x1280) hz2, View.ld_unit_zero (S := S1280x512) hz2,
      View.ld_unit_zero (S := S1000x512) hz2]
  iexists _; isplitr
  swap; · iexact H3
  ipureintro
  sl_unfold_run_names
  rw [View.read_writes_eq_canon _ _ _ (fun y => ⟨_, List.mem_cons_self, View.mem_set_unit_zero hz2 inb_S1000x512_S1000x512_0_0 y⟩),
    View.canon_cons_unit_zero (S := S1000x512) hz2]
  simp only [View.readAt_eq_ld, View.ld_unit_zero (S := S1000x1280) hz2, View.ld_unit_zero (S := S1280x512) hz2,
    View.ld_unit_zero (S := S1000x512) hz2]

/-! ## The accumulator, point by point -/

/-- The kernel's scratch operand: the accumulator, a whole scoped buffer of its own. -/
abbrev scM1 : Memref sig .tc .vmem S1000x512 .f32 := Memref.whole cc1_scratch0

/-- What the accumulator holds after the body at position `n`: the product of the point's two blocks added to zero at
    a row block's first step, to what the step before left otherwise. -/
def acc1 (c : Dev nD) : (n : ℕ) → n < cfg1.N → Vec F S1000x512 .f32
  | 0, h => k1_pay2 (iblk1 V c 0 ⟨0, h⟩) (iblk1 V c 1 ⟨0, h⟩) (k1_pay1 (F := F))
  | n + 1, h => k1_pay2 (iblk1 V c 0 ⟨n + 1, h⟩) (iblk1 V c 1 ⟨n + 1, h⟩)
      (if (n + 1) % 8 = 0 then k1_pay1 (F := F) else acc1 c n (Nat.lt_of_succ_lt h))

theorem acc1_first (c : Dev nD) (t : Fin cfg1.N) (h : t.val % 8 = 0) :
    acc1 V c t.val t.isLt = k1_pay2 (iblk1 V c 0 t) (iblk1 V c 1 t) (k1_pay1 (F := F)) := by
  obtain ⟨n, hn⟩ := t
  cases n with
  | zero => rfl
  | succ n => exact congrArg (k1_pay2 _ _) (if_pos h)

theorem acc1_next (c : Dev nD) (t : Fin cfg1.N) (h : ¬t.val % 8 = 0) :
    acc1 V c t.val t.isLt = k1_pay2 (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod _) h
  | succ n => exact congrArg (k1_pay2 _ _) (if_neg h)

/-! ## The region invariant -/

/-- Before position `n`: at the region's entry the scoped rest (the accumulator among it) at anything and the generator
    register; afterwards the accumulator at what the point before left, the rest of the scoped rest unopened. -/
def Phi1 (c : Dev nD) : (n : ℕ) → n ≤ cfg1.N → sProp 𝕄
  | 0, _ => Pipeline.ΦA spec1 c
  | n + 1, hn => iprop(iprop(owns (c : Thread nD τ) scM1 fullShare (acc1 V c n hn)
      ∗ Pipeline.scopedRestBut (Ix := Unit) (Name := ℕ) (U := UR sig nD τ) (Lvl := ℕ) (Val := Elt F) spec1 c [cc1_scratch0])
      ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(iprop(owns (c : Thread nD τ) scM1 fullShare (acc1 V c n hn)
      ∗ Pipeline.scopedRestBut (Ix := Unit) (Name := ℕ) (U := UR sig nD τ) (Lvl := ℕ) (Val := Elt F) spec1 c [cc1_scratch0])
      ∗ (∃ r, prngReg c r)) := rfl

theorem Phi1_pos (c : Dev nD) (n : ℕ) (h : n ≤ cfg1.N) (hz : n ≠ 0) :
    Phi1 V c n h = iprop(iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0])
      ∗ (∃ r, prngReg c r)) := by
  cases n with
  | zero => exact absurd rfl hz
  | succ n => rfl

/-- The entry invariant with the accumulator split off the scoped rest. -/
theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA; rw [scopedRest1_split]; simp only [scM1, owns_whole]; rfl

/-! ## The proof data -/

/-- The arrays as the region finds them; after the body each input's buffer at its block and the result's at the
    clipped accumulator (read only at a row block's last step, the one point that writes the block back); the invariant
    above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay3 (acc1 V c t.val t.isLt)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay3 (acc1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4000000 in
/-- The body at any point: the inputs' buffers hold their blocks; the point's position modulo 8 says which of the
    three triples applies; the invariant hands the accumulator over at what the step before left (at anything at the
    region's first point) and takes it back at this step's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
    unfold Dat.leavesExact; rw [live1_0 t], after1_0]
  rw [show (dat1 V c).leavesExact 1 t = owns (c : Thread nD τ) (st1_1 t) fullShare ((dat1 V c).after 1 t) from by
    unfold Dat.leavesExact; rw [live1_1 t], after1_1]
  have hN : t.val < 80 := lt_of_lt_of_eq t.isLt (show cfg1.N = 80 from N_1)
  by_cases h7 : t.val % 8 = 7
  · -- a last step
    have h0 : ¬t.val % 8 = 0 := by omega
    have hz : t.val ≠ 0 := by omega
    rw [show (dat1 V c).leavesExact 2 t = owns (c : Thread nD τ) (st1_2 t) fullShare ((dat1 V c).after 2 t) from by
      unfold Dat.leavesExact; rw [live1_2 t ((hlast1 t).mpr h7)], after1_2]
    rw [acc1_next V c t h0, Phi1_castSucc V c t, Phi1_pos V c _ _ hz]
    iintro ⟨⟨⟨HS, Hrest⟩, Hg⟩, Ho, ⟨%d0, H0⟩, ⟨%d1, H1⟩, ⟨%d2, H2⟩⟩
    iapply (sound_kernel1_last c Set.univ (grid1.coords t) _ _ _ _ _ _ _ _ (fun h => h0 ((hfirst1 t).mp h)) ((hlast1 t).mpr h7)
      (iblk1 V c 0 t) (iblk1 V c 1 t) _ _)
    isplitl [H0]; · iexact H0
    isplitl [H1]; · iexact H1
    isplitl [H2]; · iexists _; iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexact H2
  · rw [Dat.leavesExact_idle (dat1 V c) 2 t (idle1_2 t (fun h => h7 ((hlast1 t).mp h))) (noflush1_2 t (fun h => h7 ((hlast1 t).mp h)))]
    by_cases h0 : t.val % 8 = 0
    · -- a first step
      rw [acc1_first V c t h0]
      by_cases hz : t.val = 0
      · rw [Phi1_castSucc V c t, Phi1_zero V c _ _ hz, PhiA1_eq]
        iintro ⟨⟨⟨HS, Hrest⟩, Hg⟩, Ho, ⟨%d0, H0⟩, ⟨%d1, H1⟩, ⟨%d2, H2⟩⟩
        iapply (sound_kernel1_first c Set.univ (grid1.coords t) _ _ _ _ _ _ _ _ ((hfirst1 t).mpr h0) (fun h => h7 ((hlast1 t).mp h))
          (iblk1 V c 0 t) (iblk1 V c 1 t) _ _)
        isplitl [H0]; · iexact H0
        isplitl [H1]; · iexact H1
        isplitl [H2]; · iexact H2
        isplitl [HS]; · iexact HS
        iintro ⟨H0, H1, H2, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        iexists _; iexact H2
      · rw [Phi1_castSucc V c t, Phi1_pos V c _ _ hz]
        iintro ⟨⟨⟨HS, Hrest⟩, Hg⟩, Ho, ⟨%d0, H0⟩, ⟨%d1, H1⟩, ⟨%d2, H2⟩⟩
        iapply (sound_kernel1_first c Set.univ (grid1.coords t) _ _ _ _ _ _ _ _ ((hfirst1 t).mpr h0) (fun h => h7 ((hlast1 t).mp h))
          (iblk1 V c 0 t) (iblk1 V c 1 t) _ _)
        isplitl [H0]; · iexact H0
        isplitl [H1]; · iexact H1
        isplitl [H2]; · iexact H2
        isplitl [HS]; · iexists _; iexact HS
        iintro ⟨H0, H1, H2, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        iexists _; iexact H2
    · -- a middle step
      have hz : t.val ≠ 0 := fun e => h0 (by rw [e])
      rw [acc1_next V c t h0, Phi1_castSucc V c t, Phi1_pos V c _ _ hz]
      iintro ⟨⟨⟨HS, Hrest⟩, Hg⟩, Ho, ⟨%d0, H0⟩, ⟨%d1, H1⟩, ⟨%d2, H2⟩⟩
      iapply (sound_kernel1_mid c Set.univ (grid1.coords t) _ _ _ _ _ _ _ _ (fun h => h0 ((hfirst1 t).mp h)) (fun h => h7 ((hlast1 t).mp h))
        (iblk1 V c 0 t) (iblk1 V c 1 t) _ _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is handed at its entry is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]

/-- After the last point the invariant gives the entry's form back: the accumulator's contents are forgotten. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 80 := N_1; omega), PhiA1_eq]
  iintro ⟨⟨HS, Hrest⟩, Hg⟩
  isplitl [HS Hrest]
  · isplitl [HS]; · iexists _; iexact HS
    iexact Hrest
  iexact Hg

end Region

end Cert.KernelIdeal.Hand

end
-- ==== Proof.KI.R0.lean ====
/-
  The first kernel region: `x · W1` for the 10000 × 3000 table `x` and the 3000 × 512 matrix `W1`, one 400 × 512 block
  of the result per row block (25 of them), the 3000 columns of `x` taken all at once: the reduction has one step, so
  every point is a row block's first step and its last. At every point the body zeroes its accumulator (a scratch
  buffer that lives across grid points), adds the product of the current 400 × 3000 block and the 3000 × 512 matrix, and
  stores the accumulator, as it is, into the result's block; the result's staging buffer is written back at every point.
-/
import proofs.«420245_j23562190586108_1_alg».proof.Proof.KI.R1
import proofs.«420245_j23562190586108_1_alg».proof.Proof.Gen.KernelIdeal.Launch
import proofs.«420245_j23562190586108_1_alg».proof.Proof.Gen.KernelIdeal.Skeleton
import proofs.«420245_j23562190586108_1_alg».proof.Proof.Gen.KernelIdeal.Points
import proofs.«420245_j23562190586108_1_alg».proof.Proof.Spec
import proofs.«420245_j23562190586108_1_alg».proof.Proof.Bridge
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

open scoped BigOperators

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Bridge

variable {F : FTy → Type} [FloatOps F]

local notation "𝕄" => MT nD τ sig Unit (Elt F) ℕ (UR sig nD τ) ℕ

section Region

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, over the grid -/

/-- "This is the row block's first step": the reduction coordinate is 0. -/
abbrev first0 (i : grid0.Coords) : Prop := (Scalar.cmpi .ne (Scalar.extui (Scalar.cmpi .eq (BitVec.ofNat 32 (i 2).val) 0#32)) 0#32) = 1#1
/-- "This is the row block's last step": the reduction coordinate is 0, the one step there is. -/
abbrev last0 (i : grid0.Coords) : Prop := k0_cond2 i = 1#1

/-- The reduction has one step: every point is a first step and a last one. -/
theorem hfirst0 : ∀ t : Fin cfg0.N, first0 (grid0.coords t) :=
  (by decide +kernel : ∀ t : Fin grid0.N, first0 (grid0.coords t))
theorem hlast0 : ∀ t : Fin cfg0.N, last0 (grid0.coords t) :=
  (by decide +kernel : ∀ t : Fin grid0.N, last0 (grid0.coords t))

/-- No window is ever idle: the result's block is filled, and written back, at every point. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel

/-! ## The body's triple: every point is both a first and a last step -/

set_option maxHeartbeats 1000000 in
/-- A step that is both first and last: whatever the accumulator and the result's buffer held, both end at the
    product added to zero. -/
theorem sound_kernel0_both (c : Dev nD) (E : Set ℕ) (i : grid0.Coords)
    (arg3 : Memref sig .tc .vmem S400x3000 .f32) (harg3 : arg3.IsWhole) (arg4 : Memref sig .tc .vmem S3000x512 .f32) (harg4 : arg4.IsWhole)
    (arg5 : Memref sig .tc .vmem S400x512 .f32) (harg5 : arg5.IsWhole) (arg6 : Memref sig .tc .vmem S400x512 .f32) (harg6 : arg6.IsWhole)
    (hc1 : first0 i) (hc2 : last0 i)
    (x0 : Vec F S400x3000 .f32) (x1 : Vec F S3000x512 .f32) (K : PUnit → sProp 𝕄) :
    iprop(owns (c : Thread nD τ) arg3 fullShare x0 ∗ owns (c : Thread nD τ) arg4 fullShare x1 ∗ (∃ d, owns (c : Thread nD τ) arg5 fullShare d)
        ∗ (∃ d, owns (c : Thread nD τ) arg6 fullShare d)
        ∗ (iprop(owns (c : Thread nD τ) arg3 fullShare x0 ∗ owns (c : Thread nD τ) arg4 fullShare x1
            ∗ owns (c : Thread nD τ) arg5 fullShare (k0_pay2 x0 x1 (k0_pay1 (F := F)))
            ∗ owns (c : Thread nD τ) arg6 fullShare (k0_pay2 x0 x1 (k0_pay1 (F := F)))) -∗ K ⟨⟩))
      ⊢ wp frame (wpE (defs₀ (F := F)) Variants.none c none) E (cc0__mm_kernel i arg3 harg3 arg4 harg4 arg5 harg5 arg6 harg6) K := by
  simp only [cc0__mm_kernel_eq_skeleton]; unfold cc0__mm_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_eq_canon _ _ _ (fun y => ⟨_, List.mem_cons_self, View.mem_set_unit_zero hz2 inb_S400x512_S400x512_0_0 y⟩),
      View.canon_cons_unit_zero (S := S400x512) hz2,
      View.readCov_eq_canon_ld _ _ _ (fun y => ⟨_, List.mem_cons_self, View.mem_set_unit_zero hz2 inb_S400x512_S400x512_0_0 y⟩),
      View.canon_cons_unit_zero (S := S400x512) hz2, View.ld_unit_zero (S := S400x512) hz2,
      View.readCov_unit_zero (S := S400x512) _ hz2]
    simp only [View.readAt_eq_ld, View.ld_unit_zero (S := S400x3000) hz2, View.ld_unit_zero (S := S3000x512) hz2]
  iexists _; isplitr
  swap; · iexact H3
  ipureintro
  sl_unfold_run_names
  rw [View.read_writes_eq_canon _ _ _ (fun y => ⟨_, List.mem_cons_self, View.mem_set_unit_zero hz2 inb_S400x512_S400x512_0_0 y⟩),
    View.canon_cons_unit_zero (S := S400x512) hz2, View.readCov_unit_zero (S := S400x512) _ hz2]
  simp only [View.readAt_eq_ld, View.ld_unit_zero (S := S400x3000) hz2, View.ld_unit_zero (S := S3000x512) hz2]

/-! ## The accumulator, point by point -/

/-- The kernel's scratch operand: the accumulator, a whole scoped buffer of its own. -/
abbrev scM0 : Memref sig .tc .vmem S400x512 .f32 := Memref.whole cc0_scratch0

/-- What the accumulator holds after the body at point `t`: the product of the point's two blocks added to zero (every
    point is a row block's first step, so nothing of the point before survives). -/
def acc0 (c : Dev nD) (t : Fin cfg0.N) : Vec F S400x512 .f32 :=
  k0_pay2 (iblk0 V c 0 t) (iblk0 V c 1 t) (k0_pay1 (F := F))

theorem acc0_eq (c : Dev nD) (t : Fin cfg0.N) :
    acc0 V c t = k0_pay2 (iblk0 V c 0 t) (iblk0 V c 1 t) (k0_pay1 (F := F)) := rfl

theorem acc0_mk (c : Dev nD) (t : Fin cfg0.N) :
    acc0 V c ⟨t.val, t.isLt⟩ = k0_pay2 (iblk0 V c 0 t) (iblk0 V c 1 t) (k0_pay1 (F := F)) := rfl

/-! ## The region invariant -/

/-- Before position `n`: at the region's entry the scoped rest (the accumulator among it) at anything and the generator
    register; afterwards the accumulator at what the point before left, the rest of the scoped rest unopened. -/
def Phi0 (c : Dev nD) : (n : ℕ) → n ≤ cfg0.N → sProp 𝕄
  | 0, _ => Pipeline.ΦA spec0 c
  | n + 1, hn => iprop(iprop(owns (c : Thread nD τ) scM0 fullShare (acc0 V c ⟨n, hn⟩)
      ∗ Pipeline.scopedRestBut (Ix := Unit) (Name := ℕ) (U := UR sig nD τ) (Lvl := ℕ) (Val := Elt F) spec0 c [cc0_scratch0])
      ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop(iprop(owns (c : Thread nD τ) scM0 fullShare (acc0 V c ⟨n, hn⟩)
      ∗ Pipeline.scopedRestBut (Ix := Unit) (Name := ℕ) (U := UR sig nD τ) (Lvl := ℕ) (Val := Elt F) spec0 c [cc0_scratch0])
      ∗ (∃ r, prngReg c r)) := rfl

theorem Phi0_pos (c : Dev nD) (n : ℕ) (h : n ≤ cfg0.N) (hz : n ≠ 0) :
    Phi0 V c n h = iprop(iprop(owns (c : Thread nD τ) scM0 fullShare (acc0 V c ⟨n - 1, by omega⟩)
      ∗ Pipeline.scopedRestBut (Ix := Unit) (Name := ℕ) (U := UR sig nD τ) (Lvl := ℕ) (Val := Elt F) spec0 c [cc0_scratch0])
      ∗ (∃ r, prngReg c r)) := by
  cases n with
  | zero => exact absurd rfl hz
  | succ n => rfl

/-- The entry invariant with the accumulator split off the scoped rest. -/
theorem PhiA0_eq (c : Dev nD) :
    (Pipeline.ΦA spec0 c : sProp 𝕄)
      = iprop(iprop((∃ d, owns (c : Thread nD τ) scM0 fullShare d)
          ∗ Pipeline.scopedRestBut (Ix := Unit) (Name := ℕ) (U := UR sig nD τ) (Lvl := ℕ) (Val := Elt F) spec0 c [cc0_scratch0])
          ∗ (∃ r, prngReg c r)) := by
  unfold Pipeline.ΦA; rw [scopedRest0_split]; simp only [scM0, owns_whole]; rfl

/-! ## The proof data -/

/-- The arrays as the region finds them; after the body each input's buffer at its block and the result's at the
    accumulator (the block's product added to zero), written back at every point; the invariant above; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point: the inputs' buffers hold their blocks; the one triple applies; the invariant hands the
    accumulator over at anything (what the point before left, or the entry's contents) and takes it back at this
    point's product added to zero, which the result's buffer holds too. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ, acc0_mk]
  rw [show (dat0 V c).leavesExact 0 t = owns (c : Thread nD τ) (st0_0 t) fullShare ((dat0 V c).after 0 t) from by
    unfold Dat.leavesExact; rw [live0_0 t], after0_0]
  rw [show (dat0 V c).leavesExact 1 t = owns (c : Thread nD τ) (st0_1 t) fullShare ((dat0 V c).after 1 t) from by
    unfold Dat.leavesExact; rw [live0_1 t], after0_1]
  rw [show (dat0 V c).leavesExact 2 t = owns (c : Thread nD τ) (st0_2 t) fullShare ((dat0 V c).after 2 t) from by
    unfold Dat.leavesExact; rw [live0_2 t], after0_2, acc0_eq]
  by_cases hz : t.val = 0
  · -- the region's first point: the accumulator is among the entry's scoped rest
    rw [Phi0_castSucc V c t, Phi0_zero V c _ _ hz, PhiA0_eq]
    iintro ⟨⟨⟨HS, Hrest⟩, Hg⟩, Ho, ⟨%d0, H0⟩, ⟨%d1, H1⟩, ⟨%d2, H2⟩⟩
    iapply (sound_kernel0_both c Set.univ (grid0.coords t) _ _ _ _ _ _ _ _ (hfirst0 t) (hlast0 t)
      (iblk0 V c 0 t) (iblk0 V c 1 t) _)
    isplitl [H0]; · iexact H0
    isplitl [H1]; · iexact H1
    isplitl [H2]; · iexists _; iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexact H2
  · -- a later point: the accumulator is at what the point before left
    rw [Phi0_castSucc V c t, Phi0_pos V c _ _ hz]
    iintro ⟨⟨⟨HS, Hrest⟩, Hg⟩, Ho, ⟨%d0, H0⟩, ⟨%d1, H1⟩, ⟨%d2, H2⟩⟩
    iapply (sound_kernel0_both c Set.univ (grid0.coords t) _ _ _ _ _ _ _ _ (hfirst0 t) (hlast0 t)
      (iblk0 V c 0 t) (iblk0 V c 1 t) _)
    isplitl [H0]; · iexact H0
    isplitl [H1]; · iexact H1
    isplitl [H2]; · iexists _; iexact H2
    isplitl [HS]; · iexists _; iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the region is handed at its entry is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]

/-- After the last point the invariant gives the entry's form back: the accumulator's contents are forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 25 := N_0; omega), PhiA0_eq]
  iintro ⟨⟨HS, Hrest⟩, Hg⟩
  isplitl [HS Hrest]
  · isplitl [HS]; · iexists _; iexact HS
    iexact Hrest
  iexact Hg

end Region

end Cert.KernelIdeal.Hand

end
-- ==== Proof.KI.R2.lean ====
/-
  The third kernel region: `h · [W2 | W3]` for the 10000 × 512 hidden table `h` and the 512 × 128 joined matrix, one
  2000 × 128 block of the result per row block (5 of them), the 512 columns of `h` taken all at once: the reduction has
  one step, so every point is a row block's first step and its last. At every point the body zeroes its accumulator (a
  scratch buffer that lives across grid points), adds the product of the current 2000 × 512 block and the 512 × 128
  matrix, and stores the accumulator, as it is, into the result's block; the result's staging buffer is written back at
  every point.
-/
import proofs.«420245_j23562190586108_1_alg».proof.Proof.KI.R1
import proofs.«420245_j23562190586108_1_alg».proof.Proof.Gen.KernelIdeal.Launch
import proofs.«420245_j23562190586108_1_alg».proof.Proof.Gen.KernelIdeal.Skeleton
import proofs.«420245_j23562190586108_1_alg».proof.Proof.Gen.KernelIdeal.Points
import proofs.«420245_j23562190586108_1_alg».proof.Proof.Spec
import proofs.«420245_j23562190586108_1_alg».proof.Proof.Bridge
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

open scoped BigOperators

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Bridge

variable {F : FTy → Type} [FloatOps F]

local notation "𝕄" => MT nD τ sig Unit (Elt F) ℕ (UR sig nD τ) ℕ

section Region

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: where it is not
    fetched its block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions, over the grid -/

/-- "This is the row block's first step": the reduction coordinate is 0. -/
abbrev first2 (i : grid2.Coords) : Prop := (Scalar.cmpi .ne (Scalar.extui (Scalar.cmpi .eq (BitVec.ofNat 32 (i 2).val) 0#32)) 0#32) = 1#1
/-- "This is the row block's last step": the reduction coordinate is 0, the one step there is. -/
abbrev last2 (i : grid2.Coords) : Prop := k2_cond2 i = 1#1

/-- The reduction has one step: every point is a first step and a last one. -/
theorem hfirst2 : ∀ t : Fin cfg2.N, first2 (grid2.coords t) :=
  (by decide +kernel : ∀ t : Fin grid2.N, first2 (grid2.coords t))
theorem hlast2 : ∀ t : Fin cfg2.N, last2 (grid2.coords t) :=
  (by decide +kernel : ∀ t : Fin grid2.N, last2 (grid2.coords t))

/-- No window is ever idle: the result's block is filled, and written back, at every point. -/
theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel

/-! ## The body's triple: every point is both a first and a last step -/

set_option maxHeartbeats 1000000 in
/-- A step that is both first and last: whatever the accumulator and the result's buffer held, both end at the
    product added to zero. -/
theorem sound_kernel2_both (c : Dev nD) (E : Set ℕ) (i : grid2.Coords)
    (arg3 : Memref sig .tc .vmem S2000x512 .f32) (harg3 : arg3.IsWhole) (arg4 : Memref sig .tc .vmem S512x128 .f32) (harg4 : arg4.IsWhole)
    (arg5 : Memref sig .tc .vmem S2000x128 .f32) (harg5 : arg5.IsWhole) (arg6 : Memref sig .tc .vmem S2000x128 .f32) (harg6 : arg6.IsWhole)
    (hc1 : first2 i) (hc2 : last2 i)
    (x0 : Vec F S2000x512 .f32) (x1 : Vec F S512x128 .f32) (K : PUnit → sProp 𝕄) :
    iprop(owns (c : Thread nD τ) arg3 fullShare x0 ∗ owns (c : Thread nD τ) arg4 fullShare x1 ∗ (∃ d, owns (c : Thread nD τ) arg5 fullShare d)
        ∗ (∃ d, owns (c : Thread nD τ) arg6 fullShare d)
        ∗ (iprop(owns (c : Thread nD τ) arg3 fullShare x0 ∗ owns (c : Thread nD τ) arg4 fullShare x1
            ∗ owns (c : Thread nD τ) arg5 fullShare (k2_pay2 x0 x1 (k2_pay1 (F := F)))
            ∗ owns (c : Thread nD τ) arg6 fullShare (k2_pay2 x0 x1 (k2_pay1 (F := F)))) -∗ K ⟨⟩))
      ⊢ wp frame (wpE (defs₀ (F := F)) Variants.none c none) E (cc2__mm_kernel i arg3 harg3 arg4 harg4 arg5 harg5 arg6 harg6) K := by
  simp only [cc2__mm_kernel_eq_skeleton]; unfold cc2__mm_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_eq_canon _ _ _ (fun y => ⟨_, List.mem_cons_self, View.mem_set_unit_zero hz2 inb_S2000x128_S2000x128_0_0 y⟩),
      View.canon_cons_unit_zero (S := S2000x128) hz2,
      View.readCov_eq_canon_ld _ _ _ (fun y => ⟨_, List.mem_cons_self, View.mem_set_unit_zero hz2 inb_S2000x128_S2000x128_0_0 y⟩),
      View.canon_cons_unit_zero (S := S2000x128) hz2, View.ld_unit_zero (S := S2000x128) hz2,
      View.readCov_unit_zero (S := S2000x128) _ hz2]
    simp only [View.readAt_eq_ld, View.ld_unit_zero (S := S2000x512) hz2, View.ld_unit_zero (S := S512x128) hz2]
  iexists _; isplitr
  swap; · iexact H3
  ipureintro
  sl_unfold_run_names
  rw [View.read_writes_eq_canon _ _ _ (fun y => ⟨_, List.mem_cons_self, View.mem_set_unit_zero hz2 inb_S2000x128_S2000x128_0_0 y⟩),
    View.canon_cons_unit_zero (S := S2000x128) hz2, View.readCov_unit_zero (S := S2000x128) _ hz2]
  simp only [View.readAt_eq_ld, View.ld_unit_zero (S := S2000x512) hz2, View.ld_unit_zero (S := S512x128) hz2]

/-! ## The accumulator, point by point -/

/-- The kernel's scratch operand: the accumulator, a whole scoped buffer of its own. -/
abbrev scM2 : Memref sig .tc .vmem S2000x128 .f32 := Memref.whole cc2_scratch0

/-- What the accumulator holds after the body at point `t`: the product of the point's two blocks added to zero (every
    point is a row block's first step, so nothing of the point before survives). -/
def acc2 (c : Dev nD) (t : Fin cfg2.N) : Vec F S2000x128 .f32 :=
  k2_pay2 (iblk2 V c 0 t) (iblk2 V c 1 t) (k2_pay1 (F := F))

theorem acc2_eq (c : Dev nD) (t : Fin cfg2.N) :
    acc2 V c t = k2_pay2 (iblk2 V c 0 t) (iblk2 V c 1 t) (k2_pay1 (F := F)) := rfl

theorem acc2_mk (c : Dev nD) (t : Fin cfg2.N) :
    acc2 V c ⟨t.val, t.isLt⟩ = k2_pay2 (iblk2 V c 0 t) (iblk2 V c 1 t) (k2_pay1 (F := F)) := rfl

/-! ## The region invariant -/

/-- Before position `n`: at the region's entry the scoped rest (the accumulator among it) at anything and the generator
    register; afterwards the accumulator at what the point before left, the rest of the scoped rest unopened. -/
def Phi2 (c : Dev nD) : (n : ℕ) → n ≤ cfg2.N → sProp 𝕄
  | 0, _ => Pipeline.ΦA spec2 c
  | n + 1, hn => iprop(iprop(owns (c : Thread nD τ) scM2 fullShare (acc2 V c ⟨n, hn⟩)
      ∗ Pipeline.scopedRestBut (Ix := Unit) (Name := ℕ) (U := UR sig nD τ) (Lvl := ℕ) (Val := Elt F) spec2 c [cc2_scratch0])
      ∗ (∃ r, prngReg c r))

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(iprop(owns (c : Thread nD τ) scM2 fullShare (acc2 V c ⟨n, hn⟩)
      ∗ Pipeline.scopedRestBut (Ix := Unit) (Name := ℕ) (U := UR sig nD τ) (Lvl := ℕ) (Val := Elt F) spec2 c [cc2_scratch0])
      ∗ (∃ r, prngReg c r)) := rfl

theorem Phi2_pos (c : Dev nD) (n : ℕ) (h : n ≤ cfg2.N) (hz : n ≠ 0) :
    Phi2 V c n h = iprop(iprop(owns (c : Thread nD τ) scM2 fullShare (acc2 V c ⟨n - 1, by omega⟩)
      ∗ Pipeline.scopedRestBut (Ix := Unit) (Name := ℕ) (U := UR sig nD τ) (Lvl := ℕ) (Val := Elt F) spec2 c [cc2_scratch0])
      ∗ (∃ r, prngReg c r)) := by
  cases n with
  | zero => exact absurd rfl hz
  | succ n => rfl

/-- The entry invariant with the accumulator split off the scoped rest. -/
theorem PhiA2_eq (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0])
          ∗ (∃ r, prngReg c r)) := by
  unfold Pipeline.ΦA; rw [scopedRest2_split]; simp only [scM2, owns_whole]; rfl

/-! ## The proof data -/

/-- The arrays as the region finds them; after the body each input's buffer at its block and the result's at the
    accumulator (the block's product added to zero), written back at every point; the invariant above; nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4000000 in
/-- The body at any point: the inputs' buffers hold their blocks; the one triple applies; the invariant hands the
    accumulator over at anything (what the point before left, or the entry's contents) and takes it back at this
    point's product added to zero, which the result's buffer holds too. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = Phi2 V c (t.val + 1) t.isLt from rfl, Phi2_succ, acc2_mk]
  rw [show (dat2 V c).leavesExact 0 t = owns (c : Thread nD τ) (st2_0 t) fullShare ((dat2 V c).after 0 t) from by
    unfold Dat.leavesExact; rw [live2_0 t], after2_0]
  rw [show (dat2 V c).leavesExact 1 t = owns (c : Thread nD τ) (st2_1 t) fullShare ((dat2 V c).after 1 t) from by
    unfold Dat.leavesExact; rw [live2_1 t], after2_1]
  rw [show (dat2 V c).leavesExact 2 t = owns (c : Thread nD τ) (st2_2 t) fullShare ((dat2 V c).after 2 t) from by
    unfold Dat.leavesExact; rw [live2_2 t], after2_2, acc2_eq]
  by_cases hz : t.val = 0
  · -- the region's first point: the accumulator is among the entry's scoped rest
    rw [Phi2_castSucc V c t, Phi2_zero V c _ _ hz, PhiA2_eq]
    iintro ⟨⟨⟨HS, Hrest⟩, Hg⟩, Ho, ⟨%d0, H0⟩, ⟨%d1, H1⟩, ⟨%d2, H2⟩⟩
    iapply (sound_kernel2_both c Set.univ (grid2.coords t) _ _ _ _ _ _ _ _ (hfirst2 t) (hlast2 t)
      (iblk2 V c 0 t) (iblk2 V c 1 t) _)
    isplitl [H0]; · iexact H0
    isplitl [H1]; · iexact H1
    isplitl [H2]; · iexists _; iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexact H2
  · -- a later point: the accumulator is at what the point before left
    rw [Phi2_castSucc V c t, Phi2_pos V c _ _ hz]
    iintro ⟨⟨⟨HS, Hrest⟩, Hg⟩, Ho, ⟨%d0, H0⟩, ⟨%d1, H1⟩, ⟨%d2, H2⟩⟩
    iapply (sound_kernel2_both c Set.univ (grid2.coords t) _ _ _ _ _ _ _ _ (hfirst2 t) (hlast2 t)
      (iblk2 V c 0 t) (iblk2 V c 1 t) _)
    isplitl [H0]; · iexact H0
    isplitl [H1]; · iexact H1
    isplitl [H2]; · iexists _; iexact H2
    isplitl [HS]; · iexists _; iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the region is handed at its entry is the invariant before the first point. -/
theorem hin2 (c : Dev nD) : Pipeline.ΦA spec2 c ⊢ (dat2 V c).Φ 0 := by
  rw [show (dat2 V c).Φ 0 = Phi2 V c 0 (Nat.zero_le _) from rfl, Phi2_zero V c 0 _ rfl]

/-- After the last point the invariant gives the entry's form back: the accumulator's contents are forgotten. -/
theorem hout2 (c : Dev nD) : (dat2 V c).Φ (Fin.last cfg2.N) ⊢ Pipeline.ΦA spec2 c := by
  rw [show (dat2 V c).Φ (Fin.last cfg2.N) = Phi2 V c (Fin.last cfg2.N).val (Nat.le_of_lt_succ (Fin.last cfg2.N).isLt) from rfl,
    Phi2_pos V c _ _ (by rw [Fin.val_last]; have : cfg2.N = 5 := N_2; omega), PhiA2_eq]
  iintro ⟨⟨HS, Hrest⟩, Hg⟩
  isplitl [HS Hrest]
  · isplitl [HS]; · iexists _; iexact HS
    iexact Hrest
  iexact Hg

end Region

end Cert.KernelIdeal.Hand

end
-- ==== Proof.KI.R3.lean ====
/-
  The fourth kernel region: `A · S` for the 10000 × 10240 adjacency `A` and the 10240 × 128 padded table `S`, one
  1000 × 128 block of the result per row block (10 of them), the 10240 columns of `A` taken 1280 at a time (8 steps).
  At a row block's first step the body zeroes its accumulator (a scratch buffer that lives across grid points); at every
  step it adds the product of the current 1000 × 1280 and 1280 × 128 blocks; at the last step it stores the
  accumulator into the result's block. Between a row block's first and last steps the result's staging buffer is left
  alone and is not written back.
-/
import proofs.«420245_j23562190586108_1_alg».proof.Proof.Gen.KernelIdeal.Launch
import proofs.«420245_j23562190586108_1_alg».proof.Proof.Gen.KernelIdeal.Skeleton
import proofs.«420245_j23562190586108_1_alg».proof.Proof.Gen.KernelIdeal.Points
import proofs.«420245_j23562190586108_1_alg».proof.Proof.Spec
import proofs.«420245_j23562190586108_1_alg».proof.Proof.Bridge
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

open scoped BigOperators

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Bridge

variable {F : FTy → Type} [FloatOps F]

local notation "𝕄" => MT nD τ sig Unit (Elt F) ℕ (UR sig nD τ) ℕ

section Region

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not: where it is not
    fetched its block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's two conditions, over the grid -/

/-- "This is the row block's first step": the reduction coordinate is 0. -/
abbrev first3 (i : grid3.Coords) : Prop := (Scalar.cmpi .ne (Scalar.extui (Scalar.cmpi .eq (BitVec.ofNat 32 (i 2).val) 0#32)) 0#32) = 1#1
/-- "This is the row block's last step": the reduction coordinate is 7. -/
abbrev last3 (i : grid3.Coords) : Prop := k3_cond2 i = 1#1

theorem hfirst3 : ∀ t : Fin cfg3.N, first3 (grid3.coords t) ↔ t.val % 8 = 0 :=
  (by decide +kernel : ∀ t : Fin grid3.N, first3 (grid3.coords t) ↔ t.val % 8 = 0)
theorem hlast3 : ∀ t : Fin cfg3.N, last3 (grid3.coords t) ↔ t.val % 8 = 7 :=
  (by decide +kernel : ∀ t : Fin grid3.N, last3 (grid3.coords t) ↔ t.val % 8 = 7)

/-- The inputs are never idle; the result's window is idle, and not written back, exactly off the last steps. -/
theorem live3_0 : ∀ t : Fin cfg3.N, cfg3.idle 0 (grid3.coords t) = false := by decide +kernel
theorem live3_1 : ∀ t : Fin cfg3.N, cfg3.idle 1 (grid3.coords t) = false := by decide +kernel
theorem idle3_2 : ∀ t : Fin cfg3.N, ¬last3 (grid3.coords t) → cfg3.idle 2 (grid3.coords t) = true := by decide +kernel
theorem noflush3_2 : ∀ t : Fin cfg3.N, ¬last3 (grid3.coords t) → (cfg3.win 2).flush t = false := by decide +kernel
theorem live3_2 : ∀ t : Fin cfg3.N, last3 (grid3.coords t) → cfg3.idle 2 (grid3.coords t) = false := by decide +kernel

/-! ## The body's triples, one per reachable pair of conditions -/

theorem hz2' : (![0, 0] : Fin 2 → Nat) = fun _ => 0 := by funext a; fin_cases a <;> rfl

set_option maxHeartbeats 1000000 in
/-- A first step that is not a last one: whatever the accumulator held, it ends at the product added to zero; the
    result's buffer is untouched. -/
theorem sound_kernel3_first (c : Dev nD) (E : Set ℕ) (i : grid3.Coords)
    (arg3 : Memref sig .tc .vmem S1000x1280 .f32) (harg3 : arg3.IsWhole) (arg4 : Memref sig .tc .vmem S1280x128 .f32) (harg4 : arg4.IsWhole)
    (arg5 : Memref sig .tc .vmem S1000x128 .f32) (harg5 : arg5.IsWhole) (arg6 : Memref sig .tc .vmem S1000x128 .f32) (harg6 : arg6.IsWhole)
    (hc1 : first3 i) (hc2 : ¬last3 i)
    (x0 : Vec F S1000x1280 .f32) (x1 : Vec F S1280x128 .f32) (xo : Vec F S1000x128 .f32) (K : PUnit → sProp 𝕄) :
    iprop(owns (c : Thread nD τ) arg3 fullShare x0 ∗ owns (c : Thread nD τ) arg4 fullShare x1 ∗ owns (c : Thread nD τ) arg5 fullShare xo
        ∗ (∃ d, owns (c : Thread nD τ) arg6 fullShare d)
        ∗ (iprop(owns (c : Thread nD τ) arg3 fullShare x0 ∗ owns (c : Thread nD τ) arg4 fullShare x1 ∗ owns (c : Thread nD τ) arg5 fullShare xo
            ∗ owns (c : Thread nD τ) arg6 fullShare (k3_pay2 x0 x1 (k3_pay1 (F := F)))) -∗ K ⟨⟩))
      ⊢ wp frame (wpE (defs₀ (F := F)) Variants.none c none) E (cc3__mm_kernel i arg3 harg3 arg4 harg4 arg5 harg5 arg6 harg6) K := by
  simp only [cc3__mm_kernel_eq_skeleton]; unfold cc3__mm_kernel_skel
  unfold owns
  iintro ⟨⟨%f0, %hf0, H0⟩, ⟨%f1, %hf1, H1⟩, ⟨%f2, %hf2, H2⟩, ⟨%d, %f3, -, H3⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_cons_self, View.mem_set_unit_zero hz2' inb_S1000x128_S1000x128_0_0 y⟩),
    View.canon_cons_unit_zero (S := S1000x128) hz2']
  sl_unfold_run_names
  rw [View.readCov_unit_zero (S := S1000x128) _ hz2']
  simp only [View.readAt_eq_ld, View.ld_unit_zero (S := S1000x1280) hz2', View.ld_unit_zero (S := S1280x128) hz2']

set_option maxHeartbeats 1000000 in
/-- A step that is neither first nor last: the accumulator, at `xs`, ends at the product added to `xs`; the result's
    buffer is untouched. -/
theorem sound_kernel3_mid (c : Dev nD) (E : Set ℕ) (i : grid3.Coords)
    (arg3 : Memref sig .tc .vmem S1000x1280 .f32) (harg3 : arg3.IsWhole) (arg4 : Memref sig .tc .vmem S1280x128 .f32) (harg4 : arg4.IsWhole)
    (arg5 : Memref sig .tc .vmem S1000x128 .f32) (harg5 : arg5.IsWhole) (arg6 : Memref sig .tc .vmem S1000x128 .f32) (harg6 : arg6.IsWhole)
    (hc1 : ¬first3 i) (hc2 : ¬last3 i)
    (x0 : Vec F S1000x1280 .f32) (x1 : Vec F S1280x128 .f32) (xo : Vec F S1000x128 .f32) (xs : Vec F S1000x128 .f32) (K : PUnit → sProp 𝕄) :
    iprop(owns (c : Thread nD τ) arg3 fullShare x0 ∗ owns (c : Thread nD τ) arg4 fullShare x1 ∗ owns (c : Thread nD τ) arg5 fullShare xo
        ∗ owns (c : Thread nD τ) arg6 fullShare xs
        ∗ (iprop(owns (c : Thread nD τ) arg3 fullShare x0 ∗ owns (c : Thread nD τ) arg4 fullShare x1 ∗ owns (c : Thread nD τ) arg5 fullShare xo
            ∗ owns (c : Thread nD τ) arg6 fullShare (k3_pay2 x0 x1 xs)) -∗ K ⟨⟩))
      ⊢ wp frame (wpE (defs₀ (F := F)) Variants.none c none) E (cc3__mm_kernel i arg3 harg3 arg4 harg4 arg5 harg5 arg6 harg6) K := by
  simp only [cc3__mm_kernel_eq_skeleton]; unfold cc3__mm_kernel_skel
  unfold owns
  iintro ⟨⟨%f0, %hf0, H0⟩, ⟨%f1, %hf1, H1⟩, ⟨%f2, %hf2, H2⟩, ⟨%f3, %hf3, H3⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_cons_self, View.mem_set_unit_zero hz2' inb_S1000x128_S1000x128_0_0 y⟩),
    View.canon_cons_unit_zero (S := S1000x128) hz2']
  sl_unfold_run_names
  simp only [View.readAt_eq_ld, View.ld_unit_zero (S := S1000x1280) hz2', View.ld_unit_zero (S := S1280x128) hz2',
    View.ld_unit_zero (S := S1000x128) hz2']

set_option maxHeartbeats 1000000 in
/-- A last step that is not a first one: the accumulator, at `xs`, ends at the product added to `xs`, and the result's
    buffer, whatever it held, at that. -/
theorem sound_kernel3_last (c : Dev nD) (E : Set ℕ) (i : grid3.Coords)
    (arg3 : Memref sig .tc .vmem S1000x1280 .f32) (harg3 : arg3.IsWhole) (arg4 : Memref sig .tc .vmem S1280x128 .f32) (harg4 : arg4.IsWhole)
    (arg5 : Memref sig .tc .vmem S1000x128 .f32) (harg5 : arg5.IsWhole) (arg6 : Memref sig .tc .vmem S1000x128 .f32) (harg6 : arg6.IsWhole)
    (hc1 : ¬first3 i) (hc2 : last3 i)
    (x0 : Vec F S1000x1280 .f32) (x1 : Vec F S1280x128 .f32) (xs : Vec F S1000x128 .f32) (K : PUnit → sProp 𝕄) :
    iprop(owns (c : Thread nD τ) arg3 fullShare x0 ∗ owns (c : Thread nD τ) arg4 fullShare x1 ∗ (∃ d, owns (c : Thread nD τ) arg5 fullShare d)
        ∗ owns (c : Thread nD τ) arg6 fullShare xs
        ∗ (iprop(owns (c : Thread nD τ) arg3 fullShare x0 ∗ owns (c : Thread nD τ) arg4 fullShare x1
            ∗ owns (c : Thread nD τ) arg5 fullShare (k3_pay2 x0 x1 xs)
            ∗ owns (c : Thread nD τ) arg6 fullShare (k3_pay2 x0 x1 xs)) -∗ K ⟨⟩))
      ⊢ wp frame (wpE (defs₀ (F := F)) Variants.none c none) E (cc3__mm_kernel i arg3 harg3 arg4 harg4 arg5 harg5 arg6 harg6) K := by
  simp only [cc3__mm_kernel_eq_skeleton]; unfold cc3__mm_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_run_names
    rw [View.read_writes_eq_canon _ _ _ (fun y => ⟨_, List.mem_cons_self, View.mem_set_unit_zero hz2' inb_S1000x128_S1000x128_0_0 y⟩),
      View.canon_cons_unit_zero (S := S1000x128) hz2', View.readCov_unit_zero (S := S1000x128) _ hz2']
    simp only [View.readAt_eq_ld, View.ld_unit_zero (S := S1000x1280) hz2', View.ld_unit_zero (S := S1280x128) hz2',
      View.ld_unit_zero (S := S1000x128) hz2']
  iexists _; isplitr
  swap; · iexact H3
  ipureintro
  sl_unfold_run_names
  rw [View.read_writes_eq_canon _ _ _ (fun y => ⟨_, List.mem_cons_self, View.mem_set_unit_zero hz2' inb_S1000x128_S1000x128_0_0 y⟩),
    View.canon_cons_unit_zero (S := S1000x128) hz2']
  simp only [View.readAt_eq_ld, View.ld_unit_zero (S := S1000x1280) hz2', View.ld_unit_zero (S := S1280x128) hz2',
    View.ld_unit_zero (S := S1000x128) hz2']

/-! ## The accumulator, point by point -/

/-- The kernel's scratch operand: the accumulator, a whole scoped buffer of its own. -/
abbrev scM3 : Memref sig .tc .vmem S1000x128 .f32 := Memref.whole cc3_scratch0

/-- What the accumulator holds after the body at position `n`: the product of the point's two blocks added to zero at
    a row block's first step, to what the step before left otherwise. -/
def acc3 (c : Dev nD) : (n : ℕ) → n < cfg3.N → Vec F S1000x128 .f32
  | 0, h => k3_pay2 (iblk3 V c 0 ⟨0, h⟩) (iblk3 V c 1 ⟨0, h⟩) (k3_pay1 (F := F))
  | n + 1, h => k3_pay2 (iblk3 V c 0 ⟨n + 1, h⟩) (iblk3 V c 1 ⟨n + 1, h⟩)
      (if (n + 1) % 8 = 0 then k3_pay1 (F := F) else acc3 c n (Nat.lt_of_succ_lt h))

theorem acc3_first (c : Dev nD) (t : Fin cfg3.N) (h : t.val % 8 = 0) :
    acc3 V c t.val t.isLt = k3_pay2 (iblk3 V c 0 t) (iblk3 V c 1 t) (k3_pay1 (F := F)) := by
  obtain ⟨n, hn⟩ := t
  cases n with
  | zero => rfl
  | succ n => exact congrArg (k3_pay2 _ _) (if_pos h)

theorem acc3_next (c : Dev nD) (t : Fin cfg3.N) (h : ¬t.val % 8 = 0) :
    acc3 V c t.val t.isLt = k3_pay2 (iblk3 V c 0 t) (iblk3 V c 1 t)
      (acc3 V c (t.val - 1) (Nat.lt_of_le_of_lt (Nat.sub_le _ _) t.isLt)) := by
  obtain ⟨n, hn⟩ := t
  cases n with
  | zero => exact absurd (Nat.zero_mod _) h
  | succ n => exact congrArg (k3_pay2 _ _) (if_neg h)

/-! ## The region invariant -/

/-- Before position `n`: at the region's entry the scoped rest (the accumulator among it) at anything and the generator
    register; afterwards the accumulator at what the point before left, the rest of the scoped rest unopened. -/
def Phi3 (c : Dev nD) : (n : ℕ) → n ≤ cfg3.N → sProp 𝕄
  | 0, _ => Pipeline.ΦA spec3 c
  | n + 1, hn => iprop(iprop(owns (c : Thread nD τ) scM3 fullShare (acc3 V c n hn)
      ∗ Pipeline.scopedRestBut (Ix := Unit) (Name := ℕ) (U := UR sig nD τ) (Lvl := ℕ) (Val := Elt F) spec3 c [cc3_scratch0])
      ∗ (∃ r, prngReg c r))

theorem Phi3_zero (c : Dev nD) (n : ℕ) (h : n ≤ cfg3.N) (hz : n = 0) : Phi3 V c n h = Pipeline.ΦA spec3 c := by
  subst hz; rfl

theorem Phi3_succ (c : Dev nD) (n : ℕ) (hn : n < cfg3.N) :
    Phi3 V c (n + 1) hn = iprop(iprop(owns (c : Thread nD τ) scM3 fullShare (acc3 V c n hn)
      ∗ Pipeline.scopedRestBut (Ix := Unit) (Name := ℕ) (U := UR sig nD τ) (Lvl := ℕ) (Val := Elt F) spec3 c [cc3_scratch0])
      ∗ (∃ r, prngReg c r)) := rfl

theorem Phi3_pos (c : Dev nD) (n : ℕ) (h : n ≤ cfg3.N) (hz : n ≠ 0) :
    Phi3 V c n h = iprop(iprop(owns (c : Thread nD τ) scM3 fullShare (acc3 V c (n - 1) (by omega))
      ∗ Pipeline.scopedRestBut (Ix := Unit) (Name := ℕ) (U := UR sig nD τ) (Lvl := ℕ) (Val := Elt F) spec3 c [cc3_scratch0])
      ∗ (∃ r, prngReg c r)) := by
  cases n with
  | zero => exact absurd rfl hz
  | succ n => rfl

/-- The entry invariant with the accumulator split off the scoped rest. -/
theorem PhiA3_eq (c : Dev nD) :
    (Pipeline.ΦA spec3 c : sProp 𝕄)
      = iprop(iprop((∃ d, owns (c : Thread nD τ) scM3 fullShare d)
          ∗ Pipeline.scopedRestBut (Ix := Unit) (Name := ℕ) (U := UR sig nD τ) (Lvl := ℕ) (Val := Elt F) spec3 c [cc3_scratch0])
          ∗ (∃ r, prngReg c r)) := by
  unfold Pipeline.ΦA; rw [scopedRest3_split]; simp only [scM3, owns_whole]; rfl

/-! ## The proof data -/

/-- The arrays as the region finds them; after the body each input's buffer at its block and the result's at the
    accumulator (read only at a row block's last step, the one point that writes the block back); the invariant
    above; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => acc3 V c t.val t.isLt
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem Phi3_castSucc (c : Dev nD) (t : Fin cfg3.N) :
    (dat3 V c).Φ t.castSucc = Phi3 V c t.val (Nat.le_of_lt t.isLt) := by
  dsimp only [dat3]; simp only [Fin.coe_castSucc]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = acc3 V c t.val t.isLt := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4000000 in
/-- The body at any point: the inputs' buffers hold their blocks; the point's position modulo 8 says which of the
    three triples applies; the invariant hands the accumulator over at what the step before left (at anything at the
    region's first point) and takes it back at this step's contents. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = Phi3 V c (t.val + 1) t.isLt from rfl, Phi3_succ]
  rw [show (dat3 V c).leavesExact 0 t = owns (c : Thread nD τ) (st3_0 t) fullShare ((dat3 V c).after 0 t) from by
    unfold Dat.leavesExact; rw [live3_0 t], after3_0]
  rw [show (dat3 V c).leavesExact 1 t = owns (c : Thread nD τ) (st3_1 t) fullShare ((dat3 V c).after 1 t) from by
    unfold Dat.leavesExact; rw [live3_1 t], after3_1]
  have hN : t.val < 80 := lt_of_lt_of_eq t.isLt (show cfg3.N = 80 from N_3)
  by_cases h7 : t.val % 8 = 7
  · -- a last step
    have h0 : ¬t.val % 8 = 0 := by omega
    have hz : t.val ≠ 0 := by omega
    rw [show (dat3 V c).leavesExact 2 t = owns (c : Thread nD τ) (st3_2 t) fullShare ((dat3 V c).after 2 t) from by
      unfold Dat.leavesExact; rw [live3_2 t ((hlast3 t).mpr h7)], after3_2]
    rw [acc3_next V c t h0, Phi3_castSucc V c t, Phi3_pos V c _ _ hz]
    iintro ⟨⟨⟨HS, Hrest⟩, Hg⟩, Ho, ⟨%d0, H0⟩, ⟨%d1, H1⟩, ⟨%d2, H2⟩⟩
    iapply (sound_kernel3_last c Set.univ (grid3.coords t) _ _ _ _ _ _ _ _ (fun h => h0 ((hfirst3 t).mp h)) ((hlast3 t).mpr h7)
      (iblk3 V c 0 t) (iblk3 V c 1 t) _ _)
    isplitl [H0]; · iexact H0
    isplitl [H1]; · iexact H1
    isplitl [H2]; · iexists _; iexact H2
    isplitl [HS]; · iexact HS
    iintro ⟨H0, H1, H2, HS⟩
    isplitl [HS Hrest Hg]
    · isplitl [HS Hrest]
      · isplitl [HS]; · iexact HS
        iexact Hrest
      iexact Hg
    isplitl [Ho]; · iexact Ho
    isplitl [H0]; · iexact H0
    isplitl [H1]; · iexact H1
    iexact H2
  · rw [Dat.leavesExact_idle (dat3 V c) 2 t (idle3_2 t (fun h => h7 ((hlast3 t).mp h))) (noflush3_2 t (fun h => h7 ((hlast3 t).mp h)))]
    by_cases h0 : t.val % 8 = 0
    · -- a first step
      rw [acc3_first V c t h0]
      by_cases hz : t.val = 0
      · rw [Phi3_castSucc V c t, Phi3_zero V c _ _ hz, PhiA3_eq]
        iintro ⟨⟨⟨HS, Hrest⟩, Hg⟩, Ho, ⟨%d0, H0⟩, ⟨%d1, H1⟩, ⟨%d2, H2⟩⟩
        iapply (sound_kernel3_first c Set.univ (grid3.coords t) _ _ _ _ _ _ _ _ ((hfirst3 t).mpr h0) (fun h => h7 ((hlast3 t).mp h))
          (iblk3 V c 0 t) (iblk3 V c 1 t) _ _)
        isplitl [H0]; · iexact H0
        isplitl [H1]; · iexact H1
        isplitl [H2]; · iexact H2
        isplitl [HS]; · iexact HS
        iintro ⟨H0, H1, H2, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        iexists _; iexact H2
      · rw [Phi3_castSucc V c t, Phi3_pos V c _ _ hz]
        iintro ⟨⟨⟨HS, Hrest⟩, Hg⟩, Ho, ⟨%d0, H0⟩, ⟨%d1, H1⟩, ⟨%d2, H2⟩⟩
        iapply (sound_kernel3_first c Set.univ (grid3.coords t) _ _ _ _ _ _ _ _ ((hfirst3 t).mpr h0) (fun h => h7 ((hlast3 t).mp h))
          (iblk3 V c 0 t) (iblk3 V c 1 t) _ _)
        isplitl [H0]; · iexact H0
        isplitl [H1]; · iexact H1
        isplitl [H2]; · iexact H2
        isplitl [HS]; · iexists _; iexact HS
        iintro ⟨H0, H1, H2, HS⟩
        isplitl [HS Hrest Hg]
        · isplitl [HS Hrest]
          · isplitl [HS]; · iexact HS
            iexact Hrest
          iexact Hg
        isplitl [Ho]; · iexact Ho
        isplitl [H0]; · iexact H0
        isplitl [H1]; · iexact H1
        iexists _; iexact H2
    · -- a middle step
      have hz : t.val ≠ 0 := fun e => h0 (by rw [e])
      rw [acc3_next V c t h0, Phi3_castSucc V c t, Phi3_pos V c _ _ hz]
      iintro ⟨⟨⟨HS, Hrest⟩, Hg⟩, Ho, ⟨%d0, H0⟩, ⟨%d1, H1⟩, ⟨%d2, H2⟩⟩
      iapply (sound_kernel3_mid c Set.univ (grid3.coords t) _ _ _ _ _ _ _ _ (fun h => h0 ((hfirst3 t).mp h)) (fun h => h7 ((hlast3 t).mp h))
        (iblk3 V c 0 t) (iblk3 V c 1 t) _ _ _)
      isplitl [H0]; · iexact H0
      isplitl [H1]; · iexact H1
      isplitl [H2]; · iexact H2
      isplitl [HS]; · iexact HS
      iintro ⟨H0, H1, H2, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      iexists _; iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the region is handed at its entry is the invariant before the first point. -/
theorem hin3 (c : Dev nD) : Pipeline.ΦA spec3 c ⊢ (dat3 V c).Φ 0 := by
  rw [show (dat3 V c).Φ 0 = Phi3 V c 0 (Nat.zero_le _) from rfl, Phi3_zero V c 0 _ rfl]

/-- After the last point the invariant gives the entry's form back: the accumulator's contents are forgotten. -/
theorem hout3 (c : Dev nD) : (dat3 V c).Φ (Fin.last cfg3.N) ⊢ Pipeline.ΦA spec3 c := by
  rw [show (dat3 V c).Φ (Fin.last cfg3.N) = Phi3 V c (Fin.last cfg3.N).val (Nat.le_of_lt_succ (Fin.last cfg3.N).isLt) from rfl,
    Phi3_pos V c _ _ (by rw [Fin.val_last]; have : cfg3.N = 80 := N_3; omega), PhiA3_eq]
  iintro ⟨⟨HS, Hrest⟩, Hg⟩
  isplitl [HS Hrest]
  · isplitl [HS]; · iexists _; iexact HS
    iexact Hrest
  iexact Hg

end Region

end Cert.KernelIdeal.Hand

end
-- ==== Proof.KI.R4.lean ====
/-
  The fifth kernel region: the decoder's product `mu · mu_padᵀ`, one 1000 × 1280 block of the result per grid point
  (10 × 8 points), each block the product of a 1000 × 64 row block with a 1280 × 64 row block over the 64 columns.
  The body loads its two input blocks whole, stores the product whole, and keeps nothing between points.
-/
import proofs.«420245_j23562190586108_1_alg».proof.Proof.Gen.KernelIdeal.Launch
import proofs.«420245_j23562190586108_1_alg».proof.Proof.Gen.KernelIdeal.Skeleton
import proofs.«420245_j23562190586108_1_alg».proof.Proof.Gen.KernelIdeal.Points
import proofs.«420245_j23562190586108_1_alg».proof.Proof.Spec
import proofs.«420245_j23562190586108_1_alg».proof.Proof.Bridge
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

open scoped BigOperators

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Bridge

variable {F : FTy → Type} [FloatOps F]

local notation "𝕄" => MT nD τ sig Unit (Elt F) ℕ (UR sig nD τ) ℕ

section Region

-- the TensorCore's buffer contents when the region is entered
variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The region's proof data: the arrays as found; after the body each input's buffer at its block and the output's at
    the product of the two input blocks; the invariant the scoped rest and the generator register, untouched. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => k4_pay1 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

/-! ## What the body leaves, window by window -/

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) :
    (dat4 V c).after 2 t = k4_pay1 (iblk4 V c 0 t) (iblk4 V c 1 t) := by dsimp only [dat4]

/-! ## What the body finds in each input's buffer -/

/-- The first input's buffer holds its block at every point, fetched there or not: unfetched, the block index has
    not moved and the body left the block in place. -/
theorem before4_0 (c : Dev nD) (t : Fin cfg4.N) (d) : (dat4 V c).before 0 t d = iblk4 V c 0 t :=
  ((dat4 V c).before_in_eq_fetched 0 rfl (fun _ => rfl) (fun _ _ _ => rfl)
      (fun t => by rw [after4_0]; unfold Dat.blockOf iblk4; rw [A_eq4]; try rfl) t d).trans
    (by unfold Dat.fetched Dat.blockOf iblk4; rw [A_eq4]; try rfl)

/-- The second input's buffer holds its block at every point. -/
theorem before4_1 (c : Dev nD) (t : Fin cfg4.N) (d) : (dat4 V c).before 1 t d = iblk4 V c 1 t :=
  ((dat4 V c).before_in_eq_fetched 1 rfl (fun _ => rfl) (fun _ _ _ => rfl)
      (fun t => by rw [after4_1]; unfold Dat.blockOf iblk4; rw [A_eq4]; try rfl) t d).trans
    (by unfold Dat.fetched Dat.blockOf iblk4; rw [A_eq4]; try rfl)

/-! ## The body's triple -/

/-- The offsets `![0, 0]` are the zero offsets. -/
theorem zero_off : (![0, 0] : Fin 2 → Nat) = fun _ => 0 := by funext a; fin_cases a <;> rfl

set_option maxHeartbeats 1000000 in
/-- The body on whole staging memrefs, the inputs' reading `x0` and `x1` and the output's holding anything, runs to
    the continuation with the inputs' as they were and the output's reading the product payload of `x0` and `x1`: both
    loads and the store go through the whole rectangle. -/
theorem sound_kernel4 (c : Dev nD) (E : Set ℕ) (i : grid4.Coords) (arg2 : Memref sig .tc .vmem S1000x64 .f32) (harg2 : arg2.IsWhole)
    (arg3 : Memref sig .tc .vmem S1280x64 .f32) (harg3 : arg3.IsWhole)
    (arg4 : Memref sig .tc .vmem S1000x1280 .f32) (harg4 : arg4.IsWhole)
    (x0 : Vec F S1000x64 .f32) (x1 : Vec F S1280x64 .f32) (K : PUnit → sProp 𝕄) :
    iprop(owns (c : Thread nD τ) arg2 fullShare x0 ∗ owns (c : Thread nD τ) arg3 fullShare x1
        ∗ (∃ d, owns (c : Thread nD τ) arg4 fullShare d)
        ∗ (iprop(owns (c : Thread nD τ) arg2 fullShare x0 ∗ owns (c : Thread nD τ) arg3 fullShare x1
            ∗ owns (c : Thread nD τ) arg4 fullShare (k4_pay1 x0 x1)) -∗ K ⟨⟩))
      ⊢ wp frame (wpE (defs₀ (F := F)) Variants.none c none) E (cc4__mm_bt_kernel i arg2 harg2 arg3 harg3 arg4 harg4) K := by
  simp only [cc4__mm_bt_kernel_eq_skeleton]; unfold cc4__mm_bt_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y =>
      ⟨_, List.mem_cons_self, View.mem_set_unit_zero zero_off inb_S1000x1280_S1000x1280_0_0 y⟩),
    View.canon_unit_zero (S := S1000x1280) zero_off]
  simp only [View.readAt_eq_ld, View.ld_unit_zero (S := S1000x64) zero_off, View.ld_unit_zero (S := S1280x64) zero_off]

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t))

/-- The body at any point: the inputs' memrefs hold their blocks, so the body's triple applies; the invariant and the
    core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body at every point takes the proof data's invariant and buffers to the next point's. -/
theorem body_obligation4 (c : Dev nD) : BodyObligation (dat4 (F := F) V c) (defs₀ (F := F)) Variants.none () Set.univ := fun t => by
  rw [bigSep_W4, bigSep_W4]
  exact sound_body4 V c t

end Region

/-! ## The product payload at an index -/

/-- The contraction's two index maps, axis by axis: the left operand is read at the result's row and the contraction
    position, the right operand at the result's column and the contraction position. -/
theorem lhs4_0 (j : S1000x1280.Idx) (q : dot_S1000x64_S1280x64_S1000x1280_1_1_0_0_n_n.contr.Idx) :
    (dot_S1000x64_S1280x64_S1000x1280_1_1_0_0_n_n.lhsIdx j q 0).val = (j 0).val := by
  unfold DotDims.lhsIdx
  rw [dif_neg (show ¬(0 : Fin S1000x64.rank) ∈ dot_S1000x64_S1280x64_S1000x1280_1_1_0_0_n_n.lhsBatch by decide),
    dif_pos (show (0 : Fin S1000x64.rank) ∈ dot_S1000x64_S1280x64_S1000x1280_1_1_0_0_n_n.lhsNonContracting by decide)]
  rfl
theorem lhs4_1 (j : S1000x1280.Idx) (q : dot_S1000x64_S1280x64_S1000x1280_1_1_0_0_n_n.contr.Idx) :
    (dot_S1000x64_S1280x64_S1000x1280_1_1_0_0_n_n.lhsIdx j q 1).val = (q ⟨0, by decide⟩).val :=
  dot_S1000x64_S1280x64_S1000x1280_1_1_0_0_n_n.lhsIdx_val_of_single rfl j q
theorem rhs4_0 (j : S1000x1280.Idx) (q : dot_S1000x64_S1280x64_S1000x1280_1_1_0_0_n_n.contr.Idx) :
    (dot_S1000x64_S1280x64_S1000x1280_1_1_0_0_n_n.rhsIdx j q 0).val = (j 1).val := by
  unfold DotDims.rhsIdx
  rw [dif_neg (show ¬(0 : Fin S1280x64.rank) ∈ dot_S1000x64_S1280x64_S1000x1280_1_1_0_0_n_n.rhsBatch by decide),
    dif_pos (show (0 : Fin S1280x64.rank) ∈ dot_S1000x64_S1280x64_S1000x1280_1_1_0_0_n_n.rhsNonContracting by decide)]
  rfl
theorem rhs4_1 (j : S1000x1280.Idx) (q : dot_S1000x64_S1280x64_S1000x1280_1_1_0_0_n_n.contr.Idx) :
    (dot_S1000x64_S1280x64_S1000x1280_1_1_0_0_n_n.rhsIdx j q 1).val = (q ⟨0, by decide⟩).val :=
  dot_S1000x64_S1280x64_S1000x1280_1_1_0_0_n_n.rhsIdx_val_of_single rfl j q

/-- At the extended reals the payload at `(p, q)` is the sum over the 64 columns of the first block at `(p, k)` times
    the second at `(q, k)`: the casts to the same shape and the narrowings are identities, the accumulator is zero. -/
theorem pay4_apply (x0 : Vec Ideal S1000x64 .f32) (x1 : Vec Ideal S1280x64 .f32) (j : S1000x1280.Idx) :
    k4_pay1 (F := Ideal) x0 x1 j = ∑ k : Fin 64, x0 (ix2 (j 0) k) * x1 (ix2 (j 1) k) := by
  unfold k4_pay1
  simp only [shapeCast_self]
  refine (Ideal.matmul_constant_zero_apply dot_S1000x64_S1280x64_S1000x1280_1_1_0_0_n_n none _ _ j).trans ?_
  rw [← Equiv.sum_comp (contrEquiv1 dot_S1000x64_S1280x64_S1000x1280_1_1_0_0_n_n 64 rfl rfl).symm]
  refine Finset.sum_congr rfl fun k _ => ?_
  have hk := contrEquiv1_symm_val dot_S1000x64_S1280x64_S1000x1280_1_1_0_0_n_n 64 rfl rfl k
  have el : dot_S1000x64_S1280x64_S1000x1280_1_1_0_0_n_n.lhsIdx j ((contrEquiv1 dot_S1000x64_S1280x64_S1000x1280_1_1_0_0_n_n 64 rfl rfl).symm k) = ix2 (j 0) k :=
    funext fun a => Fin.ext (by
      match a with
      | ⟨0, _⟩ => exact lhs4_0 _ _
      | ⟨1, _⟩ => exact (lhs4_1 _ _).trans hk)
  have er : dot_S1000x64_S1280x64_S1000x1280_1_1_0_0_n_n.rhsIdx j ((contrEquiv1 dot_S1000x64_S1280x64_S1000x1280_1_1_0_0_n_n 64 rfl rfl).symm k) = ix2 (j 1) k :=
    funext fun a => Fin.ext (by
      match a with
      | ⟨0, _⟩ => exact rhs4_0 _ _
      | ⟨1, _⟩ => exact (rhs4_1 _ _).trans hk)
  rw [el, er]
  rfl

/-! ## From the blocks to the array -/

/-- The result array's contents after the region, index by index, from the two operand arrays. -/
abbrev G4 (a0 : S10000x64.Idx → EReal) (a1 : S10240x64.Idx → EReal) : S10000x10240.Idx → EReal :=
  fun i => ∑ k : Fin 64, a0 (ix2 (i 0) k) * a1 (ix2 (i 1) k)

theorem G4_apply (a0 : S10000x64.Idx → EReal) (a1 : S10240x64.Idx → EReal) (i : S10000x10240.Idx) :
    G4 a0 a1 i = ∑ k : Fin 64, a0 (ix2 (i 0) k) * a1 (ix2 (i 1) k) := rfl

/-- The printed index maps, decided over the grid: the result's block row is the first operand's, its block column the
    second operand's block row, and neither operand's block moves along the columns. -/
theorem idx_facts4 : ∀ t : Fin cfg4.N, win4_2.index t (0 : Fin 2) = win4_0.index t (0 : Fin 2)
    ∧ win4_2.index t (1 : Fin 2) = win4_1.index t (0 : Fin 2)
    ∧ win4_0.index t (1 : Fin 2) = 0 ∧ win4_1.index t (1 : Fin 2) = 0 :=
  (by decide +kernel : ∀ t : Fin grid4.N, _)

/-- Every block of the result is some point's. -/
theorem idx_onto4 : ∀ (q0 : Fin 10) (q1 : Fin 8), ∃ t : Fin cfg4.N, win4_2.index t = ![q0.val, q1.val] :=
  (by decide +kernel : ∀ (q0 : Fin 10) (q1 : Fin 8), ∃ t : Fin grid4.N, win4_2.index t = ![q0.val, q1.val])

/-- What point `t` writes back is block `t` of `G4` of the operand arrays as the region finds them. -/
theorem flushed4_eq (V : (c : Dev nD) → (b : Ref sig .tc) → Buf (Elt Ideal) ((c : Thread nD τ).loc b)) (c : Dev nD)
    (t : Fin cfg4.N) :
    (dat4 (F := Ideal) V c).flushed 2 t
      = ((cfg4.win 2).blk t).view.read (Elt Ideal) (G4 (V c main_v22) (V c main_v24)) := by
  show (cfg4.win 2).cut (grid4.coords t) ((dat4 (F := Ideal) V c).after 2 t) = _
  rw [after4_2]
  obtain ⟨e0, e1, e2, e3⟩ := idx_facts4 t
  funext j
  refine (pay4_apply (iblk4 V c 0 t) (iblk4 V c 1 t) ((cfg4.win 2).xinj (grid4.coords t) j)).trans ?_
  change _ = G4 (V c main_v22) (V c main_v24) (((cfg4.win 2).blk t).view.emb j)
  rw [G4_apply]
  refine Finset.sum_congr rfl fun k _ => ?_
  have h0 : iblk4 V c 0 t (ix2 ((cfg4.win 2).xinj (grid4.coords t) j 0) k)
      = V c main_v22 (ix2 (((cfg4.win 2).blk t).view.emb j 0) k) := by
    show V c main_v22 (((cfg4.win 0).blk t).view.emb (ix2 ((cfg4.win 2).xinj (grid4.coords t) j 0) k)) = _
    congr 1
    funext a
    apply Fin.ext
    match a with
    | ⟨0, _⟩ =>
      show win4_0.index t (0 : Fin 2) * 1000 + 1 * (j 0).val = win4_2.index t (0 : Fin 2) * 1000 + 1 * (j 0).val
      rw [e0]
    | ⟨1, _⟩ =>
      show win4_0.index t (1 : Fin 2) * 64 + 1 * k.val = k.val
      rw [e2]; omega
  have h1 : iblk4 V c 1 t (ix2 ((cfg4.win 2).xinj (grid4.coords t) j 1) k)
      = V c main_v24 (ix2 (((cfg4.win 2).blk t).view.emb j 1) k) := by
    show V c main_v24 (((cfg4.win 1).blk t).view.emb (ix2 ((cfg4.win 2).xinj (grid4.coords t) j 1) k)) = _
    congr 1
    funext a
    apply Fin.ext
    match a with
    | ⟨0, _⟩ =>
      show win4_1.index t (0 : Fin 2) * 1280 + 1 * (j 1).val = win4_2.index t (1 : Fin 2) * 1280 + 1 * (j 1).val
      rw [e1]
    | ⟨1, _⟩ =>
      show win4_1.index t (1 : Fin 2) * 64 + 1 * k.val = k.val
      rw [e3]; omega
  rw [h0, h1]

/-- An index of the array is in point `t`'s block iff each coordinate is in the block's range on its axis. -/
theorem mem_blk4 (t : Fin cfg4.N) (i : S10000x10240.Idx) :
    i ∈ ((cfg4.win 2).blk t).view.set ↔ ∀ a : Fin 2, win4_2.index t a * S1000x1280.size a ≤ (i a).val
      ∧ (i a).val < win4_2.index t a * S1000x1280.size a + S1000x1280.size a := by
  show i ∈ ((View.whole main_v25).slice (win4_2.rect t)).set ↔ _
  rw [View.set_slice_whole, Rect.mem_set_unit]
  exact Iff.rfl

/-- Every index of the result array is in the block of the point whose coordinates are its row over 1000 and its
    column over 1280. -/
theorem cover4 (i : S10000x10240.Idx) :
    ∃ t : Fin cfg4.N, (cfg4.win 2).flush t = true ∧ i ∈ ((cfg4.win 2).blk t).view.set := by
  have hi0 : (i 0).val < 10000 := (i 0).isLt
  have hi1 : (i 1).val < 10240 := (i 1).isLt
  obtain ⟨t, ht⟩ := idx_onto4 ⟨(i 0).val / 1000, by omega⟩ ⟨(i 1).val / 1280, by omega⟩
  have q0 : win4_2.index t (0 : Fin 2) = (i 0).val / 1000 := congrFun ht 0
  have q1 : win4_2.index t (1 : Fin 2) = (i 1).val / 1280 := congrFun ht 1
  refine ⟨t, flush4_2 t, ?_⟩
  rw [mem_blk4]
  intro a
  match a with
  | ⟨0, _⟩ =>
    show win4_2.index t (0 : Fin 2) * 1000 ≤ (i 0).val ∧ (i 0).val < win4_2.index t (0 : Fin 2) * 1000 + 1000
    omega
  | ⟨1, _⟩ =>
    show win4_2.index t (1 : Fin 2) * 1280 ≤ (i 1).val ∧ (i 1).val < win4_2.index t (1 : Fin 2) * 1280 + 1280
    omega

/-- At the extended reals, after the region the result array holds, at `(r, r')`, the sum over the 64 columns of the
    first operand at `(r, k)` times the second at `(r', k)`. -/
theorem out4_eq (V : (c : Dev nD) → (b : Ref sig .tc) → Buf (Elt Ideal) ((c : Thread nD τ).loc b)) (c : Dev nD) :
    ((dat4 (F := Ideal) V c).arrAt 2 cfg4.N : S10000x10240.Idx → EReal)
      = unc (α := EReal) (A := 10000) (B := 10240) (fun r r' =>
          ∑ k : Fin 64, cur (α := EReal) (A := 10000) (B := 64) (V c main_v22) r k * cur (α := EReal) (A := 10240) (B := 64) (V c main_v24) r' k) :=
  ((dat4 (F := Ideal) V c).arrAt_eq_of_cover 2 (G4 (V c main_v22) (V c main_v24)) (fun t _ => flushed4_eq V c t)
    cover4).trans (funext fun i => rfl)

end Cert.KernelIdeal.Hand

end
-- ==== Proof.KI.Fold.lean ====
/-
  The contents of every unscoped buffer of a core at each boundary between two segments of @main, as a fold from the
  launch memory: a stretch of host operations applies its operations' functions; a kernel region replaces its arrays
  by what its write-backs leave (the inputs as entered, the output's blocks written in point order) and keeps every
  other buffer.
-/
import proofs.«420245_j23562190586108_1_alg».proof.Proof.Gen.KernelIdeal.Launch
import proofs.«420245_j23562190586108_1_alg».proof.Proof.Gen.KernelIdeal.Skeleton
import proofs.«420245_j23562190586108_1_alg».proof.Proof.Gen.KernelIdeal.Points
import proofs.«420245_j23562190586108_1_alg».proof.Proof.Spec
import proofs.«420245_j23562190586108_1_alg».proof.Proof.Bridge
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic
import proofs.«420245_j23562190586108_1_alg».proof.Proof.KI.R0
import proofs.«420245_j23562190586108_1_alg».proof.Proof.KI.R1
import proofs.«420245_j23562190586108_1_alg».proof.Proof.KI.R2
import proofs.«420245_j23562190586108_1_alg».proof.Proof.KI.R3
import proofs.«420245_j23562190586108_1_alg».proof.Proof.KI.R4

set_option maxRecDepth 16384

noncomputable section

open scoped BigOperators

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Bridge

variable {F : FTy → Type} [FloatOps F]

local notation "𝕄" => MT nD τ sig Unit (Elt F) ℕ (UR sig nD τ) ℕ

variable (m : (ℓ : Loc nD τ sig) → Buf (Elt F) ℓ)

/-! ## The buffer contents at each segment boundary -/

/-- Core `c`'s buffers at launch. -/
abbrev W0 : Dev nD → Valuation τ sig (Elt F) := fun c b => m (c, b)

/-- After `hostOps0`. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the pipeline leaves (the inputs as entered, the output's write-backs folded),
    every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After `hostOps1`. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- After `hostOps1_1`. -/
abbrev W4 : Dev nD → Valuation τ sig (Elt F) := fun c => StableHlo.after hostOps1_1 (W3 m c)
abbrev V4 : (c : Dev nD) → (b : Ref sig .tc) → Buf (Elt F) ((c : Thread nD τ).loc b) := fun c b => W4 m c b

/-- At region 1's exit: its arrays at what the pipeline leaves (the inputs as entered, the output's write-backs folded),
    every other buffer as entered. -/
def W5 (c : Dev nD) : Valuation τ sig (Elt F) :=
  Pipeline.withArrays spec1 c (W4 m c) fun w => (dat1 (V4 m) c).arrAt w cfg1.N
theorem W5_arr (c : Dev nD) (w : Fin cfg1.W) :
    W5 m c (Proc.devRef .tc (Pipeline.arrRef spec1 w)) = (dat1 (V4 m) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m c (Proc.devRef .tc b) = W4 m c (Proc.devRef .tc b) := by
  unfold W5; exact Pipeline.withArrays_of_ne spec1 c _ _ b hb
/-- The same read at the TensorCore's references. -/
abbrev V5 : (c : Dev nD) → (b : Ref sig .tc) → Buf (Elt F) ((c : Thread nD τ).loc b) := fun c b => W5 m c b
theorem hF1 (c : Dev nD) (w : Fin cfg1.W) : (dat1 (V4 m) c).arrAt w cfg1.N = V5 m c (Pipeline.arrRef spec1 w) :=
  (W5_arr m c w).symm
theorem hrest1 (c : Dev nD) : ∀ b, b ∉ Finset.univ.image (Pipeline.arrRef spec1) → V5 m c b = V4 m c b :=
  fun b hb => W5_of_ne m c b fun w e => hb (Finset.mem_image.mpr ⟨w, Finset.mem_univ _, e⟩)

/-- After `hostOps2`. -/
abbrev W6 : Dev nD → Valuation τ sig (Elt F) := fun c => StableHlo.after hostOps2 (W5 m c)
abbrev V6 : (c : Dev nD) → (b : Ref sig .tc) → Buf (Elt F) ((c : Thread nD τ).loc b) := fun c b => W6 m c b

/-- At region 2's exit: its arrays at what the pipeline leaves (the inputs as entered, the output's write-backs folded),
    every other buffer as entered. -/
def W7 (c : Dev nD) : Valuation τ sig (Elt F) :=
  Pipeline.withArrays spec2 c (W6 m c) fun w => (dat2 (V6 m) c).arrAt w cfg2.N
theorem W7_arr (c : Dev nD) (w : Fin cfg2.W) :
    W7 m c (Proc.devRef .tc (Pipeline.arrRef spec2 w)) = (dat2 (V6 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb
/-- The same read at the TensorCore's references. -/
abbrev V7 : (c : Dev nD) → (b : Ref sig .tc) → Buf (Elt F) ((c : Thread nD τ).loc b) := fun c b => W7 m c b
theorem hF2 (c : Dev nD) (w : Fin cfg2.W) : (dat2 (V6 m) c).arrAt w cfg2.N = V7 m c (Pipeline.arrRef spec2 w) :=
  (W7_arr m c w).symm
theorem hrest2 (c : Dev nD) : ∀ b, b ∉ Finset.univ.image (Pipeline.arrRef spec2) → V7 m c b = V6 m c b :=
  fun b hb => W7_of_ne m c b fun w e => hb (Finset.mem_image.mpr ⟨w, Finset.mem_univ _, e⟩)

/-- After `hostOps3`. -/
abbrev W8 : Dev nD → Valuation τ sig (Elt F) := fun c => StableHlo.after hostOps3 (W7 m c)
abbrev V8 : (c : Dev nD) → (b : Ref sig .tc) → Buf (Elt F) ((c : Thread nD τ).loc b) := fun c b => W8 m c b

/-- After `hostOps3_1`. -/
abbrev W9 : Dev nD → Valuation τ sig (Elt F) := fun c => StableHlo.after hostOps3_1 (W8 m c)
abbrev V9 : (c : Dev nD) → (b : Ref sig .tc) → Buf (Elt F) ((c : Thread nD τ).loc b) := fun c b => W9 m c b

/-- At region 3's exit: its arrays at what the pipeline leaves (the inputs as entered, the output's write-backs folded),
    every other buffer as entered. -/
def W10 (c : Dev nD) : Valuation τ sig (Elt F) :=
  Pipeline.withArrays spec3 c (W9 m c) fun w => (dat3 (V9 m) c).arrAt w cfg3.N
theorem W10_arr (c : Dev nD) (w : Fin cfg3.W) :
    W10 m c (Proc.devRef .tc (Pipeline.arrRef spec3 w)) = (dat3 (V9 m) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb
/-- The same read at the TensorCore's references. -/
abbrev V10 : (c : Dev nD) → (b : Ref sig .tc) → Buf (Elt F) ((c : Thread nD τ).loc b) := fun c b => W10 m c b
theorem hF3 (c : Dev nD) (w : Fin cfg3.W) : (dat3 (V9 m) c).arrAt w cfg3.N = V10 m c (Pipeline.arrRef spec3 w) :=
  (W10_arr m c w).symm
theorem hrest3 (c : Dev nD) : ∀ b, b ∉ Finset.univ.image (Pipeline.arrRef spec3) → V10 m c b = V9 m c b :=
  fun b hb => W10_of_ne m c b fun w e => hb (Finset.mem_image.mpr ⟨w, Finset.mem_univ _, e⟩)

/-- After `hostOps4`. -/
abbrev W11 : Dev nD → Valuation τ sig (Elt F) := fun c => StableHlo.after hostOps4 (W10 m c)
abbrev V11 : (c : Dev nD) → (b : Ref sig .tc) → Buf (Elt F) ((c : Thread nD τ).loc b) := fun c b => W11 m c b

/-- After `hostOps4_1`. -/
abbrev W12 : Dev nD → Valuation τ sig (Elt F) := fun c => StableHlo.after hostOps4_1 (W11 m c)
abbrev V12 : (c : Dev nD) → (b : Ref sig .tc) → Buf (Elt F) ((c : Thread nD τ).loc b) := fun c b => W12 m c b

/-- At region 4's exit: its arrays at what the pipeline leaves (the inputs as entered, the output's write-backs folded),
    every other buffer as entered. -/
def W13 (c : Dev nD) : Valuation τ sig (Elt F) :=
  Pipeline.withArrays spec4 c (W12 m c) fun w => (dat4 (V12 m) c).arrAt w cfg4.N
theorem W13_arr (c : Dev nD) (w : Fin cfg4.W) :
    W13 m c (Proc.devRef .tc (Pipeline.arrRef spec4 w)) = (dat4 (V12 m) c).arrAt w cfg4.N := by
  unfold W13; exact Pipeline.withArrays_arr spec4 launch4.win.arr_inj c _ _ w
theorem W13_of_ne (c : Dev nD) (b : Ref sig .tc) (hb : ∀ w, Pipeline.arrRef spec4 w ≠ b) :
    W13 m c (Proc.devRef .tc b) = W12 m c (Proc.devRef .tc b) := by
  unfold W13; exact Pipeline.withArrays_of_ne spec4 c _ _ b hb
/-- The same read at the TensorCore's references. -/
abbrev V13 : (c : Dev nD) → (b : Ref sig .tc) → Buf (Elt F) ((c : Thread nD τ).loc b) := fun c b => W13 m c b
theorem hF4 (c : Dev nD) (w : Fin cfg4.W) : (dat4 (V12 m) c).arrAt w cfg4.N = V13 m c (Pipeline.arrRef spec4 w) :=
  (W13_arr m c w).symm
theorem hrest4 (c : Dev nD) : ∀ b, b ∉ Finset.univ.image (Pipeline.arrRef spec4) → V13 m c b = V12 m c b :=
  fun b hb => W13_of_ne m c b fun w e => hb (Finset.mem_image.mpr ⟨w, Finset.mem_univ _, e⟩)

/-- After `hostOps5`. -/
abbrev W14 : Dev nD → Valuation τ sig (Elt F) := fun c => StableHlo.after hostOps5 (W13 m c)
abbrev V14 : (c : Dev nD) → (b : Ref sig .tc) → Buf (Elt F) ((c : Thread nD τ).loc b) := fun c b => W14 m c b

end Cert.KernelIdeal.Hand

end
-- ==== Proof.KI.Run.lean ====
/-
  The whole kernel program as a run: @main is fourteen segments — stretches of host operations and the five kernel
  regions —, composed in order, each entered from the contents the fold names at its boundary. Every weakly fair
  execution terminates, nothing faulting, and every final memory holds each unscoped buffer at the fold's last contents.
-/
import proofs.«420245_j23562190586108_1_alg».proof.Proof.Gen.KernelIdeal.Launch
import proofs.«420245_j23562190586108_1_alg».proof.Proof.Gen.KernelIdeal.Skeleton
import proofs.«420245_j23562190586108_1_alg».proof.Proof.Gen.KernelIdeal.Points
import proofs.«420245_j23562190586108_1_alg».proof.Proof.Spec
import proofs.«420245_j23562190586108_1_alg».proof.Proof.Bridge
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic
import proofs.«420245_j23562190586108_1_alg».proof.Proof.Gen.KernelIdeal.Regions
import proofs.«420245_j23562190586108_1_alg».proof.Proof.KI.Fold

set_option maxRecDepth 16384

noncomputable section

open scoped BigOperators

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Bridge

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- No pipeline has a prefetched table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V4 m) c
  | ⟨2, _⟩ => fun c => dat2 (V6 m) c
  | ⟨3, _⟩ => fun c => dat3 (V9 m) c
  | ⟨4, _⟩ => fun c => dat4 (V12 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The last thread state without the `owes`: every unscoped buffer at the last contents, the generator register at some state. -/
abbrev Tₙ (c : Dev nD) : sProp 𝕄 := iprop(StableHlo.held (c : Thread nD τ) (Pipeline.ucRefs τ sig) (W14 m c) ∗ ∃ r, prngReg c r)

/-! ## The regions as segments -/

/-- The fifth region keeps the entry invariant at every point. -/
theorem hin4 (V : (c : Dev nD) → (b : Ref sig .tc) → Buf (Elt F) ((c : Thread nD τ).loc b)) (c : Dev nD) :
    Pipeline.ΦA spec4 c ⊢ (dat4 V c).Φ 0 := .rfl
theorem hout4 (V : (c : Dev nD) → (b : Ref sig .tc) → Buf (Elt F) ((c : Thread nD τ).loc b)) (c : Dev nD) :
    (dat4 V c).Φ (Fin.last cfg4.N) ⊢ Pipeline.ΦA spec4 c := .rfl

-- a library lemma stated over the pinned configuration unifies with the printed one only when unification may unfold
-- plain definitions in a metavariable's type
set_option backward.isDefEq.respectTransparency.types false in
/-- Region 0 over the thread state: entered from every unscoped buffer at `W1`, left at `W2`. Its arrays are split out
    of the unscoped buffers and put back at what the write-backs leave; the generator register goes into the region's
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V1 m) c
    unfold Pipeline.ΦA at h
    rw [show (pdats m 0 c).Φ 0 = (dat0 (V1 m) c).Φ 0 from rfl]
    iintro ⟨Hp, -, Hr⟩
    iapply h
    isplitl [Hr]; · iexact Hr
    iexact Hp
  hout c := by
    rw [Pipeline.ownSems0_none]
    have h := hout0 (V1 m) c
    unfold Pipeline.ΦA at h
    rw [show (pdats m 0 c).Φ (Fin.last _) = (dat0 (V1 m) c).Φ (Fin.last cfg0.N) from rfl]
    iintro HF
    ihave H := h $$ HF
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered from every unscoped buffer at `W4`, left at `W5`. Its arrays are split out
    of the unscoped buffers and put back at what the write-backs leave; the generator register goes into the region's
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m) c).loose
  hwaits := Pipeline.hwaits_of_owed_zero _ _ _ _ L lv 1 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec1 c (V4 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (V4 m) c
    unfold Pipeline.ΦA at h
    rw [show (pdats m 1 c).Φ 0 = (dat1 (V4 m) c).Φ 0 from rfl]
    iintro ⟨Hp, -, Hr⟩
    iapply h
    isplitl [Hr]; · iexact Hr
    iexact Hp
  hout c := by
    rw [Pipeline.ownSems0_none]
    have h := hout1 (V4 m) c
    unfold Pipeline.ΦA at h
    rw [show (pdats m 1 c).Φ (Fin.last _) = (dat1 (V4 m) c).Φ (Fin.last cfg1.N) from rfl]
    iintro HF
    ihave H := h $$ HF
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V4 m c) (V5 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 2 over the thread state: entered from every unscoped buffer at `W6`, left at `W7`. Its arrays are split out
    of the unscoped buffers and put back at what the write-backs leave; the generator register goes into the region's
    invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m) c).loose
  hwaits := Pipeline.hwaits_of_owed_zero _ _ _ _ L lv 2 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec2 c (V6 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin2 (V6 m) c
    unfold Pipeline.ΦA at h
    rw [show (pdats m 2 c).Φ 0 = (dat2 (V6 m) c).Φ 0 from rfl]
    iintro ⟨Hp, -, Hr⟩
    iapply h
    isplitl [Hr]; · iexact Hr
    iexact Hp
  hout c := by
    rw [Pipeline.ownSems0_none]
    have h := hout2 (V6 m) c
    unfold Pipeline.ΦA at h
    rw [show (pdats m 2 c).Φ (Fin.last _) = (dat2 (V6 m) c).Φ (Fin.last cfg2.N) from rfl]
    iintro HF
    ihave H := h $$ HF
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V6 m c) (V7 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 3 over the thread state: entered from every unscoped buffer at `W9`, left at `W10`. Its arrays are split out
    of the unscoped buffers and put back at what the write-backs leave; the generator register goes into the region's
    invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V9 m) c).loose
  hwaits := Pipeline.hwaits_of_owed_zero _ _ _ _ L lv 3 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec3 c (V9 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin3 (V9 m) c
    unfold Pipeline.ΦA at h
    rw [show (pdats m 3 c).Φ 0 = (dat3 (V9 m) c).Φ 0 from rfl]
    iintro ⟨Hp, -, Hr⟩
    iapply h
    isplitl [Hr]; · iexact Hr
    iexact Hp
  hout c := by
    rw [Pipeline.ownSems0_none]
    have h := hout3 (V9 m) c
    unfold Pipeline.ΦA at h
    rw [show (pdats m 3 c).Φ (Fin.last _) = (dat3 (V9 m) c).Φ (Fin.last cfg3.N) from rfl]
    iintro HF
    ihave H := h $$ HF
    icases H with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V9 m c) (V10 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 4 over the thread state: entered from every unscoped buffer at `W12`, left at `W13`. Its arrays are split out
    of the unscoped buffers and put back at what the write-backs leave; the generator register goes into the region's
    invariant and comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V12 m) c).loose
  hwaits := Pipeline.hwaits_of_owed_zero _ _ _ _ L lv 4 fun _ _ => rfl
  pre c := iprop(StableHlo.held (c : Thread nD τ) (Pipeline.ucRefs τ sig) (W12 m c) ∗ R c)
  post c := iprop(StableHlo.held (c : Thread nD τ) (Pipeline.ucRefs τ sig) (W13 m c) ∗ R c)
  X c := iprop(∃ r, prngReg c r)
  Y c := iprop(∃ r, prngReg c r)
  Z c := Pipeline.unscopedRest (Ix := Unit) (Name := ℕ) (U := UR sig nD τ) (Lvl := ℕ) spec4 c (V12 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin4 (V12 m) c
    unfold Pipeline.ΦA at h
    rw [show (pdats m 4 c).Φ 0 = (dat4 (V12 m) c).Φ 0 from rfl]
    iintro ⟨Hp, -, Hr⟩
    iapply h
    isplitl [Hr]; · iexact Hr
    iexact Hp
  hout c := by
    rw [Pipeline.ownSems0_none]
    have h := hout4 (V12 m) c
    unfold Pipeline.ΦA at h
    rw [show (pdats m 4 c).Φ (Fin.last _) = (dat4 (V12 m) c).Φ (Fin.last cfg4.N) from rfl]
    iintro HF
    ihave H := h $$ HF
    icases H with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (V12 m c) (V13 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's fourteen segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .region (reg1 m),
    .host (hseg hostOps2 hostOps2_sub hostOps2_fresh (W5 m)),
    .region (reg2 m),
    .host (hseg hostOps3 hostOps3_sub hostOps3_fresh (W7 m)),
    .host (hseg hostOps3_1 hostOps3_1_sub hostOps3_1_fresh (W8 m)),
    .region (reg3 m),
    .host (hseg hostOps4 hostOps4_sub hostOps4_fresh (W10 m)),
    .host (hseg hostOps4_1 hostOps4_1_sub hostOps4_1_fresh (W11 m)),
    .region (reg4 m),
    .host (hseg hostOps5 hostOps5_sub hostOps5_fresh (W13 m)) ]

/-- @main is the run of the segments. -/
theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final memory holds each unscoped buffer of each core at the last contents of the fold. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W14 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl,
      fun c => by
        show iprop(StableHlo.held (c : Thread nD τ) (Pipeline.ucRefs τ sig) (W14 m c) ∗ R c) ⊢ _
        iintro ⟨Hh, ⟨Hp, HO⟩⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m c b)
    (hfin := fun c s' => by
      iintro ⟨⟨Hh, -⟩, HSI⟩
      unfold StableHlo.held
      imodintro
      iapply (pointsTo_read_all (Pipeline.ucRefs τ sig) (fun b => (((c : Thread nD τ)).1, b)) (W14 m c) s')
      isplitl [Hh] <;> iassumption)
    (hQ := fun s h c => h c)

end Cert.KernelIdeal.Hand

end
-- ==== Proof.KI.Args.lean ====
/-
  The arguments of @main end as they were launched: read along the fold of the segment boundaries, no host stretch
  writes an argument, no region's output array is an argument, and the two arguments that are input arrays of the first
  region pass it unchanged (an input array receives no write-back).
-/
import proofs.«420245_j23562190586108_1_alg».proof.Proof.KI.Fold
import proofs.«420245_j23562190586108_1_alg».proof.Proof.Gen.KernelIdeal.Regions

set_option maxRecDepth 16384

noncomputable section

open scoped BigOperators

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Bridge

variable {F : FTy → Type} [FloatOps F]

local notation "𝕄" => MT nD τ sig Unit (Elt F) ℕ (UR sig nD τ) ℕ

variable (m : (ℓ : Loc nD τ sig) → Buf (Elt F) ℓ)

/-! ## What each segment keeps -/

/-- The stretch `hostOps0` keeps every buffer it does not write. -/
theorem W1_keep (c : Dev nD) (b : Ref sig .tc) (h : b ∉ hostOps0_W) :
    W1 m c (Proc.devRef .tc b) = W0 m c (Proc.devRef .tc b) :=
  StableHlo.after_of_writes_sub hostOps0 _ hostOps0_writes h

/-- Region 0 keeps every buffer but its output array: a buffer that is none of its arrays is not touched, and an
    input array is left as entered (no write-back goes to it). -/
theorem W2_keep (c : Dev nD) (b : Ref sig .tc) (h : b ≠ main_v15) :
    W2 m c (Proc.devRef .tc b) = W1 m c (Proc.devRef .tc b) := by
  by_cases h0 : Pipeline.arrRef spec0 0 = b
  · subst h0
    exact (W2_arr m c 0).trans (((dat0 (V1 m) c).arrAt_in 0 rfl _).trans (A_eq0 (V1 m) c 0))
  by_cases h1 : Pipeline.arrRef spec0 1 = b
  · subst h1
    exact (W2_arr m c 1).trans (((dat0 (V1 m) c).arrAt_in 1 rfl _).trans (A_eq0 (V1 m) c 1))
  refine W2_of_ne m c b (fun w => ?_)
  fin_cases w
  · exact h0
  · exact h1
  · exact fun e => h e.symm

/-- The stretch `hostOps1` keeps every buffer it does not write. -/
theorem W3_keep (c : Dev nD) (b : Ref sig .tc) (h : b ∉ hostOps1_W) :
    W3 m c (Proc.devRef .tc b) = W2 m c (Proc.devRef .tc b) :=
  StableHlo.after_of_writes_sub hostOps1 _ hostOps1_writes h

/-- The stretch `hostOps1_1` keeps every buffer it does not write. -/
theorem W4_keep (c : Dev nD) (b : Ref sig .tc) (h : b ∉ hostOps1_1_W) :
    W4 m c (Proc.devRef .tc b) = W3 m c (Proc.devRef .tc b) :=
  StableHlo.after_of_writes_sub hostOps1_1 _ hostOps1_1_writes h

/-- Region 1 keeps every buffer that is none of its three arrays. -/
theorem W5_keep (c : Dev nD) (b : Ref sig .tc) (h : b ∉ ([main_v14, main_v16, main_v17] : List (Ref sig .tc))) :
    W5 m c (Proc.devRef .tc b) = W4 m c (Proc.devRef .tc b) :=
  W5_of_ne m c b (fun w e => h (by rw [← e]; fin_cases w <;> decide))

/-- The stretch `hostOps2` keeps every buffer it does not write. -/
theorem W6_keep (c : Dev nD) (b : Ref sig .tc) (h : b ∉ hostOps2_W) :
    W6 m c (Proc.devRef .tc b) = W5 m c (Proc.devRef .tc b) :=
  StableHlo.after_of_writes_sub hostOps2 _ hostOps2_writes h

/-- Region 2 keeps every buffer that is none of its three arrays. -/
theorem W7_keep (c : Dev nD) (b : Ref sig .tc) (h : b ∉ ([main_v17, main_v18, main_v19] : List (Ref sig .tc))) :
    W7 m c (Proc.devRef .tc b) = W6 m c (Proc.devRef .tc b) :=
  W7_of_ne m c b (fun w e => h (by rw [← e]; fin_cases w <;> decide))

/-- The stretch `hostOps3` keeps every buffer it does not write. -/
theorem W8_keep (c : Dev nD) (b : Ref sig .tc) (h : b ∉ hostOps3_W) :
    W8 m c (Proc.devRef .tc b) = W7 m c (Proc.devRef .tc b) :=
  StableHlo.after_of_writes_sub hostOps3 _ hostOps3_writes h

/-- The stretch `hostOps3_1` keeps every buffer it does not write. -/
theorem W9_keep (c : Dev nD) (b : Ref sig .tc) (h : b ∉ hostOps3_1_W) :
    W9 m c (Proc.devRef .tc b) = W8 m c (Proc.devRef .tc b) :=
  StableHlo.after_of_writes_sub hostOps3_1 _ hostOps3_1_writes h

/-- Region 3 keeps every buffer that is none of its three arrays. -/
theorem W10_keep (c : Dev nD) (b : Ref sig .tc) (h : b ∉ ([main_v14, main_v20, main_v21] : List (Ref sig .tc))) :
    W10 m c (Proc.devRef .tc b) = W9 m c (Proc.devRef .tc b) :=
  W10_of_ne m c b (fun w e => h (by rw [← e]; fin_cases w <;> decide))

/-- The stretch `hostOps4` keeps every buffer it does not write. -/
theorem W11_keep (c : Dev nD) (b : Ref sig .tc) (h : b ∉ hostOps4_W) :
    W11 m c (Proc.devRef .tc b) = W10 m c (Proc.devRef .tc b) :=
  StableHlo.after_of_writes_sub hostOps4 _ hostOps4_writes h

/-- The stretch `hostOps4_1` keeps every buffer it does not write. -/
theorem W12_keep (c : Dev nD) (b : Ref sig .tc) (h : b ∉ hostOps4_1_W) :
    W12 m c (Proc.devRef .tc b) = W11 m c (Proc.devRef .tc b) :=
  StableHlo.after_of_writes_sub hostOps4_1 _ hostOps4_1_writes h

/-- Region 4 keeps every buffer that is none of its three arrays. -/
theorem W13_keep (c : Dev nD) (b : Ref sig .tc) (h : b ∉ ([main_v22, main_v24, main_v25] : List (Ref sig .tc))) :
    W13 m c (Proc.devRef .tc b) = W12 m c (Proc.devRef .tc b) :=
  W13_of_ne m c b (fun w e => h (by rw [← e]; fin_cases w <;> decide))

/-- The stretch `hostOps5` keeps every buffer it does not write. -/
theorem W14_keep (c : Dev nD) (b : Ref sig .tc) (h : b ∉ hostOps5_W) :
    W14 m c (Proc.devRef .tc b) = W13 m c (Proc.devRef .tc b) :=
  StableHlo.after_of_writes_sub hostOps5 _ hostOps5_writes h

/-! ## A buffer no segment changes ends as launched -/

/-- A buffer that no host stretch writes, that is not region 0's output array and is no array of the later regions
    holds its launch contents at the end. -/
theorem W14_keep_all (c : Dev nD) (b : Ref sig .tc)
    (h1 : b ∉ hostOps0_W) (h2 : b ≠ main_v15) (h3 : b ∉ hostOps1_W) (h4 : b ∉ hostOps1_1_W)
    (h5 : b ∉ ([main_v14, main_v16, main_v17] : List (Ref sig .tc))) (h6 : b ∉ hostOps2_W) (h7 : b ∉ ([main_v17, main_v18, main_v19] : List (Ref sig .tc)))
    (h8 : b ∉ hostOps3_W) (h9 : b ∉ hostOps3_1_W) (h10 : b ∉ ([main_v14, main_v20, main_v21] : List (Ref sig .tc)))
    (h11 : b ∉ hostOps4_W) (h12 : b ∉ hostOps4_1_W)
    (h13 : b ∉ ([main_v22, main_v24, main_v25] : List (Ref sig .tc))) (h14 : b ∉ hostOps5_W) :
    W14 m c (Proc.devRef .tc b) = m ((c : Thread nD τ).loc b) :=
  (W14_keep m c b h14).trans <| (W13_keep m c b h13).trans <| (W12_keep m c b h12).trans <| (W11_keep m c b h11).trans <| (W10_keep m c b h10).trans <| (W9_keep m c b h9).trans <| (W8_keep m c b h8).trans <| (W7_keep m c b h7).trans <| (W6_keep m c b h6).trans <| (W5_keep m c b h5).trans <| (W4_keep m c b h4).trans <| (W3_keep m c b h3).trans <| (W2_keep m c b h2).trans <| (W1_keep m c b h1).trans <| rfl

/-! ## The arguments -/

/-- `main_arg0` reaches the end as launched: an input array of region 0, which leaves it as entered, and otherwise untouched. -/
theorem W14_main_arg0 (c : Dev nD) : W14 m c (Proc.devRef .tc main_arg0) = m ((c : Thread nD τ).loc main_arg0) :=
  W14_keep_all m c main_arg0 (by decide) (by decide) (by decide) (by decide) (by decide) (by decide) (by decide) (by decide) (by decide) (by decide) (by decide) (by decide) (by decide) (by decide)

/-- `main_arg1` reaches the end as launched: no host stretch writes it and it is no region's array. -/
theorem W14_main_arg1 (c : Dev nD) : W14 m c (Proc.devRef .tc main_arg1) = m ((c : Thread nD τ).loc main_arg1) :=
  W14_keep_all m c main_arg1 (by decide) (by decide) (by decide) (by decide) (by decide) (by decide) (by decide) (by decide) (by decide) (by decide) (by decide) (by decide) (by decide) (by decide)

/-- `main_arg2` reaches the end as launched: no host stretch writes it and it is no region's array. -/
theorem W14_main_arg2 (c : Dev nD) : W14 m c (Proc.devRef .tc main_arg2) = m ((c : Thread nD τ).loc main_arg2) :=
  W14_keep_all m c main_arg2 (by decide) (by decide) (by decide) (by decide) (by decide) (by decide) (by decide) (by decide) (by decide) (by decide) (by decide) (by decide) (by decide) (by decide)

/-- `main_arg3` reaches the end as launched: no host stretch writes it and it is no region's array. -/
theorem W14_main_arg3 (c : Dev nD) : W14 m c (Proc.devRef .tc main_arg3) = m ((c : Thread nD τ).loc main_arg3) :=
  W14_keep_all m c main_arg3 (by decide) (by decide) (by decide) (by decide) (by decide) (by decide) (by decide) (by decide) (by decide) (by decide) (by decide) (by decide) (by decide) (by decide)

/-- `main_arg4` reaches the end as launched: an input array of region 0, which leaves it as entered, and otherwise untouched. -/
theorem W14_main_arg4 (c : Dev nD) : W14 m c (Proc.devRef .tc main_arg4) = m ((c : Thread nD τ).loc main_arg4) :=
  W14_keep_all m c main_arg4 (by decide) (by decide) (by decide) (by decide) (by decide) (by decide) (by decide) (by decide) (by decide) (by decide) (by decide) (by decide) (by decide) (by decide)

/-- `main_arg5` reaches the end as launched: no host stretch writes it and it is no region's array. -/
theorem W14_main_arg5 (c : Dev nD) : W14 m c (Proc.devRef .tc main_arg5) = m ((c : Thread nD τ).loc main_arg5) :=
  W14_keep_all m c main_arg5 (by decide) (by decide) (by decide) (by decide) (by decide) (by decide) (by decide) (by decide) (by decide) (by decide) (by decide) (by decide) (by decide) (by decide)

/-- `main_arg6` reaches the end as launched: no host stretch writes it and it is no region's array. -/
theorem W14_main_arg6 (c : Dev nD) : W14 m c (Proc.devRef .tc main_arg6) = m ((c : Thread nD τ).loc main_arg6) :=
  W14_keep_all m c main_arg6 (by decide) (by decide) (by decide) (by decide) (by decide) (by decide) (by decide) (by decide) (by decide) (by decide) (by decide) (by decide) (by decide) (by decide)

end Cert.KernelIdeal.Hand

end
-- ==== Proof.Stages.lean ====
/-
  Three indexing operations of the host read at ONE element, at the extended reals.

  * a ROW GATHER `x[idx]` of a two-axis table by a column of start words: element `(e, c)` of the result is the table
    at row `idx e` — read signed and clamped into the table's rows — and column `c`;
  * a ROW SCATTER-ADD (a segment sum): element `(r, c)` of the result is the operand's plus the sum of the updates'
    elements `(e, c)` over the positions `e` whose index word reads `r` (signed, not clamped: a word naming no row lands
    nowhere);
  * a CELL SCATTER-ADD `A.at[i, j].add(v)` by pairs of words: element `(r, s)` is the operand's plus the sum of the
    updates over the positions whose pair of words reads `(r, s)`.

  Each is stated for the dimension numbers jax prints for it, as a record of literal lists over the extents (a program's
  own record is one of these by `rfl`).
-/
import Idealize.ShloMosaic.PureOps.Ideal
import Idealize.ShloMosaic.PureOps.Ideal.Laws
import Idealize.ShloMosaic.Lib.ValueIdx

noncomputable section

open scoped BigOperators

namespace Cert.Stages

open Idealize.ShloMosaic Idealize.ShloMosaic.ValueIdx

/-! ## The dimension numbers -/

/-- `x[idx]` on the first axis of an `N × H` table, the start words an `E × 1` column: offset axis 1, collapsed axis 0,
    start index map `[0]`, index vector axis 1, slices `1 × H`. -/
abbrev rowGather (N H E : Nat)
    (wf : GatherDims.WF ⟨2, ![N, H]⟩ ⟨2, ![E, 1]⟩ ⟨2, ![E, H]⟩ [1] [0] [] [0] [] 1 ![1, H]) :
    GatherDims ⟨2, ![N, H]⟩ ⟨2, ![E, 1]⟩ ⟨2, ![E, H]⟩ where
  offsetDims := [1]
  collapsedSliceDims := [0]
  operandBatchingDims := []
  startIndicesBatchingDims := []
  startIndexMap := [0]
  indexVectorDim := 1
  sliceSizes := ![1, H]
  wf := wf

/-- A scatter of `E` rows of width `H` into an `N × H` table by an `E × 1` column of words: update window axis 1,
    inserted axis 0, the one word the row, index vector axis 1. -/
abbrev rowScatter (N H E : Nat)
    (wf : ScatterDims.WF ⟨2, ![N, H]⟩ ⟨2, ![E, 1]⟩ ⟨2, ![E, H]⟩ [1] [0] [0] 1) :
    ScatterDims ⟨2, ![N, H]⟩ ⟨2, ![E, 1]⟩ ⟨2, ![E, H]⟩ where
  updateWindowDims := [1]
  insertedWindowDims := [0]
  scatterDimsToOperandDims := [0]
  indexVectorDim := 1
  wf := wf

/-- A scatter of `E` single elements into an `N × M` table by an `E × 2` array of word pairs: no window axis, both
    operand axes inserted, the two words the row and the column, index vector axis 1. -/
abbrev cellScatter (N M E : Nat)
    (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

/-! ## The row gather -/

/-- Element `(e, c)` of a row gather: the table at the row the `e`-th start word names, signed and clamped into
    `[0, N − 1]`, and column `c`. -/
theorem gather_rows_apply {α : Type} {N H E w : Nat} (hN : 0 < N)
    (wf : GatherDims.WF ⟨2, ![N, H]⟩ ⟨2, ![E, 1]⟩ ⟨2, ![E, H]⟩ [1] [0] [] [0] [] 1 ![1, H])
    (x : (⟨2, ![N, H]⟩ : Shape).Idx → α) (idx : IVec ⟨2, ![E, 1]⟩ w) (e : Fin E) (c : Fin H) :
    Host.gather (rowGather N H E wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGather N H E wf).start (ix2 e c) idx 0 + (rowGather N H E wf).batchCoord (ix2 e c) 0
      + (rowGather N H E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N H E wf).startIndexMap from List.mem_singleton.mpr rfl)]
    have hsi : (rowGather N H E wf).siIdx (ix2 e c) ⟨List.idxOf (0 : Fin 2) (rowGather N H E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather N H E wf).start (ix2 e c) idx 1 + (rowGather N H E wf).batchCoord (ix2 e c) 1
      + (rowGather N H E wf).offCoord (ix2 e c) 1 = c.val
    rw [GatherDims.batchCoord_eq_zero _ _ _ List.not_mem_nil]
    unfold GatherDims.start
    rw [dif_neg (show (1 : Fin 2) ∉ (rowGather N H E wf).startIndexMap from (by decide : (1 : Fin 2) ∉ ([0] : List (Fin 2))))]
    simp only [Nat.add_zero, Nat.zero_add]
    unfold GatherDims.offCoord
    rw [dif_pos (show (1 : Fin 2) ∈ (rowGather N H E wf).sKept from
      (GatherDims.mem_sKept (rowGather N H E wf) 1).mpr ⟨(by decide : (1 : Fin 2) ∉ ([0] : List (Fin 2))), List.not_mem_nil⟩)]
    rfl

/-! ## The row scatter-add -/

/-- An update lands at the operand index `i` exactly when, on every axis, its start plus its window coordinate is
    `i`'s coordinate. -/
theorem resultIdx?_eq_some_iff {s si u : Shape} (d : ScatterDims s si u) {w : Nat} (j : u.Idx) (idx : IVec si w)
    (i : s.Idx) :
    d.resultIdx? j idx = some i ↔ ∀ a, d.start j idx a + d.window j a = ((i a).val : ℤ) := by
  unfold ScatterDims.resultIdx?
  split_ifs with h
  · constructor
    · intro heq a
      have hv : (d.start j idx a + (d.window j a : ℤ)).toNat = (i a).val :=
        congrArg Fin.val (congrFun (Option.some.inj heq) a)
      have h0 := (h a).1
      omega
    · intro hall
      refine congrArg some (funext fun a => Fin.ext ?_)
      show (d.start j idx a + (d.window j a : ℤ)).toNat = (i a).val
      rw [hall a]
      exact Int.toNat_natCast _
  · constructor
    · intro heq
      exact heq.elim
    · intro hall
      refine absurd (fun a => ?_) h
      rw [hall a]
      exact ⟨Int.natCast_nonneg _, by exact_mod_cast (i a).isLt⟩

/-- The start of a row scatter on the row axis is the position's word, read signed. -/
theorem rowScatter_start0 {N H E w : Nat}
    (wf : ScatterDims.WF ⟨2, ![N, H]⟩ ⟨2, ![E, 1]⟩ ⟨2, ![E, H]⟩ [1] [0] [0] 1)
    (idx : IVec ⟨2, ![E, 1]⟩ w) (e : Fin E) (c : Fin H) :
    (rowScatter N H E wf).start (ix2 e c) idx 0 = (idx (ix2 e (0 : Fin 1))).toInt := by
  unfold ScatterDims.start
  rw [dif_pos (show (0 : Fin 2) ∈ (rowScatter N H E wf).scatterDimsToOperandDims from List.mem_singleton.mpr rfl)]
  have hsi : (rowScatter N H E wf).siIdx (ix2 e c) ⟨List.idxOf (0 : Fin 2) (rowScatter N H E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The start of a row scatter on the column axis is zero. -/
theorem rowScatter_start1 {N H E w : Nat}
    (wf : ScatterDims.WF ⟨2, ![N, H]⟩ ⟨2, ![E, 1]⟩ ⟨2, ![E, H]⟩ [1] [0] [0] 1)
    (idx : IVec ⟨2, ![E, 1]⟩ w) (e : Fin E) (c : Fin H) :
    (rowScatter N H E wf).start (ix2 e c) idx 1 = 0 := by
  unfold ScatterDims.start
  rw [dif_neg (show (1 : Fin 2) ∉ (rowScatter N H E wf).scatterDimsToOperandDims from
    (by decide : (1 : Fin 2) ∉ ([0] : List (Fin 2))))]

/-- The window coordinate of a row scatter on the row axis is zero. -/
theorem rowScatter_window0 {N H E : Nat}
    (wf : ScatterDims.WF ⟨2, ![N, H]⟩ ⟨2, ![E, 1]⟩ ⟨2, ![E, H]⟩ [1] [0] [0] 1) (e : Fin E) (c : Fin H) :
    (rowScatter N H E wf).window (ix2 e c) 0 = 0 := by
  unfold ScatterDims.window
  rw [dif_neg (show (0 : Fin 2) ∉ (rowScatter N H E wf).sKept from
    (by decide : (0 : Fin 2) ∉ (List.finRange 2).filter (· ∉ ([0] : List (Fin 2)))))]

/-- The window coordinate of a row scatter on the column axis is the update's column. -/
theorem rowScatter_window1 {N H E : Nat}
    (wf : ScatterDims.WF ⟨2, ![N, H]⟩ ⟨2, ![E, 1]⟩ ⟨2, ![E, H]⟩ [1] [0] [0] 1) (e : Fin E) (c : Fin H) :
    (rowScatter N H E wf).window (ix2 e c) 1 = c.val := by
  unfold ScatterDims.window
  rw [dif_pos (show (1 : Fin 2) ∈ (rowScatter N H E wf).sKept from
    (by decide : (1 : Fin 2) ∈ (List.finRange 2).filter (· ∉ ([0] : List (Fin 2)))))]
  rfl

/-- Where update element `(e, c)` of a row scatter lands: at `(r, c)` exactly when the `e`-th word reads `r`. -/
theorem rowScatter_resultIdx_iff {N H E w : Nat}
    (wf : ScatterDims.WF ⟨2, ![N, H]⟩ ⟨2, ![E, 1]⟩ ⟨2, ![E, H]⟩ [1] [0] [0] 1)
    (idx : IVec ⟨2, ![E, 1]⟩ w) (e : Fin E) (c : Fin H) (r : Fin N) (c' : Fin H) :
    (rowScatter N H E wf).resultIdx? (ix2 e c) idx = some (ix2 r c')
      ↔ (idx (ix2 e (0 : Fin 1))).toInt = (r.val : ℤ) ∧ c = c' := by
  rw [resultIdx?_eq_some_iff, Fin.forall_fin_two, rowScatter_start0, rowScatter_start1, rowScatter_window0,
    rowScatter_window1]
  show (idx (ix2 e (0 : Fin 1))).toInt + ((0 : Nat) : ℤ) = (r.val : ℤ) ∧ (0 : ℤ) + (c.val : ℤ) = (c'.val : ℤ) ↔ _
  constructor
  · rintro ⟨h0, h1⟩
    exact ⟨by omega, Fin.ext (by omega)⟩
  · rintro ⟨h0, h1⟩
    subst h1
    exact ⟨by omega, by omega⟩

/-- Element `(r, c)` of a row scatter-add at the extended reals: the operand's element plus the sum of the updates'
    elements `(e, c)` over the positions whose word reads `r`. -/
theorem scatterAdd_rows_apply {N H E w : Nat}
    (wf : ScatterDims.WF ⟨2, ![N, H]⟩ ⟨2, ![E, 1]⟩ ⟨2, ![E, H]⟩ [1] [0] [0] 1)
    (x : (⟨2, ![N, H]⟩ : Shape).Idx → EReal) (idx : IVec ⟨2, ![E, 1]⟩ w) (upd : (⟨2, ![E, H]⟩ : Shape).Idx → EReal)
    (r : Fin N) (c : Fin H) :
    Ideal.hostScatterAdd (rowScatter N H E wf) x idx upd (ix2 r c)
      = x (ix2 r c) + ∑ e ∈ Finset.univ.filter (fun e : Fin E => (idx (ix2 e (0 : Fin 1))).toInt = (r.val : ℤ)), upd (ix2 e c) := by
  unfold Ideal.hostScatterAdd
  refine congrArg (fun t => x (ix2 r c) + t) ?_
  symm
  refine Finset.sum_bij (fun e _ => ix2 e c) ?_ ?_ ?_ ?_
  · intro e he
    rw [Finset.mem_filter] at he ⊢
    exact ⟨Finset.mem_univ _, (rowScatter_resultIdx_iff wf idx e c r c).mpr ⟨he.2, rfl⟩⟩
  · intro e₁ _ e₂ _ heq
    exact congrFun heq 0
  · intro j hj
    rw [Finset.mem_filter] at hj
    obtain ⟨e, c₀, rfl⟩ : ∃ (e : Fin E) (c₀ : Fin H), j = ix2 e c₀ := ⟨j 0, j 1, eq_ix2 j⟩
    obtain ⟨h0, rfl⟩ := (rowScatter_resultIdx_iff wf idx e c₀ r c).mp hj.2
    exact ⟨e, Finset.mem_filter.mpr ⟨Finset.mem_univ _, h0⟩, rfl⟩
  · intro e _
    rfl

/-! ## The cell scatter-add -/

/-- The start of a cell scatter on the row axis is the first word of the position's pair, read signed. -/
theorem cellScatter_start0 {N M E w : Nat}
    (wf : ScatterDims.WF ⟨2, ![N, M]⟩ ⟨2, ![E, 2]⟩ ⟨1, ![E]⟩ [] [0, 1] [0, 1] 1)
    (idx : IVec ⟨2, ![E, 2]⟩ w) (e : Fin E) :
    (cellScatter N M E wf).start (ix1 e) idx 0 = (idx (ix2 e (0 : Fin 2))).toInt := by
  have hm : (0 : Fin 2) ∈ (cellScatter N M E wf).scatterDimsToOperandDims :=
    (by decide : (0 : Fin 2) ∈ ([0, 1] : List (Fin 2)))
  unfold ScatterDims.start
  rw [dif_pos hm]
  have hsi : (cellScatter N M E wf).siIdx (ix1 e) ⟨List.idxOf (0 : Fin 2) (cellScatter N M E wf).scatterDimsToOperandDims,
      List.idxOf_lt_length_iff.2 hm⟩ = ix2 e (0 : Fin 2) := by
    funext b; refine Fin.ext ?_
    match b with
    | ⟨0, _⟩ => rfl
    | ⟨1, _⟩ => rfl
  rw [hsi]

/-- The start of a cell scatter on the column axis is the second word of the position's pair, read signed. -/
theorem cellScatter_start1 {N M E w : Nat}
    (wf : ScatterDims.WF ⟨2, ![N, M]⟩ ⟨2, ![E, 2]⟩ ⟨1, ![E]⟩ [] [0, 1] [0, 1] 1)
    (idx : IVec ⟨2, ![E, 2]⟩ w) (e : Fin E) :
    (cellScatter N M E wf).start (ix1 e) idx 1 = (idx (ix2 e (1 : Fin 2))).toInt := by
  have hm : (1 : Fin 2) ∈ (cellScatter N M E wf).scatterDimsToOperandDims :=
    (by decide : (1 : Fin 2) ∈ ([0, 1] : List (Fin 2)))
  unfold ScatterDims.start
  rw [dif_pos hm]
  have hsi : (cellScatter N M E wf).siIdx (ix1 e) ⟨List.idxOf (1 : Fin 2) (cellScatter N M E wf).scatterDimsToOperandDims,
      List.idxOf_lt_length_iff.2 hm⟩ = ix2 e (1 : Fin 2) := by
    funext b; refine Fin.ext ?_
    match b with
    | ⟨0, _⟩ => rfl
    | ⟨1, _⟩ => rfl
  rw [hsi]

/-- A cell scatter has no window: its window coordinate is zero on both axes. -/
theorem cellScatter_window {N M E : Nat}
    (wf : ScatterDims.WF ⟨2, ![N, M]⟩ ⟨2, ![E, 2]⟩ ⟨1, ![E]⟩ [] [0, 1] [0, 1] 1) (e : Fin E) (a : Fin 2) :
    (cellScatter N M E wf).window (ix1 e) a = 0 := by
  unfold ScatterDims.window
  rw [dif_neg (show a ∉ (cellScatter N M E wf).sKept from
    (by revert a; decide : ∀ a : Fin 2, a ∉ (List.finRange 2).filter (· ∉ ([0, 1] : List (Fin 2)))) a)]

/-- Where update element `e` of a cell scatter lands: at `(r, s)` exactly when its pair of words reads `(r, s)`. -/
theorem cellScatter_resultIdx_iff {N M E w : Nat}
    (wf : ScatterDims.WF ⟨2, ![N, M]⟩ ⟨2, ![E, 2]⟩ ⟨1, ![E]⟩ [] [0, 1] [0, 1] 1)
    (idx : IVec ⟨2, ![E, 2]⟩ w) (e : Fin E) (r : Fin N) (s : Fin M) :
    (cellScatter N M E wf).resultIdx? (ix1 e) idx = some (ix2 r s)
      ↔ (idx (ix2 e (0 : Fin 2))).toInt = (r.val : ℤ) ∧ (idx (ix2 e (1 : Fin 2))).toInt = (s.val : ℤ) := by
  rw [resultIdx?_eq_some_iff, Fin.forall_fin_two, cellScatter_start0, cellScatter_start1, cellScatter_window,
    cellScatter_window]
  show (idx (ix2 e (0 : Fin 2))).toInt + ((0 : Nat) : ℤ) = (r.val : ℤ)
    ∧ (idx (ix2 e (1 : Fin 2))).toInt + ((0 : Nat) : ℤ) = (s.val : ℤ) ↔ _
  constructor
  · rintro ⟨h0, h1⟩
    exact ⟨by omega, by omega⟩
  · rintro ⟨h0, h1⟩
    exact ⟨by omega, by omega⟩

/-- Element `(r, s)` of a cell scatter-add at the extended reals: the operand's element plus the sum of the updates
    over the positions whose pair of words reads `(r, s)`. -/
theorem scatterAdd_cells_apply {N M E w : Nat}
    (wf : ScatterDims.WF ⟨2, ![N, M]⟩ ⟨2, ![E, 2]⟩ ⟨1, ![E]⟩ [] [0, 1] [0, 1] 1)
    (x : (⟨2, ![N, M]⟩ : Shape).Idx → EReal) (idx : IVec ⟨2, ![E, 2]⟩ w) (upd : (⟨1, ![E]⟩ : Shape).Idx → EReal)
    (r : Fin N) (s : Fin M) :
    Ideal.hostScatterAdd (cellScatter N M E wf) x idx upd (ix2 r s)
      = x (ix2 r s) + ∑ e ∈ Finset.univ.filter (fun e : Fin E =>
          (idx (ix2 e (0 : Fin 2))).toInt = (r.val : ℤ) ∧ (idx (ix2 e (1 : Fin 2))).toInt = (s.val : ℤ)), upd (ix1 e) := by
  unfold Ideal.hostScatterAdd
  refine congrArg (fun t => x (ix2 r s) + t) ?_
  symm
  refine Finset.sum_bij (fun e _ => ix1 e) ?_ ?_ ?_ ?_
  · intro e he
    rw [Finset.mem_filter] at he ⊢
    exact ⟨Finset.mem_univ _, (cellScatter_resultIdx_iff wf idx e r s).mpr he.2⟩
  · intro e₁ _ e₂ _ heq
    exact congrFun heq 0
  · intro j hj
    rw [Finset.mem_filter] at hj
    obtain ⟨e, rfl⟩ : ∃ e : Fin E, j = ix1 e := ⟨j 0, eq_ix1 j⟩
    exact ⟨e, Finset.mem_filter.mpr ⟨Finset.mem_univ _, (cellScatter_resultIdx_iff wf idx e r s).mp hj.2⟩, rfl⟩
  · intro e _
    rfl

end Cert.Stages

end
-- ==== Proof.KI.HostOps.lean ====
/-
  The host operations of the kernel program's @main, at the extended reals, as the tables of Spec.lean:

  * the dense adjacency: a cell scatter-add into a zero 10000 × 10240 table at the pairs (destination word, source word),
    each word first wrapped if negative — with no word negative the wrap never acts, and the table is `Spec.adj`;
  * the three zero pads of 240 rows (`Spec.padRows`); the side-by-side join of the two head matrices (`Spec.catCols`);
  * the three slices: the first 64 and the last 64 columns of the heads' table, and the first 10000 columns of the
    padded Gram matrix.
-/
import proofs.«420245_j23562190586108_1_alg».proof.KernelIdeal
import proofs.«420245_j23562190586108_1_alg».proof.Proof.Gen.KernelIdeal
import proofs.«420245_j23562190586108_1_alg».proof.Proof.Stages
import proofs.«420245_j23562190586108_1_alg».proof.Proof.Spec
import proofs.«420245_j23562190586108_1_alg».proof.Proof.Bridge
import Idealize.ShloMosaic.Lib.Pipeline.Value
import Idealize.ShloMosaic.Lib.ValueIdx
import Idealize.ShloMosaic.Lib.ValueLayout
import Idealize.ShloMosaic.PureOps.Ideal.Laws
import Idealize.ShloMosaic.Lib.KernelVsHost

noncomputable section

open scoped BigOperators

namespace Cert.KernelIdeal.Hand

open Idealize.ShloMosaic Idealize.ShloMosaic.ValueIdx Cert.KernelIdeal Cert.KernelIdeal.Facts₀ Cert.KernelIdeal.Facts Cert.Bridge

/-- A word that reads non-negative is not below the zero word, so the wrap of negative words leaves it alone. -/
theorem wrap_id (a : IVec S320000 32) (n : BitVec 32) (h : ∀ i, 0 ≤ (a i).toInt) :
    select (cmpi .slt a (broadcastInDim S320000 ![] bcast_S_S320000 (constantI S_ 32 0#32)))
      (addi a (broadcastInDim S320000 ![] bcast_S_S320000 (constantI S_ 32 n))) a = a := by
  funext i
  have hlt : (a i).slt 0#32 = false := by
    unfold BitVec.slt
    refine decide_eq_false ?_
    rw [BitVec.toInt_zero]
    exact not_lt.mpr (h i)
  have hc : IntOp.cmpi .slt (a i) 0#32 = 0#1 := by
    show BitVec.ofBool ((a i).slt 0#32) = 0#1
    rw [hlt]
    rfl
  show Scalar.select (IntOp.cmpi .slt (a i) 0#32) _ (a i) = a i
  rw [hc]
  exact select_zero _ _

/-- The index array of the scatter, two columns side by side: its first column read at a position. -/
theorem idxCol0 (p q : IVec S320000 32) (e : Fin 320000) :
    concatenate S320000x2 1
        [⟨S320000x1, broadcastInDim S320000x1 ![0] bcast_S320000_S320000x1_0 p⟩,
         ⟨S320000x1, broadcastInDim S320000x1 ![0] bcast_S320000_S320000x1_0 q⟩]
        concatenates_S320000x1_S320000x1_S320000x2_d1 (ix2 e (0 : Fin 2)) = p (ix1 e) := by
  refine (concatenate_pair_apply_left (1 : Fin S320000x2.rank) _ _ concatenates_S320000x1_S320000x1_S320000x2_d1
    (ix2 e (0 : Fin 2)) rfl (ix2 e (0 : Fin 1)) ?_).trans ?_
  · intro d
    match d with
    | ⟨0, _⟩ => rfl
    | ⟨1, _⟩ => rfl
  · refine broadcastInDim_apply ![0] bcast_S320000_S320000x1_0 p (ix2 e (0 : Fin 1)) (ix1 e) ?_
    intro d
    match d with
    | ⟨0, _⟩ =>
      show e.val = if (320000 : Nat) = 1 then 0 else e.val
      rw [if_neg (by decide)]

/-- Its second column read at a position. -/
theorem idxCol1 (p q : IVec S320000 32) (e : Fin 320000) :
    concatenate S320000x2 1
        [⟨S320000x1, broadcastInDim S320000x1 ![0] bcast_S320000_S320000x1_0 p⟩,
         ⟨S320000x1, broadcastInDim S320000x1 ![0] bcast_S320000_S320000x1_0 q⟩]
        concatenates_S320000x1_S320000x1_S320000x2_d1 (ix2 e (1 : Fin 2)) = q (ix1 e) := by
  refine (concatenate_pair_apply_right (1 : Fin S320000x2.rank) _ _ concatenates_S320000x1_S320000x1_S320000x2_d1
    (ix2 e (1 : Fin 2)) rfl rfl (ix2 e (0 : Fin 1)) ?_ ?_).trans ?_
  · intro d hd
    match d, hd with
    | ⟨0, _⟩, _ => rfl
    | ⟨1, _⟩, hd => exact absurd rfl hd
  · rfl
  · refine broadcastInDim_apply ![0] bcast_S320000_S320000x1_0 q (ix2 e (0 : Fin 1)) (ix1 e) ?_
    intro d
    match d with
    | ⟨0, _⟩ =>
      show e.val = if (320000 : Nat) = 1 then 0 else e.val
      rw [if_neg (by decide)]

/-- The dense adjacency the program builds, when no edge word is negative. -/
theorem adj_eq (src dst : IVec S320000 32) (w : FVec Ideal S320000 .f32)
    (hsrc : ∀ i, 0 ≤ (src i).toInt) (hdst : ∀ i, 0 ≤ (dst i).toInt) :
    Host.scatterAdd (F := Ideal) scatter_S10000x10240_S320000x2_S320000_n_01_01_1
        (broadcastInDim S10000x10240 ![] bcast_S_S10000x10240 (constant (F := Ideal) S_ .f32 0x00000000#32))
        (concatenate S320000x2 1
          [⟨S320000x1, broadcastInDim S320000x1 ![0] bcast_S320000_S320000x1_0
              (select (cmpi .slt dst (broadcastInDim S320000 ![] bcast_S_S320000 (constantI S_ 32 0#32)))
                (addi dst (broadcastInDim S320000 ![] bcast_S_S320000 (constantI S_ 32 10000#32))) dst)⟩,
           ⟨S320000x1, broadcastInDim S320000x1 ![0] bcast_S320000_S320000x1_0
              (select (cmpi .slt src (broadcastInDim S320000 ![] bcast_S_S320000 (constantI S_ 32 0#32)))
                (addi src (broadcastInDim S320000 ![] bcast_S_S320000 (constantI S_ 32 10240#32))) src)⟩]
          concatenates_S320000x1_S320000x1_S320000x2_d1)
        w
      = unc (α := EReal) (A := 10000) (B := 10240)
          (Cert.Spec.adj (vec (A := 320000) src) (vec (A := 320000) dst) (vec (α := EReal) (A := 320000) w)) := by
  rw [wrap_id dst 10000#32 hdst, wrap_id src 10240#32 hsrc]
  funext j
  obtain ⟨r, s, rfl⟩ : ∃ (r : Fin 10000) (s : Fin 10240), j = ix2 r s := ⟨j 0, j 1, eq_ix2 j⟩
  refine (Cert.Stages.scatterAdd_cells_apply scatter_S10000x10240_S320000x2_S320000_n_01_01_1_wf _ _ w r s).trans ?_
  have hx : broadcastInDim S10000x10240 ![] bcast_S_S10000x10240 (constant (F := Ideal) S_ .f32 0x00000000#32) (ix2 r s)
      = (0 : EReal) := Ideal.ofBits_zero_f32
  rw [hx, zero_add]
  show _ = Cert.Spec.adj (vec (A := 320000) src) (vec (A := 320000) dst) (vec (α := EReal) (A := 320000) w) r s
  unfold Cert.Spec.adj
  refine Finset.sum_congr (Finset.filter_congr fun e _ => ?_) (fun e _ => rfl)
  rw [idxCol0, idxCol1]
  rfl

/-- The converted integer zero is the extended real zero. -/
theorem padValue_eq (j : S_.Idx) : sitofp (F := Ideal) .f32 (constantI S_ 32 0#32) j = (0 : EReal) := by
  show ((((0#32 : BitVec 32).toInt : ℤ) : ℝ) : EReal) = 0
  rw [BitVec.toInt_zero, Int.cast_zero, EReal.coe_zero]

/-- A table of 10000 rows padded below by 240 rows of a value that is zero, whatever the width. -/
theorem padRows_eq {H : Nat} (S : (⟨2, ![10000, H]⟩ : Shape).Idx → EReal) (v : S_.Idx → EReal) (hv : ∀ j, v j = 0)
    (hp : (⟨2, ![10000, H]⟩ : Shape).Pads (![0, 0] : Fin 2 → Nat) ![240, 0] ![0, 0] ⟨2, ![10240, H]⟩)
    (hu : 0 < S_.numel) :
    pad (⟨2, ![10240, H]⟩ : Shape) ![0, 0] ![240, 0] ![0, 0] S v hp hu
      = unc (α := EReal) (A := 10240) (B := H) (Cert.Spec.padRows (cur (α := EReal) (A := 10000) (B := H) S)) := by
  funext j
  obtain ⟨s, c, rfl⟩ : ∃ (s : Fin 10240) (c : Fin H), j = ix2 s c := ⟨j 0, j 1, eq_ix2 j⟩
  show _ = Cert.Spec.padRows (cur (α := EReal) (A := 10000) (B := H) S) s c
  unfold Cert.Spec.padRows
  by_cases hs : s.val < 10000
  · rw [dif_pos hs]
    refine pad_apply_of_inside ![0, 0] ![240, 0] ![0, 0] S v hp hu (ix2 s c) (ix2 (⟨s.val, hs⟩ : Fin 10000) c) ?_
    intro a
    match a with
    | ⟨0, _⟩ => show s.val = 0 + s.val * (0 + 1); omega
    | ⟨1, _⟩ => show c.val = 0 + c.val * (0 + 1); omega
  · rw [dif_neg hs]
    refine (pad_apply_of_not_inside ![0, 0] ![240, 0] ![0, 0] S v hp hu (ix2 s c) 0 ?_).trans (hv _)
    show ¬(0 ≤ s.val ∧ (s.val - 0) % (0 + 1) = 0 ∧ (s.val - 0) / (0 + 1) < 10000)
    rintro ⟨_, _, h3⟩
    rw [Nat.sub_zero, Nat.zero_add, Nat.div_one] at h3
    exact hs h3

/-- A 10000 × 512 table padded below by 240 rows of the converted integer zero. -/
theorem pad512_eq (S : FVec Ideal S10000x512 .f32) :
    pad S10240x512 ![0, 0] ![240, 0] ![0, 0] S (sitofp (F := Ideal) .f32 (constantI S_ 32 0#32)) pads_S10000x512_S10240x512_02400_000 h_S_
      = unc (α := EReal) (A := 10240) (B := 512) (Cert.Spec.padRows (cur (α := EReal) (A := 10000) (B := 512) S)) := by
  exact padRows_eq S _ padValue_eq pads_S10000x512_S10240x512_02400_000 h_S_

theorem pad128_eq (S : FVec Ideal S10000x128 .f32) :
    pad S10240x128 ![0, 0] ![240, 0] ![0, 0] S (sitofp (F := Ideal) .f32 (constantI S_ 32 0#32)) pads_S10000x128_S10240x128_02400_000 h_S_
      = unc (α := EReal) (A := 10240) (B := 128) (Cert.Spec.padRows (cur (α := EReal) (A := 10000) (B := 128) S)) := by
  exact padRows_eq S _ padValue_eq pads_S10000x128_S10240x128_02400_000 h_S_

theorem pad64_eq (S : FVec Ideal S10000x64 .f32) :
    pad S10240x64 ![0, 0] ![240, 0] ![0, 0] S (sitofp (F := Ideal) .f32 (constantI S_ 32 0#32)) pads_S10000x64_S10240x64_02400_000 h_S_
      = unc (α := EReal) (A := 10240) (B := 64) (Cert.Spec.padRows (cur (α := EReal) (A := 10000) (B := 64) S)) := by
  exact padRows_eq S _ padValue_eq pads_S10000x64_S10240x64_02400_000 h_S_

/-- The two head matrices side by side. -/
theorem cat_eq (a b : FVec Ideal S512x64 .f32) :
    concatenate S512x128 1 [⟨S512x64, a⟩, ⟨S512x64, b⟩] concatenates_S512x64_S512x64_S512x128_d1
      = unc (α := EReal) (A := 512) (B := 128) (Cert.Spec.catCols (cur (α := EReal) (A := 512) (B := 64) a) (cur (α := EReal) (A := 512) (B := 64) b)) := by
  funext j
  obtain ⟨k, c, rfl⟩ : ∃ (k : Fin 512) (c : Fin 128), j = ix2 k c := ⟨j 0, j 1, eq_ix2 j⟩
  show _ = Cert.Spec.catCols (cur (α := EReal) (A := 512) (B := 64) a) (cur (α := EReal) (A := 512) (B := 64) b) k c
  unfold Cert.Spec.catCols
  by_cases hc : c.val < 64
  · rw [dif_pos hc]
    refine concatenate_pair_apply_left (1 : Fin S512x128.rank) a b concatenates_S512x64_S512x64_S512x128_d1 (ix2 k c) rfl
      (ix2 k (⟨c.val, hc⟩ : Fin 64)) ?_
    intro d
    match d with
    | ⟨0, _⟩ => rfl
    | ⟨1, _⟩ => rfl
  · rw [dif_neg hc]
    refine concatenate_pair_apply_right (1 : Fin S512x128.rank) a b concatenates_S512x64_S512x64_S512x128_d1 (ix2 k c) rfl rfl
      (ix2 k (⟨c.val - 64, by omega⟩ : Fin 64)) ?_ ?_
    · intro d hd
      match d, hd with
      | ⟨0, _⟩, _ => rfl
      | ⟨1, _⟩, hd => exact absurd rfl hd
    · show c.val - 64 + 64 = c.val
      omega

/-- The first 64 columns of a 128-column table. -/
theorem sliceLo_eq (X : FVec Ideal S10000x128 .f32) :
    extractStridedSlice S10000x64 ![0, 0] X slices_S10000x128_S10000x64_0_0
      = unc (α := EReal) (A := 10000) (B := 64) (fun r c => cur (α := EReal) (A := 10000) (B := 128) X r ⟨c.val, by omega⟩) := by
  funext j
  obtain ⟨r, c, rfl⟩ : ∃ (r : Fin 10000) (c : Fin 64), j = ix2 r c := ⟨j 0, j 1, eq_ix2 j⟩
  refine (extractStridedSlice_apply ![0, 0] X slices_S10000x128_S10000x64_0_0 (ix2 r c)
    (ix2 r (⟨c.val, by omega⟩ : Fin 128)) ?_).trans rfl
  intro a
  match a with
  | ⟨0, _⟩ => show r.val = 0 + r.val; omega
  | ⟨1, _⟩ => show c.val = 0 + c.val; omega

/-- The last 64 columns of a 128-column table. -/
theorem sliceHi_eq (X : FVec Ideal S10000x128 .f32) :
    extractStridedSlice S10000x64 ![0, 64] X slices_S10000x128_S10000x64_0_64
      = unc (α := EReal) (A := 10000) (B := 64) (fun r c => cur (α := EReal) (A := 10000) (B := 128) X r ⟨c.val + 64, by omega⟩) := by
  funext j
  obtain ⟨r, c, rfl⟩ : ∃ (r : Fin 10000) (c : Fin 64), j = ix2 r c := ⟨j 0, j 1, eq_ix2 j⟩
  refine (extractStridedSlice_apply ![0, 64] X slices_S10000x128_S10000x64_0_64 (ix2 r c)
    (ix2 r (⟨c.val + 64, by omega⟩ : Fin 128)) ?_).trans rfl
  intro a
  match a with
  | ⟨0, _⟩ => show r.val = 0 + r.val; omega
  | ⟨1, _⟩ => show c.val + 64 = 64 + c.val; omega

/-- The first 10000 columns of a 10240-column table. -/
theorem sliceSq_eq (X : FVec Ideal S10000x10240 .f32) :
    extractStridedSlice S10000x10000 ![0, 0] X slices_S10000x10240_S10000x10000_0_0
      = unc (α := EReal) (A := 10000) (B := 10000) (fun r r' => cur (α := EReal) (A := 10000) (B := 10240) X r ⟨r'.val, by omega⟩) := by
  funext j
  obtain ⟨r, c, rfl⟩ : ∃ (r : Fin 10000) (c : Fin 10000), j = ix2 r c := ⟨j 0, j 1, eq_ix2 j⟩
  refine (extractStridedSlice_apply ![0, 0] X slices_S10000x10240_S10000x10000_0_0 (ix2 r c)
    (ix2 r (⟨c.val, by omega⟩ : Fin 10240)) ?_).trans rfl
  intro a
  match a with
  | ⟨0, _⟩ => show r.val = 0 + r.val; omega
  | ⟨1, _⟩ => show c.val = 0 + c.val; omega

end Cert.KernelIdeal.Hand

end
-- ==== Proof.KI.V0.lean ====
/-
  The value of the first kernel region: the product `x · W1`, one 400 × 512 block of the result per grid point (25 of
  them), each block the product of a 400 × 3000 row block of the first operand with the whole 3000 × 512 second operand,
  added to a zeroed accumulator and written back at every point. Read at the extended reals, index by index.
-/
import proofs.«420245_j23562190586108_1_alg».proof.Proof.Gen.KernelIdeal.Launch
import proofs.«420245_j23562190586108_1_alg».proof.Proof.Gen.KernelIdeal.Skeleton
import proofs.«420245_j23562190586108_1_alg».proof.Proof.Gen.KernelIdeal.Points
import proofs.«420245_j23562190586108_1_alg».proof.Proof.Spec
import proofs.«420245_j23562190586108_1_alg».proof.Proof.Bridge
import proofs.«420245_j23562190586108_1_alg».proof.Proof.KI.R0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

open scoped BigOperators

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Bridge

variable {F : FTy → Type} [FloatOps F]

local notation "𝕄" => MT nD τ sig Unit (Elt F) ℕ (UR sig nD τ) ℕ

/-! ## The payloads at an index -/

/-- The contraction's two index maps, axis by axis: the left operand is read at the result's row and the contraction
    position, the right operand at the contraction position and the result's column. -/
theorem lhs0_0 (j : S400x512.Idx) (q : dot_S400x3000_S3000x512_S400x512_1_0_0_1_n_n.contr.Idx) :
    (dot_S400x3000_S3000x512_S400x512_1_0_0_1_n_n.lhsIdx j q 0).val = (j 0).val := by
  unfold DotDims.lhsIdx
  rw [dif_neg (show ¬(0 : Fin S400x3000.rank) ∈ dot_S400x3000_S3000x512_S400x512_1_0_0_1_n_n.lhsBatch by decide),
    dif_pos (show (0 : Fin S400x3000.rank) ∈ dot_S400x3000_S3000x512_S400x512_1_0_0_1_n_n.lhsNonContracting by decide)]
  rfl
theorem lhs0_1 (j : S400x512.Idx) (q : dot_S400x3000_S3000x512_S400x512_1_0_0_1_n_n.contr.Idx) :
    (dot_S400x3000_S3000x512_S400x512_1_0_0_1_n_n.lhsIdx j q 1).val = (q ⟨0, by decide⟩).val :=
  dot_S400x3000_S3000x512_S400x512_1_0_0_1_n_n.lhsIdx_val_of_single rfl j q
theorem rhs0_0 (j : S400x512.Idx) (q : dot_S400x3000_S3000x512_S400x512_1_0_0_1_n_n.contr.Idx) :
    (dot_S400x3000_S3000x512_S400x512_1_0_0_1_n_n.rhsIdx j q 0).val = (q ⟨0, by decide⟩).val :=
  dot_S400x3000_S3000x512_S400x512_1_0_0_1_n_n.rhsIdx_val_of_single rfl j q
theorem rhs0_1 (j : S400x512.Idx) (q : dot_S400x3000_S3000x512_S400x512_1_0_0_1_n_n.contr.Idx) :
    (dot_S400x3000_S3000x512_S400x512_1_0_0_1_n_n.rhsIdx j q 1).val = (j 1).val := by
  unfold DotDims.rhsIdx
  rw [dif_neg (show ¬(1 : Fin S3000x512.rank) ∈ dot_S400x3000_S3000x512_S400x512_1_0_0_1_n_n.rhsBatch by decide),
    dif_pos (show (1 : Fin S3000x512.rank) ∈ dot_S400x3000_S3000x512_S400x512_1_0_0_1_n_n.rhsNonContracting by decide)]
  rfl

/-- The zeroing payload is zero everywhere: a broadcast of the zero scalar. -/
theorem zero0_apply (j : S400x512.Idx) : k0_pay1 (F := Ideal) j = 0 := by
  unfold k0_pay1
  simp only [shapeCast_self]
  show Ideal.ofBits .f32 0x00000000#32 = 0
  exact Ideal.ofBits_zero_f32

/-- At the extended reals the accumulating payload at `(p, q)` is the accumulator there plus the sum over the 3000
    contraction positions of the first block at `(p, k)` times the second at `(k, q)`: the narrowings and the cast to the
    same shape are identities, the product's own accumulator is zero. -/
theorem pay0_apply (x0 : Vec Ideal S400x3000 .f32) (x1 : Vec Ideal S3000x512 .f32) (s : Vec Ideal S400x512 .f32)
    (j : S400x512.Idx) :
    k0_pay2 (F := Ideal) x0 x1 s j = s j + ∑ k : Fin 3000, x0 (ix2 (j 0) k) * x1 (ix2 k (j 1)) := by
  unfold k0_pay2
  simp only [shapeCast_self]
  refine congrArg (s j + ·) ?_
  refine (Ideal.matmul_constant_zero_apply dot_S400x3000_S3000x512_S400x512_1_0_0_1_n_n none _ _ j).trans ?_
  rw [← Equiv.sum_comp (contrEquiv1 dot_S400x3000_S3000x512_S400x512_1_0_0_1_n_n 3000 rfl rfl).symm]
  refine Finset.sum_congr rfl fun k _ => ?_
  have hk := contrEquiv1_symm_val dot_S400x3000_S3000x512_S400x512_1_0_0_1_n_n 3000 rfl rfl k
  have el : dot_S400x3000_S3000x512_S400x512_1_0_0_1_n_n.lhsIdx j ((contrEquiv1 dot_S400x3000_S3000x512_S400x512_1_0_0_1_n_n 3000 rfl rfl).symm k) = ix2 (j 0) k :=
    funext fun a => Fin.ext (by
      match a with
      | ⟨0, _⟩ => exact lhs0_0 _ _
      | ⟨1, _⟩ => exact (lhs0_1 _ _).trans hk)
  have er : dot_S400x3000_S3000x512_S400x512_1_0_0_1_n_n.rhsIdx j ((contrEquiv1 dot_S400x3000_S3000x512_S400x512_1_0_0_1_n_n 3000 rfl rfl).symm k) = ix2 k (j 1) :=
    funext fun a => Fin.ext (by
      match a with
      | ⟨0, _⟩ => exact (rhs0_0 _ _).trans hk
      | ⟨1, _⟩ => exact rhs0_1 _ _)
  rw [el, er]
  rfl

/-- Into the zeroed accumulator: just the sum. -/
theorem acc_apply0 (x0 : Vec Ideal S400x3000 .f32) (x1 : Vec Ideal S3000x512 .f32) (j : S400x512.Idx) :
    k0_pay2 (F := Ideal) x0 x1 (k0_pay1 (F := Ideal)) j = ∑ k : Fin 3000, x0 (ix2 (j 0) k) * x1 (ix2 k (j 1)) := by
  rw [pay0_apply, zero0_apply, zero_add]

/-! ## From the blocks to the array -/

/-- The result array's contents after the region, index by index, from the two operand arrays. -/
abbrev G0 (a0 : S10000x3000.Idx → EReal) (a1 : S3000x512.Idx → EReal) : S10000x512.Idx → EReal :=
  fun i => ∑ k : Fin 3000, a0 (ix2 (i 0) k) * a1 (ix2 k (i 1))

theorem G0_apply (a0 : S10000x3000.Idx → EReal) (a1 : S3000x512.Idx → EReal) (i : S10000x512.Idx) :
    G0 a0 a1 i = ∑ k : Fin 3000, a0 (ix2 (i 0) k) * a1 (ix2 k (i 1)) := rfl

/-- The printed index maps, decided over the grid: the result's block row is the first operand's, and no other block
    index moves. -/
theorem idx_facts0 : ∀ t : Fin cfg0.N, win0_2.index t (0 : Fin 2) = win0_0.index t (0 : Fin 2)
    ∧ win0_2.index t (1 : Fin 2) = 0 ∧ win0_0.index t (1 : Fin 2) = 0
    ∧ win0_1.index t (0 : Fin 2) = 0 ∧ win0_1.index t (1 : Fin 2) = 0 :=
  (by decide +kernel : ∀ t : Fin grid0.N, _)

/-- Every row block of the result is some point's. -/
theorem idx_onto0 : ∀ q0 : Fin 25, ∃ t : Fin cfg0.N, win0_2.index t = ![q0.val, 0] :=
  (by decide +kernel : ∀ q0 : Fin 25, ∃ t : Fin grid0.N, win0_2.index t = ![q0.val, 0])

/-- What point `t` writes back is block `t` of `G0` of the operand arrays as the region finds them. -/
theorem flushed0_eq (V : (c : Dev nD) → (b : Ref sig .tc) → Buf (Elt Ideal) ((c : Thread nD τ).loc b)) (c : Dev nD)
    (t : Fin cfg0.N) :
    (dat0 (F := Ideal) V c).flushed 2 t
      = ((cfg0.win 2).blk t).view.read (Elt Ideal) (G0 (V c main_arg0) (V c main_arg4)) := by
  show (cfg0.win 2).cut (grid0.coords t) ((dat0 (F := Ideal) V c).after 2 t) = _
  rw [after0_2, acc0_eq]
  obtain ⟨e0, e1, e2, e3, e4⟩ := idx_facts0 t
  funext j
  refine (acc_apply0 (iblk0 V c 0 t) (iblk0 V c 1 t) ((cfg0.win 2).xinj (grid0.coords t) j)).trans ?_
  change _ = G0 (V c main_arg0) (V c main_arg4) (((cfg0.win 2).blk t).view.emb j)
  rw [G0_apply]
  refine Finset.sum_congr rfl fun k _ => ?_
  have h0 : iblk0 V c 0 t (ix2 ((cfg0.win 2).xinj (grid0.coords t) j 0) k)
      = V c main_arg0 (ix2 (((cfg0.win 2).blk t).view.emb j 0) k) := by
    show V c main_arg0 (((cfg0.win 0).blk t).view.emb (ix2 ((cfg0.win 2).xinj (grid0.coords t) j 0) k)) = _
    congr 1
    funext a
    apply Fin.ext
    match a with
    | ⟨0, _⟩ =>
      show win0_0.index t (0 : Fin 2) * 400 + 1 * (j 0).val = win0_2.index t (0 : Fin 2) * 400 + 1 * (j 0).val
      rw [e0]
    | ⟨1, _⟩ =>
      show win0_0.index t (1 : Fin 2) * 3000 + 1 * k.val = k.val
      rw [e2]; omega
  have h1 : iblk0 V c 1 t (ix2 k ((cfg0.win 2).xinj (grid0.coords t) j 1))
      = V c main_arg4 (ix2 k (((cfg0.win 2).blk t).view.emb j 1)) := by
    show V c main_arg4 (((cfg0.win 1).blk t).view.emb (ix2 k ((cfg0.win 2).xinj (grid0.coords t) j 1))) = _
    congr 1
    funext a
    apply Fin.ext
    match a with
    | ⟨0, _⟩ =>
      show win0_1.index t (0 : Fin 2) * 3000 + 1 * k.val = k.val
      rw [e3]; omega
    | ⟨1, _⟩ =>
      show win0_1.index t (1 : Fin 2) * 512 + 1 * (j 1).val = win0_2.index t (1 : Fin 2) * 512 + 1 * (j 1).val
      rw [e4, e1]
  rw [h0, h1]

/-- An index of the array is in point `t`'s block iff each coordinate is in the block's range on its axis. -/
theorem mem_blk0 (t : Fin cfg0.N) (i : S10000x512.Idx) :
    i ∈ ((cfg0.win 2).blk t).view.set ↔ ∀ a : Fin 2, win0_2.index t a * S400x512.size a ≤ (i a).val
      ∧ (i a).val < win0_2.index t a * S400x512.size a + S400x512.size a := by
  show i ∈ ((View.whole main_v15).slice (win0_2.rect t)).set ↔ _
  rw [View.set_slice_whole, Rect.mem_set_unit]
  exact Iff.rfl

/-- Every index of the result array is in the block of the point whose first coordinate is its row over 400. -/
theorem cover0 (i : S10000x512.Idx) :
    ∃ t : Fin cfg0.N, (cfg0.win 2).flush t = true ∧ i ∈ ((cfg0.win 2).blk t).view.set := by
  have hi0 : (i 0).val < 10000 := (i 0).isLt
  have hi1 : (i 1).val < 512 := (i 1).isLt
  obtain ⟨t, ht⟩ := idx_onto0 ⟨(i 0).val / 400, by omega⟩
  have q0 : win0_2.index t (0 : Fin 2) = (i 0).val / 400 := congrFun ht 0
  have q1 : win0_2.index t (1 : Fin 2) = 0 := congrFun ht 1
  refine ⟨t, flush0_2 t, ?_⟩
  rw [mem_blk0]
  intro a
  match a with
  | ⟨0, _⟩ =>
    show win0_2.index t (0 : Fin 2) * 400 ≤ (i 0).val ∧ (i 0).val < win0_2.index t (0 : Fin 2) * 400 + 400
    omega
  | ⟨1, _⟩ =>
    show win0_2.index t (1 : Fin 2) * 512 ≤ (i 1).val ∧ (i 1).val < win0_2.index t (1 : Fin 2) * 512 + 512
    omega

/-- At the extended reals, after the region the result array holds the plain matrix product of the two operand arrays. -/
theorem out0_eq (V : (c : Dev nD) → (b : Ref sig .tc) → Buf (Elt Ideal) ((c : Thread nD τ).loc b)) (c : Dev nD) :
    ((dat0 (F := Ideal) V c).arrAt 2 cfg0.N : S10000x512.Idx → EReal)
      = unc (α := EReal) (A := 10000) (B := 512)
          (Cert.Spec.mm (cur (α := EReal) (A := 10000) (B := 3000) (V c main_arg0)) (cur (α := EReal) (A := 3000) (B := 512) (V c main_arg4))) :=
  ((dat0 (F := Ideal) V c).arrAt_eq_of_cover 2 (G0 (V c main_arg0) (V c main_arg4)) (fun t _ => flushed0_eq V c t)
    cover0).trans (funext fun i => rfl)

end Cert.KernelIdeal.Hand

end
-- ==== Proof.KI.V1.lean ====
/-
  What the second kernel region leaves in its result array, at the extended reals: at `(r, c)` the product of row `r` of
  the adjacency with column `c` of the padded table, summed over all 10240 columns, clipped below at zero.

  A row block's accumulator after its step `j` holds the sum over the first `j + 1` column blocks of the blocks'
  products (the first step adds to zero); the last step's value, clipped, is what the one write-back of the row block
  writes; regrouping the eight sums of 1280 terms into one sum of 10240 is a re-indexing of a finite sum.
-/
import proofs.«420245_j23562190586108_1_alg».proof.Proof.Gen.KernelIdeal.Launch
import proofs.«420245_j23562190586108_1_alg».proof.Proof.Gen.KernelIdeal.Skeleton
import proofs.«420245_j23562190586108_1_alg».proof.Proof.Gen.KernelIdeal.Points
import proofs.«420245_j23562190586108_1_alg».proof.Proof.Spec
import proofs.«420245_j23562190586108_1_alg».proof.Proof.Bridge
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic
import proofs.«420245_j23562190586108_1_alg».proof.Proof.KI.R1
import Mathlib.Algebra.BigOperators.Fin
import Mathlib.Algebra.BigOperators.Group.Finset.Basic
import Mathlib.Algebra.BigOperators.Group.Finset.Defs
import Mathlib.Data.Fintype.BigOperators
import Mathlib.Logic.Equiv.Fin.Basic

set_option maxRecDepth 16384

noncomputable section

open scoped BigOperators

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Bridge

variable {F : FTy → Type} [FloatOps F]

local notation "𝕄" => MT nD τ sig Unit (Elt F) ℕ (UR sig nD τ) ℕ

/-! ## The body's three values, at an index -/

/-- The zero block reads zero everywhere. -/
theorem k1_pay1_apply (p : Fin 1000) (q : Fin 512) : k1_pay1 (F := Ideal) (ix2 p q) = 0 := by
  unfold k1_pay1
  simp only [shapeCast_self]
  rw [broadcast_apply]
  exact Ideal.ofBits_zero_f32

/-- A step's value at `(p, q)`: the accumulator's entry plus row `p` of the left block against column `q` of the right. -/
theorem k1_pay2_apply (x0 : Vec Ideal S1000x1280 .f32) (x1 : Vec Ideal S1280x512 .f32) (s : Vec Ideal S1000x512 .f32)
    (p : Fin 1000) (q : Fin 512) :
    k1_pay2 x0 x1 s (ix2 p q) = s (ix2 p q) + ∑ k : Fin 1280, x0 (ix2 p k) * x1 (ix2 k q) := by
  unfold k1_pay2
  simp only [shapeCast_self]
  rw [addf_apply]
  show s (ix2 p q) + FloatOps.matmul (F := Ideal) _ _ _ _ _ (ix2 p q) = _
  rw [Ideal.matmul_constant_zero_apply,
    ← Equiv.sum_comp (contrEquiv1 dot_S1000x1280_S1280x512_S1000x512_1_0_0_1_n_n 1280 rfl rfl).symm]
  refine congrArg (s (ix2 p q) + ·) (Finset.sum_congr rfl fun k _ => ?_)
  have hk := contrEquiv1_symm_val dot_S1000x1280_S1280x512_S1000x512_1_0_0_1_n_n 1280 rfl rfl k
  have el : dot_S1000x1280_S1280x512_S1000x512_1_0_0_1_n_n.lhsIdx (ix2 p q)
      ((contrEquiv1 dot_S1000x1280_S1280x512_S1000x512_1_0_0_1_n_n 1280 rfl rfl).symm k) = ix2 p k := funext fun a => Fin.ext (by
    match a with
    | ⟨0, _⟩ =>
      show (dot_S1000x1280_S1280x512_S1000x512_1_0_0_1_n_n.lhsIdx (ix2 p q) _ 0).val = p.val
      unfold DotDims.lhsIdx
      rw [dif_neg (show ¬(0 : Fin S1000x1280.rank) ∈ dot_S1000x1280_S1280x512_S1000x512_1_0_0_1_n_n.lhsBatch by decide),
        dif_pos (show (0 : Fin S1000x1280.rank) ∈ dot_S1000x1280_S1280x512_S1000x512_1_0_0_1_n_n.lhsNonContracting by decide)]
      rfl
    | ⟨1, _⟩ => exact (dot_S1000x1280_S1280x512_S1000x512_1_0_0_1_n_n.lhsIdx_val_of_single rfl (ix2 p q) _).trans hk)
  have er : dot_S1000x1280_S1280x512_S1000x512_1_0_0_1_n_n.rhsIdx (ix2 p q)
      ((contrEquiv1 dot_S1000x1280_S1280x512_S1000x512_1_0_0_1_n_n 1280 rfl rfl).symm k) = ix2 k q := funext fun a => Fin.ext (by
    match a with
    | ⟨0, _⟩ => exact (dot_S1000x1280_S1280x512_S1000x512_1_0_0_1_n_n.rhsIdx_val_of_single rfl (ix2 p q) _).trans hk
    | ⟨1, _⟩ =>
      show (dot_S1000x1280_S1280x512_S1000x512_1_0_0_1_n_n.rhsIdx (ix2 p q) _ 1).val = q.val
      unfold DotDims.rhsIdx
      rw [dif_neg (show ¬(1 : Fin S1280x512.rank) ∈ dot_S1000x1280_S1280x512_S1000x512_1_0_0_1_n_n.rhsBatch by decide),
        dif_pos (show (1 : Fin S1280x512.rank) ∈ dot_S1000x1280_S1280x512_S1000x512_1_0_0_1_n_n.rhsNonContracting by decide)]
      rfl)
  rw [truncf_apply, truncf_apply, el, er]

/-- The clipping at an index: the larger of the entry and zero. -/
theorem k1_pay3_apply (v : Vec Ideal S1000x512 .f32) (p : Fin 1000) (q : Fin 512) :
    k1_pay3 v (ix2 p q) = max (v (ix2 p q)) 0 := by
  unfold k1_pay3
  rw [maximumf_apply, broadcast_apply]
  exact congrArg (max (v (ix2 p q))) Ideal.ofBits_zero_f32

/-! ## Regrouping eight sums of 1280 terms into one of 10240 -/

/-- A sum over 10240 positions taken 1280 at a time. -/
theorem sum_blocks1 (f : ℕ → EReal) :
    ∑ kb ∈ Finset.range 8, ∑ k : Fin 1280, f (kb * 1280 + k.val) = ∑ s : Fin 10240, f s.val := by
  rw [Finset.sum_range (fun kb => ∑ k : Fin 1280, f (kb * 1280 + k.val)),
    ← Fintype.sum_prod_type' (fun (a : Fin 8) (b : Fin 1280) => f (a.val * 1280 + b.val)),
    ← Equiv.sum_comp (finProdFinEquiv (m := 8) (n := 1280)) (fun s : Fin (8 * 1280) => f s.val)]
  refine Finset.sum_congr rfl fun x _ => ?_
  show f (x.1.val * 1280 + x.2.val) = f (x.2.val + 1280 * x.1.val)
  rw [Nat.add_comm, Nat.mul_comm]

/-! ## The windows' blocks, at an index -/

/-- The windows' block indices at every point of the 10 × 1 × 8 grid, and the result's block extents. -/
theorem index1 : ∀ t : Fin grid1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0
    ∧ win1_2.xsize (grid1.coords t) (0 : Fin 2) = 1000 ∧ win1_2.xsize (grid1.coords t) (1 : Fin 2) = 512 := by
  decide +kernel

/-- The grid has 80 points. -/
theorem lt80_1 (t : Fin cfg1.N) : t.val < 80 := lt_of_lt_of_eq t.isLt (show cfg1.N = 80 from N_1)

/-- Row `p` of point `t`'s row block, as a row of the 10000. -/
def rowOf1 (t : Fin cfg1.N) (p : Fin 1000) : Fin 10000 :=
  ⟨t.val / 8 * 1000 + p.val, by have := lt80_1 t; have := p.isLt; omega⟩

/-- Position `k` of point `t`'s column block, as one of the 10240 columns. -/
def colOf1 (t : Fin cfg1.N) (k : Fin 1280) : Fin 10240 :=
  ⟨t.val % 8 * 1280 + k.val, by have := k.isLt; omega⟩

section Blocks

variable (V : (c : Dev nD) → (b : Ref sig .tc) → Buf (Elt Ideal) ((c : Thread nD τ).loc b)) (c : Dev nD)

/-- The left window's block at a point reads the adjacency at the row block's rows and the step's columns. -/
theorem iblk1_0_apply (t : Fin cfg1.N) (p : Fin 1000) (k : Fin 1280) :
    iblk1 V c 0 t (ix2 p k) = V c main_v14 (ix2 (rowOf1 t p) (colOf1 t k)) := by
  unfold iblk1
  show V c main_v14 (((cfg1.win 0).blk t).view.emb (ix2 p k)) = V c main_v14 _
  refine congrArg (V c main_v14) (funext fun a => Fin.ext ?_)
  match a with
  | ⟨0, _⟩ => show win1_0.index t 0 * 1000 + 1 * p.val = t.val / 8 * 1000 + p.val; rw [(index1 t).1]; omega
  | ⟨1, _⟩ => show win1_0.index t 1 * 1280 + 1 * k.val = t.val % 8 * 1280 + k.val; rw [(index1 t).2.1]; omega

/-- The right window's block at a point reads the table at the step's rows. -/
theorem iblk1_1_apply (t : Fin cfg1.N) (k : Fin 1280) (q : Fin 512) :
    iblk1 V c 1 t (ix2 k q) = V c main_v16 (ix2 (colOf1 t k) q) := by
  unfold iblk1
  show V c main_v16 (((cfg1.win 1).blk t).view.emb (ix2 k q)) = V c main_v16 _
  refine congrArg (V c main_v16) (funext fun a => Fin.ext ?_)
  match a with
  | ⟨0, _⟩ => show win1_1.index t 0 * 1280 + 1 * k.val = t.val % 8 * 1280 + k.val; rw [(index1 t).2.2.1]; omega
  | ⟨1, _⟩ => show win1_1.index t 1 * 512 + 1 * q.val = q.val; rw [(index1 t).2.2.2.1]; omega

end Blocks

/-! ## The accumulator, point by point -/

/-- The dense product's term at column position `s` (nothing is read past the last column). -/
def term1 (A : Fin 10000 → Fin 10240 → EReal) (S : Fin 10240 → Fin 512 → EReal) (r : Fin 10000) (q : Fin 512) (s : ℕ) : EReal :=
  if h : s < 10240 then A r ⟨s, h⟩ * S ⟨s, h⟩ q else 0

section Value

variable (V : (c : Dev nD) → (b : Ref sig .tc) → Buf (Elt Ideal) ((c : Thread nD τ).loc b)) (c : Dev nD)

/-- The adjacency as the region finds it, as a table. -/
abbrev adjT1 : Fin 10000 → Fin 10240 → EReal := cur (α := EReal) (A := 10000) (B := 10240) (V c main_v14)
/-- The padded table as the region finds it, as a table. -/
abbrev tabT1 : Fin 10240 → Fin 512 → EReal := cur (α := EReal) (A := 10240) (B := 512) (V c main_v16)

/-- One step's product of blocks, at `(p, q)`: the dense product's terms at the step's 1280 column positions. -/
theorem step1_apply (t : Fin cfg1.N) (p : Fin 1000) (q : Fin 512)
    (x0 : Vec Ideal S1000x1280 .f32) (x1 : Vec Ideal S1280x512 .f32) (h0 : x0 = iblk1 V c 0 t) (h1 : x1 = iblk1 V c 1 t) :
    ∑ k : Fin 1280, x0 (ix2 p k) * x1 (ix2 k q)
      = ∑ k : Fin 1280, term1 (adjT1 V c) (tabT1 V c) (rowOf1 t p) q (t.val % 8 * 1280 + k.val) := by
  subst h0; subst h1
  refine Finset.sum_congr rfl fun k _ => ?_
  rw [iblk1_0_apply, iblk1_1_apply]
  unfold term1
  rw [dif_pos (show t.val % 8 * 1280 + k.val < 10240 from (colOf1 t k).isLt)]
  rfl

/-- After a point the accumulator holds, at `(p, q)`, the dense product's terms over the row block's column blocks up
    to and including the point's. -/
theorem acc1_apply : ∀ (n : ℕ) (h : n < cfg1.N) (p : Fin 1000) (q : Fin 512),
    acc1 V c n h (ix2 p q) = ∑ kb ∈ Finset.range (n % 8 + 1), ∑ k : Fin 1280,
      term1 (adjT1 V c) (tabT1 V c) (rowOf1 ⟨n, h⟩ p) q (kb * 1280 + k.val)
  | 0, h, p, q => by
    rw [acc1_first V c ⟨0, h⟩ rfl, k1_pay2_apply, k1_pay1_apply, zero_add, step1_apply V c ⟨0, h⟩ p q _ _ rfl rfl]
    show _ = ∑ kb ∈ Finset.range 1, _
    rw [Finset.sum_range_one]
    rfl
  | n + 1, h, p, q => by
    by_cases h0 : (n + 1) % 8 = 0
    · rw [acc1_first V c ⟨n + 1, h⟩ h0, k1_pay2_apply, k1_pay1_apply, zero_add, step1_apply V c ⟨n + 1, h⟩ p q _ _ rfl rfl]
      show ∑ k : Fin 1280, term1 _ _ _ q ((n + 1) % 8 * 1280 + k.val) = _
      rw [h0, Finset.sum_range_one]
    · rw [acc1_next V c ⟨n + 1, h⟩ h0, k1_pay2_apply, step1_apply V c ⟨n + 1, h⟩ p q _ _ rfl rfl]
      show acc1 V c n (Nat.lt_of_succ_lt h) (ix2 p q) + ∑ k : Fin 1280, term1 _ _ _ q ((n + 1) % 8 * 1280 + k.val) = _
      have e1 : rowOf1 ⟨n, Nat.lt_of_succ_lt h⟩ p = rowOf1 ⟨n + 1, h⟩ p :=
        Fin.ext (by show n / 8 * 1000 + p.val = (n + 1) / 8 * 1000 + p.val; omega)
      have e2 : n % 8 + 1 = (n + 1) % 8 := by omega
      rw [acc1_apply n (Nat.lt_of_succ_lt h) p q, e1, e2, Finset.sum_range_succ]

/-- After a row block's last step the accumulator holds, at `(p, q)`, the dense product at the block's row: the eight sums
    of 1280 terms are the one sum over the 10240 columns. -/
theorem acc1_last (t : Fin cfg1.N) (h7 : t.val % 8 = 7) (p : Fin 1000) (q : Fin 512) :
    acc1 V c t.val t.isLt (ix2 p q) = Cert.Spec.dprop (adjT1 V c) (tabT1 V c) (rowOf1 t p) q := by
  rw [acc1_apply, h7]
  show ∑ kb ∈ Finset.range 8, ∑ k : Fin 1280, term1 (adjT1 V c) (tabT1 V c) (rowOf1 t p) q (kb * 1280 + k.val) = _
  rw [sum_blocks1 (term1 (adjT1 V c) (tabT1 V c) (rowOf1 t p) q)]
  unfold Cert.Spec.dprop term1
  refine Finset.sum_congr rfl fun s _ => ?_
  rw [dif_pos s.isLt]

/-! ## The clipping -/

/-- What a row block's one write-back writes, at `(p, q)`: the dense product at the block's row, clipped below at zero. -/
theorem clipped1_apply (t : Fin cfg1.N) (h7 : t.val % 8 = 7) (p : Fin 1000) (q : Fin 512) :
    k1_pay3 (acc1 V c t.val t.isLt) (ix2 p q) = max (Cert.Spec.dprop (adjT1 V c) (tabT1 V c) (rowOf1 t p) q) 0 := by
  rw [k1_pay3_apply, acc1_last V c t h7]

/-! ## The result array -/

/-- What the result array ends holding. -/
abbrev res1 : S10000x512.Idx → EReal :=
  unc (α := EReal) (A := 10000) (B := 512) (fun r c' => max (Cert.Spec.dprop (adjT1 V c) (tabT1 V c) r c') 0)

/-- Each write-back writes the result's block at its place. -/
theorem flushed_eq1 (t : Fin cfg1.N) (hf : (cfg1.win 2).flush t = true) :
    (dat1 (F := Ideal) V c).flushed 2 t = ((cfg1.win 2).blk t).view.read (Elt Ideal) (res1 V c) := by
  have h7 : t.val % 8 = 7 := (flush1_2 t).mp hf
  show (dat1 (F := Ideal) V c).after 2 t = _
  rw [after1_2]
  funext y
  obtain ⟨p, q, rfl⟩ : ∃ (p : Fin 1000) (q : Fin 512), y = ix2 p q := ⟨y 0, y 1, eq_ix2 y⟩
  rw [clipped1_apply V c t h7]
  show _ = res1 V c (((cfg1.win 2).blk t).view.emb (ix2 p q))
  show max (Cert.Spec.dprop (adjT1 V c) (tabT1 V c) (rowOf1 t p) q) 0
    = max (Cert.Spec.dprop (adjT1 V c) (tabT1 V c) ((((cfg1.win 2).blk t).view.emb (ix2 p q)) 0) ((((cfg1.win 2).blk t).view.emb (ix2 p q)) 1)) 0
  have er : (((cfg1.win 2).blk t).view.emb (ix2 p q)) 0 = rowOf1 t p := Fin.ext (by
    show win1_2.index t 0 * 1000 + 1 * p.val = t.val / 8 * 1000 + p.val
    rw [(index1 t).2.2.2.2.1]; omega)
  have ec : (((cfg1.win 2).blk t).view.emb (ix2 p q)) 1 = q := Fin.ext (by
    show win1_2.index t 1 * 512 + 1 * q.val = q.val
    rw [(index1 t).2.2.2.2.2.1]; omega)
  rw [er, ec]

/-- Every entry of the result lies in the block its row block's last step writes back. -/
theorem cover1 (i : S10000x512.Idx) :
    ∃ t : Fin cfg1.N, (cfg1.win 2).flush t = true ∧ i ∈ ((cfg1.win 2).blk t).view.set := by
  have h0 : (i 0 : Nat) < 10000 := (i 0).isLt
  have h1 : (i 1 : Nat) < 512 := (i 1).isLt
  have hN : cfg1.N = 80 := N_1
  refine ⟨⟨(i 0).val / 1000 * 8 + 7, by rw [hN]; omega⟩, (flush1_2 _).mpr (by show ((i 0).val / 1000 * 8 + 7) % 8 = 7; omega), ?_⟩
  generalize ht : (⟨(i 0).val / 1000 * 8 + 7, by rw [hN]; omega⟩ : Fin cfg1.N) = t
  have hv : t.val = (i 0).val / 1000 * 8 + 7 := by rw [← ht]
  show i ∈ ((View.whole main_v17).slice (win1_2.rect t)).set
  rw [View.set_slice_whole, Rect.mem_set_unit]
  intro a
  match a with
  | ⟨0, _⟩ =>
    show win1_2.index t 0 * win1_2.size 0 ≤ (i 0 : Nat) ∧ (i 0 : Nat) < win1_2.index t 0 * win1_2.size 0 + win1_2.xsize (grid1.coords t) 0
    rw [(index1 t).2.2.2.2.1, (index1 t).2.2.2.2.2.2.1, show win1_2.size 0 = 1000 from rfl]; omega
  | ⟨1, _⟩ =>
    show win1_2.index t 1 * win1_2.size 1 ≤ (i 1 : Nat) ∧ (i 1 : Nat) < win1_2.index t 1 * win1_2.size 1 + win1_2.xsize (grid1.coords t) 1
    rw [(index1 t).2.2.2.2.2.1, (index1 t).2.2.2.2.2.2.2, show win1_2.size 1 = 512 from rfl]; omega

end Value

/-- At the extended reals, after the region the result array holds, at `(r, c')`, the dense product of the first
    operand's row `r` with the second operand's column `c'`, clipped below at zero. -/
theorem out1_eq (V : (c : Dev nD) → (b : Ref sig .tc) → Buf (Elt Ideal) ((c : Thread nD τ).loc b)) (c : Dev nD) :
    ((dat1 (F := Ideal) V c).arrAt 2 cfg1.N : S10000x512.Idx → EReal)
      = unc (α := EReal) (A := 10000) (B := 512) (fun r c' =>
          max (Cert.Spec.dprop (cur (α := EReal) (A := 10000) (B := 10240) (V c main_v14))
            (cur (α := EReal) (A := 10240) (B := 512) (V c main_v16)) r c') 0) :=
  (dat1 (F := Ideal) V c).arrAt_eq_of_cover 2 (res1 V c) (flushed_eq1 V c) cover1

end Cert.KernelIdeal.Hand

end
-- ==== Proof.KI.V2.lean ====
/-
  The value of the third kernel region: the product `h · [W2 | W3]`, one 2000 × 128 block of the result per grid point (5 of
  them), each block the product of a 2000 × 512 row block of the first operand with the whole 512 × 128 second operand,
  added to a zeroed accumulator and written back at every point. Read at the extended reals, index by index.
-/
import proofs.«420245_j23562190586108_1_alg».proof.Proof.Gen.KernelIdeal.Launch
import proofs.«420245_j23562190586108_1_alg».proof.Proof.Gen.KernelIdeal.Skeleton
import proofs.«420245_j23562190586108_1_alg».proof.Proof.Gen.KernelIdeal.Points
import proofs.«420245_j23562190586108_1_alg».proof.Proof.Spec
import proofs.«420245_j23562190586108_1_alg».proof.Proof.Bridge
import proofs.«420245_j23562190586108_1_alg».proof.Proof.KI.R2
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic

set_option maxRecDepth 16384

noncomputable section

open scoped BigOperators

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Bridge

variable {F : FTy → Type} [FloatOps F]

local notation "𝕄" => MT nD τ sig Unit (Elt F) ℕ (UR sig nD τ) ℕ

/-! ## The payloads at an index -/

/-- The contraction's two index maps, axis by axis: the left operand is read at the result's row and the contraction
    position, the right operand at the contraction position and the result's column. -/
theorem lhs2_0 (j : S2000x128.Idx) (q : dot_S2000x512_S512x128_S2000x128_1_0_0_1_n_n.contr.Idx) :
    (dot_S2000x512_S512x128_S2000x128_1_0_0_1_n_n.lhsIdx j q 0).val = (j 0).val := by
  unfold DotDims.lhsIdx
  rw [dif_neg (show ¬(0 : Fin S2000x512.rank) ∈ dot_S2000x512_S512x128_S2000x128_1_0_0_1_n_n.lhsBatch by decide),
    dif_pos (show (0 : Fin S2000x512.rank) ∈ dot_S2000x512_S512x128_S2000x128_1_0_0_1_n_n.lhsNonContracting by decide)]
  rfl
theorem lhs2_1 (j : S2000x128.Idx) (q : dot_S2000x512_S512x128_S2000x128_1_0_0_1_n_n.contr.Idx) :
    (dot_S2000x512_S512x128_S2000x128_1_0_0_1_n_n.lhsIdx j q 1).val = (q ⟨0, by decide⟩).val :=
  dot_S2000x512_S512x128_S2000x128_1_0_0_1_n_n.lhsIdx_val_of_single rfl j q
theorem rhs2_0 (j : S2000x128.Idx) (q : dot_S2000x512_S512x128_S2000x128_1_0_0_1_n_n.contr.Idx) :
    (dot_S2000x512_S512x128_S2000x128_1_0_0_1_n_n.rhsIdx j q 0).val = (q ⟨0, by decide⟩).val :=
  dot_S2000x512_S512x128_S2000x128_1_0_0_1_n_n.rhsIdx_val_of_single rfl j q
theorem rhs2_1 (j : S2000x128.Idx) (q : dot_S2000x512_S512x128_S2000x128_1_0_0_1_n_n.contr.Idx) :
    (dot_S2000x512_S512x128_S2000x128_1_0_0_1_n_n.rhsIdx j q 1).val = (j 1).val := by
  unfold DotDims.rhsIdx
  rw [dif_neg (show ¬(1 : Fin S512x128.rank) ∈ dot_S2000x512_S512x128_S2000x128_1_0_0_1_n_n.rhsBatch by decide),
    dif_pos (show (1 : Fin S512x128.rank) ∈ dot_S2000x512_S512x128_S2000x128_1_0_0_1_n_n.rhsNonContracting by decide)]
  rfl

/-- The zeroing payload is zero everywhere: a broadcast of the zero scalar. -/
theorem zero2_apply (j : S2000x128.Idx) : k2_pay1 (F := Ideal) j = 0 := by
  unfold k2_pay1
  simp only [shapeCast_self]
  show Ideal.ofBits .f32 0x00000000#32 = 0
  exact Ideal.ofBits_zero_f32

/-- At the extended reals the accumulating payload at `(p, q)` is the accumulator there plus the sum over the 512
    contraction positions of the first block at `(p, k)` times the second at `(k, q)`: the narrowings and the cast to the
    same shape are identities, the product's own accumulator is zero. -/
theorem pay2_apply (x0 : Vec Ideal S2000x512 .f32) (x1 : Vec Ideal S512x128 .f32) (s : Vec Ideal S2000x128 .f32)
    (j : S2000x128.Idx) :
    k2_pay2 (F := Ideal) x0 x1 s j = s j + ∑ k : Fin 512, x0 (ix2 (j 0) k) * x1 (ix2 k (j 1)) := by
  unfold k2_pay2
  simp only [shapeCast_self]
  refine congrArg (s j + ·) ?_
  refine (Ideal.matmul_constant_zero_apply dot_S2000x512_S512x128_S2000x128_1_0_0_1_n_n none _ _ j).trans ?_
  rw [← Equiv.sum_comp (contrEquiv1 dot_S2000x512_S512x128_S2000x128_1_0_0_1_n_n 512 rfl rfl).symm]
  refine Finset.sum_congr rfl fun k _ => ?_
  have hk := contrEquiv1_symm_val dot_S2000x512_S512x128_S2000x128_1_0_0_1_n_n 512 rfl rfl k
  have el : dot_S2000x512_S512x128_S2000x128_1_0_0_1_n_n.lhsIdx j ((contrEquiv1 dot_S2000x512_S512x128_S2000x128_1_0_0_1_n_n 512 rfl rfl).symm k) = ix2 (j 0) k :=
    funext fun a => Fin.ext (by
      match a with
      | ⟨0, _⟩ => exact lhs2_0 _ _
      | ⟨1, _⟩ => exact (lhs2_1 _ _).trans hk)
  have er : dot_S2000x512_S512x128_S2000x128_1_0_0_1_n_n.rhsIdx j ((contrEquiv1 dot_S2000x512_S512x128_S2000x128_1_0_0_1_n_n 512 rfl rfl).symm k) = ix2 k (j 1) :=
    funext fun a => Fin.ext (by
      match a with
      | ⟨0, _⟩ => exact (rhs2_0 _ _).trans hk
      | ⟨1, _⟩ => exact rhs2_1 _ _)
  rw [el, er]
  rfl

/-- Into the zeroed accumulator: just the sum. -/
theorem acc_apply2 (x0 : Vec Ideal S2000x512 .f32) (x1 : Vec Ideal S512x128 .f32) (j : S2000x128.Idx) :
    k2_pay2 (F := Ideal) x0 x1 (k2_pay1 (F := Ideal)) j = ∑ k : Fin 512, x0 (ix2 (j 0) k) * x1 (ix2 k (j 1)) := by
  rw [pay2_apply, zero2_apply, zero_add]

/-! ## From the blocks to the array -/

/-- The result array's contents after the region, index by index, from the two operand arrays. -/
abbrev G2 (a0 : S10000x512.Idx → EReal) (a1 : S512x128.Idx → EReal) : S10000x128.Idx → EReal :=
  fun i => ∑ k : Fin 512, a0 (ix2 (i 0) k) * a1 (ix2 k (i 1))

theorem G2_apply (a0 : S10000x512.Idx → EReal) (a1 : S512x128.Idx → EReal) (i : S10000x128.Idx) :
    G2 a0 a1 i = ∑ k : Fin 512, a0 (ix2 (i 0) k) * a1 (ix2 k (i 1)) := rfl

/-- The printed index maps, decided over the grid: the result's block row is the first operand's, and no other block
    index moves. -/
theorem idx_facts2 : ∀ t : Fin cfg2.N, win2_2.index t (0 : Fin 2) = win2_0.index t (0 : Fin 2)
    ∧ win2_2.index t (1 : Fin 2) = 0 ∧ win2_0.index t (1 : Fin 2) = 0
    ∧ win2_1.index t (0 : Fin 2) = 0 ∧ win2_1.index t (1 : Fin 2) = 0 :=
  (by decide +kernel : ∀ t : Fin grid2.N, _)

/-- Every row block of the result is some point's. -/
theorem idx_onto2 : ∀ q0 : Fin 5, ∃ t : Fin cfg2.N, win2_2.index t = ![q0.val, 0] :=
  (by decide +kernel : ∀ q0 : Fin 5, ∃ t : Fin grid2.N, win2_2.index t = ![q0.val, 0])

/-- What point `t` writes back is block `t` of `G2` of the operand arrays as the region finds them. -/
theorem flushed2_eq (V : (c : Dev nD) → (b : Ref sig .tc) → Buf (Elt Ideal) ((c : Thread nD τ).loc b)) (c : Dev nD)
    (t : Fin cfg2.N) :
    (dat2 (F := Ideal) V c).flushed 2 t
      = ((cfg2.win 2).blk t).view.read (Elt Ideal) (G2 (V c main_v17) (V c main_v18)) := by
  show (cfg2.win 2).cut (grid2.coords t) ((dat2 (F := Ideal) V c).after 2 t) = _
  rw [after2_2, acc2_eq]
  obtain ⟨e0, e1, e2, e3, e4⟩ := idx_facts2 t
  funext j
  refine (acc_apply2 (iblk2 V c 0 t) (iblk2 V c 1 t) ((cfg2.win 2).xinj (grid2.coords t) j)).trans ?_
  change _ = G2 (V c main_v17) (V c main_v18) (((cfg2.win 2).blk t).view.emb j)
  rw [G2_apply]
  refine Finset.sum_congr rfl fun k _ => ?_
  have h0 : iblk2 V c 0 t (ix2 ((cfg2.win 2).xinj (grid2.coords t) j 0) k)
      = V c main_v17 (ix2 (((cfg2.win 2).blk t).view.emb j 0) k) := by
    show V c main_v17 (((cfg2.win 0).blk t).view.emb (ix2 ((cfg2.win 2).xinj (grid2.coords t) j 0) k)) = _
    congr 1
    funext a
    apply Fin.ext
    match a with
    | ⟨0, _⟩ =>
      show win2_0.index t (0 : Fin 2) * 2000 + 1 * (j 0).val = win2_2.index t (0 : Fin 2) * 2000 + 1 * (j 0).val
      rw [e0]
    | ⟨1, _⟩ =>
      show win2_0.index t (1 : Fin 2) * 512 + 1 * k.val = k.val
      rw [e2]; omega
  have h1 : iblk2 V c 1 t (ix2 k ((cfg2.win 2).xinj (grid2.coords t) j 1))
      = V c main_v18 (ix2 k (((cfg2.win 2).blk t).view.emb j 1)) := by
    show V c main_v18 (((cfg2.win 1).blk t).view.emb (ix2 k ((cfg2.win 2).xinj (grid2.coords t) j 1))) = _
    congr 1
    funext a
    apply Fin.ext
    match a with
    | ⟨0, _⟩ =>
      show win2_1.index t (0 : Fin 2) * 512 + 1 * k.val = k.val
      rw [e3]; omega
    | ⟨1, _⟩ =>
      show win2_1.index t (1 : Fin 2) * 128 + 1 * (j 1).val = win2_2.index t (1 : Fin 2) * 128 + 1 * (j 1).val
      rw [e4, e1]
  rw [h0, h1]

/-- An index of the array is in point `t`'s block iff each coordinate is in the block's range on its axis. -/
theorem mem_blk2 (t : Fin cfg2.N) (i : S10000x128.Idx) :
    i ∈ ((cfg2.win 2).blk t).view.set ↔ ∀ a : Fin 2, win2_2.index t a * S2000x128.size a ≤ (i a).val
      ∧ (i a).val < win2_2.index t a * S2000x128.size a + S2000x128.size a := by
  show i ∈ ((View.whole main_v19).slice (win2_2.rect t)).set ↔ _
  rw [View.set_slice_whole, Rect.mem_set_unit]
  exact Iff.rfl

/-- Every index of the result array is in the block of the point whose first coordinate is its row over 2000. -/
theorem cover2 (i : S10000x128.Idx) :
    ∃ t : Fin cfg2.N, (cfg2.win 2).flush t = true ∧ i ∈ ((cfg2.win 2).blk t).view.set := by
  have hi0 : (i 0).val < 10000 := (i 0).isLt
  have hi1 : (i 1).val < 128 := (i 1).isLt
  obtain ⟨t, ht⟩ := idx_onto2 ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk2]
  intro a
  match a with
  | ⟨0, _⟩ =>
    show win2_2.index t (0 : Fin 2) * 2000 ≤ (i 0).val ∧ (i 0).val < win2_2.index t (0 : Fin 2) * 2000 + 2000
    omega
  | ⟨1, _⟩ =>
    show win2_2.index t (1 : Fin 2) * 128 ≤ (i 1).val ∧ (i 1).val < win2_2.index t (1 : Fin 2) * 128 + 128
    omega

/-- At the extended reals, after the region the result array holds the plain matrix product of the two operand arrays. -/
theorem out2_eq (V : (c : Dev nD) → (b : Ref sig .tc) → Buf (Elt Ideal) ((c : Thread nD τ).loc b)) (c : Dev nD) :
    ((dat2 (F := Ideal) V c).arrAt 2 cfg2.N : S10000x128.Idx → EReal)
      = unc (α := EReal) (A := 10000) (B := 128)
          (Cert.Spec.mm (cur (α := EReal) (A := 10000) (B := 512) (V c main_v17)) (cur (α := EReal) (A := 512) (B := 128) (V c main_v18))) :=
  ((dat2 (F := Ideal) V c).arrAt_eq_of_cover 2 (G2 (V c main_v17) (V c main_v18)) (fun t _ => flushed2_eq V c t)
    cover2).trans (funext fun i => rfl)

end Cert.KernelIdeal.Hand

end
-- ==== Proof.KI.V3.lean ====
/-
  What the fourth kernel region leaves in its result array, at the extended reals: at `(r, c)` the product of row `r` of
  the adjacency with column `c` of the padded table, summed over all 10240 columns.

  A row block's accumulator after its step `j` holds the sum over the first `j + 1` column blocks of the blocks'
  products (the first step adds to zero); the last step's value is what the one write-back of the row block
  writes; regrouping the eight sums of 1280 terms into one sum of 10240 is a re-indexing of a finite sum.
-/
import proofs.«420245_j23562190586108_1_alg».proof.Proof.Gen.KernelIdeal.Launch
import proofs.«420245_j23562190586108_1_alg».proof.Proof.Gen.KernelIdeal.Skeleton
import proofs.«420245_j23562190586108_1_alg».proof.Proof.Gen.KernelIdeal.Points
import proofs.«420245_j23562190586108_1_alg».proof.Proof.Spec
import proofs.«420245_j23562190586108_1_alg».proof.Proof.Bridge
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.PureOps.Ideal.Laws
import Idealize.ShloMosaic.Lib.Ring
import Idealize.ShloMosaic.Lib.Tactic
import proofs.«420245_j23562190586108_1_alg».proof.Proof.KI.R3
import Mathlib.Algebra.BigOperators.Fin
import Mathlib.Algebra.BigOperators.Group.Finset.Basic
import Mathlib.Algebra.BigOperators.Group.Finset.Defs
import Mathlib.Data.Fintype.BigOperators
import Mathlib.Logic.Equiv.Fin.Basic

set_option maxRecDepth 16384

noncomputable section

open scoped BigOperators

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Bridge

variable {F : FTy → Type} [FloatOps F]

local notation "𝕄" => MT nD τ sig Unit (Elt F) ℕ (UR sig nD τ) ℕ

/-! ## The body's two values, at an index -/

/-- The zero block reads zero everywhere. -/
theorem k3_pay1_apply (p : Fin 1000) (q : Fin 128) : k3_pay1 (F := Ideal) (ix2 p q) = 0 := by
  unfold k3_pay1
  simp only [shapeCast_self]
  rw [broadcast_apply]
  exact Ideal.ofBits_zero_f32

/-- A step's value at `(p, q)`: the accumulator's entry plus row `p` of the left block against column `q` of the right. -/
theorem k3_pay2_apply (x0 : Vec Ideal S1000x1280 .f32) (x1 : Vec Ideal S1280x128 .f32) (s : Vec Ideal S1000x128 .f32)
    (p : Fin 1000) (q : Fin 128) :
    k3_pay2 x0 x1 s (ix2 p q) = s (ix2 p q) + ∑ k : Fin 1280, x0 (ix2 p k) * x1 (ix2 k q) := by
  unfold k3_pay2
  simp only [shapeCast_self]
  rw [addf_apply]
  show s (ix2 p q) + FloatOps.matmul (F := Ideal) _ _ _ _ _ (ix2 p q) = _
  rw [Ideal.matmul_constant_zero_apply,
    ← Equiv.sum_comp (contrEquiv1 dot_S1000x1280_S1280x128_S1000x128_1_0_0_1_n_n 1280 rfl rfl).symm]
  refine congrArg (s (ix2 p q) + ·) (Finset.sum_congr rfl fun k _ => ?_)
  have hk := contrEquiv1_symm_val dot_S1000x1280_S1280x128_S1000x128_1_0_0_1_n_n 1280 rfl rfl k
  have el : dot_S1000x1280_S1280x128_S1000x128_1_0_0_1_n_n.lhsIdx (ix2 p q)
      ((contrEquiv1 dot_S1000x1280_S1280x128_S1000x128_1_0_0_1_n_n 1280 rfl rfl).symm k) = ix2 p k := funext fun a => Fin.ext (by
    match a with
    | ⟨0, _⟩ =>
      show (dot_S1000x1280_S1280x128_S1000x128_1_0_0_1_n_n.lhsIdx (ix2 p q) _ 0).val = p.val
      unfold DotDims.lhsIdx
      rw [dif_neg (show ¬(0 : Fin S1000x1280.rank) ∈ dot_S1000x1280_S1280x128_S1000x128_1_0_0_1_n_n.lhsBatch by decide),
        dif_pos (show (0 : Fin S1000x1280.rank) ∈ dot_S1000x1280_S1280x128_S1000x128_1_0_0_1_n_n.lhsNonContracting by decide)]
      rfl
    | ⟨1, _⟩ => exact (dot_S1000x1280_S1280x128_S1000x128_1_0_0_1_n_n.lhsIdx_val_of_single rfl (ix2 p q) _).trans hk)
  have er : dot_S1000x1280_S1280x128_S1000x128_1_0_0_1_n_n.rhsIdx (ix2 p q)
      ((contrEquiv1 dot_S1000x1280_S1280x128_S1000x128_1_0_0_1_n_n 1280 rfl rfl).symm k) = ix2 k q := funext fun a => Fin.ext (by
    match a with
    | ⟨0, _⟩ => exact (dot_S1000x1280_S1280x128_S1000x128_1_0_0_1_n_n.rhsIdx_val_of_single rfl (ix2 p q) _).trans hk
    | ⟨1, _⟩ =>
      show (dot_S1000x1280_S1280x128_S1000x128_1_0_0_1_n_n.rhsIdx (ix2 p q) _ 1).val = q.val
      unfold DotDims.rhsIdx
      rw [dif_neg (show ¬(1 : Fin S1280x128.rank) ∈ dot_S1000x1280_S1280x128_S1000x128_1_0_0_1_n_n.rhsBatch by decide),
        dif_pos (show (1 : Fin S1280x128.rank) ∈ dot_S1000x1280_S1280x128_S1000x128_1_0_0_1_n_n.rhsNonContracting by decide)]
      rfl)
  rw [truncf_apply, truncf_apply, el, er]

/-! ## Regrouping eight sums of 1280 terms into one of 10240 -/

/-- A sum over 10240 positions taken 1280 at a time. -/
theorem sum_blocks3 (f : ℕ → EReal) :
    ∑ kb ∈ Finset.range 8, ∑ k : Fin 1280, f (kb * 1280 + k.val) = ∑ s : Fin 10240, f s.val := by
  rw [Finset.sum_range (fun kb => ∑ k : Fin 1280, f (kb * 1280 + k.val)),
    ← Fintype.sum_prod_type' (fun (a : Fin 8) (b : Fin 1280) => f (a.val * 1280 + b.val)),
    ← Equiv.sum_comp (finProdFinEquiv (m := 8) (n := 1280)) (fun s : Fin (8 * 1280) => f s.val)]
  refine Finset.sum_congr rfl fun x _ => ?_
  show f (x.1.val * 1280 + x.2.val) = f (x.2.val + 1280 * x.1.val)
  rw [Nat.add_comm, Nat.mul_comm]

/-! ## The windows' blocks, at an index -/

/-- The windows' block indices at every point of the 10 × 1 × 8 grid, and the result's block extents. -/
theorem index3 : ∀ t : Fin grid3.N,
    win3_0.index t (0 : Fin 2) = t.val / 8 ∧ win3_0.index t (1 : Fin 2) = t.val % 8
    ∧ win3_1.index t (0 : Fin 2) = t.val % 8 ∧ win3_1.index t (1 : Fin 2) = 0
    ∧ win3_2.index t (0 : Fin 2) = t.val / 8 ∧ win3_2.index t (1 : Fin 2) = 0
    ∧ win3_2.xsize (grid3.coords t) (0 : Fin 2) = 1000 ∧ win3_2.xsize (grid3.coords t) (1 : Fin 2) = 128 := by
  decide +kernel

/-- The grid has 80 points. -/
theorem lt80_3 (t : Fin cfg3.N) : t.val < 80 := lt_of_lt_of_eq t.isLt (show cfg3.N = 80 from N_3)

/-- Row `p` of point `t`'s row block, as a row of the 10000. -/
def rowOf3 (t : Fin cfg3.N) (p : Fin 1000) : Fin 10000 :=
  ⟨t.val / 8 * 1000 + p.val, by have := lt80_3 t; have := p.isLt; omega⟩

/-- Position `k` of point `t`'s column block, as one of the 10240 columns. -/
def colOf3 (t : Fin cfg3.N) (k : Fin 1280) : Fin 10240 :=
  ⟨t.val % 8 * 1280 + k.val, by have := k.isLt; omega⟩

section Blocks

variable (V : (c : Dev nD) → (b : Ref sig .tc) → Buf (Elt Ideal) ((c : Thread nD τ).loc b)) (c : Dev nD)

/-- The left window's block at a point reads the adjacency at the row block's rows and the step's columns. -/
theorem iblk3_0_apply (t : Fin cfg3.N) (p : Fin 1000) (k : Fin 1280) :
    iblk3 V c 0 t (ix2 p k) = V c main_v14 (ix2 (rowOf3 t p) (colOf3 t k)) := by
  unfold iblk3
  show V c main_v14 (((cfg3.win 0).blk t).view.emb (ix2 p k)) = V c main_v14 _
  refine congrArg (V c main_v14) (funext fun a => Fin.ext ?_)
  match a with
  | ⟨0, _⟩ => show win3_0.index t 0 * 1000 + 1 * p.val = t.val / 8 * 1000 + p.val; rw [(index3 t).1]; omega
  | ⟨1, _⟩ => show win3_0.index t 1 * 1280 + 1 * k.val = t.val % 8 * 1280 + k.val; rw [(index3 t).2.1]; omega

/-- The right window's block at a point reads the table at the step's rows. -/
theorem iblk3_1_apply (t : Fin cfg3.N) (k : Fin 1280) (q : Fin 128) :
    iblk3 V c 1 t (ix2 k q) = V c main_v20 (ix2 (colOf3 t k) q) := by
  unfold iblk3
  show V c main_v20 (((cfg3.win 1).blk t).view.emb (ix2 k q)) = V c main_v20 _
  refine congrArg (V c main_v20) (funext fun a => Fin.ext ?_)
  match a with
  | ⟨0, _⟩ => show win3_1.index t 0 * 1280 + 1 * k.val = t.val % 8 * 1280 + k.val; rw [(index3 t).2.2.1]; omega
  | ⟨1, _⟩ => show win3_1.index t 1 * 128 + 1 * q.val = q.val; rw [(index3 t).2.2.2.1]; omega

end Blocks

/-! ## The accumulator, point by point -/

/-- The dense product's term at column position `s` (nothing is read past the last column). -/
def term3 (A : Fin 10000 → Fin 10240 → EReal) (S : Fin 10240 → Fin 128 → EReal) (r : Fin 10000) (q : Fin 128) (s : ℕ) : EReal :=
  if h : s < 10240 then A r ⟨s, h⟩ * S ⟨s, h⟩ q else 0

section Value

variable (V : (c : Dev nD) → (b : Ref sig .tc) → Buf (Elt Ideal) ((c : Thread nD τ).loc b)) (c : Dev nD)

/-- The adjacency as the region finds it, as a table. -/
abbrev adjT3 : Fin 10000 → Fin 10240 → EReal := cur (α := EReal) (A := 10000) (B := 10240) (V c main_v14)
/-- The padded table as the region finds it, as a table. -/
abbrev tabT3 : Fin 10240 → Fin 128 → EReal := cur (α := EReal) (A := 10240) (B := 128) (V c main_v20)

/-- One step's product of blocks, at `(p, q)`: the dense product's terms at the step's 1280 column positions. -/
theorem step3_apply (t : Fin cfg3.N) (p : Fin 1000) (q : Fin 128)
    (x0 : Vec Ideal S1000x1280 .f32) (x1 : Vec Ideal S1280x128 .f32) (h0 : x0 = iblk3 V c 0 t) (h1 : x1 = iblk3 V c 1 t) :
    ∑ k : Fin 1280, x0 (ix2 p k) * x1 (ix2 k q)
      = ∑ k : Fin 1280, term3 (adjT3 V c) (tabT3 V c) (rowOf3 t p) q (t.val % 8 * 1280 + k.val) := by
  subst h0; subst h1
  refine Finset.sum_congr rfl fun k _ => ?_
  rw [iblk3_0_apply, iblk3_1_apply]
  unfold term3
  rw [dif_pos (show t.val % 8 * 1280 + k.val < 10240 from (colOf3 t k).isLt)]
  rfl

/-- After a point the accumulator holds, at `(p, q)`, the dense product's terms over the row block's column blocks up
    to and including the point's. -/
theorem acc3_apply : ∀ (n : ℕ) (h : n < cfg3.N) (p : Fin 1000) (q : Fin 128),
    acc3 V c n h (ix2 p q) = ∑ kb ∈ Finset.range (n % 8 + 1), ∑ k : Fin 1280,
      term3 (adjT3 V c) (tabT3 V c) (rowOf3 ⟨n, h⟩ p) q (kb * 1280 + k.val)
  | 0, h, p, q => by
    rw [acc3_first V c ⟨0, h⟩ rfl, k3_pay2_apply, k3_pay1_apply, zero_add, step3_apply V c ⟨0, h⟩ p q _ _ rfl rfl]
    show _ = ∑ kb ∈ Finset.range 1, _
    rw [Finset.sum_range_one]
    rfl
  | n + 1, h, p, q => by
    by_cases h0 : (n + 1) % 8 = 0
    · rw [acc3_first V c ⟨n + 1, h⟩ h0, k3_pay2_apply, k3_pay1_apply, zero_add, step3_apply V c ⟨n + 1, h⟩ p q _ _ rfl rfl]
      show ∑ k : Fin 1280, term3 _ _ _ q ((n + 1) % 8 * 1280 + k.val) = _
      rw [h0, Finset.sum_range_one]
    · rw [acc3_next V c ⟨n + 1, h⟩ h0, k3_pay2_apply, step3_apply V c ⟨n + 1, h⟩ p q _ _ rfl rfl]
      show acc3 V c n (Nat.lt_of_succ_lt h) (ix2 p q) + ∑ k : Fin 1280, term3 _ _ _ q ((n + 1) % 8 * 1280 + k.val) = _
      have e1 : rowOf3 ⟨n, Nat.lt_of_succ_lt h⟩ p = rowOf3 ⟨n + 1, h⟩ p :=
        Fin.ext (by show n / 8 * 1000 + p.val = (n + 1) / 8 * 1000 + p.val; omega)
      have e2 : n % 8 + 1 = (n + 1) % 8 := by omega
      rw [acc3_apply n (Nat.lt_of_succ_lt h) p q, e1, e2, Finset.sum_range_succ]

/-- After a row block's last step the accumulator holds, at `(p, q)`, the dense product at the block's row: the eight sums
    of 1280 terms are the one sum over the 10240 columns. -/
theorem acc3_last (t : Fin cfg3.N) (h7 : t.val % 8 = 7) (p : Fin 1000) (q : Fin 128) :
    acc3 V c t.val t.isLt (ix2 p q) = Cert.Spec.dprop (adjT3 V c) (tabT3 V c) (rowOf3 t p) q := by
  rw [acc3_apply, h7]
  show ∑ kb ∈ Finset.range 8, ∑ k : Fin 1280, term3 (adjT3 V c) (tabT3 V c) (rowOf3 t p) q (kb * 1280 + k.val) = _
  rw [sum_blocks3 (term3 (adjT3 V c) (tabT3 V c) (rowOf3 t p) q)]
  unfold Cert.Spec.dprop term3
  refine Finset.sum_congr rfl fun s _ => ?_
  rw [dif_pos s.isLt]

/-! ## The result array -/

/-- What the result array ends holding. -/
abbrev res3 : S10000x128.Idx → EReal :=
  unc (α := EReal) (A := 10000) (B := 128) (Cert.Spec.dprop (adjT3 V c) (tabT3 V c))

/-- Each write-back writes the result's block at its place. -/
theorem flushed_eq3 (t : Fin cfg3.N) (hf : (cfg3.win 2).flush t = true) :
    (dat3 (F := Ideal) V c).flushed 2 t = ((cfg3.win 2).blk t).view.read (Elt Ideal) (res3 V c) := by
  have h7 : t.val % 8 = 7 := (flush3_2 t).mp hf
  show (dat3 (F := Ideal) V c).after 2 t = _
  rw [after3_2]
  funext y
  obtain ⟨p, q, rfl⟩ : ∃ (p : Fin 1000) (q : Fin 128), y = ix2 p q := ⟨y 0, y 1, eq_ix2 y⟩
  rw [acc3_last V c t h7]
  show _ = res3 V c (((cfg3.win 2).blk t).view.emb (ix2 p q))
  show Cert.Spec.dprop (adjT3 V c) (tabT3 V c) (rowOf3 t p) q
    = Cert.Spec.dprop (adjT3 V c) (tabT3 V c) ((((cfg3.win 2).blk t).view.emb (ix2 p q)) 0) ((((cfg3.win 2).blk t).view.emb (ix2 p q)) 1)
  have er : (((cfg3.win 2).blk t).view.emb (ix2 p q)) 0 = rowOf3 t p := Fin.ext (by
    show win3_2.index t 0 * 1000 + 1 * p.val = t.val / 8 * 1000 + p.val
    rw [(index3 t).2.2.2.2.1]; omega)
  have ec : (((cfg3.win 2).blk t).view.emb (ix2 p q)) 1 = q := Fin.ext (by
    show win3_2.index t 1 * 128 + 1 * q.val = q.val
    rw [(index3 t).2.2.2.2.2.1]; omega)
  rw [er, ec]

/-- Every entry of the result lies in the block its row block's last step writes back. -/
theorem cover3 (i : S10000x128.Idx) :
    ∃ t : Fin cfg3.N, (cfg3.win 2).flush t = true ∧ i ∈ ((cfg3.win 2).blk t).view.set := by
  have h0 : (i 0 : Nat) < 10000 := (i 0).isLt
  have h1 : (i 1 : Nat) < 128 := (i 1).isLt
  have hN : cfg3.N = 80 := N_3
  refine ⟨⟨(i 0).val / 1000 * 8 + 7, by rw [hN]; omega⟩, (flush3_2 _).mpr (by show ((i 0).val / 1000 * 8 + 7) % 8 = 7; omega), ?_⟩
  generalize ht : (⟨(i 0).val / 1000 * 8 + 7, by rw [hN]; omega⟩ : Fin cfg3.N) = t
  have hv : t.val = (i 0).val / 1000 * 8 + 7 := by rw [← ht]
  show i ∈ ((View.whole main_v21).slice (win3_2.rect t)).set
  rw [View.set_slice_whole, Rect.mem_set_unit]
  intro a
  match a with
  | ⟨0, _⟩ =>
    show win3_2.index t 0 * win3_2.size 0 ≤ (i 0 : Nat) ∧ (i 0 : Nat) < win3_2.index t 0 * win3_2.size 0 + win3_2.xsize (grid3.coords t) 0
    rw [(index3 t).2.2.2.2.1, (index3 t).2.2.2.2.2.2.1, show win3_2.size 0 = 1000 from rfl]; omega
  | ⟨1, _⟩ =>
    show win3_2.index t 1 * win3_2.size 1 ≤ (i 1 : Nat) ∧ (i 1 : Nat) < win3_2.index t 1 * win3_2.size 1 + win3_2.xsize (grid3.coords t) 1
    rw [(index3 t).2.2.2.2.2.1, (index3 t).2.2.2.2.2.2.2, show win3_2.size 1 = 128 from rfl]; omega

end Value

/-- At the extended reals, after the region the result array holds, at `(r, c')`, the dense product of the first
    operand's row `r` with the second operand's column `c'`. -/
theorem out3_eq (V : (c : Dev nD) → (b : Ref sig .tc) → Buf (Elt Ideal) ((c : Thread nD τ).loc b)) (c : Dev nD) :
    ((dat3 (F := Ideal) V c).arrAt 2 cfg3.N : S10000x128.Idx → EReal)
      = unc (α := EReal) (A := 10000) (B := 128) (Cert.Spec.dprop (cur (α := EReal) (A := 10000) (B := 10240) (V c main_v14))
          (cur (α := EReal) (A := 10240) (B := 128) (V c main_v20))) :=
  (dat3 (F := Ideal) V c).arrAt_eq_of_cover 2 (res3 V c) (flushed_eq3 V c) cover3

end Cert.KernelIdeal.Hand

end
-- ==== Proof.KI.KValue.lean ====
/-
  What the kernel program's @main leaves in its three result buffers, at the extended reals, as tables of the launch
  arguments: the fold of Fold.lean read buffer by buffer.

  The first stretch builds the dense adjacency (no edge word being negative, the wrap of negative words never acts);
  each kernel region's result array is what its value module says of the arrays it was entered with; a stretch of host
  operations applies its pads, its join and its slices to what is there; a buffer nothing in between writes keeps its
  contents, an input array of a region included. Composed: the hidden layer through the dense adjacency, both heads at
  once, the mean head and the log-variance head cut out of them, and the Gram matrix of the mean head against its own
  padding, cut back to 10000 columns — `Spec.dpred`, `Spec.dmu`, `Spec.dlogvar`.
-/
import proofs.«420245_j23562190586108_1_alg».proof.Proof.Gen.KernelIdeal.Regions
import proofs.«420245_j23562190586108_1_alg».proof.Proof.Spec
import proofs.«420245_j23562190586108_1_alg».proof.Proof.Bridge
import proofs.«420245_j23562190586108_1_alg».proof.Proof.KI.Fold
import proofs.«420245_j23562190586108_1_alg».proof.Proof.KI.HostOps
import proofs.«420245_j23562190586108_1_alg».proof.Proof.KI.V0
import proofs.«420245_j23562190586108_1_alg».proof.Proof.KI.V1
import proofs.«420245_j23562190586108_1_alg».proof.Proof.KI.V2
import proofs.«420245_j23562190586108_1_alg».proof.Proof.KI.V3

set_option maxRecDepth 16384

noncomputable section

open scoped BigOperators

namespace Cert.KernelIdeal.Hand

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Bridge

section Values

variable (m : (ℓ : Loc nD τ sig) → Buf (Elt Ideal) ℓ) (c : Dev nD)

/-! ## The arguments as tables -/

/-- The node features. -/
abbrev argX : Fin 10000 → Fin 3000 → EReal := cur (α := EReal) (A := 10000) (B := 3000) (m ((c : Thread nD τ).loc main_arg0))
/-- The edges' source words. -/
abbrev argSRC : Fin 320000 → BitVec 32 := vec (α := BitVec 32) (A := 320000) (m ((c : Thread nD τ).loc main_arg1))
/-- The edges' destination words. -/
abbrev argDST : Fin 320000 → BitVec 32 := vec (α := BitVec 32) (A := 320000) (m ((c : Thread nD τ).loc main_arg2))
/-- The edges' weights. -/
abbrev argWT : Fin 320000 → EReal := vec (α := EReal) (A := 320000) (m ((c : Thread nD τ).loc main_arg3))
/-- The first layer's weights. -/
abbrev argW1 : Fin 3000 → Fin 512 → EReal := cur (α := EReal) (A := 3000) (B := 512) (m ((c : Thread nD τ).loc main_arg4))
/-- The mean head's weights. -/
abbrev argW2 : Fin 512 → Fin 64 → EReal := cur (α := EReal) (A := 512) (B := 64) (m ((c : Thread nD τ).loc main_arg5))
/-- The log-variance head's weights. -/
abbrev argW3 : Fin 512 → Fin 64 → EReal := cur (α := EReal) (A := 512) (B := 64) (m ((c : Thread nD τ).loc main_arg6))

/-! ## The first stretch: the adjacency -/

/-- The first stretch leaves a buffer it does not write at its launch contents. -/
theorem W1_kept (b : Ref sig .tc) (h : b ∉ hostOps0_W) :
    W1 (F := Ideal) m c (Proc.devRef .tc b) = m ((c : Thread nD τ).loc b) :=
  StableHlo.after_of_writes_sub hostOps0 _ hostOps0_writes h

/-- The scatter of the weights at the wrapped word pairs is the dense adjacency, no word being negative. -/
theorem W1_v14 (hsrc : ∀ i, 0 ≤ ((m ((c : Thread nD τ).loc main_arg1) : IVec S320000 32) i).toInt)
    (hdst : ∀ i, 0 ≤ ((m ((c : Thread nD τ).loc main_arg2) : IVec S320000 32) i).toInt) :
    (W1 (F := Ideal) m c (Proc.devRef .tc main_v14) : S10000x10240.Idx → EReal)
      = unc (α := EReal) (A := 10000) (B := 10240) (Cert.Spec.adj (argSRC m c) (argDST m c) (argWT m c)) := by
  show StableHlo.after hostOps0 (W0 (F := Ideal) m c) (Proc.devRef .tc main_v14) = _
  after_results_simp
  exact adj_eq _ _ _ hsrc hdst

/-- The adjacency is still there when the second region is entered. -/
theorem W4_v14 : W4 (F := Ideal) m c (Proc.devRef .tc main_v14) = W1 (F := Ideal) m c (Proc.devRef .tc main_v14) :=
  (StableHlo.after_of_writes_sub hostOps1_1 _ hostOps1_1_writes (by decide)).trans
    ((StableHlo.after_of_writes_sub hostOps1 _ hostOps1_writes (by decide)).trans (W2_of_ne m c main_v14 (by decide)))

/-- The second region reads the adjacency and leaves it. -/
theorem W5_v14 : W5 (F := Ideal) m c (Proc.devRef .tc main_v14) = W4 (F := Ideal) m c (Proc.devRef .tc main_v14) :=
  (W5_arr m c 0).trans (((dat1 (V4 m) c).arrAt_in 0 rfl _).trans (A_eq1 (V4 m) c 0))

/-- The adjacency is still there when the fourth region is entered. -/
theorem W9_v14 : W9 (F := Ideal) m c (Proc.devRef .tc main_v14) = W1 (F := Ideal) m c (Proc.devRef .tc main_v14) :=
  (StableHlo.after_of_writes_sub hostOps3_1 _ hostOps3_1_writes (by decide)).trans
    ((StableHlo.after_of_writes_sub hostOps3 _ hostOps3_writes (by decide)).trans
      ((W7_of_ne m c main_v14 (by decide)).trans
        ((StableHlo.after_of_writes_sub hostOps2 _ hostOps2_writes (by decide)).trans
          ((W5_v14 m c).trans (W4_v14 m c)))))

/-! ## The first region: the features times the first weights -/

theorem W2_v15 :
    (W2 (F := Ideal) m c (Proc.devRef .tc main_v15) : S10000x512.Idx → EReal)
      = unc (α := EReal) (A := 10000) (B := 512) (Cert.Spec.mm (argX m c) (argW1 m c)) := by
  refine (W2_arr m c 2).trans ((out0_eq (V1 m) c).trans ?_)
  show unc (α := EReal) (A := 10000) (B := 512) (Cert.Spec.mm
    (cur (α := EReal) (A := 10000) (B := 3000) (V1 (F := Ideal) m c main_arg0))
    (cur (α := EReal) (A := 3000) (B := 512) (V1 (F := Ideal) m c main_arg4))) = _
  have h0 : V1 (F := Ideal) m c main_arg0 = m ((c : Thread nD τ).loc main_arg0) := W1_kept m c main_arg0 (by decide)
  have h4 : V1 (F := Ideal) m c main_arg4 = m ((c : Thread nD τ).loc main_arg4) := W1_kept m c main_arg4 (by decide)
  rw [h0, h4]

/-! ## The pad of the product, and the second region: the hidden layer -/

theorem W4_v16 :
    (W4 (F := Ideal) m c (Proc.devRef .tc main_v16) : S10240x512.Idx → EReal)
      = unc (α := EReal) (A := 10240) (B := 512) (Cert.Spec.padRows (Cert.Spec.mm (argX m c) (argW1 m c))) := by
  show StableHlo.after hostOps1_1 (W3 (F := Ideal) m c) (Proc.devRef .tc main_v16) = _
  after_results
  show pad S10240x512 ![0, 0] ![240, 0] ![0, 0] (W2 (F := Ideal) m c (Proc.devRef .tc main_v15))
    (sitofp (F := Ideal) .f32 (constantI S_ 32 0#32)) pads_S10000x512_S10240x512_02400_000 h_S_ = _
  rw [W2_v15 m c]
  exact pad512_eq _

theorem W5_v17 (hsrc : ∀ i, 0 ≤ ((m ((c : Thread nD τ).loc main_arg1) : IVec S320000 32) i).toInt)
    (hdst : ∀ i, 0 ≤ ((m ((c : Thread nD τ).loc main_arg2) : IVec S320000 32) i).toInt) :
    (W5 (F := Ideal) m c (Proc.devRef .tc main_v17) : S10000x512.Idx → EReal)
      = unc (α := EReal) (A := 10000) (B := 512)
          (Cert.Spec.dhidden (argX m c) (argSRC m c) (argDST m c) (argWT m c) (argW1 m c)) := by
  refine (W5_arr m c 2).trans ((out1_eq (V4 m) c).trans ?_)
  show unc (α := EReal) (A := 10000) (B := 512) (fun r c' => max (Cert.Spec.dprop
    (cur (α := EReal) (A := 10000) (B := 10240) (V4 (F := Ideal) m c main_v14))
    (cur (α := EReal) (A := 10240) (B := 512) (V4 (F := Ideal) m c main_v16)) r c') 0) = _
  have h14 : (V4 (F := Ideal) m c main_v14 : S10000x10240.Idx → EReal)
      = unc (α := EReal) (A := 10000) (B := 10240) (Cert.Spec.adj (argSRC m c) (argDST m c) (argWT m c)) :=
    (W4_v14 m c).trans (W1_v14 m c hsrc hdst)
  have h16 : (V4 (F := Ideal) m c main_v16 : S10240x512.Idx → EReal)
      = unc (α := EReal) (A := 10240) (B := 512) (Cert.Spec.padRows (Cert.Spec.mm (argX m c) (argW1 m c))) := W4_v16 m c
  rw [h14, h16]
  rfl
/-! ## The heads' weights side by side, and the third region -/

/-- An argument no stretch writes and no region up to the second has for an array is at its launch contents there. -/
theorem W5_kept (b : Ref sig .tc) (h0 : b ∉ hostOps0_W) (h1 : b ∉ hostOps1_W) (h2 : b ∉ hostOps1_1_W)
    (hr0 : ∀ w, Pipeline.arrRef spec0 w ≠ b) (hr1 : ∀ w, Pipeline.arrRef spec1 w ≠ b) :
    W5 (F := Ideal) m c (Proc.devRef .tc b) = m ((c : Thread nD τ).loc b) :=
  (W5_of_ne m c b hr1).trans
    ((StableHlo.after_of_writes_sub hostOps1_1 _ hostOps1_1_writes h2).trans
      ((StableHlo.after_of_writes_sub hostOps1 _ hostOps1_writes h1).trans
        ((W2_of_ne m c b hr0).trans (W1_kept m c b h0))))

theorem W6_v18 :
    (W6 (F := Ideal) m c (Proc.devRef .tc main_v18) : S512x128.Idx → EReal)
      = unc (α := EReal) (A := 512) (B := 128) (Cert.Spec.catCols (argW2 m c) (argW3 m c)) := by
  show StableHlo.after hostOps2 (W5 (F := Ideal) m c) (Proc.devRef .tc main_v18) = _
  after_results
  rw [W5_kept m c main_arg5 (by decide) (by decide) (by decide) (by decide) (by decide),
    W5_kept m c main_arg6 (by decide) (by decide) (by decide) (by decide) (by decide)]
  exact cat_eq _ _

theorem W7_v19 (hsrc : ∀ i, 0 ≤ ((m ((c : Thread nD τ).loc main_arg1) : IVec S320000 32) i).toInt)
    (hdst : ∀ i, 0 ≤ ((m ((c : Thread nD τ).loc main_arg2) : IVec S320000 32) i).toInt) :
    (W7 (F := Ideal) m c (Proc.devRef .tc main_v19) : S10000x128.Idx → EReal)
      = unc (α := EReal) (A := 10000) (B := 128)
          (Cert.Spec.mm (Cert.Spec.dhidden (argX m c) (argSRC m c) (argDST m c) (argWT m c) (argW1 m c))
            (Cert.Spec.catCols (argW2 m c) (argW3 m c))) := by
  refine (W7_arr m c 2).trans ((out2_eq (V6 m) c).trans ?_)
  show unc (α := EReal) (A := 10000) (B := 128) (Cert.Spec.mm
    (cur (α := EReal) (A := 10000) (B := 512) (V6 (F := Ideal) m c main_v17))
    (cur (α := EReal) (A := 512) (B := 128) (V6 (F := Ideal) m c main_v18))) = _
  have h17 : (V6 (F := Ideal) m c main_v17 : S10000x512.Idx → EReal)
      = unc (α := EReal) (A := 10000) (B := 512)
          (Cert.Spec.dhidden (argX m c) (argSRC m c) (argDST m c) (argWT m c) (argW1 m c)) :=
    (StableHlo.after_of_writes_sub hostOps2 _ hostOps2_writes (by decide)).trans (W5_v17 m c hsrc hdst)
  have h18 : (V6 (F := Ideal) m c main_v18 : S512x128.Idx → EReal)
      = unc (α := EReal) (A := 512) (B := 128) (Cert.Spec.catCols (argW2 m c) (argW3 m c)) := W6_v18 m c
  rw [h17, h18]
  rfl

/-! ## The pad of the heads' input, and the fourth region: both heads -/

theorem W9_v20 (hsrc : ∀ i, 0 ≤ ((m ((c : Thread nD τ).loc main_arg1) : IVec S320000 32) i).toInt)
    (hdst : ∀ i, 0 ≤ ((m ((c : Thread nD τ).loc main_arg2) : IVec S320000 32) i).toInt) :
    (W9 (F := Ideal) m c (Proc.devRef .tc main_v20) : S10240x128.Idx → EReal)
      = unc (α := EReal) (A := 10240) (B := 128)
          (Cert.Spec.padRows (Cert.Spec.mm (Cert.Spec.dhidden (argX m c) (argSRC m c) (argDST m c) (argWT m c) (argW1 m c))
            (Cert.Spec.catCols (argW2 m c) (argW3 m c)))) := by
  show StableHlo.after hostOps3_1 (W8 (F := Ideal) m c) (Proc.devRef .tc main_v20) = _
  after_results
  show pad S10240x128 ![0, 0] ![240, 0] ![0, 0] (W7 (F := Ideal) m c (Proc.devRef .tc main_v19))
    (sitofp (F := Ideal) .f32 (constantI S_ 32 0#32)) pads_S10000x128_S10240x128_02400_000 h_S_ = _
  rw [W7_v19 m c hsrc hdst]
  exact pad128_eq _

theorem W10_v21 (hsrc : ∀ i, 0 ≤ ((m ((c : Thread nD τ).loc main_arg1) : IVec S320000 32) i).toInt)
    (hdst : ∀ i, 0 ≤ ((m ((c : Thread nD τ).loc main_arg2) : IVec S320000 32) i).toInt) :
    (W10 (F := Ideal) m c (Proc.devRef .tc main_v21) : S10000x128.Idx → EReal)
      = unc (α := EReal) (A := 10000) (B := 128)
          (Cert.Spec.dheads (argX m c) (argSRC m c) (argDST m c) (argWT m c) (argW1 m c) (argW2 m c) (argW3 m c)) := by
  refine (W10_arr m c 2).trans ((out3_eq (V9 m) c).trans ?_)
  show unc (α := EReal) (A := 10000) (B := 128) (Cert.Spec.dprop
    (cur (α := EReal) (A := 10000) (B := 10240) (V9 (F := Ideal) m c main_v14))
    (cur (α := EReal) (A := 10240) (B := 128) (V9 (F := Ideal) m c main_v20))) = _
  have h14 : (V9 (F := Ideal) m c main_v14 : S10000x10240.Idx → EReal)
      = unc (α := EReal) (A := 10000) (B := 10240) (Cert.Spec.adj (argSRC m c) (argDST m c) (argWT m c)) :=
    (W9_v14 m c).trans (W1_v14 m c hsrc hdst)
  have h20 : (V9 (F := Ideal) m c main_v20 : S10240x128.Idx → EReal)
      = unc (α := EReal) (A := 10240) (B := 128)
          (Cert.Spec.padRows (Cert.Spec.mm (Cert.Spec.dhidden (argX m c) (argSRC m c) (argDST m c) (argWT m c) (argW1 m c))
            (Cert.Spec.catCols (argW2 m c) (argW3 m c)))) := W9_v20 m c hsrc hdst
  rw [h14, h20]
  rfl

/-! ## The two heads cut apart, the mean head padded, and the last region: the Gram matrix -/

theorem W11_v22 (hsrc : ∀ i, 0 ≤ ((m ((c : Thread nD τ).loc main_arg1) : IVec S320000 32) i).toInt)
    (hdst : ∀ i, 0 ≤ ((m ((c : Thread nD τ).loc main_arg2) : IVec S320000 32) i).toInt) :
    (W11 (F := Ideal) m c (Proc.devRef .tc main_v22) : S10000x64.Idx → EReal)
      = unc (α := EReal) (A := 10000) (B := 64)
          (Cert.Spec.dmu (argX m c) (argSRC m c) (argDST m c) (argWT m c) (argW1 m c) (argW2 m c) (argW3 m c)) := by
  show StableHlo.after hostOps4 (W10 (F := Ideal) m c) (Proc.devRef .tc main_v22) = _
  after_results
  rw [W10_v21 m c hsrc hdst]
  exact (sliceLo_eq _).trans rfl

theorem W11_v23 (hsrc : ∀ i, 0 ≤ ((m ((c : Thread nD τ).loc main_arg1) : IVec S320000 32) i).toInt)
    (hdst : ∀ i, 0 ≤ ((m ((c : Thread nD τ).loc main_arg2) : IVec S320000 32) i).toInt) :
    (W11 (F := Ideal) m c (Proc.devRef .tc main_v23) : S10000x64.Idx → EReal)
      = unc (α := EReal) (A := 10000) (B := 64)
          (Cert.Spec.dlogvar (argX m c) (argSRC m c) (argDST m c) (argWT m c) (argW1 m c) (argW2 m c) (argW3 m c)) := by
  show StableHlo.after hostOps4 (W10 (F := Ideal) m c) (Proc.devRef .tc main_v23) = _
  after_results
  rw [W10_v21 m c hsrc hdst]
  exact (sliceHi_eq _).trans rfl

theorem W12_v22 : W12 (F := Ideal) m c (Proc.devRef .tc main_v22) = W11 (F := Ideal) m c (Proc.devRef .tc main_v22) :=
  StableHlo.after_of_writes_sub hostOps4_1 _ hostOps4_1_writes (by decide)

theorem W12_v24 (hsrc : ∀ i, 0 ≤ ((m ((c : Thread nD τ).loc main_arg1) : IVec S320000 32) i).toInt)
    (hdst : ∀ i, 0 ≤ ((m ((c : Thread nD τ).loc main_arg2) : IVec S320000 32) i).toInt) :
    (W12 (F := Ideal) m c (Proc.devRef .tc main_v24) : S10240x64.Idx → EReal)
      = unc (α := EReal) (A := 10240) (B := 64)
          (Cert.Spec.padRows (Cert.Spec.dmu (argX m c) (argSRC m c) (argDST m c) (argWT m c) (argW1 m c) (argW2 m c) (argW3 m c))) := by
  show StableHlo.after hostOps4_1 (W11 (F := Ideal) m c) (Proc.devRef .tc main_v24) = _
  after_results
  show pad S10240x64 ![0, 0] ![240, 0] ![0, 0] (W11 (F := Ideal) m c (Proc.devRef .tc main_v22))
    (sitofp (F := Ideal) .f32 (constantI S_ 32 0#32)) pads_S10000x64_S10240x64_02400_000 h_S_ = _
  rw [W11_v22 m c hsrc hdst]
  exact pad64_eq _

theorem W13_v25 (hsrc : ∀ i, 0 ≤ ((m ((c : Thread nD τ).loc main_arg1) : IVec S320000 32) i).toInt)
    (hdst : ∀ i, 0 ≤ ((m ((c : Thread nD τ).loc main_arg2) : IVec S320000 32) i).toInt) :
    (W13 (F := Ideal) m c (Proc.devRef .tc main_v25) : S10000x10240.Idx → EReal)
      = unc (α := EReal) (A := 10000) (B := 10240) (fun r r' => ∑ k : Fin 64,
          Cert.Spec.dmu (argX m c) (argSRC m c) (argDST m c) (argWT m c) (argW1 m c) (argW2 m c) (argW3 m c) r k
            * Cert.Spec.padRows (Cert.Spec.dmu (argX m c) (argSRC m c) (argDST m c) (argWT m c) (argW1 m c) (argW2 m c) (argW3 m c)) r' k) := by
  refine (W13_arr m c 2).trans ((out4_eq (V12 m) c).trans ?_)
  show unc (α := EReal) (A := 10000) (B := 10240) (fun r r' => ∑ k : Fin 64,
    cur (α := EReal) (A := 10000) (B := 64) (V12 (F := Ideal) m c main_v22) r k
      * cur (α := EReal) (A := 10240) (B := 64) (V12 (F := Ideal) m c main_v24) r' k) = _
  have h22 : (V12 (F := Ideal) m c main_v22 : S10000x64.Idx → EReal)
      = unc (α := EReal) (A := 10000) (B := 64)
          (Cert.Spec.dmu (argX m c) (argSRC m c) (argDST m c) (argWT m c) (argW1 m c) (argW2 m c) (argW3 m c)) :=
    (W12_v22 m c).trans (W11_v22 m c hsrc hdst)
  have h24 : (V12 (F := Ideal) m c main_v24 : S10240x64.Idx → EReal)
      = unc (α := EReal) (A := 10240) (B := 64)
          (Cert.Spec.padRows (Cert.Spec.dmu (argX m c) (argSRC m c) (argDST m c) (argWT m c) (argW1 m c) (argW2 m c) (argW3 m c))) :=
    W12_v24 m c hsrc hdst
  rw [h22, h24]
  rfl

/-! ## What the program returns -/

theorem W14_v26 (hsrc : ∀ i, 0 ≤ ((m ((c : Thread nD τ).loc main_arg1) : IVec S320000 32) i).toInt)
    (hdst : ∀ i, 0 ≤ ((m ((c : Thread nD τ).loc main_arg2) : IVec S320000 32) i).toInt) :
    (W14 (F := Ideal) m c (Proc.devRef .tc main_v26) : S10000x10000.Idx → EReal)
      = unc (α := EReal) (A := 10000) (B := 10000)
          (Cert.Spec.dpred (argX m c) (argSRC m c) (argDST m c) (argWT m c) (argW1 m c) (argW2 m c) (argW3 m c)) := by
  show StableHlo.after hostOps5 (W13 (F := Ideal) m c) (Proc.devRef .tc main_v26) = _
  after_results
  rw [W13_v25 m c hsrc hdst]
  exact (sliceSq_eq _).trans rfl

theorem W14_v22 : W14 (F := Ideal) m c (Proc.devRef .tc main_v22) = W11 (F := Ideal) m c (Proc.devRef .tc main_v22) :=
  (StableHlo.after_of_writes_sub hostOps5 _ hostOps5_writes (by decide)).trans
    (((W13_arr m c 0).trans (((dat4 (V12 m) c).arrAt_in 0 rfl _).trans (A_eq4 (V12 m) c 0))).trans (W12_v22 m c))

theorem W14_v23 : W14 (F := Ideal) m c (Proc.devRef .tc main_v23) = W11 (F := Ideal) m c (Proc.devRef .tc main_v23) :=
  (StableHlo.after_of_writes_sub hostOps5 _ hostOps5_writes (by decide)).trans
    ((W13_of_ne m c main_v23 (by decide)).trans
      (StableHlo.after_of_writes_sub hostOps4_1 _ hostOps4_1_writes (by decide)))

/-- The three results of the program, at the extended reals, as the dense route's tables of the launch arguments. -/
theorem results (m : (ℓ : Loc nD τ sig) → Buf (Elt Ideal) ℓ) (c : Dev nD)
    (hsrc : ∀ i, 0 ≤ ((m ((c : Thread nD τ).loc main_arg1) : IVec S320000 32) i).toInt)
    (hdst : ∀ i, 0 ≤ ((m ((c : Thread nD τ).loc main_arg2) : IVec S320000 32) i).toInt) :
    (W14 (F := Ideal) m c (Proc.devRef .tc main_v26) : S10000x10000.Idx → EReal)
        = unc (α := EReal) (A := 10000) (B := 10000)
            (Cert.Spec.dpred (argX m c) (argSRC m c) (argDST m c) (argWT m c) (argW1 m c) (argW2 m c) (argW3 m c))
      ∧ (W14 (F := Ideal) m c (Proc.devRef .tc main_v22) : S10000x64.Idx → EReal)
        = unc (α := EReal) (A := 10000) (B := 64)
            (Cert.Spec.dmu (argX m c) (argSRC m c) (argDST m c) (argWT m c) (argW1 m c) (argW2 m c) (argW3 m c))
      ∧ (W14 (F := Ideal) m c (Proc.devRef .tc main_v23) : S10000x64.Idx → EReal)
        = unc (α := EReal) (A := 10000) (B := 64)
            (Cert.Spec.dlogvar (argX m c) (argSRC m c) (argDST m c) (argWT m c) (argW1 m c) (argW2 m c) (argW3 m c)) :=
  ⟨W14_v26 m c hsrc hdst, (W14_v22 m c).trans (W11_v22 m c hsrc hdst), (W14_v23 m c).trans (W11_v23 m c hsrc hdst)⟩

end Values

end Cert.KernelIdeal.Hand

end
-- ==== Proof.RefGen.lean ====
/- The reference program's run and its stages read at an index, as generated; gathered here so that the modules about the reference import one name. -/
import proofs.«420245_j23562190586108_1_alg».proof.Proof.Gen.ReferenceIdeal.Run
import proofs.«420245_j23562190586108_1_alg».proof.Proof.Gen.ReferenceIdeal.Read
-- ==== Proof.RefValue.lean ====
/-
  The reference program's three results are the model of Spec.lean.

  Its run (the generated module) ends with each result at a composed term of the arguments; read one operation at a
  time, that term is: `x · W1`, gathered at the source rows, scaled by the weights and summed into the destination rows
  (one propagation step), clipped below at zero; the same step applied to its products with `W2` and with `W3`; and the
  product of the first of these with its own transpose.
-/
import proofs.«420245_j23562190586108_1_alg».proof.Proof.RefGen
import proofs.«420245_j23562190586108_1_alg».proof.Proof.Stages
import proofs.«420245_j23562190586108_1_alg».proof.Proof.Spec
import proofs.«420245_j23562190586108_1_alg».proof.Proof.Bridge
import Idealize.ShloMosaic.Lib.Pipeline.Value
import Idealize.ShloMosaic.Lib.ValueIdx
import Idealize.ShloMosaic.PureOps.Ideal.Laws

noncomputable section

open scoped BigOperators

namespace Cert.RefValue

open Idealize.ShloMosaic Idealize.ShloMosaic.ValueIdx Cert.ReferenceIdeal Cert.ReferenceIdeal.Gen Cert.ReferenceIdeal.Read Cert.Bridge

/-! ## The wrapped source word -/

/-- A word that is not negative is not below zero in the signed order, so the select keeps it. -/
theorem select_wrap (b a : BitVec 32) (h : 0 ≤ b.toInt) :
    Scalar.select (IntOp.cmpi .slt b 0#32) a b = b := by
  have hs : b.slt 0#32 = false := by
    rw [BitVec.slt_eq_decide]
    exact decide_eq_false (by rw [BitVec.toInt_zero]; omega)
  unfold Scalar.select IntOp.cmpi
  simp only [hs]
  exact if_neg (by decide)

/-! ## One propagation step of the program -/

/-- The program's propagation step over any table `T` of 10000 rows: a scatter-add into zeros, by the destination
    column, of the weights times the rows of `T` gathered at the source column, is `Spec.prop` of the table. -/
theorem prop_step {H : Nat}
    (wfg : GatherDims.WF ⟨2, ![10000, H]⟩ ⟨2, ![320000, 1]⟩ ⟨2, ![320000, H]⟩ [1] [0] [] [0] [] 1 ![1, H])
    (wfs : ScatterDims.WF ⟨2, ![10000, H]⟩ ⟨2, ![320000, 1]⟩ ⟨2, ![320000, H]⟩ [1] [0] [0] 1)
    (x1 x2 : IVec S320000 32) (x3 : FVec Ideal S320000 .f32)
    (T Z : FVec Ideal ⟨2, ![10000, H]⟩ .f32) (D Sc : IVec ⟨2, ![320000, 1]⟩ 32)
    (W : FVec Ideal ⟨2, ![320000, H]⟩ .f32)
    (hZ : ∀ i, Z i = 0)
    (hD : ∀ e : Fin 320000, D (ix2 e (0 : Fin 1)) = x2 (ix1 e))
    (hS : ∀ e : Fin 320000, Sc (ix2 e (0 : Fin 1)) = x1 (ix1 e))
    (hW : ∀ (e : Fin 320000) (c : Fin H), W (ix2 e c) = x3 (ix1 e)) :
    Ideal.hostScatterAdd (Cert.Stages.rowScatter 10000 H 320000 wfs) Z D
        (mulf W (Host.gather (Cert.Stages.rowGather 10000 H 320000 wfg) T Sc))
      = unc (Cert.Spec.prop (vec x1) (vec x2) (vec x3) (cur T)) := by
  funext i
  obtain ⟨r, c, rfl⟩ : ∃ r c, i = ix2 r c := ⟨i 0, i 1, eq_ix2 i⟩
  rw [Cert.Stages.scatterAdd_rows_apply, hZ, zero_add, unc_ix2]
  unfold Cert.Spec.prop
  have hfilter : Finset.univ.filter (fun e : Fin 320000 => (D (ix2 e (0 : Fin 1))).toInt = (r.val : ℤ))
      = Finset.univ.filter (fun e : Fin 320000 => (vec x2 e).toInt = (r.val : ℤ)) := by
    refine Finset.filter_congr (fun e _ => ?_)
    rw [hD]
    rfl
  rw [hfilter]
  refine Finset.sum_congr rfl (fun e _ => ?_)
  rw [mulf_apply, hW, Cert.Stages.gather_rows_apply (by norm_num)]
  have hrow : ∀ (p : min (Sc (ix2 e (0 : Fin 1))).toInt.toNat (10000 - 1) < 10000),
      (⟨min (Sc (ix2 e (0 : Fin 1))).toInt.toNat (10000 - 1), p⟩ : Fin 10000) = Cert.Spec.rowOf (vec x1 e) := by
    intro p
    apply Fin.ext
    show min (Sc (ix2 e (0 : Fin 1))).toInt.toNat (10000 - 1) = min (vec x1 e).toInt.toNat 9999
    rw [hS]
    rfl
  rw [hrow]
  rfl

/-! ## The program's stages -/

variable (x0 : FVec Ideal S10000x3000 .f32) (x1 x2 : IVec S320000 32) (x3 : FVec Ideal S320000 .f32)
  (x4 : FVec Ideal S3000x512 .f32) (x5 x6 : FVec Ideal S512x64 .f32)
  -- no source word is negative: the program's own wrap of a negative word (by 10000) then never acts, and the word
  -- the gather clamps is the word itself
  (hsrc : ∀ i, 0 ≤ (x1 i).toInt)

include hsrc in
/-- The propagation stage of the program whose table is `val_main_v0`. -/
theorem stage_v13 :
    val_main_v13 (F := Ideal) x0 x1 x2 x3 x4
      = unc (Cert.Spec.prop (vec x1) (vec x2) (vec x3) (cur (val_main_v0 (F := Ideal) x0 x4))) := by
  have hZ : ∀ i, val_main_v11 (F := Ideal) i = 0 := by
    intro i
    rw [val_main_v11_apply, val_main_cst_apply]
    exact Ideal.ofBits_zero_f32
  have hD : ∀ e : Fin 320000, val_main_v12 (F := Ideal) x2 (ix2 e (0 : Fin 1)) = x2 (ix1 e) := by
    intro e
    rw [val_main_v12_apply]
    exact congrArg x2 (funext fun a => match a with | ⟨0, _⟩ => rfl)
  have hS : ∀ e : Fin 320000, val_main_v7 (F := Ideal) x1 (ix2 e (0 : Fin 1)) = x1 (ix1 e) := by
    intro e
    have hj : idx_main_v7 (ix2 e (0 : Fin 1)) = ix1 e := funext fun a => match a with | ⟨0, _⟩ => rfl
    rw [val_main_v7_apply, hj, val_main_v6_apply, val_main_v3_apply, val_main_v2_apply, val_main_c_apply]
    exact select_wrap _ _ (hsrc _)
  have hW : ∀ (e : Fin 320000) (c : Fin 512), val_main_v9 (F := Ideal) x3 (ix2 e c) = x3 (ix1 e) := by
    intro e c
    rw [val_main_v9_apply, val_main_v1_apply]
    exact congrArg x3 (funext fun a => match a with | ⟨0, _⟩ => rfl)
  exact prop_step gather_S10000x512_S320000x1_S320000x512_1_0_n_n_0_1_1512.wf scatter_S10000x512_S320000x1_S320000x512_1_0_0_1.wf x1 x2 x3
    (val_main_v0 (F := Ideal) x0 x4) (val_main_v11 (F := Ideal)) (val_main_v12 (F := Ideal) x2) (val_main_v7 (F := Ideal) x1)
    (val_main_v9 (F := Ideal) x3) hZ hD hS hW

include hsrc in
/-- The propagation stage of the program whose table is `val_main_v15`. -/
theorem stage_v28 :
    val_main_v28 (F := Ideal) x0 x1 x2 x3 x4 x5
      = unc (Cert.Spec.prop (vec x1) (vec x2) (vec x3) (cur (val_main_v15 (F := Ideal) x0 x1 x2 x3 x4 x5))) := by
  have hZ : ∀ i, val_main_v26 (F := Ideal) i = 0 := by
    intro i
    rw [val_main_v26_apply, val_main_cst_3_apply]
    exact Ideal.ofBits_zero_f32
  have hD : ∀ e : Fin 320000, val_main_v27 (F := Ideal) x2 (ix2 e (0 : Fin 1)) = x2 (ix1 e) := by
    intro e
    rw [val_main_v27_apply]
    exact congrArg x2 (funext fun a => match a with | ⟨0, _⟩ => rfl)
  have hS : ∀ e : Fin 320000, val_main_v22 (F := Ideal) x1 (ix2 e (0 : Fin 1)) = x1 (ix1 e) := by
    intro e
    have hj : idx_main_v22 (ix2 e (0 : Fin 1)) = ix1 e := funext fun a => match a with | ⟨0, _⟩ => rfl
    rw [val_main_v22_apply, hj, val_main_v21_apply, val_main_v18_apply, val_main_v17_apply, val_main_c_1_apply]
    exact select_wrap _ _ (hsrc _)
  have hW : ∀ (e : Fin 320000) (c : Fin 64), val_main_v24 (F := Ideal) x3 (ix2 e c) = x3 (ix1 e) := by
    intro e c
    rw [val_main_v24_apply, val_main_v16_apply]
    exact congrArg x3 (funext fun a => match a with | ⟨0, _⟩ => rfl)
  exact prop_step gather_S10000x64_S320000x1_S320000x64_1_0_n_n_0_1_164.wf scatter_S10000x64_S320000x1_S320000x64_1_0_0_1.wf x1 x2 x3
    (val_main_v15 (F := Ideal) x0 x1 x2 x3 x4 x5) (val_main_v26 (F := Ideal)) (val_main_v27 (F := Ideal) x2) (val_main_v22 (F := Ideal) x1)
    (val_main_v24 (F := Ideal) x3) hZ hD hS hW

include hsrc in
/-- The propagation stage of the program whose table is `val_main_v29`. -/
theorem stage_v42 :
    val_main_v42 (F := Ideal) x0 x1 x2 x3 x4 x6
      = unc (Cert.Spec.prop (vec x1) (vec x2) (vec x3) (cur (val_main_v29 (F := Ideal) x0 x1 x2 x3 x4 x6))) := by
  have hZ : ∀ i, val_main_v40 (F := Ideal) i = 0 := by
    intro i
    rw [val_main_v40_apply, val_main_cst_6_apply]
    exact Ideal.ofBits_zero_f32
  have hD : ∀ e : Fin 320000, val_main_v41 (F := Ideal) x2 (ix2 e (0 : Fin 1)) = x2 (ix1 e) := by
    intro e
    rw [val_main_v41_apply]
    exact congrArg x2 (funext fun a => match a with | ⟨0, _⟩ => rfl)
  have hS : ∀ e : Fin 320000, val_main_v36 (F := Ideal) x1 (ix2 e (0 : Fin 1)) = x1 (ix1 e) := by
    intro e
    have hj : idx_main_v36 (ix2 e (0 : Fin 1)) = ix1 e := funext fun a => match a with | ⟨0, _⟩ => rfl
    rw [val_main_v36_apply, hj, val_main_v35_apply, val_main_v32_apply, val_main_v31_apply, val_main_c_4_apply]
    exact select_wrap _ _ (hsrc _)
  have hW : ∀ (e : Fin 320000) (c : Fin 64), val_main_v38 (F := Ideal) x3 (ix2 e c) = x3 (ix1 e) := by
    intro e c
    rw [val_main_v38_apply, val_main_v30_apply]
    exact congrArg x3 (funext fun a => match a with | ⟨0, _⟩ => rfl)
  exact prop_step gather_S10000x64_S320000x1_S320000x64_1_0_n_n_0_1_164.wf scatter_S10000x64_S320000x1_S320000x64_1_0_0_1.wf x1 x2 x3
    (val_main_v29 (F := Ideal) x0 x1 x2 x3 x4 x6) (val_main_v40 (F := Ideal)) (val_main_v41 (F := Ideal) x2) (val_main_v36 (F := Ideal) x1)
    (val_main_v38 (F := Ideal) x3) hZ hD hS hW

/-! ## The results -/

/-- The program's first product is the model's `x · W1`. -/
theorem cur_v0 :
    cur (val_main_v0 (F := Ideal) x0 x4) = Cert.Spec.mm (cur x0) (cur x4) := by
  funext r c
  show val_main_v0 (F := Ideal) x0 x4 (ix2 r c) = _
  rw [val_main_v0_apply]
  unfold Cert.Spec.mm
  refine Finset.sum_congr rfl (fun k _ => ?_)
  have hl : lidx_main_v0 (ix2 r c) k = ix2 r k :=
    funext fun a => match a with | ⟨0, _⟩ => rfl | ⟨1, _⟩ => rfl
  have hr : ridx_main_v0 (ix2 r c) k = ix2 k c :=
    funext fun a => match a with | ⟨0, _⟩ => rfl | ⟨1, _⟩ => rfl
  rw [hl, hr]
  rfl

include hsrc in
/-- The hidden layer the reference computes (its `relu` of the first propagation). -/
theorem hidden_eq :
    val_main_v14 (F := Ideal) x0 x1 x2 x3 x4 = unc (Cert.Spec.hidden (cur x0) (vec x1) (vec x2) (vec x3) (cur x4)) := by
  funext i
  obtain ⟨r, c, rfl⟩ : ∃ r c, i = ix2 r c := ⟨i 0, i 1, eq_ix2 i⟩
  have h0 : (FloatOps.ofBits .f32 0x00000000#32 : Ideal .f32) = 0 := Ideal.ofBits_zero_f32
  rw [val_main_v14_apply, stage_v13 x0 x1 x2 x3 x4 hsrc, cur_v0, val_main_call0_v0_apply, val_main_call0_cst_apply, h0]
  rfl

include hsrc in
/-- The product feeding the mean head is the model's `hidden · W2`. -/
theorem cur_v15 :
    cur (val_main_v15 (F := Ideal) x0 x1 x2 x3 x4 x5) = Cert.Spec.mm (Cert.Spec.hidden (cur x0) (vec x1) (vec x2) (vec x3) (cur x4)) (cur x5) := by
  funext r c
  show val_main_v15 (F := Ideal) x0 x1 x2 x3 x4 x5 (ix2 r c) = _
  rw [val_main_v15_apply, hidden_eq x0 x1 x2 x3 x4 hsrc]
  unfold Cert.Spec.mm
  refine Finset.sum_congr rfl (fun k _ => ?_)
  have hl : lidx_main_v15 (ix2 r c) k = ix2 r k :=
    funext fun a => match a with | ⟨0, _⟩ => rfl | ⟨1, _⟩ => rfl
  have hr : ridx_main_v15 (ix2 r c) k = ix2 k c :=
    funext fun a => match a with | ⟨0, _⟩ => rfl | ⟨1, _⟩ => rfl
  rw [hl, hr]
  rfl

include hsrc in
/-- The product feeding the log-variance head is the model's `hidden · W3`. -/
theorem cur_v29 :
    cur (val_main_v29 (F := Ideal) x0 x1 x2 x3 x4 x6) = Cert.Spec.mm (Cert.Spec.hidden (cur x0) (vec x1) (vec x2) (vec x3) (cur x4)) (cur x6) := by
  funext r c
  show val_main_v29 (F := Ideal) x0 x1 x2 x3 x4 x6 (ix2 r c) = _
  rw [val_main_v29_apply, hidden_eq x0 x1 x2 x3 x4 hsrc]
  unfold Cert.Spec.mm
  refine Finset.sum_congr rfl (fun k _ => ?_)
  have hl : lidx_main_v29 (ix2 r c) k = ix2 r k :=
    funext fun a => match a with | ⟨0, _⟩ => rfl | ⟨1, _⟩ => rfl
  have hr : ridx_main_v29 (ix2 r c) k = ix2 k c :=
    funext fun a => match a with | ⟨0, _⟩ => rfl | ⟨1, _⟩ => rfl
  rw [hl, hr]
  rfl

include hsrc in
/-- The second result: the mean head. -/
theorem mu_eq :
    val_main_v28 (F := Ideal) x0 x1 x2 x3 x4 x5 = unc (Cert.Spec.mu (cur x0) (vec x1) (vec x2) (vec x3) (cur x4) (cur x5)) := by
  rw [stage_v28 x0 x1 x2 x3 x4 x5 hsrc, cur_v15 x0 x1 x2 x3 x4 x5 hsrc]
  rfl

include hsrc in
/-- The third result: the log-variance head. -/
theorem logvar_eq :
    val_main_v42 (F := Ideal) x0 x1 x2 x3 x4 x6 = unc (Cert.Spec.logvar (cur x0) (vec x1) (vec x2) (vec x3) (cur x4) (cur x6)) := by
  rw [stage_v42 x0 x1 x2 x3 x4 x6 hsrc, cur_v29 x0 x1 x2 x3 x4 x6 hsrc]
  rfl

include hsrc in
/-- The first result: the decoder's Gram matrix. -/
theorem pred_eq :
    val_main_v44 (F := Ideal) x0 x1 x2 x3 x4 x5 = unc (Cert.Spec.pred (cur x0) (vec x1) (vec x2) (vec x3) (cur x4) (cur x5)) := by
  funext i
  obtain ⟨r, r', rfl⟩ : ∃ r r', i = ix2 r r' := ⟨i 0, i 1, eq_ix2 i⟩
  rw [val_main_v44_apply, unc_ix2]
  unfold Cert.Spec.pred
  refine Finset.sum_congr rfl (fun k _ => ?_)
  rw [val_main_v43_apply, mu_eq x0 x1 x2 x3 x4 x5 hsrc]
  rfl

end Cert.RefValue

end
-- ==== Proof.PreDecode.lean ====
/-
  What the precondition says, element by element.

  The printed predicate is a conjunction of eight `all`-reductions: five say that the absolute value of every entry of a
  float input is below `+∞` — so the entry, an extended real, is a real number —, and three say of the edge words that
  every source word, read signed, is at least `0` and below `10000`, and every destination word at least `0`.
-/
import proofs.«420245_j23562190586108_1_alg».proof.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreDecode

open Idealize.ShloMosaic Idealize.ShloMosaic.ValueIdx Cert.Pre_finite_inputs

variable [Cert.Pre_finite_inputs.Facts]

/-- The rank-0 shape has one index. -/
instance subsingleton_S_ : Subsingleton S_.Idx := ⟨fun a b => funext fun d => d.elim0⟩

/-- An extended real whose absolute value `max a (-a)` is below `⊤` is a real number: at `⊥` and at `⊤` that maximum
    is `⊤`. -/
theorem real_of_abs_lt_top (a : EReal) (h : Ideal.cmp .olt (max a (-a)) ⊤ = 1#1) : ∃ r : ℝ, a = (r : EReal) := by
  change BitVec.ofBool (decide (max a (-a) < ⊤)) = 1#1 at h
  rw [StableHlo.Predicate.ofBool_eq_one_iff, decide_eq_true_eq] at h
  induction a using EReal.rec with
  | bot => simp at h
  | coe r => exact ⟨r, rfl⟩
  | top => simp at h

/-- The word `0x7F800000` of `f32` denotes `⊤`. -/
theorem inf_bits : Ideal.ofBits .f32 0x7F800000#32 = ⊤ := by simp [Ideal.ofBits, Ideal.ieee]

/-- One element of a float conjunct: `|a i| < +∞` (the bound a broadcast scalar constant) makes `a i` a real. -/
theorem float_elem {s : Shape} (hb : S_.BroadcastsInDim s (![] : Fin 0 → Fin s.rank)) (a : FVec Ideal s .f32) (i : s.Idx)
    (h : cmpf .olt (Host.absf a) (broadcastInDim s ![] hb (constant S_ .f32 0x7F800000#32)) i = 1#1) :
    ∃ r : ℝ, a i = (r : EReal) := by
  apply real_of_abs_lt_top
  rw [← inf_bits]
  exact h

/-- One float conjunct: the `all`-reduction of `|a| < +∞` being 1 makes every entry of `a` a real. -/
theorem float_all {s : Shape} {axes : List (Fin s.rank)} (hb : S_.BroadcastsInDim s (![] : Fin 0 → Fin s.rank))
    (hr : s.ReducesTo axes S_) (hu : 0 < S_.numel) (a : FVec Ideal s .f32) (init : IVec S_ 1) (j : S_.Idx)
    (h : Host.reduce IntOp.andi (cmpf .olt (Host.absf a) (broadcastInDim s ![] hb (constant S_ .f32 0x7F800000#32)))
      init hr hu j = 1#1) (i : s.Idx) : ∃ r : ℝ, a i = (r : EReal) :=
  float_elem hb a i (Host.reduce_andi_all _ init hr hu j h i)

/-- A word that compares signed-at-least against the zero word has a non-negative signed value. -/
theorem toInt_nonneg_of_sge (a : BitVec 32) (h : IntOp.cmpi .sge a 0#32 = 1#1) : 0 ≤ a.toInt := by
  change BitVec.ofBool ((0#32).sle a) = 1#1 at h
  rw [StableHlo.Predicate.ofBool_eq_one_iff] at h
  simp only [BitVec.sle, decide_eq_true_eq] at h
  have z : (0#32).toInt = 0 := by decide
  rw [z] at h
  exact h

/-- A word that compares signed-below against the word `10000` has a signed value below `10000`. -/
theorem toInt_lt_of_slt (a : BitVec 32) (h : IntOp.cmpi .slt a 10000#32 = 1#1) : a.toInt < 10000 := by
  change BitVec.ofBool (a.slt 10000#32) = 1#1 at h
  rw [StableHlo.Predicate.ofBool_eq_one_iff] at h
  simp only [BitVec.slt, decide_eq_true_eq] at h
  have z : (10000#32).toInt = 10000 := by decide
  rw [z] at h
  exact h

/-- One integer conjunct: the `all`-reduction of `a ≥ 0` (the bound a broadcast scalar constant) being 1. -/
theorem sge_all {s : Shape} {axes : List (Fin s.rank)} (hb : S_.BroadcastsInDim s (![] : Fin 0 → Fin s.rank))
    (hr : s.ReducesTo axes S_) (hu : 0 < S_.numel) (a : IVec s 32) (init : IVec S_ 1) (j : S_.Idx)
    (h : Host.reduce IntOp.andi (cmpi .sge a (broadcastInDim s ![] hb (constantI S_ 32 0#32))) init hr hu j = 1#1)
    (i : s.Idx) : 0 ≤ (a i).toInt :=
  toInt_nonneg_of_sge (a i) (Host.reduce_andi_all _ init hr hu j h i)

/-- One integer conjunct: the `all`-reduction of `a < 10000` (the bound a broadcast scalar constant) being 1. -/
theorem slt_all {s : Shape} {axes : List (Fin s.rank)} (hb : S_.BroadcastsInDim s (![] : Fin 0 → Fin s.rank))
    (hr : s.ReducesTo axes S_) (hu : 0 < S_.numel) (a : IVec s 32) (init : IVec S_ 1) (j : S_.Idx)
    (h : Host.reduce IntOp.andi (cmpi .slt a (broadcastInDim s ![] hb (constantI S_ 32 10000#32))) init hr hu j = 1#1)
    (i : s.Idx) : (a i).toInt < 10000 :=
  toInt_lt_of_slt (a i) (Host.reduce_andi_all _ init hr hu j h i)

/-- The precondition, all ones, read at the elements of its seven operands. -/
theorem decode (x : FVec Ideal S10000x3000 .f32) (src dst : IVec S320000 32) (w : FVec Ideal S320000 .f32)
    (W1 : FVec Ideal S3000x512 .f32) (W2 W3 : FVec Ideal S512x64 .f32)
    (h : Cert.Pre_finite_inputs.fn (F := Ideal) x src dst w W1 W2 W3 = fun _ => 1#1) :
    (∀ i, ∃ r : ℝ, x i = (r : EReal)) ∧ (∀ i, ∃ r : ℝ, w i = (r : EReal)) ∧ (∀ i, ∃ r : ℝ, W1 i = (r : EReal))
      ∧ (∀ i, ∃ r : ℝ, W2 i = (r : EReal)) ∧ (∀ i, ∃ r : ℝ, W3 i = (r : EReal))
      ∧ (∀ i, 0 ≤ (src i).toInt ∧ (src i).toInt < 10000) ∧ (∀ i, 0 ≤ (dst i).toInt) := by
  have h0 := congrFun h ValueIdx.ix0
  dsimp only [Cert.Pre_finite_inputs.fn, fn_part1, fn_part2] at h0
  obtain ⟨h1, hd⟩ := IntOp.andi_eq_one.1 h0
  obtain ⟨h2, hs2⟩ := IntOp.andi_eq_one.1 h1
  obtain ⟨h3, hs1⟩ := IntOp.andi_eq_one.1 h2
  obtain ⟨h4, hW3⟩ := IntOp.andi_eq_one.1 h3
  obtain ⟨h5, hW2⟩ := IntOp.andi_eq_one.1 h4
  obtain ⟨h6, hW1⟩ := IntOp.andi_eq_one.1 h5
  obtain ⟨hx, hw⟩ := IntOp.andi_eq_one.1 h6
  exact ⟨float_all _ _ _ x _ _ hx, float_all _ _ _ w _ _ hw, float_all _ _ _ W1 _ _ hW1, float_all _ _ _ W2 _ _ hW2,
    float_all _ _ _ W3 _ _ hW3, fun i => ⟨sge_all _ _ _ src _ _ hs1 i, slt_all _ _ _ src _ _ hs2 i⟩,
    sge_all _ _ _ dst _ _ hd⟩

end Cert.PreDecode

end
-- ==== Proof.Math.lean ====
/-
  The dense route and the edge-list route of Spec.lean compute the same tables when every source word is a row
  number and every input number is finite.

  The one law that needs finiteness is distributivity: `(∑ e, w e) * y = ∑ e, w e * y` fails on the extended reals
  at an infinity, so every table that is multiplied is first shown to hold real numbers only (`Real2`), the sums are
  moved to the reals, and there the identity is a regrouping of a finite double sum by the source's row.
-/
import proofs.«420245_j23562190586108_1_alg».proof.Proof.Spec

noncomputable section

open scoped BigOperators

namespace Cert.Spec

/-! ## Finite sums of real numbers inside the extended reals -/

/-- The coercion of a finite sum of reals is the sum of the coercions. -/
theorem coe_finsum {ι : Type} (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

/-- The coercion of the larger of two reals is the larger of the coercions. -/
theorem coe_max_real (a b : ℝ) : ((max a b : ℝ) : EReal) = max (a : EReal) (b : EReal) :=
  EReal.coe_strictMono.monotone.map_max

/-! ## Tables of real numbers are closed under the model's operations -/

theorem real2_mm {A K B : ℕ} {X : Fin A → Fin K → EReal} {Y : Fin K → Fin B → EReal} (hX : Real2 X) (hY : Real2 Y) :
    Real2 (mm X Y) := by
  choose Xr hXr using hX
  choose Yr hYr using hY
  intro r c
  refine ⟨∑ k : Fin K, Xr r k * Yr k c, ?_⟩
  unfold mm
  rw [coe_finsum]
  refine Finset.sum_congr rfl (fun k _ => ?_)
  rw [hXr, hYr, EReal.coe_mul]

theorem real2_prop {H : ℕ} (src dst : Fin 320000 → BitVec 32) {w : Fin 320000 → EReal} (hw : Real1 w)
    {S : Fin 10000 → Fin H → EReal} (hS : Real2 S) : Real2 (prop src dst w S) := by
  choose wr hwr using hw
  choose Sr hSr using hS
  intro r c
  refine ⟨∑ e ∈ Finset.univ.filter (fun e : Fin 320000 => (dst e).toInt = (r.val : ℤ)),
    wr e * Sr (rowOf (src e)) c, ?_⟩
  unfold prop
  rw [coe_finsum]
  refine Finset.sum_congr rfl (fun e _ => ?_)
  rw [hwr, hSr, EReal.coe_mul]

theorem real2_max_zero {α β : Type} {S : α → β → EReal} (hS : Real2 S) : Real2 (fun a b => max (S a b) 0) := by
  intro a b
  obtain ⟨y, hy⟩ := hS a b
  refine ⟨max y 0, ?_⟩
  show max (S a b) 0 = ((max y 0 : ℝ) : EReal)
  rw [hy, coe_max_real, EReal.coe_zero]

theorem real2_catCols {Y Z : Fin 512 → Fin 64 → EReal} (hY : Real2 Y) (hZ : Real2 Z) : Real2 (catCols Y Z) := by
  intro k c
  unfold catCols
  split
  · exact hY _ _
  · exact hZ _ _

/-! ## One propagation step: the dense product is the edge-list sum -/

/-- With every source word a row number, finite weights and a finite table, the product of the dense adjacency with
    the zero-padded table is the edge-list propagation: split each adjacency entry's sum across the product (finite
    numbers), then regroup the edges ending at `r` by their source's column; a source column is below 10000, where the
    padded table is the table. -/
theorem dprop_adj_eq_prop {H : ℕ} (src dst : Fin 320000 → BitVec 32) (w : Fin 320000 → EReal)
    (S : Fin 10000 → Fin H → EReal)
    (hsrc : ∀ e, 0 ≤ (src e).toInt ∧ (src e).toInt < 10000) (hw : Real1 w) (hS : Real2 S)
    (r : Fin 10000) (c : Fin H) :
    dprop (adj src dst w) (padRows S) r c = prop src dst w S r c := by
  choose wr hwr using hw
  choose Sr hSr using hS
  -- the padded table over the reals
  let Spr : Fin 10240 → ℝ := fun s => if h : s.val < 10000 then Sr ⟨s.val, h⟩ c else 0
  have hpad : ∀ s : Fin 10240, padRows S s c = ((Spr s : ℝ) : EReal) := by
    intro s
    unfold padRows
    by_cases h : s.val < 10000
    · simp only [Spr, dif_pos h, hSr]
    · simp only [Spr, dif_neg h, EReal.coe_zero]
  -- each edge lies in exactly one source class, and there the padded table is the table
  have key : ∀ e : Fin 320000,
      (∑ s : Fin 10240, if (src e).toInt = (s.val : ℤ) then wr e * Spr s else 0)
        = wr e * Sr (rowOf (src e)) c := by
    intro e
    obtain ⟨h0, h1⟩ := hsrc e
    have hlt : (src e).toInt.toNat < 10240 := by omega
    have h3 : (src e).toInt.toNat < 10000 := by omega
    rw [Finset.sum_eq_single (⟨(src e).toInt.toNat, hlt⟩ : Fin 10240)]
    · have h2 : (src e).toInt = (((⟨(src e).toInt.toNat, hlt⟩ : Fin 10240).val : ℕ) : ℤ) := by
        show (src e).toInt = (((src e).toInt.toNat : ℕ) : ℤ)
        omega
      rw [if_pos h2]
      have h4 : Spr ⟨(src e).toInt.toNat, hlt⟩ = Sr (rowOf (src e)) c := by
        simp only [Spr, dif_pos h3]
        congr 1
        unfold rowOf
        apply Fin.ext
        show (src e).toInt.toNat = min (src e).toInt.toNat 9999
        omega
      rw [h4]
    · intro s _ hne
      rw [if_neg]
      intro h
      apply hne
      apply Fin.ext
      show s.val = (src e).toInt.toNat
      omega
    · intro h
      exact absurd (Finset.mem_univ _) h
  -- the regrouping over the reals
  have real_id :
      (∑ s : Fin 10240, ∑ e ∈ Finset.univ.filter
          (fun e : Fin 320000 => (dst e).toInt = (r.val : ℤ) ∧ (src e).toInt = (s.val : ℤ)), wr e * Spr s)
        = ∑ e ∈ Finset.univ.filter (fun e : Fin 320000 => (dst e).toInt = (r.val : ℤ)),
            wr e * Sr (rowOf (src e)) c := by
    calc (∑ s : Fin 10240, ∑ e ∈ Finset.univ.filter
          (fun e : Fin 320000 => (dst e).toInt = (r.val : ℤ) ∧ (src e).toInt = (s.val : ℤ)), wr e * Spr s)
        = ∑ s : Fin 10240, ∑ e ∈ Finset.univ.filter (fun e : Fin 320000 => (dst e).toInt = (r.val : ℤ)),
            (if (src e).toInt = (s.val : ℤ) then wr e * Spr s else 0) := by
          refine Finset.sum_congr rfl (fun s _ => ?_)
          rw [← Finset.filter_filter, Finset.sum_filter]
      _ = ∑ e ∈ Finset.univ.filter (fun e : Fin 320000 => (dst e).toInt = (r.val : ℤ)),
            ∑ s : Fin 10240, (if (src e).toInt = (s.val : ℤ) then wr e * Spr s else 0) := Finset.sum_comm
      _ = _ := Finset.sum_congr rfl (fun e _ => key e)
  unfold dprop adj prop
  calc (∑ s : Fin 10240, (∑ e ∈ Finset.univ.filter
          (fun e : Fin 320000 => (dst e).toInt = (r.val : ℤ) ∧ (src e).toInt = (s.val : ℤ)), w e) * padRows S s c)
      = ∑ s : Fin 10240, ((∑ e ∈ Finset.univ.filter
          (fun e : Fin 320000 => (dst e).toInt = (r.val : ℤ) ∧ (src e).toInt = (s.val : ℤ)), wr e * Spr s : ℝ) : EReal) := by
        refine Finset.sum_congr rfl (fun s _ => ?_)
        have hsum : (∑ e ∈ Finset.univ.filter
            (fun e : Fin 320000 => (dst e).toInt = (r.val : ℤ) ∧ (src e).toInt = (s.val : ℤ)), w e)
            = ((∑ e ∈ Finset.univ.filter
            (fun e : Fin 320000 => (dst e).toInt = (r.val : ℤ) ∧ (src e).toInt = (s.val : ℤ)), wr e : ℝ) : EReal) := by
          rw [coe_finsum]
          exact Finset.sum_congr rfl (fun e _ => hwr e)
        rw [hsum, hpad, ← EReal.coe_mul, Finset.sum_mul]
    _ = ((∑ s : Fin 10240, ∑ e ∈ Finset.univ.filter
          (fun e : Fin 320000 => (dst e).toInt = (r.val : ℤ) ∧ (src e).toInt = (s.val : ℤ)), wr e * Spr s : ℝ) : EReal) :=
        (coe_finsum _ _).symm
    _ = ((∑ e ∈ Finset.univ.filter (fun e : Fin 320000 => (dst e).toInt = (r.val : ℤ)),
            wr e * Sr (rowOf (src e)) c : ℝ) : EReal) := by rw [real_id]
    _ = ∑ e ∈ Finset.univ.filter (fun e : Fin 320000 => (dst e).toInt = (r.val : ℤ)),
            w e * S (rowOf (src e)) c := by
        rw [coe_finsum]
        refine Finset.sum_congr rfl (fun e _ => ?_)
        rw [hwr, hSr, EReal.coe_mul]

/-! ## Side-by-side columns under the product and the propagation -/

/-- A product against two tables side by side, read at a left column, is the product against the left table. -/
theorem mm_catCols_left {A : ℕ} (X : Fin A → Fin 512 → EReal) (Y Z : Fin 512 → Fin 64 → EReal)
    (r : Fin A) (c : Fin 64) (h : c.val < 128) :
    mm X (catCols Y Z) r ⟨c.val, h⟩ = mm X Y r c := by
  have hk : ∀ k : Fin 512, catCols Y Z k ⟨c.val, h⟩ = Y k c := by
    intro k
    unfold catCols
    exact dif_pos c.isLt
  unfold mm
  refine Finset.sum_congr rfl (fun k _ => ?_)
  rw [hk]

/-- Read at a right column, it is the product against the right table. -/
theorem mm_catCols_right {A : ℕ} (X : Fin A → Fin 512 → EReal) (Y Z : Fin 512 → Fin 64 → EReal)
    (r : Fin A) (c : Fin 64) (h : c.val + 64 < 128) :
    mm X (catCols Y Z) r ⟨c.val + 64, h⟩ = mm X Z r c := by
  have hk : ∀ k : Fin 512, catCols Y Z k ⟨c.val + 64, h⟩ = Z k c := by
    intro k
    have hn : ¬ ((⟨c.val + 64, h⟩ : Fin 128).val < 64) := by
      show ¬ (c.val + 64 < 64)
      omega
    have hc : (⟨c.val + 64 - 64, by omega⟩ : Fin 64) = c := by
      apply Fin.ext
      show c.val + 64 - 64 = c.val
      omega
    unfold catCols
    rw [dif_neg hn]
    exact congrArg (Z k) hc
  unfold mm
  refine Finset.sum_congr rfl (fun k _ => ?_)
  rw [hk]

/-! ## The whole model -/

section Model

variable (x : Fin 10000 → Fin 3000 → EReal) (src dst : Fin 320000 → BitVec 32) (w : Fin 320000 → EReal)
  (W1 : Fin 3000 → Fin 512 → EReal) (W2 W3 : Fin 512 → Fin 64 → EReal)
  (hsrc : ∀ e, 0 ≤ (src e).toInt ∧ (src e).toInt < 10000)
  (hx : Real2 x) (hw : Real1 w) (hW1 : Real2 W1) (hW2 : Real2 W2) (hW3 : Real2 W3)

include hx hw hW1 in
/-- The hidden layer of finite inputs is finite. -/
theorem real2_hidden : Real2 (hidden x src dst w W1) :=
  real2_max_zero (real2_prop src dst hw (real2_mm hx hW1))

include hsrc hx hw hW1 in
theorem dhidden_eq : dhidden x src dst w W1 = hidden x src dst w W1 := by
  funext r c
  unfold dhidden hidden
  rw [dprop_adj_eq_prop src dst w _ hsrc hw (real2_mm hx hW1)]

include hsrc hx hw hW1 hW2 hW3 in
theorem dmu_eq : dmu x src dst w W1 W2 W3 = mu x src dst w W1 W2 := by
  funext r c
  have hH : Real2 (dhidden x src dst w W1) := by
    rw [dhidden_eq x src dst w W1 hsrc hx hw hW1]
    exact real2_hidden x src dst w W1 hx hw hW1
  unfold dmu dheads mu
  rw [dprop_adj_eq_prop src dst w _ hsrc hw (real2_mm hH (real2_catCols hW2 hW3)),
    dhidden_eq x src dst w W1 hsrc hx hw hW1]
  unfold prop
  refine Finset.sum_congr rfl (fun e _ => ?_)
  rw [mm_catCols_left]

include hsrc hx hw hW1 hW2 hW3 in
theorem dlogvar_eq : dlogvar x src dst w W1 W2 W3 = logvar x src dst w W1 W3 := by
  funext r c
  have hH : Real2 (dhidden x src dst w W1) := by
    rw [dhidden_eq x src dst w W1 hsrc hx hw hW1]
    exact real2_hidden x src dst w W1 hx hw hW1
  unfold dlogvar dheads logvar
  rw [dprop_adj_eq_prop src dst w _ hsrc hw (real2_mm hH (real2_catCols hW2 hW3)),
    dhidden_eq x src dst w W1 hsrc hx hw hW1]
  unfold prop
  refine Finset.sum_congr rfl (fun e _ => ?_)
  rw [mm_catCols_right]

include hsrc hx hw hW1 hW2 hW3 in
theorem dpred_eq : dpred x src dst w W1 W2 W3 = pred x src dst w W1 W2 := by
  funext r r'
  unfold dpred pred
  refine Finset.sum_congr rfl (fun c _ => ?_)
  have hp : padRows (dmu x src dst w W1 W2 W3) ⟨r'.val, by omega⟩ c = dmu x src dst w W1 W2 W3 r' c := by
    unfold padRows
    exact dif_pos r'.isLt
  rw [hp, dmu_eq x src dst w W1 W2 W3 hsrc hx hw hW1 hW2 hW3]

end Model

end Cert.Spec

end
-- ==== Proof.lean ====
/-
  The certificate of a three-layer graph convolution written as dense products (the kernel) against its edge-list form
  (the reference), over the extended reals, for finite inputs whose source words are row numbers and whose destination
  words are not negative.

  The kernel builds the dense adjacency by a scatter-add of the edge weights, multiplies it (8 column blocks at a time,
  an accumulator carried across grid points) with the zero-padded tables `x · W1` and `h · [W2 | W3]`, and ends with the
  Gram matrix of the mean head; the reference gathers, scales and scatter-adds rows along the edges. Both are the model
  of Spec.lean: the kernel's five regions and host stretches are read into its dense form (KI/KValue), the reference's
  run into its edge-list form (RefValue), and the two forms agree (Math) — the one law that needs finite numbers is
  the distribution of an adjacency entry's sum over a product. The three frames are the runs with the results dropped.
-/
import proofs.«420245_j23562190586108_1_alg».proof.Defs
import proofs.«420245_j23562190586108_1_alg».proof.Proof.Gen.Kernel
import proofs.«420245_j23562190586108_1_alg».proof.Proof.Gen.KernelIdeal
import proofs.«420245_j23562190586108_1_alg».proof.Proof.Gen.ReferenceIdeal
import proofs.«420245_j23562190586108_1_alg».proof.Proof.Gen.Pre_finite_inputs
import proofs.«420245_j23562190586108_1_alg».proof.Proof.K.Run
import proofs.«420245_j23562190586108_1_alg».proof.Proof.K.Args
import proofs.«420245_j23562190586108_1_alg».proof.Proof.KI.Run
import proofs.«420245_j23562190586108_1_alg».proof.Proof.KI.Args
import proofs.«420245_j23562190586108_1_alg».proof.Proof.KI.KValue
import proofs.«420245_j23562190586108_1_alg».proof.Proof.RefGen
import proofs.«420245_j23562190586108_1_alg».proof.Proof.RefValue
import proofs.«420245_j23562190586108_1_alg».proof.Proof.PreDecode
import proofs.«420245_j23562190586108_1_alg».proof.Proof.Math
import Idealize.ShloMosaic.Adequacy
import Idealize.ShloMosaic.Init

noncomputable section

namespace Cert.Proof

open Idealize.ShloMosaic Idealize.ShloMosaic.ValueIdx Idealize.SL.Sem Cert.Bridge

/-! ## The frames -/

/-- The word-level kernel runs and leaves its arguments: its run with every other buffer dropped. -/
theorem frame_k : Cert.frame_Kernel := fun m ρ _ =>
  (θ_run Cert.Kernel.defs _ _).mono (fun r h c =>
    ⟨(h c _ (Finset.mem_filter.mpr ⟨StableHlo.devRef_mem_tcRefs Cert.Kernel.main_arg0, by decide⟩)).trans (Cert.Kernel.Hand.W14_main_arg0 m c),
     (h c _ (Finset.mem_filter.mpr ⟨StableHlo.devRef_mem_tcRefs Cert.Kernel.main_arg1, by decide⟩)).trans (Cert.Kernel.Hand.W14_main_arg1 m c),
     (h c _ (Finset.mem_filter.mpr ⟨StableHlo.devRef_mem_tcRefs Cert.Kernel.main_arg2, by decide⟩)).trans (Cert.Kernel.Hand.W14_main_arg2 m c),
     (h c _ (Finset.mem_filter.mpr ⟨StableHlo.devRef_mem_tcRefs Cert.Kernel.main_arg3, by decide⟩)).trans (Cert.Kernel.Hand.W14_main_arg3 m c),
     (h c _ (Finset.mem_filter.mpr ⟨StableHlo.devRef_mem_tcRefs Cert.Kernel.main_arg4, by decide⟩)).trans (Cert.Kernel.Hand.W14_main_arg4 m c),
     (h c _ (Finset.mem_filter.mpr ⟨StableHlo.devRef_mem_tcRefs Cert.Kernel.main_arg5, by decide⟩)).trans (Cert.Kernel.Hand.W14_main_arg5 m c),
     (h c _ (Finset.mem_filter.mpr ⟨StableHlo.devRef_mem_tcRefs Cert.Kernel.main_arg6, by decide⟩)).trans (Cert.Kernel.Hand.W14_main_arg6 m c)⟩)
    (Cert.Kernel.Hand.run_all (F := Bits) m ρ)

/-- The idealized kernel likewise. -/
theorem frame_ki : Cert.frame_KernelIdeal := fun m ρ _ =>
  (θ_run Cert.KernelIdeal.defs _ _).mono (fun r h c =>
    ⟨(h c _ (Finset.mem_filter.mpr ⟨StableHlo.devRef_mem_tcRefs Cert.KernelIdeal.main_arg0, by decide⟩)).trans (Cert.KernelIdeal.Hand.W14_main_arg0 m c),
     (h c _ (Finset.mem_filter.mpr ⟨StableHlo.devRef_mem_tcRefs Cert.KernelIdeal.main_arg1, by decide⟩)).trans (Cert.KernelIdeal.Hand.W14_main_arg1 m c),
     (h c _ (Finset.mem_filter.mpr ⟨StableHlo.devRef_mem_tcRefs Cert.KernelIdeal.main_arg2, by decide⟩)).trans (Cert.KernelIdeal.Hand.W14_main_arg2 m c),
     (h c _ (Finset.mem_filter.mpr ⟨StableHlo.devRef_mem_tcRefs Cert.KernelIdeal.main_arg3, by decide⟩)).trans (Cert.KernelIdeal.Hand.W14_main_arg3 m c),
     (h c _ (Finset.mem_filter.mpr ⟨StableHlo.devRef_mem_tcRefs Cert.KernelIdeal.main_arg4, by decide⟩)).trans (Cert.KernelIdeal.Hand.W14_main_arg4 m c),
     (h c _ (Finset.mem_filter.mpr ⟨StableHlo.devRef_mem_tcRefs Cert.KernelIdeal.main_arg5, by decide⟩)).trans (Cert.KernelIdeal.Hand.W14_main_arg5 m c),
     (h c _ (Finset.mem_filter.mpr ⟨StableHlo.devRef_mem_tcRefs Cert.KernelIdeal.main_arg6, by decide⟩)).trans (Cert.KernelIdeal.Hand.W14_main_arg6 m c)⟩)
    (Cert.KernelIdeal.Hand.run_all (F := Ideal) m ρ)

/-- The reference is host operations only: its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-! ## The two programs' results are one model -/

/-- Both programs, from memories agreeing on the arguments, end with the decoder's Gram matrix, the mean head and the
    log-variance head of Spec.lean's model of the arguments. -/
theorem algebraic : Cert.algebraic_KernelIdeal_ReferenceIdeal := by
  intro m g m' g' hpre hagree
  refine ⟨fun c => (unc (α := EReal) (A := 10000) (B := 10000) (Cert.Spec.pred
        (cur (α := EReal) (A := 10000) (B := 3000) (m ((c.tc : Thread Cert.KernelIdeal.nD Cert.KernelIdeal.τ).loc Cert.KernelIdeal.main_arg0)))
        (vec (A := 320000) (m ((c.tc : Thread Cert.KernelIdeal.nD Cert.KernelIdeal.τ).loc Cert.KernelIdeal.main_arg1)))
        (vec (A := 320000) (m ((c.tc : Thread Cert.KernelIdeal.nD Cert.KernelIdeal.τ).loc Cert.KernelIdeal.main_arg2)))
        (vec (α := EReal) (A := 320000) (m ((c.tc : Thread Cert.KernelIdeal.nD Cert.KernelIdeal.τ).loc Cert.KernelIdeal.main_arg3)))
        (cur (α := EReal) (A := 3000) (B := 512) (m ((c.tc : Thread Cert.KernelIdeal.nD Cert.KernelIdeal.τ).loc Cert.KernelIdeal.main_arg4)))
        (cur (α := EReal) (A := 512) (B := 64) (m ((c.tc : Thread Cert.KernelIdeal.nD Cert.KernelIdeal.τ).loc Cert.KernelIdeal.main_arg5))))),
    fun c => (unc (α := EReal) (A := 10000) (B := 64) (Cert.Spec.mu
        (cur (α := EReal) (A := 10000) (B := 3000) (m ((c.tc : Thread Cert.KernelIdeal.nD Cert.KernelIdeal.τ).loc Cert.KernelIdeal.main_arg0)))
        (vec (A := 320000) (m ((c.tc : Thread Cert.KernelIdeal.nD Cert.KernelIdeal.τ).loc Cert.KernelIdeal.main_arg1)))
        (vec (A := 320000) (m ((c.tc : Thread Cert.KernelIdeal.nD Cert.KernelIdeal.τ).loc Cert.KernelIdeal.main_arg2)))
        (vec (α := EReal) (A := 320000) (m ((c.tc : Thread Cert.KernelIdeal.nD Cert.KernelIdeal.τ).loc Cert.KernelIdeal.main_arg3)))
        (cur (α := EReal) (A := 3000) (B := 512) (m ((c.tc : Thread Cert.KernelIdeal.nD Cert.KernelIdeal.τ).loc Cert.KernelIdeal.main_arg4)))
        (cur (α := EReal) (A := 512) (B := 64) (m ((c.tc : Thread Cert.KernelIdeal.nD Cert.KernelIdeal.τ).loc Cert.KernelIdeal.main_arg5))))),
    fun c => (unc (α := EReal) (A := 10000) (B := 64) (Cert.Spec.logvar
        (cur (α := EReal) (A := 10000) (B := 3000) (m ((c.tc : Thread Cert.KernelIdeal.nD Cert.KernelIdeal.τ).loc Cert.KernelIdeal.main_arg0)))
        (vec (A := 320000) (m ((c.tc : Thread Cert.KernelIdeal.nD Cert.KernelIdeal.τ).loc Cert.KernelIdeal.main_arg1)))
        (vec (A := 320000) (m ((c.tc : Thread Cert.KernelIdeal.nD Cert.KernelIdeal.τ).loc Cert.KernelIdeal.main_arg2)))
        (vec (α := EReal) (A := 320000) (m ((c.tc : Thread Cert.KernelIdeal.nD Cert.KernelIdeal.τ).loc Cert.KernelIdeal.main_arg3)))
        (cur (α := EReal) (A := 3000) (B := 512) (m ((c.tc : Thread Cert.KernelIdeal.nD Cert.KernelIdeal.τ).loc Cert.KernelIdeal.main_arg4)))
        (cur (α := EReal) (A := 512) (B := 64) (m ((c.tc : Thread Cert.KernelIdeal.nD Cert.KernelIdeal.τ).loc Cert.KernelIdeal.main_arg6))))),
    ?_, ?_⟩
  · -- the kernel: its run, its buffers read into the dense model, the dense model the edge-list one
    refine (θ_run Cert.KernelIdeal.defs _ _).mono (fun r h c => ?_) (Cert.KernelIdeal.Hand.run_all (F := Ideal) m g)
    obtain ⟨hx, hw, hW1, hW2, hW3, hsrc, hdst⟩ := Cert.PreDecode.decode _ _ _ _ _ _ _ (hpre c)
    obtain ⟨e26, e22, e23⟩ := Cert.KernelIdeal.Hand.results m c (fun i => (hsrc i).1) hdst
    have hsrc' : ∀ e : Fin 320000, 0 ≤ (vec (A := 320000) (m ((c.tc : Thread Cert.KernelIdeal.nD Cert.KernelIdeal.τ).loc Cert.KernelIdeal.main_arg1)) e).toInt
        ∧ (vec (A := 320000) (m ((c.tc : Thread Cert.KernelIdeal.nD Cert.KernelIdeal.τ).loc Cert.KernelIdeal.main_arg1)) e).toInt < 10000 := fun e => hsrc (ix1 e)
    refine ⟨(h c _ (Finset.mem_filter.mpr ⟨StableHlo.devRef_mem_tcRefs Cert.KernelIdeal.main_v26, by decide⟩)).trans (e26.trans ?_),
      (h c _ (Finset.mem_filter.mpr ⟨StableHlo.devRef_mem_tcRefs Cert.KernelIdeal.main_v22, by decide⟩)).trans (e22.trans ?_),
      (h c _ (Finset.mem_filter.mpr ⟨StableHlo.devRef_mem_tcRefs Cert.KernelIdeal.main_v23, by decide⟩)).trans (e23.trans ?_),
      (h c _ (Finset.mem_filter.mpr ⟨StableHlo.devRef_mem_tcRefs Cert.KernelIdeal.main_arg0, by decide⟩)).trans (Cert.KernelIdeal.Hand.W14_main_arg0 m c),
      (h c _ (Finset.mem_filter.mpr ⟨StableHlo.devRef_mem_tcRefs Cert.KernelIdeal.main_arg1, by decide⟩)).trans (Cert.KernelIdeal.Hand.W14_main_arg1 m c),
      (h c _ (Finset.mem_filter.mpr ⟨StableHlo.devRef_mem_tcRefs Cert.KernelIdeal.main_arg2, by decide⟩)).trans (Cert.KernelIdeal.Hand.W14_main_arg2 m c),
      (h c _ (Finset.mem_filter.mpr ⟨StableHlo.devRef_mem_tcRefs Cert.KernelIdeal.main_arg3, by decide⟩)).trans (Cert.KernelIdeal.Hand.W14_main_arg3 m c),
      (h c _ (Finset.mem_filter.mpr ⟨StableHlo.devRef_mem_tcRefs Cert.KernelIdeal.main_arg4, by decide⟩)).trans (Cert.KernelIdeal.Hand.W14_main_arg4 m c),
      (h c _ (Finset.mem_filter.mpr ⟨StableHlo.devRef_mem_tcRefs Cert.KernelIdeal.main_arg5, by decide⟩)).trans (Cert.KernelIdeal.Hand.W14_main_arg5 m c),
      (h c _ (Finset.mem_filter.mpr ⟨StableHlo.devRef_mem_tcRefs Cert.KernelIdeal.main_arg6, by decide⟩)).trans (Cert.KernelIdeal.Hand.W14_main_arg6 m c)⟩
    · exact congrArg unc (Cert.Spec.dpred_eq _ _ _ _ _ _ _ hsrc' (fun a b => hx (ix2 a b)) (fun e => hw (ix1 e)) (fun a b => hW1 (ix2 a b)) (fun a b => hW2 (ix2 a b)) (fun a b => hW3 (ix2 a b)))
    · exact congrArg unc (Cert.Spec.dmu_eq _ _ _ _ _ _ _ hsrc' (fun a b => hx (ix2 a b)) (fun e => hw (ix1 e)) (fun a b => hW1 (ix2 a b)) (fun a b => hW2 (ix2 a b)) (fun a b => hW3 (ix2 a b)))
    · exact congrArg unc (Cert.Spec.dlogvar_eq _ _ _ _ _ _ _ hsrc' (fun a b => hx (ix2 a b)) (fun e => hw (ix1 e)) (fun a b => hW1 (ix2 a b)) (fun a b => hW2 (ix2 a b)) (fun a b => hW3 (ix2 a b)))
  · -- the reference: its generated run, each result's term read one operation at a time
    refine (θ_run Cert.ReferenceIdeal.defs _ _).mono (fun r h c => ?_) (Cert.ReferenceIdeal.Value.run (F := Ideal) m' g')
    obtain ⟨hx, hw, hW1, hW2, hW3, hsrc, hdst⟩ := Cert.PreDecode.decode _ _ _ _ _ _ _ (hpre c)
    obtain ⟨a0, a1, a2, a3, a4, a5, a6⟩ := hagree c
    obtain ⟨h44, h28, h42, hargs⟩ := h c
    refine ⟨h44.trans ?_, h28.trans ?_, h42.trans ?_, hargs⟩
    · rw [Cert.ReferenceIdeal.Read.val_main_v44_eq, a0, a1, a2, a3, a4, a5]
      exact Cert.RefValue.pred_eq _ _ _ _ _ _ (fun i => (hsrc i).1)
    · rw [Cert.ReferenceIdeal.Read.val_main_v28_eq, a0, a1, a2, a3, a4, a5]
      exact Cert.RefValue.mu_eq _ _ _ _ _ _ (fun i => (hsrc i).1)
    · rw [Cert.ReferenceIdeal.Read.val_main_v42_eq, a0, a1, a2, a3, a4, a6]
      exact Cert.RefValue.logvar_eq _ _ _ _ _ _ (fun i => (hsrc i).1)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
